-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v295)) (v1 : (c : Dev Cert.KernelIdeal.nD) → Buf (Elt Ideal) ((c.tc : Thread Cert.KernelIdeal.nD Cert.KernelIdeal.τ).loc Cert.KernelIdeal.main_v309)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v295) = v0 c
          ∧ r.2.mem ((c.tc : Thread Cert.KernelIdeal.nD Cert.KernelIdeal.τ).loc Cert.KernelIdeal.main_v309) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v79) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S_ : Shape := ⟨0, ![]⟩

class Facts : Prop where
  bcast_S_S20000x2000 : S_.BroadcastsInDim S20000x2000 (![] : Fin 0 → Fin S20000x2000.rank)
  reducesTo_S20000x2000_S_d0_1 : S20000x2000.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S512x2000 : S_.BroadcastsInDim S512x2000 (![] : Fin 0 → Fin S512x2000.rank)
  reducesTo_S512x2000_S_d0_1 : S512x2000.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S3x512x16 : S_.BroadcastsInDim S3x512x16 (![] : Fin 0 → Fin S3x512x16.rank)
  reducesTo_S3x512x16_S_d0_1_2 : S3x512x16.ReducesTo [0, 1, 2] S_
  bcast_S_S3x16x16 : S_.BroadcastsInDim S3x16x16 (![] : Fin 0 → Fin S3x16x16.rank)
  reducesTo_S3x16x16_S_d0_1_2 : S3x16x16.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S256x512 : S_.BroadcastsInDim S256x512 (![] : Fin 0 → Fin S256x512.rank)
  reducesTo_S256x512_S_d0_1 : S256x512.ReducesTo [0, 1] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg22 : FVec F S128 .f32) (main_arg23 : FVec F S128x128 .f32) (main_arg24 : FVec F S128 .f32) (main_v98 : IVec S_ 1) (main_v101 : IVec S128x3 1) (main_c_39 : IVec S_ 1) : IVec S_ 1 :=
  let main_v102 : IVec S_ 1 := (fun x v => Host.reduce IntOp.andi x v reducesTo_S128x3_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg19 : FVec F S20x256 .f32) (main_arg20 : FVec F S20 .f32) (main_arg21 : FVec F S128x3 .f32) (main_arg22 : FVec F S128 .f32) (main_arg23 : FVec F S128x128 .f32) (main_arg24 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S20x256 .f32 := Host.absf main_arg19
  let main_cst_34 : FVec F S_ .f32 := constant S_ .f32 0x7F800000#32
  let main_v90 : FVec F S20x256 .f32 := broadcastInDim S20x256 ![] bcast_S_S20x256 main_cst_34
  let main_v91 : IVec S20x256 1 := cmpf .olt main_v89 main_v90
  let main_c_35 : IVec S_ 1 := constantI S_ 1 1#1
  let main_v92 : IVec S_ 1 := (fun x v => Host.reduce IntOp.andi x v reducesTo_S20x256_S_d0_1 h_S_) main_v91 main_c_35
  let main_v93 : IVec S_ 1 := andi main_v88 main_v92
  let main_v94 : FVec F S20 .f32 := Host.absf main_arg20
  let main_cst_36 : FVec F S_ .f32 := constant S_ .f32 0x7F800000#32
  let main_v95 : FVec F S20 .f32 := broadcastInDim S20 ![] bcast_S_S20 main_cst_36
  let main_v96 : IVec S20 1 := cmpf .olt main_v94 main_v95
  let main_c_37 : IVec S_ 1 := constantI S_ 1 1#1
  let main_v97 : IVec S_ 1 := (fun x v => Host.reduce IntOp.andi x v reducesTo_S20_S_d0 h_S_) main_v96 main_c_37
  let main_v98 : IVec S_ 1 := andi main_v93 main_v97
  let main_v99 : FVec F S128x3 .f32 := Host.absf main_arg21
  let main_cst_38 : FVec F S_ .f32 := constant S_ .f32 0x7F800000#32
  let main_v100 : FVec F S128x3 .f32 := broadcastInDim S128x3 ![] bcast_S_S128x3 main_cst_38
  let main_v101 : IVec S128x3 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v63 : IVec S_ 1) (main_v67 : IVec S_ 1) : IVec S_ 1 :=
  let main_v68 : IVec S_ 1 := andi main_v63 main_v67
  let main_v69 : FVec F S2x256 .f32 := Host.absf main_arg15
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S256x512 .f32 := Host.absf main_arg17
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v48 : IVec S_ 1) (main_v49 : FVec F S3x16x16 .f32) (main_v50 : FVec F S3x16x16 .f32) : IVec S_ 1 :=
  let main_v51 : IVec S3x16x16 1 := cmpf .olt main_v49 main_v50
  let main_c_19 : IVec S_ 1 := constantI S_ 1 1#1
  let main_v52 : IVec S_ 1 := (fun x v => Host.reduce IntOp.andi x v reducesTo_S3x16x16_S_d0_1_2 h_S_) main_v51 main_c_19
  let main_v53 : IVec S_ 1 := andi main_v48 main_v52
  let main_v54 : FVec F S3x16x16 .f32 := Host.absf main_arg12
  let main_cst_20 : FVec F S_ .f32 := constant S_ .f32 0x7F800000#32
  let main_v55 : FVec F S3x16x16 .f32 := broadcastInDim S3x16x16 ![] bcast_S_S3x16x16 main_cst_20
  let main_v56 : IVec S3x16x16 1 := cmpf .olt main_v54 main_v55
  let main_c_21 : IVec S_ 1 := constantI S_ 1 1#1
  let main_v57 : IVec S_ 1 := (fun x v => Host.reduce IntOp.andi x v reducesTo_S3x16x16_S_d0_1_2 h_S_) main_v56 main_c_21
  let main_v58 : IVec S_ 1 := andi main_v53 main_v57
  let main_v59 : FVec F S256x64 .f32 := Host.absf main_arg13
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S3x512x16 .f32 := Host.absf main_arg9
  let main_cst_14 : FVec F S_ .f32 := constant S_ .f32 0x7F800000#32
  let main_v40 : FVec F S3x512x16 .f32 := broadcastInDim S3x512x16 ![] bcast_S_S3x512x16 main_cst_14
  let main_v41 : IVec S3x512x16 1 := cmpf .olt main_v39 main_v40
  let main_c_15 : IVec S_ 1 := constantI S_ 1 1#1
  let main_v42 : IVec S_ 1 := (fun x v => Host.reduce IntOp.andi x v reducesTo_S3x512x16_S_d0_1_2 h_S_) main_v41 main_c_15
  let main_v43 : IVec S_ 1 := andi main_v38 main_v42
  let main_v44 : FVec F S3x16x16 .f32 := Host.absf main_arg10
  let main_cst_16 : FVec F S_ .f32 := constant S_ .f32 0x7F800000#32
  let main_v45 : FVec F S3x16x16 .f32 := broadcastInDim S3x16x16 ![] bcast_S_S3x16x16 main_cst_16
  let main_v46 : IVec S3x16x16 1 := cmpf .olt main_v44 main_v45
  let main_c_17 : IVec S_ 1 := constantI S_ 1 1#1
  let main_v47 : IVec S_ 1 := (fun x v => Host.reduce IntOp.andi x v reducesTo_S3x16x16_S_d0_1_2 h_S_) main_v46 main_c_17
  let main_v48 : IVec S_ 1 := andi main_v43 main_v47
  let main_v49 : FVec F S3x16x16 .f32 := Host.absf main_arg11
  let main_cst_18 : FVec F S_ .f32 := constant S_ .f32 0x7F800000#32
  let main_v50 : FVec F S3x16x16 .f32 := broadcastInDim S3x16x16 ![] bcast_S_S3x16x16 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S512x2000 .f32) (main_arg6 : FVec F S512 .f32) (main_arg7 : FVec F S512x1024 .f32) (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2000 .f32 := Host.absf main_arg5
  let main_cst_6 : FVec F S_ .f32 := constant S_ .f32 0x7F800000#32
  let main_v20 : FVec F S512x2000 .f32 := broadcastInDim S512x2000 ![] bcast_S_S512x2000 main_cst_6
  let main_v21 : IVec S512x2000 1 := cmpf .olt main_v19 main_v20
  let main_c_7 : IVec S_ 1 := constantI S_ 1 1#1
  let main_v22 : IVec S_ 1 := (fun x v => Host.reduce IntOp.andi x v reducesTo_S512x2000_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg7
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S20000x2000 .f32) (main_arg1 : IVec S2x200000 32) (main_arg2 : FVec F S200000x6 .f32) (main_arg3 : FVec F S512x2000 .f32) (main_arg4 : FVec F S512 .f32) (main_arg5 : FVec F S512x2000 .f32) (main_arg6 : FVec F S512 .f32) (main_arg7 : FVec F S512x1024 .f32) (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) : IVec S_ 1 :=
  let main_v0 : FVec F S20000x2000 .f32 := Host.absf main_arg0
  let main_cst : FVec F S_ .f32 := constant S_ .f32 0x7F800000#32
  let main_v1 : FVec F S20000x2000 .f32 := broadcastInDim S20000x2000 ![] bcast_S_S20000x2000 main_cst
  let main_v2 : IVec S20000x2000 1 := cmpf .olt main_v0 main_v1
  let main_c : IVec S_ 1 := constantI S_ 1 1#1
  let main_v3 : IVec S_ 1 := (fun x v => Host.reduce IntOp.andi x v reducesTo_S20000x2000_S_d0_1 h_S_) main_v2 main_c
  let main_v4 : FVec F S200000x6 .f32 := Host.absf main_arg2
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S512x2000 .f32 := Host.absf main_arg3
  let main_cst_2 : FVec F S_ .f32 := constant S_ .f32 0x7F800000#32
  let main_v10 : FVec F S512x2000 .f32 := broadcastInDim S512x2000 ![] bcast_S_S512x2000 main_cst_2
  let main_v11 : IVec S512x2000 1 := cmpf .olt main_v9 main_v10
  let main_c_3 : IVec S_ 1 := constantI S_ 1 1#1
  let main_v12 : IVec S_ 1 := (fun x v => Host.reduce IntOp.andi x v reducesTo_S512x2000_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S1x200000 : Shape := ⟨2, ![1, 200000]⟩
abbrev S200000 : Shape := ⟨1, ![200000]⟩
abbrev S2000x512 : Shape := ⟨2, ![2000, 512]⟩
abbrev S20000x512 : Shape := ⟨2, ![20000, 512]⟩
abbrev S400x2000 : Shape := ⟨2, ![400, 2000]⟩
abbrev S400x512 : Shape := ⟨2, ![400, 512]⟩
abbrev S1x512 : Shape := ⟨2, ![1, 512]⟩
abbrev S200000x3 : Shape := ⟨2, ![200000, 3]⟩
abbrev S3x128 : Shape := ⟨2, ![3, 128]⟩
abbrev S200000x128 : Shape := ⟨2, ![200000, 128]⟩
abbrev S400x3 : Shape := ⟨2, ![400, 3]⟩
abbrev S400x128 : Shape := ⟨2, ![400, 128]⟩
abbrev S1x128 : Shape := ⟨2, ![1, 128]⟩
abbrev S_ : Shape := ⟨0, ![]⟩
abbrev S200000x1 : Shape := ⟨2, ![200000, 1]⟩
abbrev S200000x512 : Shape := ⟨2, ![200000, 512]⟩
abbrev S200000x640 : Shape := ⟨2, ![200000, 640]⟩
abbrev S20000x1024 : Shape := ⟨2, ![20000, 1024]⟩
abbrev S1024x512 : Shape := ⟨2, ![1024, 512]⟩
abbrev S400x1024 : Shape := ⟨2, ![400, 1024]⟩
abbrev S20000 : Shape := ⟨1, ![20000]⟩
abbrev S1x512x16 : Shape := ⟨3, ![1, 512, 16]⟩
abbrev S512x16 : Shape := ⟨2, ![512, 16]⟩
abbrev S20000x16 : Shape := ⟨2, ![20000, 16]⟩
abbrev S400x16 : Shape := ⟨2, ![400, 16]⟩
abbrev S200000x16 : Shape := ⟨2, ![200000, 16]⟩
abbrev S1x16x16 : Shape := ⟨3, ![1, 16, 16]⟩
abbrev S16x16 : Shape := ⟨2, ![16, 16]⟩
abbrev S20000x32 : Shape := ⟨2, ![20000, 32]⟩
abbrev S20000x48 : Shape := ⟨2, ![20000, 48]⟩
abbrev S20000x64 : Shape := ⟨2, ![20000, 64]⟩
abbrev S64x256 : Shape := ⟨2, ![64, 256]⟩
abbrev S20000x256 : Shape := ⟨2, ![20000, 256]⟩
abbrev S400x64 : Shape := ⟨2, ![400, 64]⟩
abbrev S400x256 : Shape := ⟨2, ![400, 256]⟩
abbrev S1x256 : Shape := ⟨2, ![1, 256]⟩
abbrev S256x2 : Shape := ⟨2, ![256, 2]⟩
abbrev S20000x2 : Shape := ⟨2, ![20000, 2]⟩
abbrev S400x2 : Shape := ⟨2, ![400, 2]⟩
abbrev S1x2 : Shape := ⟨2, ![1, 2]⟩
abbrev S512x256 : Shape := ⟨2, ![512, 256]⟩
abbrev S256x20 : Shape := ⟨2, ![256, 20]⟩
abbrev S20000x20 : Shape := ⟨2, ![20000, 20]⟩
abbrev S400x20 : Shape := ⟨2, ![400, 20]⟩
abbrev S1x20 : Shape := ⟨2, ![1, 20]⟩

abbrev nBuf : Space → Nat
  | .hbm => 399
  | .vmem => 115
  | .smem => 0
  | _ => 0

abbrev hbmTy0_0 (i : Nat) : BufTy := match i % 128 with
  | 0 => ⟨S20000x2000, .f32⟩
  | 1 => ⟨S2x200000, .i32⟩
  | 2 => ⟨S200000x6, .f32⟩
  | 3 => ⟨S512x2000, .f32⟩
  | 4 => ⟨S512, .f32⟩
  | 5 => ⟨S512x2000, .f32⟩
  | 6 => ⟨S512, .f32⟩
  | 7 => ⟨S512x1024, .f32⟩
  | 8 => ⟨S512, .f32⟩
  | 9 => ⟨S3x512x16, .f32⟩
  | 10 => ⟨S3x16x16, .f32⟩
  | 11 => ⟨S3x16x16, .f32⟩
  | 12 => ⟨S3x16x16, .f32⟩
  | 13 => ⟨S256x64, .f32⟩
  | 14 => ⟨S256, .f32⟩
  | 15 => ⟨S2x256, .f32⟩
  | 16 => ⟨S2, .f32⟩
  | 17 => ⟨S256x512, .f32⟩
  | 18 => ⟨S256, .f32⟩
  | 19 => ⟨S20x256, .f32⟩
  | 20 => ⟨S20, .f32⟩
  | 21 => ⟨S128x3, .f32⟩
  | 22 => ⟨S128, .f32⟩
  | 23 => ⟨S128x128, .f32⟩
  | 24 => ⟨S128, .f32⟩
  | 25 => ⟨S1x200000, .i32⟩
  | 26 => ⟨S200000, .i32⟩
  | 27 => ⟨S1x200000, .i32⟩
  | 28 => ⟨S200000, .i32⟩
  | 29 => ⟨S2000x512, .f32⟩
  | 30 => ⟨S20000x512, .f32⟩
  | 31 => ⟨S1x512, .f32⟩
  | 32 => ⟨S20000x512, .f32⟩
  | 33 => ⟨S20000x512, .f32⟩
  | 34 => ⟨S2000x512, .f32⟩
  | 35 => ⟨S20000x512, .f32⟩
  | 36 => ⟨S1x512, .f32⟩
  | 37 => ⟨S20000x512, .f32⟩
  | 38 => ⟨S20000x512, .f32⟩
  | 39 => ⟨S200000x3, .f32⟩
  | 40 => ⟨S3x128, .f32⟩
  | 41 => ⟨S200000x128, .f32⟩
  | 42 => ⟨S1x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S128x128, .f32⟩
  | 52 => ⟨S200000x128, .f32⟩
  | 53 => ⟨S1x128, .f32⟩
  | 54 => ⟨S200000x128, .f32⟩
  | 55 => ⟨S200000x128, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x512, .f32⟩
  | 65 => ⟨S200000x640, .f32⟩
  | 66 => ⟨S200000x3, .f32⟩
  | 67 => ⟨S3x128, .f32⟩
  | 68 => ⟨S200000x128, .f32⟩
  | 69 => ⟨S1x128, .f32⟩
  | 70 => ⟨S200000x128, .f32⟩
  | 71 => ⟨S200000x128, .f32⟩
  | 72 => ⟨S_, .f32⟩
  | 73 => ⟨S200000x128, .f32⟩
  | 74 => ⟨S200000x128, .f32⟩
  | 75 => ⟨S_, .f32⟩
  | 76 => ⟨S200000x128, .f32⟩
  | 77 => ⟨S200000x128, .f32⟩
  | 78 => ⟨S128x128, .f32⟩
  | 79 => ⟨S200000x128, .f32⟩
  | 80 => ⟨S1x128, .f32⟩
  | 81 => ⟨S200000x128, .f32⟩
  | 82 => ⟨S200000x128, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x512, .f32⟩
  | 92 => ⟨S200000x640, .f32⟩
  | 93 => ⟨S200000x640, .f32⟩
  | 94 => ⟨S_, .f32⟩
  | 95 => ⟨S200000, .f32⟩
  | 96 => ⟨S200000, .f32⟩
  | 97 => ⟨S_, .f32⟩
  | 98 => ⟨S200000, .f32⟩
  | 99 => ⟨S200000, .f32⟩
  | 100 => ⟨S200000x640, .f32⟩
  | 101 => ⟨S_, .f32⟩
  | 102 => ⟨S200000, .f32⟩
  | 103 => ⟨S200000, .f32⟩
  | 104 => ⟨S_, .f32⟩
  | 105 => ⟨S200000, .f32⟩
  | 106 => ⟨S200000, .f32⟩
  | 107 => ⟨S200000x640, .f32⟩
  | 108 => ⟨S_, .f32⟩
  | 109 => ⟨S200000, .f32⟩
  | 110 => ⟨S200000, .f32⟩
  | 111 => ⟨S200000, .f32⟩
  | 112 => ⟨S_, .f32⟩
  | 113 => ⟨S200000, .f32⟩
  | 114 => ⟨S200000, .f32⟩
  | 115 => ⟨S_, .f32⟩
  | 116 => ⟨S200000, .f32⟩
  | 117 => ⟨S200000, .f32⟩
  | 118 => ⟨S20000x1024, .f32⟩
  | 119 => ⟨S1024x512, .f32⟩
  | 120 => ⟨S20000x512, .f32⟩
  | 121 => ⟨S1x512, .f32⟩
  | 122 => ⟨S20000x512, .f32⟩
  | 123 => ⟨S20000x512, .f32⟩
  | 124 => ⟨S_, .f32⟩
  | 125 => ⟨S20000, .f32⟩
  | 126 => ⟨S200000x1, .i32⟩
  | 127 => ⟨S20000, .f32⟩
  | _ => ⟨S20000x2000, .f32⟩

abbrev hbmTy0_1 (i : Nat) : BufTy := match i % 128 with
  | 0 => ⟨S_, .f32⟩
  | 1 => ⟨S20000, .f32⟩
  | 2 => ⟨S20000, .i1⟩
  | 3 => ⟨S20000, .f32⟩
  | 4 => ⟨S_, .f32⟩
  | 5 => ⟨S_, .f32⟩
  | 6 => ⟨S20000, .f32⟩
  | 7 => ⟨S20000, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000, .f32⟩
  | 17 => ⟨S200000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000, .f32⟩
  | 27 => ⟨S200000, .f32⟩
  | 28 => ⟨S200000x1, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x512, .f32⟩
  | 38 => ⟨S200000x512, .f32⟩
  | 39 => ⟨S200000x512, .f32⟩
  | 40 => ⟨S_, .f32⟩
  | 41 => ⟨S20000x512, .f32⟩
  | 42 => ⟨S200000x1, .i32⟩
  | 43 => ⟨S20000x512, .f32⟩
  | 44 => ⟨S20000x512, .f32⟩
  | 45 => ⟨S1x512x16, .f32⟩
  | 46 => ⟨S512x16, .f32⟩
  | 47 => ⟨S20000x16, .f32⟩
  | 48 => ⟨S1x512x16, .f32⟩
  | 49 => ⟨S512x16, .f32⟩
  | 50 => ⟨S20000x16, .f32⟩
  | 51 => ⟨S20000x16, .f32⟩
  | 52 => ⟨S200000x1, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x512, .f32⟩
  | 62 => ⟨S200000x512, .f32⟩
  | 63 => ⟨S200000x512, .f32⟩
  | 64 => ⟨S_, .f32⟩
  | 65 => ⟨S20000x512, .f32⟩
  | 66 => ⟨S200000x1, .i32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x512, .f32⟩
  | 73 => ⟨S1x512x16, .f32⟩
  | 74 => ⟨S512x16, .f32⟩
  | 75 => ⟨S20000x16, .f32⟩
  | 76 => ⟨S20000x16, .f32⟩
  | 77 => ⟨S_, .f32⟩
  | 78 => ⟨S20000x16, .f32⟩
  | 79 => ⟨S20000x16, .f32⟩
  | 80 => ⟨S200000x1, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x16, .f32⟩
  | 90 => ⟨S200000x16, .f32⟩
  | 91 => ⟨S200000x16, .f32⟩
  | 92 => ⟨S_, .f32⟩
  | 93 => ⟨S20000x16, .f32⟩
  | 94 => ⟨S200000x1, .i32⟩
  | 95 => ⟨S20000x16, .f32⟩
  | 96 => ⟨S20000x16, .f32⟩
  | 97 => ⟨S1x16x16, .f32⟩
  | 98 => ⟨S16x16, .f32⟩
  | 99 => ⟨S20000x16, .f32⟩
  | 100 => ⟨S1x16x16, .f32⟩
  | 101 => ⟨S16x16, .f32⟩
  | 102 => ⟨S20000x16, .f32⟩
  | 103 => ⟨S20000x16, .f32⟩
  | 104 => ⟨S200000x1, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x16, .f32⟩
  | 114 => ⟨S200000x16, .f32⟩
  | 115 => ⟨S200000x16, .f32⟩
  | 116 => ⟨S_, .f32⟩
  | 117 => ⟨S20000x16, .f32⟩
  | 118 => ⟨S200000x1, .i32⟩
  | 119 => ⟨S20000x16, .f32⟩
  | 120 => ⟨S20000x16, .f32⟩
  | 121 => ⟨S_, .f32⟩
  | 122 => ⟨S20000x16, .f32⟩
  | 123 => ⟨S20000x16, .f32⟩
  | 124 => ⟨S20000x16, .f32⟩
  | 125 => ⟨S1x16x16, .f32⟩
  | 126 => ⟨S16x16, .f32⟩
  | 127 => ⟨S20000x16, .f32⟩
  | _ => ⟨S20000x2000, .f32⟩

abbrev hbmTy0_2 (i : Nat) : BufTy := match i % 128 with
  | 0 => ⟨S20000x16, .f32⟩
  | 1 => ⟨S_, .f32⟩
  | 2 => ⟨S20000x16, .f32⟩
  | 3 => ⟨S20000x16, .f32⟩
  | 4 => ⟨S20000x32, .f32⟩
  | 5 => ⟨S200000x1, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x16, .f32⟩
  | 15 => ⟨S200000x16, .f32⟩
  | 16 => ⟨S200000x16, .f32⟩
  | 17 => ⟨S_, .f32⟩
  | 18 => ⟨S20000x16, .f32⟩
  | 19 => ⟨S200000x1, .i32⟩
  | 20 => ⟨S20000x16, .f32⟩
  | 21 => ⟨S20000x16, .f32⟩
  | 22 => ⟨S1x16x16, .f32⟩
  | 23 => ⟨S16x16, .f32⟩
  | 24 => ⟨S20000x16, .f32⟩
  | 25 => ⟨S1x16x16, .f32⟩
  | 26 => ⟨S16x16, .f32⟩
  | 27 => ⟨S20000x16, .f32⟩
  | 28 => ⟨S20000x16, .f32⟩
  | 29 => ⟨S200000x1, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x16, .f32⟩
  | 39 => ⟨S200000x16, .f32⟩
  | 40 => ⟨S200000x16, .f32⟩
  | 41 => ⟨S_, .f32⟩
  | 42 => ⟨S20000x16, .f32⟩
  | 43 => ⟨S200000x1, .i32⟩
  | 44 => ⟨S20000x16, .f32⟩
  | 45 => ⟨S20000x16, .f32⟩
  | 46 => ⟨S_, .f32⟩
  | 47 => ⟨S20000x16, .f32⟩
  | 48 => ⟨S20000x16, .f32⟩
  | 49 => ⟨S20000x16, .f32⟩
  | 50 => ⟨S1x16x16, .f32⟩
  | 51 => ⟨S16x16, .f32⟩
  | 52 => ⟨S20000x16, .f32⟩
  | 53 => ⟨S20000x16, .f32⟩
  | 54 => ⟨S_, .f32⟩
  | 55 => ⟨S20000x16, .f32⟩
  | 56 => ⟨S20000x16, .f32⟩
  | 57 => ⟨S20000x48, .f32⟩
  | 58 => ⟨S200000x1, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S200000x16, .f32⟩
  | 68 => ⟨S200000x16, .f32⟩
  | 69 => ⟨S200000x16, .f32⟩
  | 70 => ⟨S_, .f32⟩
  | 71 => ⟨S20000x16, .f32⟩
  | 72 => ⟨S200000x1, .i32⟩
  | 73 => ⟨S20000x16, .f32⟩
  | 74 => ⟨S20000x16, .f32⟩
  | 75 => ⟨S1x16x16, .f32⟩
  | 76 => ⟨S16x16, .f32⟩
  | 77 => ⟨S20000x16, .f32⟩
  | 78 => ⟨S1x16x16, .f32⟩
  | 79 => ⟨S16x16, .f32⟩
  | 80 => ⟨S20000x16, .f32⟩
  | 81 => ⟨S20000x16, .f32⟩
  | 82 => ⟨S200000x1, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x16, .f32⟩
  | 92 => ⟨S200000x16, .f32⟩
  | 93 => ⟨S200000x16, .f32⟩
  | 94 => ⟨S_, .f32⟩
  | 95 => ⟨S20000x16, .f32⟩
  | 96 => ⟨S200000x1, .i32⟩
  | 97 => ⟨S20000x16, .f32⟩
  | 98 => ⟨S20000x16, .f32⟩
  | 99 => ⟨S_, .f32⟩
  | 100 => ⟨S20000x16, .f32⟩
  | 101 => ⟨S20000x16, .f32⟩
  | 102 => ⟨S20000x16, .f32⟩
  | 103 => ⟨S1x16x16, .f32⟩
  | 104 => ⟨S16x16, .f32⟩
  | 105 => ⟨S20000x16, .f32⟩
  | 106 => ⟨S20000x16, .f32⟩
  | 107 => ⟨S_, .f32⟩
  | 108 => ⟨S20000x16, .f32⟩
  | 109 => ⟨S20000x16, .f32⟩
  | 110 => ⟨S20000x64, .f32⟩
  | 111 => ⟨S64x256, .f32⟩
  | 112 => ⟨S20000x256, .f32⟩
  | 113 => ⟨S1x256, .f32⟩
  | 114 => ⟨S20000x256, .f32⟩
  | 115 => ⟨S20000x256, .f32⟩
  | 116 => ⟨S_, .f32⟩
  | 117 => ⟨S20000x256, .f32⟩
  | 118 => ⟨S20000x256, .f32⟩
  | 119 => ⟨S_, .f32⟩
  | 120 => ⟨S20000x256, .f32⟩
  | 121 => ⟨S20000x256, .f32⟩
  | 122 => ⟨S256x2, .f32⟩
  | 123 => ⟨S20000x2, .f32⟩
  | 124 => ⟨S1x2, .f32⟩
  | 125 => ⟨S20000x2, .f32⟩
  | 126 => ⟨S20000x2, .f32⟩
  | 127 => ⟨S512x256, .f32⟩
  | _ => ⟨S20000x2000, .f32⟩

abbrev hbmTy0_3 (i : Nat) : BufTy := match i % 128 with
  | 0 => ⟨S20000x256, .f32⟩
  | 1 => ⟨S1x256, .f32⟩
  | 2 => ⟨S20000x256, .f32⟩
  | 3 => ⟨S20000x256, .f32⟩
  | 4 => ⟨S_, .f32⟩
  | 5 => ⟨S20000x256, .f32⟩
  | 6 => ⟨S20000x256, .f32⟩
  | 7 => ⟨S_, .f32⟩
  | 8 => ⟨S20000x256, .f32⟩
  | 9 => ⟨S20000x256, .f32⟩
  | 10 => ⟨S256x20, .f32⟩
  | 11 => ⟨S20000x20, .f32⟩
  | 12 => ⟨S1x20, .f32⟩
  | 13 => ⟨S20000x20, .f32⟩
  | 14 => ⟨S20000x20, .f32⟩
  | _ => ⟨S20000x2000, .f32⟩

abbrev hbmTy (i : Nat) : BufTy := match i / 128 with
  | 0 => hbmTy0_0 i
  | 1 => hbmTy0_1 i
  | 2 => hbmTy0_2 i
  | 3 => hbmTy0_3 i
  | _ => ⟨S20000x2000, .f32⟩

abbrev bufTy : (tb : Table) → Fin (tcTables nBuf tb) → BufTy
  | .hbm, ⟨i, _⟩ => hbmTy i
  | .local _ .vmem, ⟨0, _⟩ => ⟨S400x2000, .f32⟩
  | .local _ .vmem, ⟨1, _⟩ => ⟨S400x2000, .f32⟩
  | .local _ .vmem, ⟨2, _⟩ => ⟨S2000x512, .f32⟩
  | .local _ .vmem, ⟨3, _⟩ => ⟨S400x512, .f32⟩
  | .local _ .vmem, ⟨4, _⟩ => ⟨S400x512, .f32⟩
  | .local _ .vmem, ⟨5, _⟩ => ⟨S400x2000, .f32⟩
  | .local _ .vmem, ⟨6, _⟩ => ⟨S400x2000, .f32⟩
  | .local _ .vmem, ⟨7, _⟩ => ⟨S2000x512, .f32⟩
  | .local _ .vmem, ⟨8, _⟩ => ⟨S400x512, .f32⟩
  | .local _ .vmem, ⟨9, _⟩ => ⟨S400x512, .f32⟩
  | .local _ .vmem, ⟨10, _⟩ => ⟨S400x3, .f32⟩
  | .local _ .vmem, ⟨11, _⟩ => ⟨S400x3, .f32⟩
  | .local _ .vmem, ⟨12, _⟩ => ⟨S3x128, .f32⟩
  | .local _ .vmem, ⟨13, _⟩ => ⟨S400x128, .f32⟩
  | .local _ .vmem, ⟨14, _⟩ => ⟨S400x128, .f32⟩
  | .local _ .vmem, ⟨15, _⟩ => ⟨S400x128, .f32⟩
  | .local _ .vmem, ⟨16, _⟩ => ⟨S400x128, .f32⟩
  | .local _ .vmem, ⟨17, _⟩ => ⟨S128x128, .f32⟩
  | .local _ .vmem, ⟨18, _⟩ => ⟨S400x128, .f32⟩
  | .local _ .vmem, ⟨19, _⟩ => ⟨S400x128, .f32⟩
  | .local _ .vmem, ⟨20, _⟩ => ⟨S400x3, .f32⟩
  | .local _ .vmem, ⟨21, _⟩ => ⟨S400x3, .f32⟩
  | .local _ .vmem, ⟨22, _⟩ => ⟨S3x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | .local _ .vmem, ⟨26, _⟩ => ⟨S400x128, .f32⟩
  | .local _ .vmem, ⟨27, _⟩ => ⟨S128x128, .f32⟩
  | .local _ .vmem, ⟨28, _⟩ => ⟨S400x128, .f32⟩
  | .local _ .vmem, ⟨29, _⟩ => ⟨S400x128, .f32⟩
  | .local _ .vmem, ⟨30, _⟩ => ⟨S400x1024, .f32⟩
  | .local _ .vmem, ⟨31, _⟩ => ⟨S400x1024, .f32⟩
  | .local _ .vmem, ⟨32, _⟩ => ⟨S1024x512, .f32⟩
  | .local _ .vmem, ⟨33, _⟩ => ⟨S400x512, .f32⟩
  | .local _ .vmem, ⟨34, _⟩ => ⟨S400x512, .f32⟩
  | .local _ .vmem, ⟨35, _⟩ => ⟨S400x512, .f32⟩
  | .local _ .vmem, ⟨36, _⟩ => ⟨S400x512, .f32⟩
  | .local _ .vmem, ⟨37, _⟩ => ⟨S512x16, .f32⟩
  | .local _ .vmem, ⟨38, _⟩ => ⟨S400x16, .f32⟩
  | .local _ .vmem, ⟨39, _⟩ => ⟨S400x16, .f32⟩
  | .local _ .vmem, ⟨40, _⟩ => ⟨S400x512, .f32⟩
  | .local _ .vmem, ⟨41, _⟩ => ⟨S400x512, .f32⟩
  | .local _ .vmem, ⟨42, _⟩ => ⟨S512x16, .f32⟩
  | .local _ .vmem, ⟨43, _⟩ => ⟨S400x16, .f32⟩
  | .local _ .vmem, ⟨44, _⟩ => ⟨S400x16, .f32⟩
  | .local _ .vmem, ⟨45, _⟩ => ⟨S400x512, .f32⟩
  | .local _ .vmem, ⟨46, _⟩ => ⟨S400x512, .f32⟩
  | .local _ .vmem, ⟨47, _⟩ => ⟨S512x16, .f32⟩
  | .local _ .vmem, ⟨48, _⟩ => ⟨S400x16, .f32⟩
  | .local _ .vmem, ⟨49, _⟩ => ⟨S400x16, .f32⟩
  | .local _ .vmem, ⟨50, _⟩ => ⟨S400x16, .f32⟩
  | .local _ .vmem, ⟨51, _⟩ => ⟨S400x16, .f32⟩
  | .local _ .vmem, ⟨52, _⟩ => ⟨S16x16, .f32⟩
  | .local _ .vmem, ⟨53, _⟩ => ⟨S400x16, .f32⟩
  | .local _ .vmem, ⟨54, _⟩ => ⟨S400x16, .f32⟩
  | .local _ .vmem, ⟨55, _⟩ => ⟨S400x16, .f32⟩
  | .local _ .vmem, ⟨56, _⟩ => ⟨S400x16, .f32⟩
  | .local _ .vmem, ⟨57, _⟩ => ⟨S16x16, .f32⟩
  | .local _ .vmem, ⟨58, _⟩ => ⟨S400x16, .f32⟩
  | .local _ .vmem, ⟨59, _⟩ => ⟨S400x16, .f32⟩
  | .local _ .vmem, ⟨60, _⟩ => ⟨S400x16, .f32⟩
  | .local _ .vmem, ⟨61, _⟩ => ⟨S400x16, .f32⟩
  | .local _ .vmem, ⟨62, _⟩ => ⟨S16x16, .f32⟩
  | .local _ .vmem, ⟨63, _⟩ => ⟨S400x16, .f32⟩
  | .local _ .vmem, ⟨64, _⟩ => ⟨S400x16, .f32⟩
  | .local _ .vmem, ⟨65, _⟩ => ⟨S400x16, .f32⟩
  | .local _ .vmem, ⟨66, _⟩ => ⟨S400x16, .f32⟩
  | .local _ .vmem, ⟨67, _⟩ => ⟨S16x16, .f32⟩
  | .local _ .vmem, ⟨68, _⟩ => ⟨S400x16, .f32⟩
  | .local _ .vmem, ⟨69, _⟩ => ⟨S400x16, .f32⟩
  | .local _ .vmem, ⟨70, _⟩ => ⟨S400x16, .f32⟩
  | .local _ .vmem, ⟨71, _⟩ => ⟨S400x16, .f32⟩
  | .local _ .vmem, ⟨72, _⟩ => ⟨S16x16, .f32⟩
  | .local _ .vmem, ⟨73, _⟩ => ⟨S400x16, .f32⟩
  | .local _ .vmem, ⟨74, _⟩ => ⟨S400x16, .f32⟩
  | .local _ .vmem, ⟨75, _⟩ => ⟨S400x16, .f32⟩
  | .local _ .vmem, ⟨76, _⟩ => ⟨S400x16, .f32⟩
  | .local _ .vmem, ⟨77, _⟩ => ⟨S16x16, .f32⟩
  | .local _ .vmem, ⟨78, _⟩ => ⟨S400x16, .f32⟩
  | .local _ .vmem, ⟨79, _⟩ => ⟨S400x16, .f32⟩
  | .local _ .vmem, ⟨80, _⟩ => ⟨S400x16, .f32⟩
  | .local _ .vmem, ⟨81, _⟩ => ⟨S400x16, .f32⟩
  | .local _ .vmem, ⟨82, _⟩ => ⟨S16x16, .f32⟩
  | .local _ .vmem, ⟨83, _⟩ => ⟨S400x16, .f32⟩
  | .local _ .vmem, ⟨84, _⟩ => ⟨S400x16, .f32⟩
  | .local _ .vmem, ⟨85, _⟩ => ⟨S400x16, .f32⟩
  | .local _ .vmem, ⟨86, _⟩ => ⟨S400x16, .f32⟩
  | .local _ .vmem, ⟨87, _⟩ => ⟨S16x16, .f32⟩
  | .local _ .vmem, ⟨88, _⟩ => ⟨S400x16, .f32⟩
  | .local _ .vmem, ⟨89, _⟩ => ⟨S400x16, .f32⟩
  | .local _ .vmem, ⟨90, _⟩ => ⟨S400x16, .f32⟩
  | .local _ .vmem, ⟨91, _⟩ => ⟨S400x16, .f32⟩
  | .local _ .vmem, ⟨92, _⟩ => ⟨S16x16, .f32⟩
  | .local _ .vmem, ⟨93, _⟩ => ⟨S400x16, .f32⟩
  | .local _ .vmem, ⟨94, _⟩ => ⟨S400x16, .f32⟩
  | .local _ .vmem, ⟨95, _⟩ => ⟨S400x64, .f32⟩
  | .local _ .vmem, ⟨96, _⟩ => ⟨S400x64, .f32⟩
  | .local _ .vmem, ⟨97, _⟩ => ⟨S64x256, .f32⟩
  | .local _ .vmem, ⟨98, _⟩ => ⟨S400x256, .f32⟩
  | .local _ .vmem, ⟨99, _⟩ => ⟨S400x256, .f32⟩
  | .local _ .vmem, ⟨100, _⟩ => ⟨S400x256, .f32⟩
  | .local _ .vmem, ⟨101, _⟩ => ⟨S400x256, .f32⟩
  | .local _ .vmem, ⟨102, _⟩ => ⟨S256x2, .f32⟩
  | .local _ .vmem, ⟨103, _⟩ => ⟨S400x2, .f32⟩
  | .local _ .vmem, ⟨104, _⟩ => ⟨S400x2, .f32⟩
  | .local _ .vmem, ⟨105, _⟩ => ⟨S400x512, .f32⟩
  | .local _ .vmem, ⟨106, _⟩ => ⟨S400x512, .f32⟩
  | .local _ .vmem, ⟨107, _⟩ => ⟨S512x256, .f32⟩
  | .local _ .vmem, ⟨108, _⟩ => ⟨S400x256, .f32⟩
  | .local _ .vmem, ⟨109, _⟩ => ⟨S400x256, .f32⟩
  | .local _ .vmem, ⟨110, _⟩ => ⟨S400x256, .f32⟩
  | .local _ .vmem, ⟨111, _⟩ => ⟨S400x256, .f32⟩
  | .local _ .vmem, ⟨112, _⟩ => ⟨S256x20, .f32⟩
  | .local _ .vmem, ⟨113, _⟩ => ⟨S400x20, .f32⟩
  | .local _ .vmem, ⟨114, _⟩ => ⟨S400x20, .f32⟩
  | _, _ => ⟨S20000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_4 : Ref sig .tc := ⟨.hbm, 83, rfl⟩
abbrev main_v52 : Ref sig .tc := ⟨.hbm, 84, rfl⟩
abbrev main_v53 : Ref sig .tc := ⟨.hbm, 85, rfl⟩
abbrev main_c_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call0_v0 : Ref sig .tc := ⟨.hbm, 93, rfl⟩
abbrev main_call0_cst : Ref sig .tc := ⟨.hbm, 94, rfl⟩
abbrev main_call0_v1 : Ref sig .tc := ⟨.hbm, 95, rfl⟩
abbrev main_v60 : Ref sig .tc := ⟨.hbm, 96, rfl⟩
abbrev main_cst_6 : Ref sig .tc := ⟨.hbm, 97, rfl⟩
abbrev main_v61 : Ref sig .tc := ⟨.hbm, 98, rfl⟩
abbrev main_v62 : Ref sig .tc := ⟨.hbm, 99, rfl⟩
abbrev main_call1_v0 : Ref sig .tc := ⟨.hbm, 100, rfl⟩
abbrev main_call1_cst : Ref sig .tc := ⟨.hbm, 101, rfl⟩
abbrev main_call1_v1 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_9 : Ref sig .tc := ⟨.hbm, 112, rfl⟩
abbrev main_v70 : Ref sig .tc := ⟨.hbm, 113, rfl⟩
abbrev main_v71 : Ref sig .tc := ⟨.hbm, 114, rfl⟩
abbrev main_cst_10 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_12 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_13 : Ref sig .tc := ⟨.hbm, 132, rfl⟩
abbrev main_call2_v0 : Ref sig .tc := ⟨.hbm, 133, rfl⟩
abbrev main_call2_v1 : Ref sig .tc := ⟨.hbm, 134, rfl⟩
abbrev main_v86 : Ref sig .tc := ⟨.hbm, 135, rfl⟩
abbrev main_c_14 : Ref sig .tc := ⟨.hbm, 136, rfl⟩
abbrev main_v87 : Ref sig .tc := ⟨.hbm, 137, rfl⟩
abbrev main_v88 : Ref sig .tc := ⟨.hbm, 138, rfl⟩
abbrev main_c_15 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_16 : Ref sig .tc := ⟨.hbm, 146, rfl⟩
abbrev main_v95 : Ref sig .tc := ⟨.hbm, 147, rfl⟩
abbrev main_v96 : Ref sig .tc := ⟨.hbm, 148, rfl⟩
abbrev main_c_17 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_18 : Ref sig .tc := ⟨.hbm, 157, rfl⟩
abbrev main_v104 : Ref sig .tc := ⟨.hbm, 158, rfl⟩
abbrev main_v105 : Ref sig .tc := ⟨.hbm, 159, rfl⟩
abbrev main_c_19 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_20 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_21 : Ref sig .tc := ⟨.hbm, 181, rfl⟩
abbrev main_v125 : Ref sig .tc := ⟨.hbm, 182, rfl⟩
abbrev main_v126 : Ref sig .tc := ⟨.hbm, 183, rfl⟩
abbrev main_c_22 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_23 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_24 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_25 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_c_26 : Ref sig .tc := ⟨.hbm, 209, rfl⟩
abbrev main_v148 : Ref sig .tc := ⟨.hbm, 210, rfl⟩
abbrev main_v149 : Ref sig .tc := ⟨.hbm, 211, rfl⟩
abbrev main_c_27 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_28 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_c_29 : Ref sig .tc := ⟨.hbm, 233, rfl⟩
abbrev main_v169 : Ref sig .tc := ⟨.hbm, 234, rfl⟩
abbrev main_v170 : Ref sig .tc := ⟨.hbm, 235, rfl⟩
abbrev main_c_30 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_31 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_32 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_33 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_34 : Ref sig .tc := ⟨.hbm, 262, rfl⟩
abbrev main_v193 : Ref sig .tc := ⟨.hbm, 263, rfl⟩
abbrev main_v194 : Ref sig .tc := ⟨.hbm, 264, rfl⟩
abbrev main_c_35 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_36 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_c_37 : Ref sig .tc := ⟨.hbm, 286, rfl⟩
abbrev main_v214 : Ref sig .tc := ⟨.hbm, 287, rfl⟩
abbrev main_v215 : Ref sig .tc := ⟨.hbm, 288, rfl⟩
abbrev main_c_38 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_39 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_40 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_41 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_c_42 : Ref sig .tc := ⟨.hbm, 315, rfl⟩
abbrev main_v238 : Ref sig .tc := ⟨.hbm, 316, rfl⟩
abbrev main_v239 : Ref sig .tc := ⟨.hbm, 317, rfl⟩
abbrev main_c_43 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_44 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_c_45 : Ref sig .tc := ⟨.hbm, 339, rfl⟩
abbrev main_v259 : Ref sig .tc := ⟨.hbm, 340, rfl⟩
abbrev main_v260 : Ref sig .tc := ⟨.hbm, 341, rfl⟩
abbrev main_c_46 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_cst_47 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_cst_48 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_cst_49 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_cst_50 : Ref sig .tc := ⟨.hbm, 372, rfl⟩
abbrev main_v287 : Ref sig .tc := ⟨.hbm, 373, rfl⟩
abbrev main_v288 : Ref sig .tc := ⟨.hbm, 374, rfl⟩
abbrev main_cst_51 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_cst_52 : Ref sig .tc := ⟨.hbm, 388, rfl⟩
abbrev main_v301 : Ref sig .tc := ⟨.hbm, 389, rfl⟩
abbrev main_v302 : Ref sig .tc := ⟨.hbm, 390, rfl⟩
abbrev main_cst_53 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg2_1 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg2_0 : Ref sig .tc := ⟨.vmem, 68, rfl⟩
abbrev cc13_stg2_1 : Ref sig .tc := ⟨.vmem, 69, rfl⟩
abbrev cc14_stg0_0 : Ref sig .tc := ⟨.vmem, 70, rfl⟩
abbrev cc14_stg0_1 : Ref sig .tc := ⟨.vmem, 71, rfl⟩
abbrev cc14_stg1_0 : Ref sig .tc := ⟨.vmem, 72, rfl⟩
abbrev cc14_stg2_0 : Ref sig .tc := ⟨.vmem, 73, rfl⟩
abbrev cc14_stg2_1 : Ref sig .tc := ⟨.vmem, 74, rfl⟩
abbrev cc15_stg0_0 : Ref sig .tc := ⟨.vmem, 75, rfl⟩
abbrev cc15_stg0_1 : Ref sig .tc := ⟨.vmem, 76, rfl⟩
abbrev cc15_stg1_0 : Ref sig .tc := ⟨.vmem, 77, rfl⟩
abbrev cc15_stg2_0 : Ref sig .tc := ⟨.vmem, 78, rfl⟩
abbrev cc15_stg2_1 : Ref sig .tc := ⟨.vmem, 79, rfl⟩
abbrev cc16_stg0_0 : Ref sig .tc := ⟨.vmem, 80, rfl⟩
abbrev cc16_stg0_1 : Ref sig .tc := ⟨.vmem, 81, rfl⟩
abbrev cc16_stg1_0 : Ref sig .tc := ⟨.vmem, 82, rfl⟩
abbrev cc16_stg2_0 : Ref sig .tc := ⟨.vmem, 83, rfl⟩
abbrev cc16_stg2_1 : Ref sig .tc := ⟨.vmem, 84, rfl⟩
abbrev cc17_stg0_0 : Ref sig .tc := ⟨.vmem, 85, rfl⟩
abbrev cc17_stg0_1 : Ref sig .tc := ⟨.vmem, 86, rfl⟩
abbrev cc17_stg1_0 : Ref sig .tc := ⟨.vmem, 87, rfl⟩
abbrev cc17_stg2_0 : Ref sig .tc := ⟨.vmem, 88, rfl⟩
abbrev cc17_stg2_1 : Ref sig .tc := ⟨.vmem, 89, rfl⟩
abbrev cc18_stg0_0 : Ref sig .tc := ⟨.vmem, 90, rfl⟩
abbrev cc18_stg0_1 : Ref sig .tc := ⟨.vmem, 91, rfl⟩
abbrev cc18_stg1_0 : Ref sig .tc := ⟨.vmem, 92, rfl⟩
abbrev cc18_stg2_0 : Ref sig .tc := ⟨.vmem, 93, rfl⟩
abbrev cc18_stg2_1 : Ref sig .tc := ⟨.vmem, 94, rfl⟩
abbrev cc19_stg0_0 : Ref sig .tc := ⟨.vmem, 95, rfl⟩
abbrev cc19_stg0_1 : Ref sig .tc := ⟨.vmem, 96, rfl⟩
abbrev cc19_stg1_0 : Ref sig .tc := ⟨.vmem, 97, rfl⟩
abbrev cc19_stg2_0 : Ref sig .tc := ⟨.vmem, 98, rfl⟩
abbrev cc19_stg2_1 : Ref sig .tc := ⟨.vmem, 99, rfl⟩
abbrev cc20_stg0_0 : Ref sig .tc := ⟨.vmem, 100, rfl⟩
abbrev cc20_stg0_1 : Ref sig .tc := ⟨.vmem, 101, rfl⟩
abbrev cc20_stg1_0 : Ref sig .tc := ⟨.vmem, 102, rfl⟩
abbrev cc20_stg2_0 : Ref sig .tc := ⟨.vmem, 103, rfl⟩
abbrev cc20_stg2_1 : Ref sig .tc := ⟨.vmem, 104, rfl⟩
abbrev cc21_stg0_0 : Ref sig .tc := ⟨.vmem, 105, rfl⟩
abbrev cc21_stg0_1 : Ref sig .tc := ⟨.vmem, 106, rfl⟩
abbrev cc21_stg1_0 : Ref sig .tc := ⟨.vmem, 107, rfl⟩
abbrev cc21_stg2_0 : Ref sig .tc := ⟨.vmem, 108, rfl⟩
abbrev cc21_stg2_1 : Ref sig .tc := ⟨.vmem, 109, rfl⟩
abbrev cc22_stg0_0 : Ref sig .tc := ⟨.vmem, 110, rfl⟩
abbrev cc22_stg0_1 : Ref sig .tc := ⟨.vmem, 111, rfl⟩
abbrev cc22_stg1_0 : Ref sig .tc := ⟨.vmem, 112, rfl⟩
abbrev cc22_stg2_0 : Ref sig .tc := ⟨.vmem, 113, rfl⟩
abbrev cc22_stg2_1 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem2_0 : DmaSem sig := 68
abbrev cc13_sem2_1 : DmaSem sig := 69
abbrev cc14_sem0_0 : DmaSem sig := 70
abbrev cc14_sem0_1 : DmaSem sig := 71
abbrev cc14_sem1_0 : DmaSem sig := 72
abbrev cc14_sem2_0 : DmaSem sig := 73
abbrev cc14_sem2_1 : DmaSem sig := 74
abbrev cc15_sem0_0 : DmaSem sig := 75
abbrev cc15_sem0_1 : DmaSem sig := 76
abbrev cc15_sem1_0 : DmaSem sig := 77
abbrev cc15_sem2_0 : DmaSem sig := 78
abbrev cc15_sem2_1 : DmaSem sig := 79
abbrev cc16_sem0_0 : DmaSem sig := 80
abbrev cc16_sem0_1 : DmaSem sig := 81
abbrev cc16_sem1_0 : DmaSem sig := 82
abbrev cc16_sem2_0 : DmaSem sig := 83
abbrev cc16_sem2_1 : DmaSem sig := 84
abbrev cc17_sem0_0 : DmaSem sig := 85
abbrev cc17_sem0_1 : DmaSem sig := 86
abbrev cc17_sem1_0 : DmaSem sig := 87
abbrev cc17_sem2_0 : DmaSem sig := 88
abbrev cc17_sem2_1 : DmaSem sig := 89
abbrev cc18_sem0_0 : DmaSem sig := 90
abbrev cc18_sem0_1 : DmaSem sig := 91
abbrev cc18_sem1_0 : DmaSem sig := 92
abbrev cc18_sem2_0 : DmaSem sig := 93
abbrev cc18_sem2_1 : DmaSem sig := 94
abbrev cc19_sem0_0 : DmaSem sig := 95
abbrev cc19_sem0_1 : DmaSem sig := 96
abbrev cc19_sem1_0 : DmaSem sig := 97
abbrev cc19_sem2_0 : DmaSem sig := 98
abbrev cc19_sem2_1 : DmaSem sig := 99
abbrev cc20_sem0_0 : DmaSem sig := 100
abbrev cc20_sem0_1 : DmaSem sig := 101
abbrev cc20_sem1_0 : DmaSem sig := 102
abbrev cc20_sem2_0 : DmaSem sig := 103
abbrev cc20_sem2_1 : DmaSem sig := 104
abbrev cc21_sem0_0 : DmaSem sig := 105
abbrev cc21_sem0_1 : DmaSem sig := 106
abbrev cc21_sem1_0 : DmaSem sig := 107
abbrev cc21_sem2_0 : DmaSem sig := 108
abbrev cc21_sem2_1 : DmaSem sig := 109
abbrev cc22_sem0_0 : DmaSem sig := 110
abbrev cc22_sem0_1 : DmaSem sig := 111
abbrev cc22_sem1_0 : DmaSem sig := 112
abbrev cc22_sem2_0 : DmaSem sig := 113
abbrev cc22_sem2_1 : DmaSem sig := 114

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![500], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S400x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S400x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S16x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S400x16 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S400x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S16x16 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S400x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S400x16 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S16x16 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S400x16 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S400x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S16x16 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S400x16 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S400x16 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S16x16 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S400x16 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S400x16 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S16x16 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S400x16 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S400x16 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S16x16 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S400x16 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S400x16 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S16x16 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S400x16 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S400x16 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S16x16 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S400x16 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![50], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S400x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S64x256 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S400x256 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S400x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S256x2 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S400x2 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S400x512 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S512x256 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S400x256 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![50], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S400x256 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S256x20 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S400x20 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S512x2000_S2000x512_1_0 : S512x2000.Transposes [1, 0] S2000x512
  inb_S400x2000_S400x2000_0_0 : ∀ a, (![0, 0] : Fin 2 → Nat) a + S400x2000.size a ≤ S400x2000.size a
  h_S400x2000 : 0 < S400x2000.numel
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S400x512_S400x512_0_0 : ∀ a, (![0, 0] : Fin 2 → Nat) a + S400x512.size a ≤ S400x512.size a
  h_S400x512 : 0 < S400x512.numel
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S200000x6_S200000x3_0_0 : S200000x6.Slices ![0, 0] S200000x3
  transposes_S128x3_S3x128_1_0 : S128x3.Transposes [1, 0] S3x128
  inb_S400x3_S400x3_0_0 : ∀ a, (![0, 0] : Fin 2 → Nat) a + S400x3.size a ≤ S400x3.size a
  h_S400x3 : 0 < S400x3.numel
  shapeCasts_S400x3_S400x3 : S400x3.ShapeCasts S400x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S400x128_S400x128_0_0 : ∀ a, (![0, 0] : Fin 2 → Nat) a + S400x128.size a ≤ S400x128.size a
  h_S400x128 : 0 < S400x128.numel
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S128x128_S128x128_1_0 : S128x128.Transposes [1, 0] S128x128
  shapeCasts_S400x128_S400x128 : S400x128.ShapeCasts S400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x512_S200000x640_d1 : Shape.Concatenates [S200000x128, S200000x512] S200000x640 1
  slices_S200000x6_S200000x3_0_3 : S200000x6.Slices ![0, 3] S200000x3
  reducesTo_S200000x640_S200000_d1 : S200000x640.ReducesTo [1] S200000
  h_S_ : 0 < S_.numel
  concatenates_S20000x512_S20000x512_S20000x1024_d1 : Shape.Concatenates [S20000x512, S20000x512] S20000x1024 1
  transposes_S512x1024_S1024x512_1_0 : S512x1024.Transposes [1, 0] S1024x512
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bcast_S_S20000 : S_.BroadcastsInDim S20000 (![] : Fin 0 → Fin S20000.rank)
  bcast_S200000x1_S200000x512_0_1 : S200000x1.BroadcastsInDim S200000x512 (![0, 1] : Fin 2 → Fin S200000x512.rank)
  bcast_S_S20000x512 : S_.BroadcastsInDim S20000x512 (![] : Fin 0 → Fin S20000x512.rank)
  slices_S3x512x16_S1x512x16_0_0_0 : S3x512x16.Slices ![0, 0, 0] S1x512x16
  shapeCasts_S1x512x16_S512x16 : S1x512x16.ShapeCasts S512x16
  shapeCasts_S400x512_S400x512 : S400x512.ShapeCasts S400x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S400x16_S400x16_0_0 : ∀ a, (![0, 0] : Fin 2 → Nat) a + S400x16.size a ≤ S400x16.size a
  h_S400x16 : 0 < S400x16.numel
  slices_S3x512x16_S1x512x16_1_0_0 : S3x512x16.Slices ![1, 0, 0] S1x512x16
  slices_S3x512x16_S1x512x16_2_0_0 : S3x512x16.Slices ![2, 0, 0] S1x512x16
  bcast_S_S20000x16 : S_.BroadcastsInDim S20000x16 (![] : Fin 0 → Fin S20000x16.rank)
  bcast_S200000x1_S200000x16_0_1 : S200000x1.BroadcastsInDim S200000x16 (![0, 1] : Fin 2 → Fin S200000x16.rank)
  slices_S3x16x16_S1x16x16_0_0_0 : S3x16x16.Slices ![0, 0, 0] S1x16x16
  shapeCasts_S1x16x16_S16x16 : S1x16x16.ShapeCasts S16x16
  shapeCasts_S400x16_S400x16 : S400x16.ShapeCasts S400x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  slices_S3x16x16_S1x16x16_1_0_0 : S3x16x16.Slices ![1, 0, 0] S1x16x16
  slices_S3x16x16_S1x16x16_2_0_0 : S3x16x16.Slices ![2, 0, 0] S1x16x16
  concatenates_S20000x16_S20000x16_S20000x32_d1 : Shape.Concatenates [S20000x16, S20000x16] S20000x32 1
  concatenates_S20000x32_S20000x16_S20000x48_d1 : Shape.Concatenates [S20000x32, S20000x16] S20000x48 1
  concatenates_S20000x48_S20000x16_S20000x64_d1 : Shape.Concatenates [S20000x48, S20000x16] S20000x64 1
  transposes_S256x64_S64x256_1_0 : S256x64.Transposes [1, 0] S64x256
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S400x256_S400x256_0_0 : ∀ a, (![0, 0] : Fin 2 → Nat) a + S400x256.size a ≤ S400x256.size a
  h_S400x256 : 0 < S400x256.numel
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  transposes_S2x256_S256x2_1_0 : S2x256.Transposes [1, 0] S256x2
  shapeCasts_S400x256_S400x256 : S400x256.ShapeCasts S400x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S400x2_S400x2_0_0 : ∀ a, (![0, 0] : Fin 2 → Nat) a + S400x2.size a ≤ S400x2.size a
  h_S400x2 : 0 < S400x2.numel
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  transposes_S256x512_S512x256_1_0 : S256x512.Transposes [1, 0] S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S20x256_S256x20_1_0 : S20x256.Transposes [1, 0] S256x20
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S400x20_S400x20_0_0 : ∀ a, (![0, 0] : Fin 2 → Nat) a + S400x20.size a ≤ S400x20.size a
  h_S400x20 : 0 < S400x20.numel
  bcast_S20_S1x20_1 : S20.BroadcastsInDim S1x20 (![1] : Fin 1 → Fin S1x20.rank)
  bcast_S1x20_S20000x20_0_1 : S1x20.BroadcastsInDim S20000x20 (![0, 1] : Fin 2 → Fin S20000x20.rank)
  dot_S400x2000_S2000x512_S400x512_1_0_0_1_n_n_wf : DotDims.WF S400x2000 S2000x512 S400x512 [1] [0] [0] [1] [] []
  dot_S400x3_S3x128_S400x128_1_0_0_1_n_n_wf : DotDims.WF S400x3 S3x128 S400x128 [1] [0] [0] [1] [] []
  dot_S400x128_S128x128_S400x128_1_0_0_1_n_n_wf : DotDims.WF S400x128 S128x128 S400x128 [1] [0] [0] [1] [] []
  gather_S20000x512_S200000x1_S200000x512_1_0_n_n_0_1_1512_wf : GatherDims.WF S20000x512 S200000x1 S200000x512 [1] [0] [] [0] [] 1 ![1, 512]
  dot_S400x1024_S1024x512_S400x512_1_0_0_1_n_n_wf : DotDims.WF S400x1024 S1024x512 S400x512 [1] [0] [0] [1] [] []
  scatter_S20000_S200000x1_S200000_n_0_0_1_wf : ScatterDims.WF S20000 S200000x1 S200000 [] [0] [0] 1
  gather_S20000_S200000x1_S200000_n_0_n_n_0_1_1_wf : GatherDims.WF S20000 S200000x1 S200000 [] [0] [] [0] [] 1 ![1]
  scatter_S20000x512_S200000x1_S200000x512_1_0_0_1_wf : ScatterDims.WF S20000x512 S200000x1 S200000x512 [1] [0] [0] 1
  dot_S400x512_S512x16_S400x16_1_0_0_1_n_n_wf : DotDims.WF S400x512 S512x16 S400x16 [1] [0] [0] [1] [] []
  gather_S20000x16_S200000x1_S200000x16_1_0_n_n_0_1_116_wf : GatherDims.WF S20000x16 S200000x1 S200000x16 [1] [0] [] [0] [] 1 ![1, 16]
  scatter_S20000x16_S200000x1_S200000x16_1_0_0_1_wf : ScatterDims.WF S20000x16 S200000x1 S200000x16 [1] [0] [0] 1
  dot_S400x16_S16x16_S400x16_1_0_0_1_n_n_wf : DotDims.WF S400x16 S16x16 S400x16 [1] [0] [0] [1] [] []
  dot_S400x64_S64x256_S400x256_1_0_0_1_n_n_wf : DotDims.WF S400x64 S64x256 S400x256 [1] [0] [0] [1] [] []
  dot_S400x256_S256x2_S400x2_1_0_0_1_n_n_wf : DotDims.WF S400x256 S256x2 S400x2 [1] [0] [0] [1] [] []
  dot_S400x512_S512x256_S400x256_1_0_0_1_n_n_wf : DotDims.WF S400x512 S512x256 S400x256 [1] [0] [0] [1] [] []
  dot_S400x256_S256x20_S400x20_1_0_0_1_n_n_wf : DotDims.WF S400x256 S256x20 S400x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2000.size a ≤ S20000x2000.size a
  hwx0_0 : ∀ i : grid0.Coords, EltTy.bits .f32 = 32 ∨ (Rect.block (s := S20000x2000) S400x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .f32 = 32 ∨ (Rect.block (s := S2000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S20000x512.size a
  hwx0_2 : ∀ i : grid0.Coords, EltTy.bits .f32 = 32 ∨ (Rect.block (s := S20000x512) S400x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x2000.size a ≤ S20000x2000.size a
  hwx1_0 : ∀ i : grid1.Coords, EltTy.bits .f32 = 32 ∨ (Rect.block (s := S20000x2000) S400x2000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S2000x512.size a
  hwx1_1 : ∀ i : grid1.Coords, EltTy.bits .f32 = 32 ∨ (Rect.block (s := S2000x512) S2000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x512.size a ≤ S20000x512.size a
  hwx1_2 : ∀ i : grid1.Coords, EltTy.bits .f32 = 32 ∨ (Rect.block (s := S20000x512) S400x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x3.size a ≤ S200000x3.size a
  hwx2_0 : ∀ i : grid2.Coords, EltTy.bits .f32 = 32 ∨ (Rect.block (s := S200000x3) S400x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128.size a ≤ S3x128.size a
  hwx2_1 : ∀ i : grid2.Coords, EltTy.bits .f32 = 32 ∨ (Rect.block (s := S3x128) S3x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S200000x128.size a
  hwx2_2 : ∀ i : grid2.Coords, EltTy.bits .f32 = 32 ∨ (Rect.block (s := S200000x128) S400x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x128.size a ≤ S200000x128.size a
  hwx3_0 : ∀ i : grid3.Coords, EltTy.bits .f32 = 32 ∨ (Rect.block (s := S200000x128) S400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S200000x128.size a
  hwx3_2 : ∀ i : grid3.Coords, EltTy.bits .f32 = 32 ∨ (Rect.block (s := S200000x128) S400x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x3.size a ≤ S200000x3.size a
  hwx4_0 : ∀ i : grid4.Coords, EltTy.bits .f32 = 32 ∨ (Rect.block (s := S200000x3) S400x3.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3x128.size a ≤ S3x128.size a
  hwx4_1 : ∀ i : grid4.Coords, EltTy.bits .f32 = 32 ∨ (Rect.block (s := S3x128) S3x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S200000x128.size a
  hwx4_2 : ∀ i : grid4.Coords, EltTy.bits .f32 = 32 ∨ (Rect.block (s := S200000x128) S400x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x128.size a ≤ S200000x128.size a
  hwx5_0 : ∀ i : grid5.Coords, EltTy.bits .f32 = 32 ∨ (Rect.block (s := S200000x128) S400x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S200000x128.size a
  hwx5_2 : ∀ i : grid5.Coords, EltTy.bits .f32 = 32 ∨ (Rect.block (s := S200000x128) S400x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x1024.size a ≤ S20000x1024.size a
  hwx6_0 : ∀ i : grid6.Coords, EltTy.bits .f32 = 32 ∨ (Rect.block (s := S20000x1024) S400x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S1024x512.size a
  hwx6_1 : ∀ i : grid6.Coords, EltTy.bits .f32 = 32 ∨ (Rect.block (s := S1024x512) S1024x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x512.size a ≤ S20000x512.size a
  hwx6_2 : ∀ i : grid6.Coords, EltTy.bits .f32 = 32 ∨ (Rect.block (s := S20000x512) S400x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x512.size a ≤ S20000x512.size a
  hwx7_0 : ∀ i : grid7.Coords, EltTy.bits .f32 = 32 ∨ (Rect.block (s := S20000x512) S400x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x16.size a ≤ S512x16.size a
  hwx7_1 : ∀ i : grid7.Coords, EltTy.bits .f32 = 32 ∨ (Rect.block (s := S512x16) S512x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x16.size a ≤ S20000x16.size a
  hwx7_2 : ∀ i : grid7.Coords, EltTy.bits .f32 = 32 ∨ (Rect.block (s := S20000x16) S400x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x512.size a ≤ S20000x512.size a
  hwx8_0 : ∀ i : grid8.Coords, EltTy.bits .f32 = 32 ∨ (Rect.block (s := S20000x512) S400x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x16.size a ≤ S512x16.size a
  hwx8_1 : ∀ i : grid8.Coords, EltTy.bits .f32 = 32 ∨ (Rect.block (s := S512x16) S512x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x16.size a ≤ S20000x16.size a
  hwx8_2 : ∀ i : grid8.Coords, EltTy.bits .f32 = 32 ∨ (Rect.block (s := S20000x16) S400x16.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x512.size a ≤ S20000x512.size a
  hwx9_0 : ∀ i : grid9.Coords, EltTy.bits .f32 = 32 ∨ (Rect.block (s := S20000x512) S400x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x16.size a ≤ S512x16.size a
  hwx9_1 : ∀ i : grid9.Coords, EltTy.bits .f32 = 32 ∨ (Rect.block (s := S512x16) S512x16.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S400x16.size a ≤ S20000x16.size a
  hwx9_2 : ∀ i : grid9.Coords, EltTy.bits .f32 = 32 ∨ (Rect.block (s := S20000x16) S400x16.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S400x16.size a ≤ S20000x16.size a
  hwx10_0 : ∀ i : grid10.Coords, EltTy.bits .f32 = 32 ∨ (Rect.block (s := S20000x16) S400x16.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S16x16.size a ≤ S16x16.size a
  hwx10_1 : ∀ i : grid10.Coords, EltTy.bits .f32 = 32 ∨ (Rect.block (s := S16x16) S16x16.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S400x16.size a ≤ S20000x16.size a
  hwx10_2 : ∀ i : grid10.Coords, EltTy.bits .f32 = 32 ∨ (Rect.block (s := S20000x16) S400x16.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S400x16.size a ≤ S20000x16.size a
  hwx11_0 : ∀ i : grid11.Coords, EltTy.bits .f32 = 32 ∨ (Rect.block (s := S20000x16) S400x16.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S16x16.size a ≤ S16x16.size a
  hwx11_1 : ∀ i : grid11.Coords, EltTy.bits .f32 = 32 ∨ (Rect.block (s := S16x16) S16x16.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S400x16.size a ≤ S20000x16.size a
  hwx11_2 : ∀ i : grid11.Coords, EltTy.bits .f32 = 32 ∨ (Rect.block (s := S20000x16) S400x16.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S400x16.size a ≤ S20000x16.size a
  hwx12_0 : ∀ i : grid12.Coords, EltTy.bits .f32 = 32 ∨ (Rect.block (s := S20000x16) S400x16.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S16x16.size a ≤ S16x16.size a
  hwx12_1 : ∀ i : grid12.Coords, EltTy.bits .f32 = 32 ∨ (Rect.block (s := S16x16) S16x16.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S400x16.size a ≤ S20000x16.size a
  hwx12_2 : ∀ i : grid12.Coords, EltTy.bits .f32 = 32 ∨ (Rect.block (s := S20000x16) S400x16.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S400x16.size a ≤ S20000x16.size a
  hwx13_0 : ∀ i : grid13.Coords, EltTy.bits .f32 = 32 ∨ (Rect.block (s := S20000x16) S400x16.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S16x16.size a ≤ S16x16.size a
  hwx13_1 : ∀ i : grid13.Coords, EltTy.bits .f32 = 32 ∨ (Rect.block (s := S16x16) S16x16.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S400x16.size a ≤ S20000x16.size a
  hwx13_2 : ∀ i : grid13.Coords, EltTy.bits .f32 = 32 ∨ (Rect.block (s := S20000x16) S400x16.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S400x16.size a ≤ S20000x16.size a
  hwx14_0 : ∀ i : grid14.Coords, EltTy.bits .f32 = 32 ∨ (Rect.block (s := S20000x16) S400x16.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S16x16.size a ≤ S16x16.size a
  hwx14_1 : ∀ i : grid14.Coords, EltTy.bits .f32 = 32 ∨ (Rect.block (s := S16x16) S16x16.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S400x16.size a ≤ S20000x16.size a
  hwx14_2 : ∀ i : grid14.Coords, EltTy.bits .f32 = 32 ∨ (Rect.block (s := S20000x16) S400x16.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S400x16.size a ≤ S20000x16.size a
  hwx15_0 : ∀ i : grid15.Coords, EltTy.bits .f32 = 32 ∨ (Rect.block (s := S20000x16) S400x16.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S16x16.size a ≤ S16x16.size a
  hwx15_1 : ∀ i : grid15.Coords, EltTy.bits .f32 = 32 ∨ (Rect.block (s := S16x16) S16x16.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S400x16.size a ≤ S20000x16.size a
  hwx15_2 : ∀ i : grid15.Coords, EltTy.bits .f32 = 32 ∨ (Rect.block (s := S20000x16) S400x16.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S400x16.size a ≤ S20000x16.size a
  hwx16_0 : ∀ i : grid16.Coords, EltTy.bits .f32 = 32 ∨ (Rect.block (s := S20000x16) S400x16.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S16x16.size a ≤ S16x16.size a
  hwx16_1 : ∀ i : grid16.Coords, EltTy.bits .f32 = 32 ∨ (Rect.block (s := S16x16) S16x16.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S400x16.size a ≤ S20000x16.size a
  hwx16_2 : ∀ i : grid16.Coords, EltTy.bits .f32 = 32 ∨ (Rect.block (s := S20000x16) S400x16.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S400x16.size a ≤ S20000x16.size a
  hwx17_0 : ∀ i : grid17.Coords, EltTy.bits .f32 = 32 ∨ (Rect.block (s := S20000x16) S400x16.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S16x16.size a ≤ S16x16.size a
  hwx17_1 : ∀ i : grid17.Coords, EltTy.bits .f32 = 32 ∨ (Rect.block (s := S16x16) S16x16.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S400x16.size a ≤ S20000x16.size a
  hwx17_2 : ∀ i : grid17.Coords, EltTy.bits .f32 = 32 ∨ (Rect.block (s := S20000x16) S400x16.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S400x16.size a ≤ S20000x16.size a
  hwx18_0 : ∀ i : grid18.Coords, EltTy.bits .f32 = 32 ∨ (Rect.block (s := S20000x16) S400x16.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S16x16.size a ≤ S16x16.size a
  hwx18_1 : ∀ i : grid18.Coords, EltTy.bits .f32 = 32 ∨ (Rect.block (s := S16x16) S16x16.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S400x16.size a ≤ S20000x16.size a
  hwx18_2 : ∀ i : grid18.Coords, EltTy.bits .f32 = 32 ∨ (Rect.block (s := S20000x16) S400x16.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S400x64.size a ≤ S20000x64.size a
  hwx19_0 : ∀ i : grid19.Coords, EltTy.bits .f32 = 32 ∨ (Rect.block (s := S20000x64) S400x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S64x256.size a ≤ S64x256.size a
  hwx19_1 : ∀ i : grid19.Coords, EltTy.bits .f32 = 32 ∨ (Rect.block (s := S64x256) S64x256.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S400x256.size a ≤ S20000x256.size a
  hwx19_2 : ∀ i : grid19.Coords, EltTy.bits .f32 = 32 ∨ (Rect.block (s := S20000x256) S400x256.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S400x256.size a ≤ S20000x256.size a
  hwx20_0 : ∀ i : grid20.Coords, EltTy.bits .f32 = 32 ∨ (Rect.block (s := S20000x256) S400x256.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S256x2.size a ≤ S256x2.size a
  hwx20_1 : ∀ i : grid20.Coords, EltTy.bits .f32 = 32 ∨ (Rect.block (s := S256x2) S256x2.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S400x2.size a ≤ S20000x2.size a
  hwx20_2 : ∀ i : grid20.Coords, EltTy.bits .f32 = 32 ∨ (Rect.block (s := S20000x2) S400x2.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S400x512.size a ≤ S20000x512.size a
  hwx21_0 : ∀ i : grid21.Coords, EltTy.bits .f32 = 32 ∨ (Rect.block (s := S20000x512) S400x512.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S512x256.size a ≤ S512x256.size a
  hwx21_1 : ∀ i : grid21.Coords, EltTy.bits .f32 = 32 ∨ (Rect.block (s := S512x256) S512x256.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S400x256.size a ≤ S20000x256.size a
  hwx21_2 : ∀ i : grid21.Coords, EltTy.bits .f32 = 32 ∨ (Rect.block (s := S20000x256) S400x256.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S400x256.size a ≤ S20000x256.size a
  hwx22_0 : ∀ i : grid22.Coords, EltTy.bits .f32 = 32 ∨ (Rect.block (s := S20000x256) S400x256.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S256x20.size a ≤ S256x20.size a
  hwx22_1 : ∀ i : grid22.Coords, EltTy.bits .f32 = 32 ∨ (Rect.block (s := S256x20) S256x20.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S400x20.size a ≤ S20000x20.size a
  hwx22_2 : ∀ i : grid22.Coords, EltTy.bits .f32 = 32 ∨ (Rect.block (s := S20000x20) S400x20.size (cc22_transform_2 i) (hinb22_2 i)).WholeWords (EltTy.packing .f32)

variable [Facts₀]

def dot_S400x2000_S2000x512_S400x512_1_0_0_1_n_n : DotDims S400x2000 S2000x512 S400x512 where
  lhsContracting := [1]
  rhsContracting := [0]
  lhsNonContracting := [0]
  rhsNonContracting := [1]
  lhsBatch := []
  rhsBatch := []
  wf := dot_S400x2000_S2000x512_S400x512_1_0_0_1_n_n_wf
def dot_S400x3_S3x128_S400x128_1_0_0_1_n_n : DotDims S400x3 S3x128 S400x128 where
  lhsContracting := [1]
  rhsContracting := [0]
  lhsNonContracting := [0]
  rhsNonContracting := [1]
  lhsBatch := []
  rhsBatch := []
  wf := dot_S400x3_S3x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def dot_S400x1024_S1024x512_S400x512_1_0_0_1_n_n : DotDims S400x1024 S1024x512 S400x512 where
  lhsContracting := [1]
  rhsContracting := [0]
  lhsNonContracting := [0]
  rhsNonContracting := [1]
  lhsBatch := []
  rhsBatch := []
  wf := dot_S400x1024_S1024x512_S400x512_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000_S200000x1_S200000_n_0_n_n_0_1_1 : GatherDims S20000 S200000x1 S200000 where
  offsetDims := []
  collapsedSliceDims := [0]
  operandBatchingDims := []
  startIndicesBatchingDims := []
  startIndexMap := [0]
  indexVectorDim := 1
  sliceSizes := ![1]
  wf := gather_S20000_S200000x1_S200000_n_0_n_n_0_1_1_wf
def scatter_S20000x512_S200000x1_S200000x512_1_0_0_1 : ScatterDims S20000x512 S200000x1 S200000x512 where
  updateWindowDims := [1]
  insertedWindowDims := [0]
  scatterDimsToOperandDims := [0]
  indexVectorDim := 1
  wf := scatter_S20000x512_S200000x1_S200000x512_1_0_0_1_wf
def dot_S400x512_S512x16_S400x16_1_0_0_1_n_n : DotDims S400x512 S512x16 S400x16 where
  lhsContracting := [1]
  rhsContracting := [0]
  lhsNonContracting := [0]
  rhsNonContracting := [1]
  lhsBatch := []
  rhsBatch := []
  wf := dot_S400x512_S512x16_S400x16_1_0_0_1_n_n_wf
def gather_S20000x16_S200000x1_S200000x16_1_0_n_n_0_1_116 : GatherDims S20000x16 S200000x1 S200000x16 where
  offsetDims := [1]
  collapsedSliceDims := [0]
  operandBatchingDims := []
  startIndicesBatchingDims := []
  startIndexMap := [0]
  indexVectorDim := 1
  sliceSizes := ![1, 16]
  wf := gather_S20000x16_S200000x1_S200000x16_1_0_n_n_0_1_116_wf
def scatter_S20000x16_S200000x1_S200000x16_1_0_0_1 : ScatterDims S20000x16 S200000x1 S200000x16 where
  updateWindowDims := [1]
  insertedWindowDims := [0]
  scatterDimsToOperandDims := [0]
  indexVectorDim := 1
  wf := scatter_S20000x16_S200000x1_S200000x16_1_0_0_1_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x256_S256x2_S400x2_1_0_0_1_n_n : DotDims S400x256 S256x2 S400x2 where
  lhsContracting := [1]
  rhsContracting := [0]
  lhsNonContracting := [0]
  rhsNonContracting := [1]
  lhsBatch := []
  rhsBatch := []
  wf := dot_S400x256_S256x2_S400x2_1_0_0_1_n_n_wf
def dot_S400x512_S512x256_S400x256_1_0_0_1_n_n : DotDims S400x512 S512x256 S400x256 where
  lhsContracting := [1]
  rhsContracting := [0]
  lhsNonContracting := [0]
  rhsNonContracting := [1]
  lhsBatch := []
  rhsBatch := []
  wf := dot_S400x512_S512x256_S400x256_1_0_0_1_n_n_wf
def dot_S400x256_S256x20_S400x20_1_0_0_1_n_n : DotDims S400x256 S256x20 S400x20 where
  lhsContracting := [1]
  rhsContracting := [0]
  lhsNonContracting := [0]
  rhsNonContracting := [1]
  lhsBatch := []
  rhsBatch := []
  wf := dot_S400x256_S256x20_S400x20_1_0_0_1_n_n_wf

abbrev win0_0 : Pipeline.Window sig grid0 :=
  Pipeline.Window.ofSpec (Memref.whole main_arg0) S400x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S400x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S400x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S3x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S400x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S3x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S400x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S400x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S400x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S1024x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S400x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v8) S400x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S512x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v119) S400x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v116) S400x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v121) S512x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v122) S400x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v140) S400x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v142) S512x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v143) S400x16.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v146) S400x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v162) S16x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v163) S400x16.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v160) S400x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v165) S16x16.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v166) S400x16.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v184) S400x16.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v186) S16x16.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v187) S400x16.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v190) S400x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v207) S16x16.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v208) S400x16.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v205) S400x16.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v210) S16x16.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v211) S400x16.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v229) S400x16.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v231) S16x16.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v232) S400x16.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v235) S400x16.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v252) S16x16.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v253) S400x16.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v250) S400x16.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v255) S16x16.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v256) S400x16.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v274) S400x16.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v276) S16x16.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v277) S400x16.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v281) S400x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v282) S64x256.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v283) S400x256.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v290) S400x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v291) S256x2.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v292) S400x2.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v8) S400x512.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v296) S512x256.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v297) S400x256.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v304) S400x256.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v305) S256x20.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v306) S400x20.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

class Facts : Prop extends Facts₀ where

variable [Facts]
-- ==== ReferenceIdeal.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S1x200000 : Shape := ⟨2, ![1, 200000]⟩
abbrev S200000 : Shape := ⟨1, ![200000]⟩
abbrev S2000x512 : Shape := ⟨2, ![2000, 512]⟩
abbrev S20000x512 : Shape := ⟨2, ![20000, 512]⟩
abbrev S1x512 : Shape := ⟨2, ![1, 512]⟩
abbrev S200000x3 : Shape := ⟨2, ![200000, 3]⟩
abbrev S3x128 : Shape := ⟨2, ![3, 128]⟩
abbrev S200000x128 : Shape := ⟨2, ![200000, 128]⟩
abbrev S1x128 : Shape := ⟨2, ![1, 128]⟩
abbrev S_ : Shape := ⟨0, ![]⟩
abbrev S200000x1 : Shape := ⟨2, ![200000, 1]⟩
abbrev S200000x512 : Shape := ⟨2, ![200000, 512]⟩
abbrev S200000x640 : Shape := ⟨2, ![200000, 640]⟩
abbrev S20000x1024 : Shape := ⟨2, ![20000, 1024]⟩
abbrev S1024x512 : Shape := ⟨2, ![1024, 512]⟩
abbrev S20000 : Shape := ⟨1, ![20000]⟩
abbrev S1x512x16 : Shape := ⟨3, ![1, 512, 16]⟩
abbrev S512x16 : Shape := ⟨2, ![512, 16]⟩
abbrev S20000x16 : Shape := ⟨2, ![20000, 16]⟩
abbrev S200000x16 : Shape := ⟨2, ![200000, 16]⟩
abbrev S1x16x16 : Shape := ⟨3, ![1, 16, 16]⟩
abbrev S16x16 : Shape := ⟨2, ![16, 16]⟩
abbrev S20000x32 : Shape := ⟨2, ![20000, 32]⟩
abbrev S20000x48 : Shape := ⟨2, ![20000, 48]⟩
abbrev S20000x64 : Shape := ⟨2, ![20000, 64]⟩
abbrev S64x256 : Shape := ⟨2, ![64, 256]⟩
abbrev S20000x256 : Shape := ⟨2, ![20000, 256]⟩
abbrev S1x256 : Shape := ⟨2, ![1, 256]⟩
abbrev S256x2 : Shape := ⟨2, ![256, 2]⟩
abbrev S20000x2 : Shape := ⟨2, ![20000, 2]⟩
abbrev S1x2 : Shape := ⟨2, ![1, 2]⟩
abbrev S512x256 : Shape := ⟨2, ![512, 256]⟩
abbrev S256x20 : Shape := ⟨2, ![256, 20]⟩
abbrev S20000x20 : Shape := ⟨2, ![20000, 20]⟩
abbrev S1x20 : Shape := ⟨2, ![1, 20]⟩

abbrev nBuf : Space → Nat
  | .hbm => 399
  | .vmem => 0
  | .smem => 0
  | _ => 0

abbrev hbmTy0_0 (i : Nat) : BufTy := match i % 128 with
  | 0 => ⟨S20000x2000, .f32⟩
  | 1 => ⟨S2x200000, .i32⟩
  | 2 => ⟨S200000x6, .f32⟩
  | 3 => ⟨S512x2000, .f32⟩
  | 4 => ⟨S512, .f32⟩
  | 5 => ⟨S512x2000, .f32⟩
  | 6 => ⟨S512, .f32⟩
  | 7 => ⟨S512x1024, .f32⟩
  | 8 => ⟨S512, .f32⟩
  | 9 => ⟨S3x512x16, .f32⟩
  | 10 => ⟨S3x16x16, .f32⟩
  | 11 => ⟨S3x16x16, .f32⟩
  | 12 => ⟨S3x16x16, .f32⟩
  | 13 => ⟨S256x64, .f32⟩
  | 14 => ⟨S256, .f32⟩
  | 15 => ⟨S2x256, .f32⟩
  | 16 => ⟨S2, .f32⟩
  | 17 => ⟨S256x512, .f32⟩
  | 18 => ⟨S256, .f32⟩
  | 19 => ⟨S20x256, .f32⟩
  | 20 => ⟨S20, .f32⟩
  | 21 => ⟨S128x3, .f32⟩
  | 22 => ⟨S128, .f32⟩
  | 23 => ⟨S128x128, .f32⟩
  | 24 => ⟨S128, .f32⟩
  | 25 => ⟨S1x200000, .i32⟩
  | 26 => ⟨S200000, .i32⟩
  | 27 => ⟨S1x200000, .i32⟩
  | 28 => ⟨S200000, .i32⟩
  | 29 => ⟨S2000x512, .f32⟩
  | 30 => ⟨S20000x512, .f32⟩
  | 31 => ⟨S1x512, .f32⟩
  | 32 => ⟨S20000x512, .f32⟩
  | 33 => ⟨S20000x512, .f32⟩
  | 34 => ⟨S2000x512, .f32⟩
  | 35 => ⟨S20000x512, .f32⟩
  | 36 => ⟨S1x512, .f32⟩
  | 37 => ⟨S20000x512, .f32⟩
  | 38 => ⟨S20000x512, .f32⟩
  | 39 => ⟨S200000x3, .f32⟩
  | 40 => ⟨S3x128, .f32⟩
  | 41 => ⟨S200000x128, .f32⟩
  | 42 => ⟨S1x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S128x128, .f32⟩
  | 52 => ⟨S200000x128, .f32⟩
  | 53 => ⟨S1x128, .f32⟩
  | 54 => ⟨S200000x128, .f32⟩
  | 55 => ⟨S200000x128, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x512, .f32⟩
  | 65 => ⟨S200000x640, .f32⟩
  | 66 => ⟨S200000x3, .f32⟩
  | 67 => ⟨S3x128, .f32⟩
  | 68 => ⟨S200000x128, .f32⟩
  | 69 => ⟨S1x128, .f32⟩
  | 70 => ⟨S200000x128, .f32⟩
  | 71 => ⟨S200000x128, .f32⟩
  | 72 => ⟨S_, .f32⟩
  | 73 => ⟨S200000x128, .f32⟩
  | 74 => ⟨S200000x128, .f32⟩
  | 75 => ⟨S_, .f32⟩
  | 76 => ⟨S200000x128, .f32⟩
  | 77 => ⟨S200000x128, .f32⟩
  | 78 => ⟨S128x128, .f32⟩
  | 79 => ⟨S200000x128, .f32⟩
  | 80 => ⟨S1x128, .f32⟩
  | 81 => ⟨S200000x128, .f32⟩
  | 82 => ⟨S200000x128, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x512, .f32⟩
  | 92 => ⟨S200000x640, .f32⟩
  | 93 => ⟨S200000x640, .f32⟩
  | 94 => ⟨S_, .f32⟩
  | 95 => ⟨S200000, .f32⟩
  | 96 => ⟨S200000, .f32⟩
  | 97 => ⟨S_, .f32⟩
  | 98 => ⟨S200000, .f32⟩
  | 99 => ⟨S200000, .f32⟩
  | 100 => ⟨S200000x640, .f32⟩
  | 101 => ⟨S_, .f32⟩
  | 102 => ⟨S200000, .f32⟩
  | 103 => ⟨S200000, .f32⟩
  | 104 => ⟨S_, .f32⟩
  | 105 => ⟨S200000, .f32⟩
  | 106 => ⟨S200000, .f32⟩
  | 107 => ⟨S200000x640, .f32⟩
  | 108 => ⟨S_, .f32⟩
  | 109 => ⟨S200000, .f32⟩
  | 110 => ⟨S200000, .f32⟩
  | 111 => ⟨S200000, .f32⟩
  | 112 => ⟨S_, .f32⟩
  | 113 => ⟨S200000, .f32⟩
  | 114 => ⟨S200000, .f32⟩
  | 115 => ⟨S_, .f32⟩
  | 116 => ⟨S200000, .f32⟩
  | 117 => ⟨S200000, .f32⟩
  | 118 => ⟨S20000x1024, .f32⟩
  | 119 => ⟨S1024x512, .f32⟩
  | 120 => ⟨S20000x512, .f32⟩
  | 121 => ⟨S1x512, .f32⟩
  | 122 => ⟨S20000x512, .f32⟩
  | 123 => ⟨S20000x512, .f32⟩
  | 124 => ⟨S_, .f32⟩
  | 125 => ⟨S20000, .f32⟩
  | 126 => ⟨S200000x1, .i32⟩
  | 127 => ⟨S20000, .f32⟩
  | _ => ⟨S20000x2000, .f32⟩

abbrev hbmTy0_1 (i : Nat) : BufTy := match i % 128 with
  | 0 => ⟨S_, .f32⟩
  | 1 => ⟨S20000, .f32⟩
  | 2 => ⟨S20000, .i1⟩
  | 3 => ⟨S20000, .f32⟩
  | 4 => ⟨S_, .f32⟩
  | 5 => ⟨S_, .f32⟩
  | 6 => ⟨S20000, .f32⟩
  | 7 => ⟨S20000, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000, .f32⟩
  | 17 => ⟨S200000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000, .f32⟩
  | 27 => ⟨S200000, .f32⟩
  | 28 => ⟨S200000x1, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x512, .f32⟩
  | 38 => ⟨S200000x512, .f32⟩
  | 39 => ⟨S200000x512, .f32⟩
  | 40 => ⟨S_, .f32⟩
  | 41 => ⟨S20000x512, .f32⟩
  | 42 => ⟨S200000x1, .i32⟩
  | 43 => ⟨S20000x512, .f32⟩
  | 44 => ⟨S20000x512, .f32⟩
  | 45 => ⟨S1x512x16, .f32⟩
  | 46 => ⟨S512x16, .f32⟩
  | 47 => ⟨S20000x16, .f32⟩
  | 48 => ⟨S1x512x16, .f32⟩
  | 49 => ⟨S512x16, .f32⟩
  | 50 => ⟨S20000x16, .f32⟩
  | 51 => ⟨S20000x16, .f32⟩
  | 52 => ⟨S200000x1, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x512, .f32⟩
  | 62 => ⟨S200000x512, .f32⟩
  | 63 => ⟨S200000x512, .f32⟩
  | 64 => ⟨S_, .f32⟩
  | 65 => ⟨S20000x512, .f32⟩
  | 66 => ⟨S200000x1, .i32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x512, .f32⟩
  | 73 => ⟨S1x512x16, .f32⟩
  | 74 => ⟨S512x16, .f32⟩
  | 75 => ⟨S20000x16, .f32⟩
  | 76 => ⟨S20000x16, .f32⟩
  | 77 => ⟨S_, .f32⟩
  | 78 => ⟨S20000x16, .f32⟩
  | 79 => ⟨S20000x16, .f32⟩
  | 80 => ⟨S200000x1, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x16, .f32⟩
  | 90 => ⟨S200000x16, .f32⟩
  | 91 => ⟨S200000x16, .f32⟩
  | 92 => ⟨S_, .f32⟩
  | 93 => ⟨S20000x16, .f32⟩
  | 94 => ⟨S200000x1, .i32⟩
  | 95 => ⟨S20000x16, .f32⟩
  | 96 => ⟨S20000x16, .f32⟩
  | 97 => ⟨S1x16x16, .f32⟩
  | 98 => ⟨S16x16, .f32⟩
  | 99 => ⟨S20000x16, .f32⟩
  | 100 => ⟨S1x16x16, .f32⟩
  | 101 => ⟨S16x16, .f32⟩
  | 102 => ⟨S20000x16, .f32⟩
  | 103 => ⟨S20000x16, .f32⟩
  | 104 => ⟨S200000x1, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x16, .f32⟩
  | 114 => ⟨S200000x16, .f32⟩
  | 115 => ⟨S200000x16, .f32⟩
  | 116 => ⟨S_, .f32⟩
  | 117 => ⟨S20000x16, .f32⟩
  | 118 => ⟨S200000x1, .i32⟩
  | 119 => ⟨S20000x16, .f32⟩
  | 120 => ⟨S20000x16, .f32⟩
  | 121 => ⟨S_, .f32⟩
  | 122 => ⟨S20000x16, .f32⟩
  | 123 => ⟨S20000x16, .f32⟩
  | 124 => ⟨S20000x16, .f32⟩
  | 125 => ⟨S1x16x16, .f32⟩
  | 126 => ⟨S16x16, .f32⟩
  | 127 => ⟨S20000x16, .f32⟩
  | _ => ⟨S20000x2000, .f32⟩

abbrev hbmTy0_2 (i : Nat) : BufTy := match i % 128 with
  | 0 => ⟨S20000x16, .f32⟩
  | 1 => ⟨S_, .f32⟩
  | 2 => ⟨S20000x16, .f32⟩
  | 3 => ⟨S20000x16, .f32⟩
  | 4 => ⟨S20000x32, .f32⟩
  | 5 => ⟨S200000x1, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x16, .f32⟩
  | 15 => ⟨S200000x16, .f32⟩
  | 16 => ⟨S200000x16, .f32⟩
  | 17 => ⟨S_, .f32⟩
  | 18 => ⟨S20000x16, .f32⟩
  | 19 => ⟨S200000x1, .i32⟩
  | 20 => ⟨S20000x16, .f32⟩
  | 21 => ⟨S20000x16, .f32⟩
  | 22 => ⟨S1x16x16, .f32⟩
  | 23 => ⟨S16x16, .f32⟩
  | 24 => ⟨S20000x16, .f32⟩
  | 25 => ⟨S1x16x16, .f32⟩
  | 26 => ⟨S16x16, .f32⟩
  | 27 => ⟨S20000x16, .f32⟩
  | 28 => ⟨S20000x16, .f32⟩
  | 29 => ⟨S200000x1, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x16, .f32⟩
  | 39 => ⟨S200000x16, .f32⟩
  | 40 => ⟨S200000x16, .f32⟩
  | 41 => ⟨S_, .f32⟩
  | 42 => ⟨S20000x16, .f32⟩
  | 43 => ⟨S200000x1, .i32⟩
  | 44 => ⟨S20000x16, .f32⟩
  | 45 => ⟨S20000x16, .f32⟩
  | 46 => ⟨S_, .f32⟩
  | 47 => ⟨S20000x16, .f32⟩
  | 48 => ⟨S20000x16, .f32⟩
  | 49 => ⟨S20000x16, .f32⟩
  | 50 => ⟨S1x16x16, .f32⟩
  | 51 => ⟨S16x16, .f32⟩
  | 52 => ⟨S20000x16, .f32⟩
  | 53 => ⟨S20000x16, .f32⟩
  | 54 => ⟨S_, .f32⟩
  | 55 => ⟨S20000x16, .f32⟩
  | 56 => ⟨S20000x16, .f32⟩
  | 57 => ⟨S20000x48, .f32⟩
  | 58 => ⟨S200000x1, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S200000x16, .f32⟩
  | 68 => ⟨S200000x16, .f32⟩
  | 69 => ⟨S200000x16, .f32⟩
  | 70 => ⟨S_, .f32⟩
  | 71 => ⟨S20000x16, .f32⟩
  | 72 => ⟨S200000x1, .i32⟩
  | 73 => ⟨S20000x16, .f32⟩
  | 74 => ⟨S20000x16, .f32⟩
  | 75 => ⟨S1x16x16, .f32⟩
  | 76 => ⟨S16x16, .f32⟩
  | 77 => ⟨S20000x16, .f32⟩
  | 78 => ⟨S1x16x16, .f32⟩
  | 79 => ⟨S16x16, .f32⟩
  | 80 => ⟨S20000x16, .f32⟩
  | 81 => ⟨S20000x16, .f32⟩
  | 82 => ⟨S200000x1, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x16, .f32⟩
  | 92 => ⟨S200000x16, .f32⟩
  | 93 => ⟨S200000x16, .f32⟩
  | 94 => ⟨S_, .f32⟩
  | 95 => ⟨S20000x16, .f32⟩
  | 96 => ⟨S200000x1, .i32⟩
  | 97 => ⟨S20000x16, .f32⟩
  | 98 => ⟨S20000x16, .f32⟩
  | 99 => ⟨S_, .f32⟩
  | 100 => ⟨S20000x16, .f32⟩
  | 101 => ⟨S20000x16, .f32⟩
  | 102 => ⟨S20000x16, .f32⟩
  | 103 => ⟨S1x16x16, .f32⟩
  | 104 => ⟨S16x16, .f32⟩
  | 105 => ⟨S20000x16, .f32⟩
  | 106 => ⟨S20000x16, .f32⟩
  | 107 => ⟨S_, .f32⟩
  | 108 => ⟨S20000x16, .f32⟩
  | 109 => ⟨S20000x16, .f32⟩
  | 110 => ⟨S20000x64, .f32⟩
  | 111 => ⟨S64x256, .f32⟩
  | 112 => ⟨S20000x256, .f32⟩
  | 113 => ⟨S1x256, .f32⟩
  | 114 => ⟨S20000x256, .f32⟩
  | 115 => ⟨S20000x256, .f32⟩
  | 116 => ⟨S_, .f32⟩
  | 117 => ⟨S20000x256, .f32⟩
  | 118 => ⟨S20000x256, .f32⟩
  | 119 => ⟨S_, .f32⟩
  | 120 => ⟨S20000x256, .f32⟩
  | 121 => ⟨S20000x256, .f32⟩
  | 122 => ⟨S256x2, .f32⟩
  | 123 => ⟨S20000x2, .f32⟩
  | 124 => ⟨S1x2, .f32⟩
  | 125 => ⟨S20000x2, .f32⟩
  | 126 => ⟨S20000x2, .f32⟩
  | 127 => ⟨S512x256, .f32⟩
  | _ => ⟨S20000x2000, .f32⟩

abbrev hbmTy0_3 (i : Nat) : BufTy := match i % 128 with
  | 0 => ⟨S20000x256, .f32⟩
  | 1 => ⟨S1x256, .f32⟩
  | 2 => ⟨S20000x256, .f32⟩
  | 3 => ⟨S20000x256, .f32⟩
  | 4 => ⟨S_, .f32⟩
  | 5 => ⟨S20000x256, .f32⟩
  | 6 => ⟨S20000x256, .f32⟩
  | 7 => ⟨S_, .f32⟩
  | 8 => ⟨S20000x256, .f32⟩
  | 9 => ⟨S20000x256, .f32⟩
  | 10 => ⟨S256x20, .f32⟩
  | 11 => ⟨S20000x20, .f32⟩
  | 12 => ⟨S1x20, .f32⟩
  | 13 => ⟨S20000x20, .f32⟩
  | 14 => ⟨S20000x20, .f32⟩
  | _ => ⟨S20000x2000, .f32⟩

abbrev hbmTy (i : Nat) : BufTy := match i / 128 with
  | 0 => hbmTy0_0 i
  | 1 => hbmTy0_1 i
  | 2 => hbmTy0_2 i
  | 3 => hbmTy0_3 i
  | _ => ⟨S20000x2000, .f32⟩

abbrev bufTy : (tb : Table) → Fin (tcTables nBuf tb) → BufTy
  | .hbm, ⟨i, _⟩ => hbmTy i
  | _, _ => ⟨S20000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_4 : Ref sig .tc := ⟨.hbm, 83, rfl⟩
abbrev main_v52 : Ref sig .tc := ⟨.hbm, 84, rfl⟩
abbrev main_v53 : Ref sig .tc := ⟨.hbm, 85, rfl⟩
abbrev main_c_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call0_v0 : Ref sig .tc := ⟨.hbm, 93, rfl⟩
abbrev main_call0_cst : Ref sig .tc := ⟨.hbm, 94, rfl⟩
abbrev main_call0_v1 : Ref sig .tc := ⟨.hbm, 95, rfl⟩
abbrev main_v60 : Ref sig .tc := ⟨.hbm, 96, rfl⟩
abbrev main_cst_6 : Ref sig .tc := ⟨.hbm, 97, rfl⟩
abbrev main_v61 : Ref sig .tc := ⟨.hbm, 98, rfl⟩
abbrev main_v62 : Ref sig .tc := ⟨.hbm, 99, rfl⟩
abbrev main_call1_v0 : Ref sig .tc := ⟨.hbm, 100, rfl⟩
abbrev main_call1_cst : Ref sig .tc := ⟨.hbm, 101, rfl⟩
abbrev main_call1_v1 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_9 : Ref sig .tc := ⟨.hbm, 112, rfl⟩
abbrev main_v70 : Ref sig .tc := ⟨.hbm, 113, rfl⟩
abbrev main_v71 : Ref sig .tc := ⟨.hbm, 114, rfl⟩
abbrev main_cst_10 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_12 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_13 : Ref sig .tc := ⟨.hbm, 132, rfl⟩
abbrev main_call2_v0 : Ref sig .tc := ⟨.hbm, 133, rfl⟩
abbrev main_call2_v1 : Ref sig .tc := ⟨.hbm, 134, rfl⟩
abbrev main_v86 : Ref sig .tc := ⟨.hbm, 135, rfl⟩
abbrev main_c_14 : Ref sig .tc := ⟨.hbm, 136, rfl⟩
abbrev main_v87 : Ref sig .tc := ⟨.hbm, 137, rfl⟩
abbrev main_v88 : Ref sig .tc := ⟨.hbm, 138, rfl⟩
abbrev main_c_15 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_16 : Ref sig .tc := ⟨.hbm, 146, rfl⟩
abbrev main_v95 : Ref sig .tc := ⟨.hbm, 147, rfl⟩
abbrev main_v96 : Ref sig .tc := ⟨.hbm, 148, rfl⟩
abbrev main_c_17 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_18 : Ref sig .tc := ⟨.hbm, 157, rfl⟩
abbrev main_v104 : Ref sig .tc := ⟨.hbm, 158, rfl⟩
abbrev main_v105 : Ref sig .tc := ⟨.hbm, 159, rfl⟩
abbrev main_c_19 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_20 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_21 : Ref sig .tc := ⟨.hbm, 181, rfl⟩
abbrev main_v125 : Ref sig .tc := ⟨.hbm, 182, rfl⟩
abbrev main_v126 : Ref sig .tc := ⟨.hbm, 183, rfl⟩
abbrev main_c_22 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_23 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_24 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_25 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_c_26 : Ref sig .tc := ⟨.hbm, 209, rfl⟩
abbrev main_v148 : Ref sig .tc := ⟨.hbm, 210, rfl⟩
abbrev main_v149 : Ref sig .tc := ⟨.hbm, 211, rfl⟩
abbrev main_c_27 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_28 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_c_29 : Ref sig .tc := ⟨.hbm, 233, rfl⟩
abbrev main_v169 : Ref sig .tc := ⟨.hbm, 234, rfl⟩
abbrev main_v170 : Ref sig .tc := ⟨.hbm, 235, rfl⟩
abbrev main_c_30 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_31 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_32 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_33 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_34 : Ref sig .tc := ⟨.hbm, 262, rfl⟩
abbrev main_v193 : Ref sig .tc := ⟨.hbm, 263, rfl⟩
abbrev main_v194 : Ref sig .tc := ⟨.hbm, 264, rfl⟩
abbrev main_c_35 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_36 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_c_37 : Ref sig .tc := ⟨.hbm, 286, rfl⟩
abbrev main_v214 : Ref sig .tc := ⟨.hbm, 287, rfl⟩
abbrev main_v215 : Ref sig .tc := ⟨.hbm, 288, rfl⟩
abbrev main_c_38 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_39 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_40 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_41 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_c_42 : Ref sig .tc := ⟨.hbm, 315, rfl⟩
abbrev main_v238 : Ref sig .tc := ⟨.hbm, 316, rfl⟩
abbrev main_v239 : Ref sig .tc := ⟨.hbm, 317, rfl⟩
abbrev main_c_43 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_44 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_c_45 : Ref sig .tc := ⟨.hbm, 339, rfl⟩
abbrev main_v259 : Ref sig .tc := ⟨.hbm, 340, rfl⟩
abbrev main_v260 : Ref sig .tc := ⟨.hbm, 341, rfl⟩
abbrev main_c_46 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_cst_47 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_cst_48 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_cst_49 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_cst_50 : Ref sig .tc := ⟨.hbm, 372, rfl⟩
abbrev main_v287 : Ref sig .tc := ⟨.hbm, 373, rfl⟩
abbrev main_v288 : Ref sig .tc := ⟨.hbm, 374, rfl⟩
abbrev main_cst_51 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_cst_52 : Ref sig .tc := ⟨.hbm, 388, rfl⟩
abbrev main_v301 : Ref sig .tc := ⟨.hbm, 389, rfl⟩
abbrev main_v302 : Ref sig .tc := ⟨.hbm, 390, rfl⟩
abbrev main_cst_53 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S512x2000_S2000x512_1_0 : S512x2000.Transposes [1, 0] S2000x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S200000x6_S200000x3_0_0 : S200000x6.Slices ![0, 0] S200000x3
  transposes_S128x3_S3x128_1_0 : S128x3.Transposes [1, 0] S3x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S128x128_S128x128_1_0 : S128x128.Transposes [1, 0] S128x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x512_S200000x640_d1 : Shape.Concatenates [S200000x128, S200000x512] S200000x640 1
  slices_S200000x6_S200000x3_0_3 : S200000x6.Slices ![0, 3] S200000x3
  reducesTo_S200000x640_S200000_d1 : S200000x640.ReducesTo [1] S200000
  h_S_ : 0 < S_.numel
  concatenates_S20000x512_S20000x512_S20000x1024_d1 : Shape.Concatenates [S20000x512, S20000x512] S20000x1024 1
  transposes_S512x1024_S1024x512_1_0 : S512x1024.Transposes [1, 0] S1024x512
  bcast_S_S20000 : S_.BroadcastsInDim S20000 (![] : Fin 0 → Fin S20000.rank)
  bcast_S200000x1_S200000x512_0_1 : S200000x1.BroadcastsInDim S200000x512 (![0, 1] : Fin 2 → Fin S200000x512.rank)
  bcast_S_S20000x512 : S_.BroadcastsInDim S20000x512 (![] : Fin 0 → Fin S20000x512.rank)
  slices_S3x512x16_S1x512x16_0_0_0 : S3x512x16.Slices ![0, 0, 0] S1x512x16
  shapeCasts_S1x512x16_S512x16 : S1x512x16.ShapeCasts S512x16
  slices_S3x512x16_S1x512x16_1_0_0 : S3x512x16.Slices ![1, 0, 0] S1x512x16
  slices_S3x512x16_S1x512x16_2_0_0 : S3x512x16.Slices ![2, 0, 0] S1x512x16
  bcast_S_S20000x16 : S_.BroadcastsInDim S20000x16 (![] : Fin 0 → Fin S20000x16.rank)
  bcast_S200000x1_S200000x16_0_1 : S200000x1.BroadcastsInDim S200000x16 (![0, 1] : Fin 2 → Fin S200000x16.rank)
  slices_S3x16x16_S1x16x16_0_0_0 : S3x16x16.Slices ![0, 0, 0] S1x16x16
  shapeCasts_S1x16x16_S16x16 : S1x16x16.ShapeCasts S16x16
  slices_S3x16x16_S1x16x16_1_0_0 : S3x16x16.Slices ![1, 0, 0] S1x16x16
  slices_S3x16x16_S1x16x16_2_0_0 : S3x16x16.Slices ![2, 0, 0] S1x16x16
  concatenates_S20000x16_S20000x16_S20000x32_d1 : Shape.Concatenates [S20000x16, S20000x16] S20000x32 1
  concatenates_S20000x32_S20000x16_S20000x48_d1 : Shape.Concatenates [S20000x32, S20000x16] S20000x48 1
  concatenates_S20000x48_S20000x16_S20000x64_d1 : Shape.Concatenates [S20000x48, S20000x16] S20000x64 1
  transposes_S256x64_S64x256_1_0 : S256x64.Transposes [1, 0] S64x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  transposes_S2x256_S256x2_1_0 : S2x256.Transposes [1, 0] S256x2
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  transposes_S256x512_S512x256_1_0 : S256x512.Transposes [1, 0] S512x256
  transposes_S20x256_S256x20_1_0 : S20x256.Transposes [1, 0] S256x20
  bcast_S20_S1x20_1 : S20.BroadcastsInDim S1x20 (![1] : Fin 1 → Fin S1x20.rank)
  bcast_S1x20_S20000x20_0_1 : S1x20.BroadcastsInDim S20000x20 (![0, 1] : Fin 2 → Fin S20000x20.rank)
  dot_S20000x2000_S2000x512_S20000x512_1_0_0_1_n_n_wf : DotDims.WF S20000x2000 S2000x512 S20000x512 [1] [0] [0] [1] [] []
  dot_S200000x3_S3x128_S200000x128_1_0_0_1_n_n_wf : DotDims.WF S200000x3 S3x128 S200000x128 [1] [0] [0] [1] [] []
  dot_S200000x128_S128x128_S200000x128_1_0_0_1_n_n_wf : DotDims.WF S200000x128 S128x128 S200000x128 [1] [0] [0] [1] [] []
  gather_S20000x512_S200000x1_S200000x512_1_0_n_n_0_1_1512_wf : GatherDims.WF S20000x512 S200000x1 S200000x512 [1] [0] [] [0] [] 1 ![1, 512]
  dot_S20000x1024_S1024x512_S20000x512_1_0_0_1_n_n_wf : DotDims.WF S20000x1024 S1024x512 S20000x512 [1] [0] [0] [1] [] []
  scatter_S20000_S200000x1_S200000_n_0_0_1_wf : ScatterDims.WF S20000 S200000x1 S200000 [] [0] [0] 1
  gather_S20000_S200000x1_S200000_n_0_n_n_0_1_1_wf : GatherDims.WF S20000 S200000x1 S200000 [] [0] [] [0] [] 1 ![1]
  scatter_S20000x512_S200000x1_S200000x512_1_0_0_1_wf : ScatterDims.WF S20000x512 S200000x1 S200000x512 [1] [0] [0] 1
  dot_S20000x512_S512x16_S20000x16_1_0_0_1_n_n_wf : DotDims.WF S20000x512 S512x16 S20000x16 [1] [0] [0] [1] [] []
  gather_S20000x16_S200000x1_S200000x16_1_0_n_n_0_1_116_wf : GatherDims.WF S20000x16 S200000x1 S200000x16 [1] [0] [] [0] [] 1 ![1, 16]
  scatter_S20000x16_S200000x1_S200000x16_1_0_0_1_wf : ScatterDims.WF S20000x16 S200000x1 S200000x16 [1] [0] [0] 1
  dot_S20000x16_S16x16_S20000x16_1_0_0_1_n_n_wf : DotDims.WF S20000x16 S16x16 S20000x16 [1] [0] [0] [1] [] []
  dot_S20000x64_S64x256_S20000x256_1_0_0_1_n_n_wf : DotDims.WF S20000x64 S64x256 S20000x256 [1] [0] [0] [1] [] []
  dot_S20000x256_S256x2_S20000x2_1_0_0_1_n_n_wf : DotDims.WF S20000x256 S256x2 S20000x2 [1] [0] [0] [1] [] []
  dot_S20000x512_S512x256_S20000x256_1_0_0_1_n_n_wf : DotDims.WF S20000x512 S512x256 S20000x256 [1] [0] [0] [1] [] []
  dot_S20000x256_S256x20_S20000x20_1_0_0_1_n_n_wf : DotDims.WF S20000x256 S256x20 S20000x20 [1] [0] [0] [1] [] []

variable [Facts₀]

def dot_S20000x2000_S2000x512_S20000x512_1_0_0_1_n_n : DotDims S20000x2000 S2000x512 S20000x512 where
  lhsContracting := [1]
  rhsContracting := [0]
  lhsNonContracting := [0]
  rhsNonContracting := [1]
  lhsBatch := []
  rhsBatch := []
  wf := dot_S20000x2000_S2000x512_S20000x512_1_0_0_1_n_n_wf
def dot_S200000x3_S3x128_S200000x128_1_0_0_1_n_n : DotDims S200000x3 S3x128 S200000x128 where
  lhsContracting := [1]
  rhsContracting := [0]
  lhsNonContracting := [0]
  rhsNonContracting := [1]
  lhsBatch := []
  rhsBatch := []
  wf := dot_S200000x3_S3x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000_S200000x1_S200000_n_0_n_n_0_1_1 : GatherDims S20000 S200000x1 S200000 where
  offsetDims := []
  collapsedSliceDims := [0]
  operandBatchingDims := []
  startIndicesBatchingDims := []
  startIndexMap := [0]
  indexVectorDim := 1
  sliceSizes := ![1]
  wf := gather_S20000_S200000x1_S200000_n_0_n_n_0_1_1_wf
def scatter_S20000x512_S200000x1_S200000x512_1_0_0_1 : ScatterDims S20000x512 S200000x1 S200000x512 where
  updateWindowDims := [1]
  insertedWindowDims := [0]
  scatterDimsToOperandDims := [0]
  indexVectorDim := 1
  wf := scatter_S20000x512_S200000x1_S200000x512_1_0_0_1_wf
def dot_S20000x512_S512x16_S20000x16_1_0_0_1_n_n : DotDims S20000x512 S512x16 S20000x16 where
  lhsContracting := [1]
  rhsContracting := [0]
  lhsNonContracting := [0]
  rhsNonContracting := [1]
  lhsBatch := []
  rhsBatch := []
  wf := dot_S20000x512_S512x16_S20000x16_1_0_0_1_n_n_wf
def gather_S20000x16_S200000x1_S200000x16_1_0_n_n_0_1_116 : GatherDims S20000x16 S200000x1 S200000x16 where
  offsetDims := [1]
  collapsedSliceDims := [0]
  operandBatchingDims := []
  startIndicesBatchingDims := []
  startIndexMap := [0]
  indexVectorDim := 1
  sliceSizes := ![1, 16]
  wf := gather_S20000x16_S200000x1_S200000x16_1_0_n_n_0_1_116_wf
def scatter_S20000x16_S200000x1_S200000x16_1_0_0_1 : ScatterDims S20000x16 S200000x1 S200000x16 where
  updateWindowDims := [1]
  insertedWindowDims := [0]
  scatterDimsToOperandDims := [0]
  indexVectorDim := 1
  wf := scatter_S20000x16_S200000x1_S200000x16_1_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S20000x256_S256x2_S20000x2_1_0_0_1_n_n : DotDims S20000x256 S256x2 S20000x2 where
  lhsContracting := [1]
  rhsContracting := [0]
  lhsNonContracting := [0]
  rhsNonContracting := [1]
  lhsBatch := []
  rhsBatch := []
  wf := dot_S20000x256_S256x2_S20000x2_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x20_S20000x20_1_0_0_1_n_n : DotDims S20000x256 S256x20 S20000x20 where
  lhsContracting := [1]
  rhsContracting := [0]
  lhsNonContracting := [0]
  rhsNonContracting := [1]
  lhsBatch := []
  rhsBatch := []
  wf := dot_S20000x256_S256x20_S20000x20_1_0_0_1_n_n_wf

class Facts : Prop extends Facts₀ where

variable [Facts]
-- ==== Proof.RefOps.lean ====
/- The reference's operation list cut at its 23 contractions: the stretch before each one, the contraction itself,
   and the stretch after the last. -/
import proofs.«114227_j13357348290767_1_alg».proof.Proof.Gen.ReferenceIdeal
import Idealize.ShloMosaic.Lib.StableHlo.Run

set_option maxRecDepth 16384

noncomputable section

namespace Cert.ReferenceIdeal.Cut

open Cert.ReferenceIdeal Cert.ReferenceIdeal.Gen Idealize.ShloMosaic Idealize.ShloMosaic.TcCoe Idealize.SL.Sem Idealize.ShloMosaic.StableHlo

variable {F : FTy → Type} [FloatOps F]

abbrev rops0 : List (HloOp τ sig (Elt F)) :=
  [ unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    unary main_arg3 main_v4 ((transpose S2000x512 [1, 0] · transposes_S512x2000_S2000x512_1_0) : (⟨S512x2000, .f32⟩ : BufTy).Contents (Elt F) → (⟨S2000x512, .f32⟩ : BufTy).Contents (Elt F)) ]

abbrev rdot0 : HloOp τ sig (Elt F) :=
  binary main_arg0 main_v4 main_v5 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F))

abbrev rops1 : List (HloOp τ sig (Elt F)) :=
  [ unary main_arg4 main_v6 (broadcastInDim S1x512 ![1] bcast_S512_S1x512_1 : (⟨S512, .f32⟩ : BufTy).Contents (Elt F) → (⟨S1x512, .f32⟩ : BufTy).Contents (Elt F)),
    unary main_v6 main_v7 (broadcastInDim S20000x512 ![0, 1] bcast_S1x512_S20000x512_0_1 : (⟨S1x512, .f32⟩ : BufTy).Contents (Elt F) → (⟨S20000x512, .f32⟩ : BufTy).Contents (Elt F)),
    binary main_v5 main_v7 main_v8 (addf : (⟨S20000x512, .f32⟩ : BufTy).Contents (Elt F) → (⟨S20000x512, .f32⟩ : BufTy).Contents (Elt F) → (⟨S20000x512, .f32⟩ : BufTy).Contents (Elt F)),
    unary main_arg5 main_v9 ((transpose S2000x512 [1, 0] · transposes_S512x2000_S2000x512_1_0) : (⟨S512x2000, .f32⟩ : BufTy).Contents (Elt F) → (⟨S2000x512, .f32⟩ : BufTy).Contents (Elt F)) ]

abbrev rdot1 : HloOp τ sig (Elt F) :=
  binary main_arg0 main_v9 main_v10 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F))

abbrev rops2 : List (HloOp τ sig (Elt F)) :=
  [ unary main_arg6 main_v11 (broadcastInDim S1x512 ![1] bcast_S512_S1x512_1 : (⟨S512, .f32⟩ : BufTy).Contents (Elt F) → (⟨S1x512, .f32⟩ : BufTy).Contents (Elt F)),
    unary main_v11 main_v12 (broadcastInDim S20000x512 ![0, 1] bcast_S1x512_S20000x512_0_1 : (⟨S1x512, .f32⟩ : BufTy).Contents (Elt F) → (⟨S20000x512, .f32⟩ : BufTy).Contents (Elt F)),
    binary main_v10 main_v12 main_v13 (addf : (⟨S20000x512, .f32⟩ : BufTy).Contents (Elt F) → (⟨S20000x512, .f32⟩ : BufTy).Contents (Elt F) → (⟨S20000x512, .f32⟩ : BufTy).Contents (Elt F)),
    unary main_arg2 main_v14 ((extractStridedSlice S200000x3 ![0, 0] · slices_S200000x6_S200000x3_0_0) : (⟨S200000x6, .f32⟩ : BufTy).Contents (Elt F) → (⟨S200000x3, .f32⟩ : BufTy).Contents (Elt F)),
    unary main_arg21 main_v15 ((transpose S3x128 [1, 0] · transposes_S128x3_S3x128_1_0) : (⟨S128x3, .f32⟩ : BufTy).Contents (Elt F) → (⟨S3x128, .f32⟩ : BufTy).Contents (Elt F)) ]

abbrev rdot2 : HloOp τ sig (Elt F) :=
  binary main_v14 main_v15 main_v16 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F))

abbrev rops3 : List (HloOp τ sig (Elt F)) :=
  [ unary main_arg22 main_v17 (broadcastInDim S1x128 ![1] bcast_S128_S1x128_1 : (⟨S128, .f32⟩ : BufTy).Contents (Elt F) → (⟨S1x128, .f32⟩ : BufTy).Contents (Elt F)),
    unary main_v17 main_v18 (broadcastInDim S200000x128 ![0, 1] bcast_S1x128_S200000x128_0_1 : (⟨S1x128, .f32⟩ : BufTy).Contents (Elt F) → (⟨S200000x128, .f32⟩ : BufTy).Contents (Elt F)),
    binary main_v16 main_v18 main_v19 (addf : (⟨S200000x128, .f32⟩ : BufTy).Contents (Elt F) → (⟨S200000x128, .f32⟩ : BufTy).Contents (Elt F) → (⟨S200000x128, .f32⟩ : BufTy).Contents (Elt F)),
    nullary main_cst (constant S_ .f32 0x00000000#32),
    unary main_cst main_v20 (broadcastInDim S200000x128 ![] bcast_S_S200000x128 : (⟨S_, .f32⟩ : BufTy).Contents (Elt F) → (⟨S200000x128, .f32⟩ : BufTy).Contents (Elt F)),
    binary main_v19 main_v20 main_v21 (maximumf : (⟨S200000x128, .f32⟩ : BufTy).Contents (Elt F) → (⟨S200000x128, .f32⟩ : BufTy).Contents (Elt F) → (⟨S200000x128, .f32⟩ : BufTy).Contents (Elt F)),
    nullary main_cst_0 (constant S_ .f32 0x3F7FFFAC#32),
    unary main_cst_0 main_v22 (broadcastInDim S200000x128 ![] bcast_S_S200000x128 : (⟨S_, .f32⟩ : BufTy).Contents (Elt F) → (⟨S200000x128, .f32⟩ : BufTy).Contents (Elt F)),
    binary main_v21 main_v22 main_v23 (mulf : (⟨S200000x128, .f32⟩ : BufTy).Contents (Elt F) → (⟨S200000x128, .f32⟩ : BufTy).Contents (Elt F) → (⟨S200000x128, .f32⟩ : BufTy).Contents (Elt F)),
    unary main_arg23 main_v24 ((transpose S128x128 [1, 0] · transposes_S128x128_S128x128_1_0) : (⟨S128x128, .f32⟩ : BufTy).Contents (Elt F) → (⟨S128x128, .f32⟩ : BufTy).Contents (Elt F)) ]

abbrev rdot3 : HloOp τ sig (Elt F) :=
  binary main_v23 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))

abbrev rops4 : List (HloOp τ sig (Elt F)) :=
  [ unary main_arg24 main_v26 (broadcastInDim S1x128 ![1] bcast_S128_S1x128_1 : (⟨S128, .f32⟩ : BufTy).Contents (Elt F) → (⟨S1x128, .f32⟩ : BufTy).Contents (Elt F)),
    unary main_v26 main_v27 (broadcastInDim S200000x128 ![0, 1] bcast_S1x128_S200000x128_0_1 : (⟨S1x128, .f32⟩ : BufTy).Contents (Elt F) → (⟨S200000x128, .f32⟩ : BufTy).Contents (Elt F)),
    binary main_v25 main_v27 main_v28 (addf : (⟨S200000x128, .f32⟩ : BufTy).Contents (Elt F) → (⟨S200000x128, .f32⟩ : BufTy).Contents (Elt F) → (⟨S200000x128, .f32⟩ : BufTy).Contents (Elt F)),
    nullary main_c (constantI S_ 32 0#32),
    unary main_c main_v29 (broadcastInDim S200000 ![] bcast_S_S200000 : (⟨S_, .i32⟩ : BufTy).Contents (Elt F) → (⟨S200000, .i32⟩ : BufTy).Contents (Elt F)),
    binary main_v1 main_v29 main_v30 (cmpi .slt : (⟨S200000, .i32⟩ : BufTy).Contents (Elt F) → (⟨S200000, .i32⟩ : BufTy).Contents (Elt F) → (⟨S200000, .i1⟩ : BufTy).Contents (Elt F)),
    nullary main_c_1 (constantI S_ 32 20000#32),
    unary main_c_1 main_v31 (broadcastInDim S200000 ![] bcast_S_S200000 : (⟨S_, .i32⟩ : BufTy).Contents (Elt F) → (⟨S200000, .i32⟩ : BufTy).Contents (Elt F)),
    binary main_v1 main_v31 main_v32 (addi : (⟨S200000, .i32⟩ : BufTy).Contents (Elt F) → (⟨S200000, .i32⟩ : BufTy).Contents (Elt F) → (⟨S200000, .i32⟩ : BufTy).Contents (Elt F)),
    ternary main_v30 main_v32 main_v1 main_v33 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v33 main_v34 (broadcastInDim S200000x1 ![0] bcast_S200000_S200000x1_0 : (⟨S200000, .i32⟩ : BufTy).Contents (Elt F) → (⟨S200000x1, .i32⟩ : BufTy).Contents (Elt F)),
    binary main_v13 main_v34 main_v35 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v28 main_v35 main_v36 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)),
    unary main_arg2 main_v37 ((extractStridedSlice S200000x3 ![0, 3] · slices_S200000x6_S200000x3_0_3) : (⟨S200000x6, .f32⟩ : BufTy).Contents (Elt F) → (⟨S200000x3, .f32⟩ : BufTy).Contents (Elt F)),
    unary main_arg21 main_v38 ((transpose S3x128 [1, 0] · transposes_S128x3_S3x128_1_0) : (⟨S128x3, .f32⟩ : BufTy).Contents (Elt F) → (⟨S3x128, .f32⟩ : BufTy).Contents (Elt F)) ]

abbrev rdot4 : HloOp τ sig (Elt F) :=
  binary main_v37 main_v38 main_v39 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F))

abbrev rops5 : List (HloOp τ sig (Elt F)) :=
  [ unary main_arg22 main_v40 (broadcastInDim S1x128 ![1] bcast_S128_S1x128_1 : (⟨S128, .f32⟩ : BufTy).Contents (Elt F) → (⟨S1x128, .f32⟩ : BufTy).Contents (Elt F)),
    unary main_v40 main_v41 (broadcastInDim S200000x128 ![0, 1] bcast_S1x128_S200000x128_0_1 : (⟨S1x128, .f32⟩ : BufTy).Contents (Elt F) → (⟨S200000x128, .f32⟩ : BufTy).Contents (Elt F)),
    binary main_v39 main_v41 main_v42 (addf : (⟨S200000x128, .f32⟩ : BufTy).Contents (Elt F) → (⟨S200000x128, .f32⟩ : BufTy).Contents (Elt F) → (⟨S200000x128, .f32⟩ : BufTy).Contents (Elt F)),
    nullary main_cst_2 (constant S_ .f32 0x00000000#32),
    unary main_cst_2 main_v43 (broadcastInDim S200000x128 ![] bcast_S_S200000x128 : (⟨S_, .f32⟩ : BufTy).Contents (Elt F) → (⟨S200000x128, .f32⟩ : BufTy).Contents (Elt F)),
    binary main_v42 main_v43 main_v44 (maximumf : (⟨S200000x128, .f32⟩ : BufTy).Contents (Elt F) → (⟨S200000x128, .f32⟩ : BufTy).Contents (Elt F) → (⟨S200000x128, .f32⟩ : BufTy).Contents (Elt F)),
    nullary main_cst_3 (constant S_ .f32 0x3F7FFFAC#32),
    unary main_cst_3 main_v45 (broadcastInDim S200000x128 ![] bcast_S_S200000x128 : (⟨S_, .f32⟩ : BufTy).Contents (Elt F) → (⟨S200000x128, .f32⟩ : BufTy).Contents (Elt F)),
    binary main_v44 main_v45 main_v46 (mulf : (⟨S200000x128, .f32⟩ : BufTy).Contents (Elt F) → (⟨S200000x128, .f32⟩ : BufTy).Contents (Elt F) → (⟨S200000x128, .f32⟩ : BufTy).Contents (Elt F)),
    unary main_arg23 main_v47 ((transpose S128x128 [1, 0] · transposes_S128x128_S128x128_1_0) : (⟨S128x128, .f32⟩ : BufTy).Contents (Elt F) → (⟨S128x128, .f32⟩ : BufTy).Contents (Elt F)) ]

abbrev rdot5 : HloOp τ sig (Elt F) :=
  binary main_v46 main_v47 main_v48 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))

abbrev rops6 : List (HloOp τ sig (Elt F)) :=
  [ unary main_arg24 main_v49 (broadcastInDim S1x128 ![1] bcast_S128_S1x128_1 : (⟨S128, .f32⟩ : BufTy).Contents (Elt F) → (⟨S1x128, .f32⟩ : BufTy).Contents (Elt F)),
    unary main_v49 main_v50 (broadcastInDim S200000x128 ![0, 1] bcast_S1x128_S200000x128_0_1 : (⟨S1x128, .f32⟩ : BufTy).Contents (Elt F) → (⟨S200000x128, .f32⟩ : BufTy).Contents (Elt F)),
    binary main_v48 main_v50 main_v51 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v52 (broadcastInDim S200000 ![] bcast_S_S200000 : (⟨S_, .i32⟩ : BufTy).Contents (Elt F) → (⟨S200000, .i32⟩ : BufTy).Contents (Elt F)),
    binary main_v3 main_v52 main_v53 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v54 (broadcastInDim S200000 ![] bcast_S_S200000 : (⟨S_, .i32⟩ : BufTy).Contents (Elt F) → (⟨S200000, .i32⟩ : BufTy).Contents (Elt F)),
    binary main_v3 main_v54 main_v55 (addi : (⟨S200000, .i32⟩ : BufTy).Contents (Elt F) → (⟨S200000, .i32⟩ : BufTy).Contents (Elt F) → (⟨S200000, .i32⟩ : BufTy).Contents (Elt F)),
    ternary main_v53 main_v55 main_v3 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v56 main_v57 (broadcastInDim S200000x1 ![0] bcast_S200000_S200000x1_0 : (⟨S200000, .i32⟩ : BufTy).Contents (Elt F) → (⟨S200000x1, .i32⟩ : BufTy).Contents (Elt F)),
    binary main_v13 main_v57 main_v58 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v51 main_v58 main_v59 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)),
    TRef.binary (TRef.of (T := ⟨S200000x640, .f32⟩) main_v36) (TRef.of (T := ⟨S200000x640, .f32⟩) main_v36) (TRef.of (T := ⟨S200000x640, .f32⟩) main_call0_v0) mulf,
    TRef.nullary (TRef.of (T := ⟨S_, .f32⟩) main_call0_cst) (constant S_ .f32 0x00000000#32),
    TRef.binary (TRef.of (T := ⟨S200000x640, .f32⟩) main_call0_v0) (TRef.of (T := ⟨S_, .f32⟩) main_call0_cst) (TRef.of (T := ⟨S200000, .f32⟩) main_call0_v1) (fun x v => Host.reduceAdd x v reducesTo_S200000x640_S200000_d1 h_S_),
    TRef.unary (TRef.of (T := ⟨S200000, .f32⟩) main_call0_v1) (TRef.of (T := ⟨S200000, .f32⟩) main_v60) Host.sqrt,
    nullary main_cst_6 (constant S_ .f32 0x322BCC77#32),
    unary main_cst_6 main_v61 (broadcastInDim S200000 ![] bcast_S_S200000 : (⟨S_, .f32⟩ : BufTy).Contents (Elt F) → (⟨S200000, .f32⟩ : BufTy).Contents (Elt F)),
    binary main_v60 main_v61 main_v62 (maximumf : (⟨S200000, .f32⟩ : BufTy).Contents (Elt F) → (⟨S200000, .f32⟩ : BufTy).Contents (Elt F) → (⟨S200000, .f32⟩ : BufTy).Contents (Elt F)),
    TRef.binary (TRef.of (T := ⟨S200000x640, .f32⟩) main_v59) (TRef.of (T := ⟨S200000x640, .f32⟩) main_v59) (TRef.of (T := ⟨S200000x640, .f32⟩) main_call1_v0) mulf,
    TRef.nullary (TRef.of (T := ⟨S_, .f32⟩) main_call1_cst) (constant S_ .f32 0x00000000#32),
    TRef.binary (TRef.of (T := ⟨S200000x640, .f32⟩) main_call1_v0) (TRef.of (T := ⟨S_, .f32⟩) main_call1_cst) (TRef.of (T := ⟨S200000, .f32⟩) main_call1_v1) (fun x v => Host.reduceAdd x v reducesTo_S200000x640_S200000_d1 h_S_),
    TRef.unary (TRef.of (T := ⟨S200000, .f32⟩) main_call1_v1) (TRef.of (T := ⟨S200000, .f32⟩) main_v63) Host.sqrt,
    nullary main_cst_7 (constant S_ .f32 0x322BCC77#32),
    unary main_cst_7 main_v64 (broadcastInDim S200000 ![] bcast_S_S200000 : (⟨S_, .f32⟩ : BufTy).Contents (Elt F) → (⟨S200000, .f32⟩ : BufTy).Contents (Elt F)),
    binary main_v63 main_v64 main_v65 (maximumf : (⟨S200000, .f32⟩ : BufTy).Contents (Elt F) → (⟨S200000, .f32⟩ : BufTy).Contents (Elt F) → (⟨S200000, .f32⟩ : BufTy).Contents (Elt F)),
    binary main_v36 main_v59 main_v66 (mulf : (⟨S200000x640, .f32⟩ : BufTy).Contents (Elt F) → (⟨S200000x640, .f32⟩ : BufTy).Contents (Elt F) → (⟨S200000x640, .f32⟩ : BufTy).Contents (Elt F)),
    nullary main_cst_8 (constant S_ .f32 0x00000000#32),
    binary main_v66 main_cst_8 main_v67 ((fun x v => Host.reduceAdd x v reducesTo_S200000x640_S200000_d1 h_S_) : (⟨S200000x640, .f32⟩ : BufTy).Contents (Elt F) → (⟨S_, .f32⟩ : BufTy).Contents (Elt F) → (⟨S200000, .f32⟩ : BufTy).Contents (Elt F)),
    binary main_v62 main_v65 main_v68 (mulf : (⟨S200000, .f32⟩ : BufTy).Contents (Elt F) → (⟨S200000, .f32⟩ : BufTy).Contents (Elt F) → (⟨S200000, .f32⟩ : BufTy).Contents (Elt F)),
    binary main_v67 main_v68 main_v69 (Host.divf : (⟨S200000, .f32⟩ : BufTy).Contents (Elt F) → (⟨S200000, .f32⟩ : BufTy).Contents (Elt F) → (⟨S200000, .f32⟩ : BufTy).Contents (Elt F)),
    nullary main_cst_9 (constant S_ .f32 0x3F800000#32),
    unary main_cst_9 main_v70 (broadcastInDim S200000 ![] bcast_S_S200000 : (⟨S_, .f32⟩ : BufTy).Contents (Elt F) → (⟨S200000, .f32⟩ : BufTy).Contents (Elt F)),
    binary main_v69 main_v70 main_v71 (addf : (⟨S200000, .f32⟩ : BufTy).Contents (Elt F) → (⟨S200000, .f32⟩ : BufTy).Contents (Elt F) → (⟨S200000, .f32⟩ : BufTy).Contents (Elt F)),
    nullary main_cst_10 (constant S_ .f32 0x3F000000#32),
    unary main_cst_10 main_v72 (broadcastInDim S200000 ![] bcast_S_S200000 : (⟨S_, .f32⟩ : BufTy).Contents (Elt F) → (⟨S200000, .f32⟩ : BufTy).Contents (Elt F)),
    binary main_v71 main_v72 main_v73 (mulf : (⟨S200000, .f32⟩ : BufTy).Contents (Elt F) → (⟨S200000, .f32⟩ : BufTy).Contents (Elt F) → (⟨S200000, .f32⟩ : BufTy).Contents (Elt F)),
    binary main_v8 main_v13 main_v74 ((fun a b => concatenate S20000x1024 1 [⟨S20000x512, a⟩, ⟨S20000x512, b⟩] concatenates_S20000x512_S20000x512_S20000x1024_d1) : (⟨S20000x512, .f32⟩ : BufTy).Contents (Elt F) → (⟨S20000x512, .f32⟩ : BufTy).Contents (Elt F) → (⟨S20000x1024, .f32⟩ : BufTy).Contents (Elt F)),
    unary main_arg7 main_v75 ((transpose S1024x512 [1, 0] · transposes_S512x1024_S1024x512_1_0) : (⟨S512x1024, .f32⟩ : BufTy).Contents (Elt F) → (⟨S1024x512, .f32⟩ : BufTy).Contents (Elt F)) ]

abbrev rdot6 : HloOp τ sig (Elt F) :=
  binary main_v74 main_v75 main_v76 ((fun l r => Host.dotGeneral dot_S20000x1024_S1024x512_S20000x512_1_0_0_1_n_n none l r) : (⟨S20000x1024, .f32⟩ : BufTy).Contents (Elt F) → (⟨S1024x512, .f32⟩ : BufTy).Contents (Elt F) → (⟨S20000x512, .f32⟩ : BufTy).Contents (Elt F))

abbrev rops7 : List (HloOp τ sig (Elt F)) :=
  [ unary main_arg8 main_v77 (broadcastInDim S1x512 ![1] bcast_S512_S1x512_1 : (⟨S512, .f32⟩ : BufTy).Contents (Elt F) → (⟨S1x512, .f32⟩ : BufTy).Contents (Elt F)),
    unary main_v77 main_v78 (broadcastInDim S20000x512 ![0, 1] bcast_S1x512_S20000x512_0_1 : (⟨S1x512, .f32⟩ : BufTy).Contents (Elt F) → (⟨S20000x512, .f32⟩ : BufTy).Contents (Elt F)),
    binary main_v76 main_v78 main_v79 (addf : (⟨S20000x512, .f32⟩ : BufTy).Contents (Elt F) → (⟨S20000x512, .f32⟩ : BufTy).Contents (Elt F) → (⟨S20000x512, .f32⟩ : BufTy).Contents (Elt F)),
    nullary main_cst_11 (constant S_ .f32 0x00000000#32),
    unary main_cst_11 main_v80 (broadcastInDim S20000 ![] bcast_S_S20000 : (⟨S_, .f32⟩ : BufTy).Contents (Elt F) → (⟨S20000, .f32⟩ : BufTy).Contents (Elt F)),
    unary main_v1 main_v81 (broadcastInDim S200000x1 ![0] bcast_S200000_S200000x1_0 : (⟨S200000, .i32⟩ : BufTy).Contents (Elt F) → (⟨S200000x1, .i32⟩ : BufTy).Contents (Elt F)),
    ternary main_v80 main_v81 main_v73 main_v82 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    nullary main_cst_12 (constant S_ .f32 0x00000000#32),
    unary main_cst_12 main_v83 (broadcastInDim S20000 ![] bcast_S_S20000 : (⟨S_, .f32⟩ : BufTy).Contents (Elt F) → (⟨S20000, .f32⟩ : BufTy).Contents (Elt F)),
    binary main_v82 main_v83 main_v84 (cmpf .ogt : (⟨S20000, .f32⟩ : BufTy).Contents (Elt F) → (⟨S20000, .f32⟩ : BufTy).Contents (Elt F) → (⟨S20000, .i1⟩ : BufTy).Contents (Elt F)),
    unary main_v82 main_v85 (Host.rsqrt : (⟨S20000, .f32⟩ : BufTy).Contents (Elt F) → (⟨S20000, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v84) (TRef.of (T := ⟨S20000, .f32⟩) main_v85) (TRef.of (T := ⟨S20000, .f32⟩) main_call2_v1) (TRef.of (T := ⟨S20000, .f32⟩) main_v86) select,
    nullary main_c_14 (constantI S_ 32 0#32),
    unary main_c_14 main_v87 (broadcastInDim S200000 ![] bcast_S_S200000 : (⟨S_, .i32⟩ : BufTy).Contents (Elt F) → (⟨S200000, .i32⟩ : BufTy).Contents (Elt F)),
    binary main_v1 main_v87 main_v88 (cmpi .slt : (⟨S200000, .i32⟩ : BufTy).Contents (Elt F) → (⟨S200000, .i32⟩ : BufTy).Contents (Elt F) → (⟨S200000, .i1⟩ : BufTy).Contents (Elt F)),
    nullary main_c_15 (constantI S_ 32 20000#32),
    unary main_c_15 main_v89 (broadcastInDim S200000 ![] bcast_S_S200000 : (⟨S_, .i32⟩ : BufTy).Contents (Elt F) → (⟨S200000, .i32⟩ : BufTy).Contents (Elt F)),
    binary main_v1 main_v89 main_v90 (addi : (⟨S200000, .i32⟩ : BufTy).Contents (Elt F) → (⟨S200000, .i32⟩ : BufTy).Contents (Elt F) → (⟨S200000, .i32⟩ : BufTy).Contents (Elt F)),
    ternary main_v88 main_v90 main_v1 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v91 main_v92 (broadcastInDim S200000x1 ![0] bcast_S200000_S200000x1_0 : (⟨S200000, .i32⟩ : BufTy).Contents (Elt F) → (⟨S200000x1, .i32⟩ : BufTy).Contents (Elt F)),
    binary main_v86 main_v92 main_v93 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v93 main_v73 main_v94 (mulf : (⟨S200000, .f32⟩ : BufTy).Contents (Elt F) → (⟨S200000, .f32⟩ : BufTy).Contents (Elt F) → (⟨S200000, .f32⟩ : BufTy).Contents (Elt F)),
    nullary main_c_16 (constantI S_ 32 0#32),
    unary main_c_16 main_v95 (broadcastInDim S200000 ![] bcast_S_S200000 : (⟨S_, .i32⟩ : BufTy).Contents (Elt F) → (⟨S200000, .i32⟩ : BufTy).Contents (Elt F)),
    binary main_v3 main_v95 main_v96 (cmpi .slt : (⟨S200000, .i32⟩ : BufTy).Contents (Elt F) → (⟨S200000, .i32⟩ : BufTy).Contents (Elt F) → (⟨S200000, .i1⟩ : BufTy).Contents (Elt F)),
    nullary main_c_17 (constantI S_ 32 20000#32),
    unary main_c_17 main_v97 (broadcastInDim S200000 ![] bcast_S_S200000 : (⟨S_, .i32⟩ : BufTy).Contents (Elt F) → (⟨S200000, .i32⟩ : BufTy).Contents (Elt F)),
    binary main_v3 main_v97 main_v98 (addi : (⟨S200000, .i32⟩ : BufTy).Contents (Elt F) → (⟨S200000, .i32⟩ : BufTy).Contents (Elt F) → (⟨S200000, .i32⟩ : BufTy).Contents (Elt F)),
    ternary main_v96 main_v98 main_v3 main_v99 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v99 main_v100 (broadcastInDim S200000x1 ![0] bcast_S200000_S200000x1_0 : (⟨S200000, .i32⟩ : BufTy).Contents (Elt F) → (⟨S200000x1, .i32⟩ : BufTy).Contents (Elt F)),
    binary main_v86 main_v100 main_v101 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v94 main_v101 main_v102 (mulf : (⟨S200000, .f32⟩ : BufTy).Contents (Elt F) → (⟨S200000, .f32⟩ : BufTy).Contents (Elt F) → (⟨S200000, .f32⟩ : BufTy).Contents (Elt F)),
    unary main_v102 main_v103 (broadcastInDim S200000x1 ![0] bcast_S200000_S200000x1_0 : (⟨S200000, .f32⟩ : BufTy).Contents (Elt F) → (⟨S200000x1, .f32⟩ : BufTy).Contents (Elt F)),
    nullary main_c_18 (constantI S_ 32 0#32),
    unary main_c_18 main_v104 (broadcastInDim S200000 ![] bcast_S_S200000 : (⟨S_, .i32⟩ : BufTy).Contents (Elt F) → (⟨S200000, .i32⟩ : BufTy).Contents (Elt F)),
    binary main_v1 main_v104 main_v105 (cmpi .slt : (⟨S200000, .i32⟩ : BufTy).Contents (Elt F) → (⟨S200000, .i32⟩ : BufTy).Contents (Elt F) → (⟨S200000, .i1⟩ : BufTy).Contents (Elt F)),
    nullary main_c_19 (constantI S_ 32 20000#32),
    unary main_c_19 main_v106 (broadcastInDim S200000 ![] bcast_S_S200000 : (⟨S_, .i32⟩ : BufTy).Contents (Elt F) → (⟨S200000, .i32⟩ : BufTy).Contents (Elt F)),
    binary main_v1 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v1 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v8 main_v109 main_v110 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v103 main_v111 (broadcastInDim S200000x512 ![0, 1] bcast_S200000x1_S200000x512_0_1 : (⟨S200000x1, .f32⟩ : BufTy).Contents (Elt F) → (⟨S200000x512, .f32⟩ : BufTy).Contents (Elt F)),
    binary main_v111 main_v110 main_v112 (mulf : (⟨S200000x512, .f32⟩ : BufTy).Contents (Elt F) → (⟨S200000x512, .f32⟩ : BufTy).Contents (Elt F) → (⟨S200000x512, .f32⟩ : BufTy).Contents (Elt F)),
    nullary main_cst_20 (constant S_ .f32 0x00000000#32),
    unary main_cst_20 main_v113 (broadcastInDim S20000x512 ![] bcast_S_S20000x512 : (⟨S_, .f32⟩ : BufTy).Contents (Elt F) → (⟨S20000x512, .f32⟩ : BufTy).Contents (Elt F)),
    unary main_v3 main_v114 (broadcastInDim S200000x1 ![0] bcast_S200000_S200000x1_0 : (⟨S200000, .i32⟩ : BufTy).Contents (Elt F) → (⟨S200000x1, .i32⟩ : BufTy).Contents (Elt F)),
    ternary main_v113 main_v114 main_v112 main_v115 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v115 main_v116 (Host.negf : (⟨S20000x512, .f32⟩ : BufTy).Contents (Elt F) → (⟨S20000x512, .f32⟩ : BufTy).Contents (Elt F)),
    unary main_arg9 main_v117 ((extractStridedSlice S1x512x16 ![0, 0, 0] · slices_S3x512x16_S1x512x16_0_0_0) : (⟨S3x512x16, .f32⟩ : BufTy).Contents (Elt F) → (⟨S1x512x16, .f32⟩ : BufTy).Contents (Elt F)),
    reshape main_v117 main_v118 rfl shapeCasts_S1x512x16_S512x16 ]

abbrev rdot7 : HloOp τ sig (Elt F) :=
  binary main_v8 main_v118 main_v119 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F))

abbrev rops8 : List (HloOp τ sig (Elt F)) :=
  [ unary main_arg9 main_v120 ((extractStridedSlice S1x512x16 ![1, 0, 0] · slices_S3x512x16_S1x512x16_1_0_0) : (⟨S3x512x16, .f32⟩ : BufTy).Contents (Elt F) → (⟨S1x512x16, .f32⟩ : BufTy).Contents (Elt F)),
    reshape main_v120 main_v121 rfl shapeCasts_S1x512x16_S512x16 ]

abbrev rdot8 : HloOp τ sig (Elt F) :=
  binary main_v116 main_v121 main_v122 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F))

abbrev rops9 : List (HloOp τ sig (Elt F)) :=
  [ binary main_v119 main_v122 main_v123 (addf : (⟨S20000x16, .f32⟩ : BufTy).Contents (Elt F) → (⟨S20000x16, .f32⟩ : BufTy).Contents (Elt F) → (⟨S20000x16, .f32⟩ : BufTy).Contents (Elt F)),
    unary main_v102 main_v124 (broadcastInDim S200000x1 ![0] bcast_S200000_S200000x1_0 : (⟨S200000, .f32⟩ : BufTy).Contents (Elt F) → (⟨S200000x1, .f32⟩ : BufTy).Contents (Elt F)),
    nullary main_c_21 (constantI S_ 32 0#32),
    unary main_c_21 main_v125 (broadcastInDim S200000 ![] bcast_S_S200000 : (⟨S_, .i32⟩ : BufTy).Contents (Elt F) → (⟨S200000, .i32⟩ : BufTy).Contents (Elt F)),
    binary main_v1 main_v125 main_v126 (cmpi .slt : (⟨S200000, .i32⟩ : BufTy).Contents (Elt F) → (⟨S200000, .i32⟩ : BufTy).Contents (Elt F) → (⟨S200000, .i1⟩ : BufTy).Contents (Elt F)),
    nullary main_c_22 (constantI S_ 32 20000#32),
    unary main_c_22 main_v127 (broadcastInDim S200000 ![] bcast_S_S200000 : (⟨S_, .i32⟩ : BufTy).Contents (Elt F) → (⟨S200000, .i32⟩ : BufTy).Contents (Elt F)),
    binary main_v1 main_v127 main_v128 (addi : (⟨S200000, .i32⟩ : BufTy).Contents (Elt F) → (⟨S200000, .i32⟩ : BufTy).Contents (Elt F) → (⟨S200000, .i32⟩ : BufTy).Contents (Elt F)),
    ternary main_v126 main_v128 main_v1 main_v129 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v129 main_v130 (broadcastInDim S200000x1 ![0] bcast_S200000_S200000x1_0 : (⟨S200000, .i32⟩ : BufTy).Contents (Elt F) → (⟨S200000x1, .i32⟩ : BufTy).Contents (Elt F)),
    binary main_v116 main_v130 main_v131 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v124 main_v132 (broadcastInDim S200000x512 ![0, 1] bcast_S200000x1_S200000x512_0_1 : (⟨S200000x1, .f32⟩ : BufTy).Contents (Elt F) → (⟨S200000x512, .f32⟩ : BufTy).Contents (Elt F)),
    binary main_v132 main_v131 main_v133 (mulf : (⟨S200000x512, .f32⟩ : BufTy).Contents (Elt F) → (⟨S200000x512, .f32⟩ : BufTy).Contents (Elt F) → (⟨S200000x512, .f32⟩ : BufTy).Contents (Elt F)),
    nullary main_cst_23 (constant S_ .f32 0x00000000#32),
    unary main_cst_23 main_v134 (broadcastInDim S20000x512 ![] bcast_S_S20000x512 : (⟨S_, .f32⟩ : BufTy).Contents (Elt F) → (⟨S20000x512, .f32⟩ : BufTy).Contents (Elt F)),
    unary main_v3 main_v135 (broadcastInDim S200000x1 ![0] bcast_S200000_S200000x1_0 : (⟨S200000, .i32⟩ : BufTy).Contents (Elt F) → (⟨S200000x1, .i32⟩ : BufTy).Contents (Elt F)),
    ternary main_v134 main_v135 main_v133 main_v136 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v136 main_v137 (Host.negf : (⟨S20000x512, .f32⟩ : BufTy).Contents (Elt F) → (⟨S20000x512, .f32⟩ : BufTy).Contents (Elt F)),
    nullary main_cst_24 (constant S_ .f32 0x40000000#32),
    unary main_cst_24 main_v138 (broadcastInDim S20000x512 ![] bcast_S_S20000x512 : (⟨S_, .f32⟩ : BufTy).Contents (Elt F) → (⟨S20000x512, .f32⟩ : BufTy).Contents (Elt F)),
    binary main_v138 main_v137 main_v139 (mulf : (⟨S20000x512, .f32⟩ : BufTy).Contents (Elt F) → (⟨S20000x512, .f32⟩ : BufTy).Contents (Elt F) → (⟨S20000x512, .f32⟩ : BufTy).Contents (Elt F)),
    binary main_v139 main_v8 main_v140 (subf : (⟨S20000x512, .f32⟩ : BufTy).Contents (Elt F) → (⟨S20000x512, .f32⟩ : BufTy).Contents (Elt F) → (⟨S20000x512, .f32⟩ : BufTy).Contents (Elt F)),
    unary main_arg9 main_v141 ((extractStridedSlice S1x512x16 ![2, 0, 0] · slices_S3x512x16_S1x512x16_2_0_0) : (⟨S3x512x16, .f32⟩ : BufTy).Contents (Elt F) → (⟨S1x512x16, .f32⟩ : BufTy).Contents (Elt F)),
    reshape main_v141 main_v142 rfl shapeCasts_S1x512x16_S512x16 ]

abbrev rdot9 : HloOp τ sig (Elt F) :=
  binary main_v140 main_v142 main_v143 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F))

abbrev rops10 : List (HloOp τ sig (Elt F)) :=
  [ binary main_v123 main_v143 main_v144 (addf : (⟨S20000x16, .f32⟩ : BufTy).Contents (Elt F) → (⟨S20000x16, .f32⟩ : BufTy).Contents (Elt F) → (⟨S20000x16, .f32⟩ : BufTy).Contents (Elt F)),
    nullary main_cst_25 (constant S_ .f32 0x00000000#32),
    unary main_cst_25 main_v145 (broadcastInDim S20000x16 ![] bcast_S_S20000x16 : (⟨S_, .f32⟩ : BufTy).Contents (Elt F) → (⟨S20000x16, .f32⟩ : BufTy).Contents (Elt F)),
    binary main_v144 main_v145 main_v146 (maximumf : (⟨S20000x16, .f32⟩ : BufTy).Contents (Elt F) → (⟨S20000x16, .f32⟩ : BufTy).Contents (Elt F) → (⟨S20000x16, .f32⟩ : BufTy).Contents (Elt F)),
    unary main_v102 main_v147 (broadcastInDim S200000x1 ![0] bcast_S200000_S200000x1_0 : (⟨S200000, .f32⟩ : BufTy).Contents (Elt F) → (⟨S200000x1, .f32⟩ : BufTy).Contents (Elt F)),
    nullary main_c_26 (constantI S_ 32 0#32),
    unary main_c_26 main_v148 (broadcastInDim S200000 ![] bcast_S_S200000 : (⟨S_, .i32⟩ : BufTy).Contents (Elt F) → (⟨S200000, .i32⟩ : BufTy).Contents (Elt F)),
    binary main_v1 main_v148 main_v149 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32),
    unary main_c_27 main_v150 (broadcastInDim S200000 ![] bcast_S_S200000 : (⟨S_, .i32⟩ : BufTy).Contents (Elt F) → (⟨S200000, .i32⟩ : BufTy).Contents (Elt F)),
    binary main_v1 main_v150 main_v151 (addi : (⟨S200000, .i32⟩ : BufTy).Contents (Elt F) → (⟨S200000, .i32⟩ : BufTy).Contents (Elt F) → (⟨S200000, .i32⟩ : BufTy).Contents (Elt F)),
    ternary main_v149 main_v151 main_v1 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v152 main_v153 (broadcastInDim S200000x1 ![0] bcast_S200000_S200000x1_0 : (⟨S200000, .i32⟩ : BufTy).Contents (Elt F) → (⟨S200000x1, .i32⟩ : BufTy).Contents (Elt F)),
    binary main_v146 main_v153 main_v154 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v147 main_v155 (broadcastInDim S200000x16 ![0, 1] bcast_S200000x1_S200000x16_0_1 : (⟨S200000x1, .f32⟩ : BufTy).Contents (Elt F) → (⟨S200000x16, .f32⟩ : BufTy).Contents (Elt F)),
    binary main_v155 main_v154 main_v156 (mulf : (⟨S200000x16, .f32⟩ : BufTy).Contents (Elt F) → (⟨S200000x16, .f32⟩ : BufTy).Contents (Elt F) → (⟨S200000x16, .f32⟩ : BufTy).Contents (Elt F)),
    nullary main_cst_28 (constant S_ .f32 0x00000000#32),
    unary main_cst_28 main_v157 (broadcastInDim S20000x16 ![] bcast_S_S20000x16 : (⟨S_, .f32⟩ : BufTy).Contents (Elt F) → (⟨S20000x16, .f32⟩ : BufTy).Contents (Elt F)),
    unary main_v3 main_v158 (broadcastInDim S200000x1 ![0] bcast_S200000_S200000x1_0 : (⟨S200000, .i32⟩ : BufTy).Contents (Elt F) → (⟨S200000x1, .i32⟩ : BufTy).Contents (Elt F)),
    ternary main_v157 main_v158 main_v156 main_v159 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v159 main_v160 (Host.negf : (⟨S20000x16, .f32⟩ : BufTy).Contents (Elt F) → (⟨S20000x16, .f32⟩ : BufTy).Contents (Elt F)),
    unary main_arg10 main_v161 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v161 main_v162 rfl shapeCasts_S1x16x16_S16x16 ]

abbrev rdot10 : HloOp τ sig (Elt F) :=
  binary main_v146 main_v162 main_v163 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops11 : List (HloOp τ sig (Elt F)) :=
  [ unary main_arg10 main_v164 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v164 main_v165 rfl shapeCasts_S1x16x16_S16x16 ]

abbrev rdot11 : HloOp τ sig (Elt F) :=
  binary main_v160 main_v165 main_v166 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops12 : List (HloOp τ sig (Elt F)) :=
  [ binary main_v163 main_v166 main_v167 (addf : (⟨S20000x16, .f32⟩ : BufTy).Contents (Elt F) → (⟨S20000x16, .f32⟩ : BufTy).Contents (Elt F) → (⟨S20000x16, .f32⟩ : BufTy).Contents (Elt F)),
    unary main_v102 main_v168 (broadcastInDim S200000x1 ![0] bcast_S200000_S200000x1_0 : (⟨S200000, .f32⟩ : BufTy).Contents (Elt F) → (⟨S200000x1, .f32⟩ : BufTy).Contents (Elt F)),
    nullary main_c_29 (constantI S_ 32 0#32),
    unary main_c_29 main_v169 (broadcastInDim S200000 ![] bcast_S_S200000 : (⟨S_, .i32⟩ : BufTy).Contents (Elt F) → (⟨S200000, .i32⟩ : BufTy).Contents (Elt F)),
    binary main_v1 main_v169 main_v170 (cmpi .slt : (⟨S200000, .i32⟩ : BufTy).Contents (Elt F) → (⟨S200000, .i32⟩ : BufTy).Contents (Elt F) → (⟨S200000, .i1⟩ : BufTy).Contents (Elt F)),
    nullary main_c_30 (constantI S_ 32 20000#32),
    unary main_c_30 main_v171 (broadcastInDim S200000 ![] bcast_S_S200000 : (⟨S_, .i32⟩ : BufTy).Contents (Elt F) → (⟨S200000, .i32⟩ : BufTy).Contents (Elt F)),
    binary main_v1 main_v171 main_v172 (addi : (⟨S200000, .i32⟩ : BufTy).Contents (Elt F) → (⟨S200000, .i32⟩ : BufTy).Contents (Elt F) → (⟨S200000, .i32⟩ : BufTy).Contents (Elt F)),
    ternary main_v170 main_v172 main_v1 main_v173 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v173 main_v174 (broadcastInDim S200000x1 ![0] bcast_S200000_S200000x1_0 : (⟨S200000, .i32⟩ : BufTy).Contents (Elt F) → (⟨S200000x1, .i32⟩ : BufTy).Contents (Elt F)),
    binary main_v160 main_v174 main_v175 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v168 main_v176 (broadcastInDim S200000x16 ![0, 1] bcast_S200000x1_S200000x16_0_1 : (⟨S200000x1, .f32⟩ : BufTy).Contents (Elt F) → (⟨S200000x16, .f32⟩ : BufTy).Contents (Elt F)),
    binary main_v176 main_v175 main_v177 (mulf : (⟨S200000x16, .f32⟩ : BufTy).Contents (Elt F) → (⟨S200000x16, .f32⟩ : BufTy).Contents (Elt F) → (⟨S200000x16, .f32⟩ : BufTy).Contents (Elt F)),
    nullary main_cst_31 (constant S_ .f32 0x00000000#32),
    unary main_cst_31 main_v178 (broadcastInDim S20000x16 ![] bcast_S_S20000x16 : (⟨S_, .f32⟩ : BufTy).Contents (Elt F) → (⟨S20000x16, .f32⟩ : BufTy).Contents (Elt F)),
    unary main_v3 main_v179 (broadcastInDim S200000x1 ![0] bcast_S200000_S200000x1_0 : (⟨S200000, .i32⟩ : BufTy).Contents (Elt F) → (⟨S200000x1, .i32⟩ : BufTy).Contents (Elt F)),
    ternary main_v178 main_v179 main_v177 main_v180 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v180 main_v181 (Host.negf : (⟨S20000x16, .f32⟩ : BufTy).Contents (Elt F) → (⟨S20000x16, .f32⟩ : BufTy).Contents (Elt F)),
    nullary main_cst_32 (constant S_ .f32 0x40000000#32),
    unary main_cst_32 main_v182 (broadcastInDim S20000x16 ![] bcast_S_S20000x16 : (⟨S_, .f32⟩ : BufTy).Contents (Elt F) → (⟨S20000x16, .f32⟩ : BufTy).Contents (Elt F)),
    binary main_v182 main_v181 main_v183 (mulf : (⟨S20000x16, .f32⟩ : BufTy).Contents (Elt F) → (⟨S20000x16, .f32⟩ : BufTy).Contents (Elt F) → (⟨S20000x16, .f32⟩ : BufTy).Contents (Elt F)),
    binary main_v183 main_v146 main_v184 (subf : (⟨S20000x16, .f32⟩ : BufTy).Contents (Elt F) → (⟨S20000x16, .f32⟩ : BufTy).Contents (Elt F) → (⟨S20000x16, .f32⟩ : BufTy).Contents (Elt F)),
    unary main_arg10 main_v185 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v185 main_v186 rfl shapeCasts_S1x16x16_S16x16 ]

abbrev rdot12 : HloOp τ sig (Elt F) :=
  binary main_v184 main_v186 main_v187 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops13 : List (HloOp τ sig (Elt F)) :=
  [ binary main_v167 main_v187 main_v188 (addf : (⟨S20000x16, .f32⟩ : BufTy).Contents (Elt F) → (⟨S20000x16, .f32⟩ : BufTy).Contents (Elt F) → (⟨S20000x16, .f32⟩ : BufTy).Contents (Elt F)),
    nullary main_cst_33 (constant S_ .f32 0x00000000#32),
    unary main_cst_33 main_v189 (broadcastInDim S20000x16 ![] bcast_S_S20000x16 : (⟨S_, .f32⟩ : BufTy).Contents (Elt F) → (⟨S20000x16, .f32⟩ : BufTy).Contents (Elt F)),
    binary main_v188 main_v189 main_v190 (maximumf : (⟨S20000x16, .f32⟩ : BufTy).Contents (Elt F) → (⟨S20000x16, .f32⟩ : BufTy).Contents (Elt F) → (⟨S20000x16, .f32⟩ : BufTy).Contents (Elt F)),
    binary main_v146 main_v190 main_v191 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)),
    unary main_v102 main_v192 (broadcastInDim S200000x1 ![0] bcast_S200000_S200000x1_0 : (⟨S200000, .f32⟩ : BufTy).Contents (Elt F) → (⟨S200000x1, .f32⟩ : BufTy).Contents (Elt F)),
    nullary main_c_34 (constantI S_ 32 0#32),
    unary main_c_34 main_v193 (broadcastInDim S200000 ![] bcast_S_S200000 : (⟨S_, .i32⟩ : BufTy).Contents (Elt F) → (⟨S200000, .i32⟩ : BufTy).Contents (Elt F)),
    binary main_v1 main_v193 main_v194 (cmpi .slt : (⟨S200000, .i32⟩ : BufTy).Contents (Elt F) → (⟨S200000, .i32⟩ : BufTy).Contents (Elt F) → (⟨S200000, .i1⟩ : BufTy).Contents (Elt F)),
    nullary main_c_35 (constantI S_ 32 20000#32),
    unary main_c_35 main_v195 (broadcastInDim S200000 ![] bcast_S_S200000 : (⟨S_, .i32⟩ : BufTy).Contents (Elt F) → (⟨S200000, .i32⟩ : BufTy).Contents (Elt F)),
    binary main_v1 main_v195 main_v196 (addi : (⟨S200000, .i32⟩ : BufTy).Contents (Elt F) → (⟨S200000, .i32⟩ : BufTy).Contents (Elt F) → (⟨S200000, .i32⟩ : BufTy).Contents (Elt F)),
    ternary main_v194 main_v196 main_v1 main_v197 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v197 main_v198 (broadcastInDim S200000x1 ![0] bcast_S200000_S200000x1_0 : (⟨S200000, .i32⟩ : BufTy).Contents (Elt F) → (⟨S200000x1, .i32⟩ : BufTy).Contents (Elt F)),
    binary main_v190 main_v198 main_v199 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v192 main_v200 (broadcastInDim S200000x16 ![0, 1] bcast_S200000x1_S200000x16_0_1 : (⟨S200000x1, .f32⟩ : BufTy).Contents (Elt F) → (⟨S200000x16, .f32⟩ : BufTy).Contents (Elt F)),
    binary main_v200 main_v199 main_v201 (mulf : (⟨S200000x16, .f32⟩ : BufTy).Contents (Elt F) → (⟨S200000x16, .f32⟩ : BufTy).Contents (Elt F) → (⟨S200000x16, .f32⟩ : BufTy).Contents (Elt F)),
    nullary main_cst_36 (constant S_ .f32 0x00000000#32),
    unary main_cst_36 main_v202 (broadcastInDim S20000x16 ![] bcast_S_S20000x16 : (⟨S_, .f32⟩ : BufTy).Contents (Elt F) → (⟨S20000x16, .f32⟩ : BufTy).Contents (Elt F)),
    unary main_v3 main_v203 (broadcastInDim S200000x1 ![0] bcast_S200000_S200000x1_0 : (⟨S200000, .i32⟩ : BufTy).Contents (Elt F) → (⟨S200000x1, .i32⟩ : BufTy).Contents (Elt F)),
    ternary main_v202 main_v203 main_v201 main_v204 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v204 main_v205 (Host.negf : (⟨S20000x16, .f32⟩ : BufTy).Contents (Elt F) → (⟨S20000x16, .f32⟩ : BufTy).Contents (Elt F)),
    unary main_arg11 main_v206 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v206 main_v207 rfl shapeCasts_S1x16x16_S16x16 ]

abbrev rdot13 : HloOp τ sig (Elt F) :=
  binary main_v190 main_v207 main_v208 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops14 : List (HloOp τ sig (Elt F)) :=
  [ unary main_arg11 main_v209 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v209 main_v210 rfl shapeCasts_S1x16x16_S16x16 ]

abbrev rdot14 : HloOp τ sig (Elt F) :=
  binary main_v205 main_v210 main_v211 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops15 : List (HloOp τ sig (Elt F)) :=
  [ binary main_v208 main_v211 main_v212 (addf : (⟨S20000x16, .f32⟩ : BufTy).Contents (Elt F) → (⟨S20000x16, .f32⟩ : BufTy).Contents (Elt F) → (⟨S20000x16, .f32⟩ : BufTy).Contents (Elt F)),
    unary main_v102 main_v213 (broadcastInDim S200000x1 ![0] bcast_S200000_S200000x1_0 : (⟨S200000, .f32⟩ : BufTy).Contents (Elt F) → (⟨S200000x1, .f32⟩ : BufTy).Contents (Elt F)),
    nullary main_c_37 (constantI S_ 32 0#32),
    unary main_c_37 main_v214 (broadcastInDim S200000 ![] bcast_S_S200000 : (⟨S_, .i32⟩ : BufTy).Contents (Elt F) → (⟨S200000, .i32⟩ : BufTy).Contents (Elt F)),
    binary main_v1 main_v214 main_v215 (cmpi .slt : (⟨S200000, .i32⟩ : BufTy).Contents (Elt F) → (⟨S200000, .i32⟩ : BufTy).Contents (Elt F) → (⟨S200000, .i1⟩ : BufTy).Contents (Elt F)),
    nullary main_c_38 (constantI S_ 32 20000#32),
    unary main_c_38 main_v216 (broadcastInDim S200000 ![] bcast_S_S200000 : (⟨S_, .i32⟩ : BufTy).Contents (Elt F) → (⟨S200000, .i32⟩ : BufTy).Contents (Elt F)),
    binary main_v1 main_v216 main_v217 (addi : (⟨S200000, .i32⟩ : BufTy).Contents (Elt F) → (⟨S200000, .i32⟩ : BufTy).Contents (Elt F) → (⟨S200000, .i32⟩ : BufTy).Contents (Elt F)),
    ternary main_v215 main_v217 main_v1 main_v218 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v218 main_v219 (broadcastInDim S200000x1 ![0] bcast_S200000_S200000x1_0 : (⟨S200000, .i32⟩ : BufTy).Contents (Elt F) → (⟨S200000x1, .i32⟩ : BufTy).Contents (Elt F)),
    binary main_v205 main_v219 main_v220 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v213 main_v221 (broadcastInDim S200000x16 ![0, 1] bcast_S200000x1_S200000x16_0_1 : (⟨S200000x1, .f32⟩ : BufTy).Contents (Elt F) → (⟨S200000x16, .f32⟩ : BufTy).Contents (Elt F)),
    binary main_v221 main_v220 main_v222 (mulf : (⟨S200000x16, .f32⟩ : BufTy).Contents (Elt F) → (⟨S200000x16, .f32⟩ : BufTy).Contents (Elt F) → (⟨S200000x16, .f32⟩ : BufTy).Contents (Elt F)),
    nullary main_cst_39 (constant S_ .f32 0x00000000#32),
    unary main_cst_39 main_v223 (broadcastInDim S20000x16 ![] bcast_S_S20000x16 : (⟨S_, .f32⟩ : BufTy).Contents (Elt F) → (⟨S20000x16, .f32⟩ : BufTy).Contents (Elt F)),
    unary main_v3 main_v224 (broadcastInDim S200000x1 ![0] bcast_S200000_S200000x1_0 : (⟨S200000, .i32⟩ : BufTy).Contents (Elt F) → (⟨S200000x1, .i32⟩ : BufTy).Contents (Elt F)),
    ternary main_v223 main_v224 main_v222 main_v225 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v225 main_v226 (Host.negf : (⟨S20000x16, .f32⟩ : BufTy).Contents (Elt F) → (⟨S20000x16, .f32⟩ : BufTy).Contents (Elt F)),
    nullary main_cst_40 (constant S_ .f32 0x40000000#32),
    unary main_cst_40 main_v227 (broadcastInDim S20000x16 ![] bcast_S_S20000x16 : (⟨S_, .f32⟩ : BufTy).Contents (Elt F) → (⟨S20000x16, .f32⟩ : BufTy).Contents (Elt F)),
    binary main_v227 main_v226 main_v228 (mulf : (⟨S20000x16, .f32⟩ : BufTy).Contents (Elt F) → (⟨S20000x16, .f32⟩ : BufTy).Contents (Elt F) → (⟨S20000x16, .f32⟩ : BufTy).Contents (Elt F)),
    binary main_v228 main_v190 main_v229 (subf : (⟨S20000x16, .f32⟩ : BufTy).Contents (Elt F) → (⟨S20000x16, .f32⟩ : BufTy).Contents (Elt F) → (⟨S20000x16, .f32⟩ : BufTy).Contents (Elt F)),
    unary main_arg11 main_v230 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v230 main_v231 rfl shapeCasts_S1x16x16_S16x16 ]

abbrev rdot15 : HloOp τ sig (Elt F) :=
  binary main_v229 main_v231 main_v232 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops16 : List (HloOp τ sig (Elt F)) :=
  [ binary main_v212 main_v232 main_v233 (addf : (⟨S20000x16, .f32⟩ : BufTy).Contents (Elt F) → (⟨S20000x16, .f32⟩ : BufTy).Contents (Elt F) → (⟨S20000x16, .f32⟩ : BufTy).Contents (Elt F)),
    nullary main_cst_41 (constant S_ .f32 0x00000000#32),
    unary main_cst_41 main_v234 (broadcastInDim S20000x16 ![] bcast_S_S20000x16 : (⟨S_, .f32⟩ : BufTy).Contents (Elt F) → (⟨S20000x16, .f32⟩ : BufTy).Contents (Elt F)),
    binary main_v233 main_v234 main_v235 (maximumf : (⟨S20000x16, .f32⟩ : BufTy).Contents (Elt F) → (⟨S20000x16, .f32⟩ : BufTy).Contents (Elt F) → (⟨S20000x16, .f32⟩ : BufTy).Contents (Elt F)),
    binary main_v191 main_v235 main_v236 ((fun a b => concatenate S20000x48 1 [⟨S20000x32, a⟩, ⟨S20000x16, b⟩] concatenates_S20000x32_S20000x16_S20000x48_d1) : (⟨S20000x32, .f32⟩ : BufTy).Contents (Elt F) → (⟨S20000x16, .f32⟩ : BufTy).Contents (Elt F) → (⟨S20000x48, .f32⟩ : BufTy).Contents (Elt F)),
    unary main_v102 main_v237 (broadcastInDim S200000x1 ![0] bcast_S200000_S200000x1_0 : (⟨S200000, .f32⟩ : BufTy).Contents (Elt F) → (⟨S200000x1, .f32⟩ : BufTy).Contents (Elt F)),
    nullary main_c_42 (constantI S_ 32 0#32),
    unary main_c_42 main_v238 (broadcastInDim S200000 ![] bcast_S_S200000 : (⟨S_, .i32⟩ : BufTy).Contents (Elt F) → (⟨S200000, .i32⟩ : BufTy).Contents (Elt F)),
    binary main_v1 main_v238 main_v239 (cmpi .slt : (⟨S200000, .i32⟩ : BufTy).Contents (Elt F) → (⟨S200000, .i32⟩ : BufTy).Contents (Elt F) → (⟨S200000, .i1⟩ : BufTy).Contents (Elt F)),
    nullary main_c_43 (constantI S_ 32 20000#32),
    unary main_c_43 main_v240 (broadcastInDim S200000 ![] bcast_S_S200000 : (⟨S_, .i32⟩ : BufTy).Contents (Elt F) → (⟨S200000, .i32⟩ : BufTy).Contents (Elt F)),
    binary main_v1 main_v240 main_v241 (addi : (⟨S200000, .i32⟩ : BufTy).Contents (Elt F) → (⟨S200000, .i32⟩ : BufTy).Contents (Elt F) → (⟨S200000, .i32⟩ : BufTy).Contents (Elt F)),
    ternary main_v239 main_v241 main_v1 main_v242 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v242 main_v243 (broadcastInDim S200000x1 ![0] bcast_S200000_S200000x1_0 : (⟨S200000, .i32⟩ : BufTy).Contents (Elt F) → (⟨S200000x1, .i32⟩ : BufTy).Contents (Elt F)),
    binary main_v235 main_v243 main_v244 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v237 main_v245 (broadcastInDim S200000x16 ![0, 1] bcast_S200000x1_S200000x16_0_1 : (⟨S200000x1, .f32⟩ : BufTy).Contents (Elt F) → (⟨S200000x16, .f32⟩ : BufTy).Contents (Elt F)),
    binary main_v245 main_v244 main_v246 (mulf : (⟨S200000x16, .f32⟩ : BufTy).Contents (Elt F) → (⟨S200000x16, .f32⟩ : BufTy).Contents (Elt F) → (⟨S200000x16, .f32⟩ : BufTy).Contents (Elt F)),
    nullary main_cst_44 (constant S_ .f32 0x00000000#32),
    unary main_cst_44 main_v247 (broadcastInDim S20000x16 ![] bcast_S_S20000x16 : (⟨S_, .f32⟩ : BufTy).Contents (Elt F) → (⟨S20000x16, .f32⟩ : BufTy).Contents (Elt F)),
    unary main_v3 main_v248 (broadcastInDim S200000x1 ![0] bcast_S200000_S200000x1_0 : (⟨S200000, .i32⟩ : BufTy).Contents (Elt F) → (⟨S200000x1, .i32⟩ : BufTy).Contents (Elt F)),
    ternary main_v247 main_v248 main_v246 main_v249 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v249 main_v250 (Host.negf : (⟨S20000x16, .f32⟩ : BufTy).Contents (Elt F) → (⟨S20000x16, .f32⟩ : BufTy).Contents (Elt F)),
    unary main_arg12 main_v251 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v251 main_v252 rfl shapeCasts_S1x16x16_S16x16 ]

abbrev rdot16 : HloOp τ sig (Elt F) :=
  binary main_v235 main_v252 main_v253 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops17 : List (HloOp τ sig (Elt F)) :=
  [ unary main_arg12 main_v254 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v254 main_v255 rfl shapeCasts_S1x16x16_S16x16 ]

abbrev rdot17 : HloOp τ sig (Elt F) :=
  binary main_v250 main_v255 main_v256 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops18 : List (HloOp τ sig (Elt F)) :=
  [ binary main_v253 main_v256 main_v257 (addf : (⟨S20000x16, .f32⟩ : BufTy).Contents (Elt F) → (⟨S20000x16, .f32⟩ : BufTy).Contents (Elt F) → (⟨S20000x16, .f32⟩ : BufTy).Contents (Elt F)),
    unary main_v102 main_v258 (broadcastInDim S200000x1 ![0] bcast_S200000_S200000x1_0 : (⟨S200000, .f32⟩ : BufTy).Contents (Elt F) → (⟨S200000x1, .f32⟩ : BufTy).Contents (Elt F)),
    nullary main_c_45 (constantI S_ 32 0#32),
    unary main_c_45 main_v259 (broadcastInDim S200000 ![] bcast_S_S200000 : (⟨S_, .i32⟩ : BufTy).Contents (Elt F) → (⟨S200000, .i32⟩ : BufTy).Contents (Elt F)),
    binary main_v1 main_v259 main_v260 (cmpi .slt : (⟨S200000, .i32⟩ : BufTy).Contents (Elt F) → (⟨S200000, .i32⟩ : BufTy).Contents (Elt F) → (⟨S200000, .i1⟩ : BufTy).Contents (Elt F)),
    nullary main_c_46 (constantI S_ 32 20000#32),
    unary main_c_46 main_v261 (broadcastInDim S200000 ![] bcast_S_S200000 : (⟨S_, .i32⟩ : BufTy).Contents (Elt F) → (⟨S200000, .i32⟩ : BufTy).Contents (Elt F)),
    binary main_v1 main_v261 main_v262 (addi : (⟨S200000, .i32⟩ : BufTy).Contents (Elt F) → (⟨S200000, .i32⟩ : BufTy).Contents (Elt F) → (⟨S200000, .i32⟩ : BufTy).Contents (Elt F)),
    ternary main_v260 main_v262 main_v1 main_v263 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v263 main_v264 (broadcastInDim S200000x1 ![0] bcast_S200000_S200000x1_0 : (⟨S200000, .i32⟩ : BufTy).Contents (Elt F) → (⟨S200000x1, .i32⟩ : BufTy).Contents (Elt F)),
    binary main_v250 main_v264 main_v265 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v258 main_v266 (broadcastInDim S200000x16 ![0, 1] bcast_S200000x1_S200000x16_0_1 : (⟨S200000x1, .f32⟩ : BufTy).Contents (Elt F) → (⟨S200000x16, .f32⟩ : BufTy).Contents (Elt F)),
    binary main_v266 main_v265 main_v267 (mulf : (⟨S200000x16, .f32⟩ : BufTy).Contents (Elt F) → (⟨S200000x16, .f32⟩ : BufTy).Contents (Elt F) → (⟨S200000x16, .f32⟩ : BufTy).Contents (Elt F)),
    nullary main_cst_47 (constant S_ .f32 0x00000000#32),
    unary main_cst_47 main_v268 (broadcastInDim S20000x16 ![] bcast_S_S20000x16 : (⟨S_, .f32⟩ : BufTy).Contents (Elt F) → (⟨S20000x16, .f32⟩ : BufTy).Contents (Elt F)),
    unary main_v3 main_v269 (broadcastInDim S200000x1 ![0] bcast_S200000_S200000x1_0 : (⟨S200000, .i32⟩ : BufTy).Contents (Elt F) → (⟨S200000x1, .i32⟩ : BufTy).Contents (Elt F)),
    ternary main_v268 main_v269 main_v267 main_v270 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v270 main_v271 (Host.negf : (⟨S20000x16, .f32⟩ : BufTy).Contents (Elt F) → (⟨S20000x16, .f32⟩ : BufTy).Contents (Elt F)),
    nullary main_cst_48 (constant S_ .f32 0x40000000#32),
    unary main_cst_48 main_v272 (broadcastInDim S20000x16 ![] bcast_S_S20000x16 : (⟨S_, .f32⟩ : BufTy).Contents (Elt F) → (⟨S20000x16, .f32⟩ : BufTy).Contents (Elt F)),
    binary main_v272 main_v271 main_v273 (mulf : (⟨S20000x16, .f32⟩ : BufTy).Contents (Elt F) → (⟨S20000x16, .f32⟩ : BufTy).Contents (Elt F) → (⟨S20000x16, .f32⟩ : BufTy).Contents (Elt F)),
    binary main_v273 main_v235 main_v274 (subf : (⟨S20000x16, .f32⟩ : BufTy).Contents (Elt F) → (⟨S20000x16, .f32⟩ : BufTy).Contents (Elt F) → (⟨S20000x16, .f32⟩ : BufTy).Contents (Elt F)),
    unary main_arg12 main_v275 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v275 main_v276 rfl shapeCasts_S1x16x16_S16x16 ]

abbrev rdot18 : HloOp τ sig (Elt F) :=
  binary main_v274 main_v276 main_v277 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F))

abbrev rops19 : List (HloOp τ sig (Elt F)) :=
  [ binary main_v257 main_v277 main_v278 (addf : (⟨S20000x16, .f32⟩ : BufTy).Contents (Elt F) → (⟨S20000x16, .f32⟩ : BufTy).Contents (Elt F) → (⟨S20000x16, .f32⟩ : BufTy).Contents (Elt F)),
    nullary main_cst_49 (constant S_ .f32 0x00000000#32),
    unary main_cst_49 main_v279 (broadcastInDim S20000x16 ![] bcast_S_S20000x16 : (⟨S_, .f32⟩ : BufTy).Contents (Elt F) → (⟨S20000x16, .f32⟩ : BufTy).Contents (Elt F)),
    binary main_v278 main_v279 main_v280 (maximumf : (⟨S20000x16, .f32⟩ : BufTy).Contents (Elt F) → (⟨S20000x16, .f32⟩ : BufTy).Contents (Elt F) → (⟨S20000x16, .f32⟩ : BufTy).Contents (Elt F)),
    binary main_v236 main_v280 main_v281 ((fun a b => concatenate S20000x64 1 [⟨S20000x48, a⟩, ⟨S20000x16, b⟩] concatenates_S20000x48_S20000x16_S20000x64_d1) : (⟨S20000x48, .f32⟩ : BufTy).Contents (Elt F) → (⟨S20000x16, .f32⟩ : BufTy).Contents (Elt F) → (⟨S20000x64, .f32⟩ : BufTy).Contents (Elt F)),
    unary main_arg13 main_v282 ((transpose S64x256 [1, 0] · transposes_S256x64_S64x256_1_0) : (⟨S256x64, .f32⟩ : BufTy).Contents (Elt F) → (⟨S64x256, .f32⟩ : BufTy).Contents (Elt F)) ]

abbrev rdot19 : HloOp τ sig (Elt F) :=
  binary main_v281 main_v282 main_v283 ((fun l r => Host.dotGeneral dot_S20000x64_S64x256_S20000x256_1_0_0_1_n_n none l r) : (⟨S20000x64, .f32⟩ : BufTy).Contents (Elt F) → (⟨S64x256, .f32⟩ : BufTy).Contents (Elt F) → (⟨S20000x256, .f32⟩ : BufTy).Contents (Elt F))

abbrev rops20 : List (HloOp τ sig (Elt F)) :=
  [ unary main_arg14 main_v284 (broadcastInDim S1x256 ![1] bcast_S256_S1x256_1 : (⟨S256, .f32⟩ : BufTy).Contents (Elt F) → (⟨S1x256, .f32⟩ : BufTy).Contents (Elt F)),
    unary main_v284 main_v285 (broadcastInDim S20000x256 ![0, 1] bcast_S1x256_S20000x256_0_1 : (⟨S1x256, .f32⟩ : BufTy).Contents (Elt F) → (⟨S20000x256, .f32⟩ : BufTy).Contents (Elt F)),
    binary main_v283 main_v285 main_v286 (addf : (⟨S20000x256, .f32⟩ : BufTy).Contents (Elt F) → (⟨S20000x256, .f32⟩ : BufTy).Contents (Elt F) → (⟨S20000x256, .f32⟩ : BufTy).Contents (Elt F)),
    nullary main_cst_50 (constant S_ .f32 0x00000000#32),
    unary main_cst_50 main_v287 (broadcastInDim S20000x256 ![] bcast_S_S20000x256 : (⟨S_, .f32⟩ : BufTy).Contents (Elt F) → (⟨S20000x256, .f32⟩ : BufTy).Contents (Elt F)),
    binary main_v286 main_v287 main_v288 (maximumf : (⟨S20000x256, .f32⟩ : BufTy).Contents (Elt F) → (⟨S20000x256, .f32⟩ : BufTy).Contents (Elt F) → (⟨S20000x256, .f32⟩ : BufTy).Contents (Elt F)),
    nullary main_cst_51 (constant S_ .f32 0x3F7FFFAC#32),
    unary main_cst_51 main_v289 (broadcastInDim S20000x256 ![] bcast_S_S20000x256 : (⟨S_, .f32⟩ : BufTy).Contents (Elt F) → (⟨S20000x256, .f32⟩ : BufTy).Contents (Elt F)),
    binary main_v288 main_v289 main_v290 (mulf : (⟨S20000x256, .f32⟩ : BufTy).Contents (Elt F) → (⟨S20000x256, .f32⟩ : BufTy).Contents (Elt F) → (⟨S20000x256, .f32⟩ : BufTy).Contents (Elt F)),
    unary main_arg15 main_v291 ((transpose S256x2 [1, 0] · transposes_S2x256_S256x2_1_0) : (⟨S2x256, .f32⟩ : BufTy).Contents (Elt F) → (⟨S256x2, .f32⟩ : BufTy).Contents (Elt F)) ]

abbrev rdot20 : HloOp τ sig (Elt F) :=
  binary main_v290 main_v291 main_v292 ((fun l r => Host.dotGeneral dot_S20000x256_S256x2_S20000x2_1_0_0_1_n_n none l r) : (⟨S20000x256, .f32⟩ : BufTy).Contents (Elt F) → (⟨S256x2, .f32⟩ : BufTy).Contents (Elt F) → (⟨S20000x2, .f32⟩ : BufTy).Contents (Elt F))

abbrev rops21 : List (HloOp τ sig (Elt F)) :=
  [ unary main_arg16 main_v293 (broadcastInDim S1x2 ![1] bcast_S2_S1x2_1 : (⟨S2, .f32⟩ : BufTy).Contents (Elt F) → (⟨S1x2, .f32⟩ : BufTy).Contents (Elt F)),
    unary main_v293 main_v294 (broadcastInDim S20000x2 ![0, 1] bcast_S1x2_S20000x2_0_1 : (⟨S1x2, .f32⟩ : BufTy).Contents (Elt F) → (⟨S20000x2, .f32⟩ : BufTy).Contents (Elt F)),
    binary main_v292 main_v294 main_v295 (addf : (⟨S20000x2, .f32⟩ : BufTy).Contents (Elt F) → (⟨S20000x2, .f32⟩ : BufTy).Contents (Elt F) → (⟨S20000x2, .f32⟩ : BufTy).Contents (Elt F)),
    unary main_arg17 main_v296 ((transpose S512x256 [1, 0] · transposes_S256x512_S512x256_1_0) : (⟨S256x512, .f32⟩ : BufTy).Contents (Elt F) → (⟨S512x256, .f32⟩ : BufTy).Contents (Elt F)) ]

abbrev rdot21 : HloOp τ sig (Elt F) :=
  binary main_v8 main_v296 main_v297 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F))

abbrev rops22 : List (HloOp τ sig (Elt F)) :=
  [ unary main_arg18 main_v298 (broadcastInDim S1x256 ![1] bcast_S256_S1x256_1 : (⟨S256, .f32⟩ : BufTy).Contents (Elt F) → (⟨S1x256, .f32⟩ : BufTy).Contents (Elt F)),
    unary main_v298 main_v299 (broadcastInDim S20000x256 ![0, 1] bcast_S1x256_S20000x256_0_1 : (⟨S1x256, .f32⟩ : BufTy).Contents (Elt F) → (⟨S20000x256, .f32⟩ : BufTy).Contents (Elt F)),
    binary main_v297 main_v299 main_v300 (addf : (⟨S20000x256, .f32⟩ : BufTy).Contents (Elt F) → (⟨S20000x256, .f32⟩ : BufTy).Contents (Elt F) → (⟨S20000x256, .f32⟩ : BufTy).Contents (Elt F)),
    nullary main_cst_52 (constant S_ .f32 0x00000000#32),
    unary main_cst_52 main_v301 (broadcastInDim S20000x256 ![] bcast_S_S20000x256 : (⟨S_, .f32⟩ : BufTy).Contents (Elt F) → (⟨S20000x256, .f32⟩ : BufTy).Contents (Elt F)),
    binary main_v300 main_v301 main_v302 (maximumf : (⟨S20000x256, .f32⟩ : BufTy).Contents (Elt F) → (⟨S20000x256, .f32⟩ : BufTy).Contents (Elt F) → (⟨S20000x256, .f32⟩ : BufTy).Contents (Elt F)),
    nullary main_cst_53 (constant S_ .f32 0x3F7FFFAC#32),
    unary main_cst_53 main_v303 (broadcastInDim S20000x256 ![] bcast_S_S20000x256 : (⟨S_, .f32⟩ : BufTy).Contents (Elt F) → (⟨S20000x256, .f32⟩ : BufTy).Contents (Elt F)),
    binary main_v302 main_v303 main_v304 (mulf : (⟨S20000x256, .f32⟩ : BufTy).Contents (Elt F) → (⟨S20000x256, .f32⟩ : BufTy).Contents (Elt F) → (⟨S20000x256, .f32⟩ : BufTy).Contents (Elt F)),
    unary main_arg19 main_v305 ((transpose S256x20 [1, 0] · transposes_S20x256_S256x20_1_0) : (⟨S20x256, .f32⟩ : BufTy).Contents (Elt F) → (⟨S256x20, .f32⟩ : BufTy).Contents (Elt F)) ]

abbrev rdot22 : HloOp τ sig (Elt F) :=
  binary main_v304 main_v305 main_v306 ((fun l r => Host.dotGeneral dot_S20000x256_S256x20_S20000x20_1_0_0_1_n_n none l r) : (⟨S20000x256, .f32⟩ : BufTy).Contents (Elt F) → (⟨S256x20, .f32⟩ : BufTy).Contents (Elt F) → (⟨S20000x20, .f32⟩ : BufTy).Contents (Elt F))

abbrev rops23 : List (HloOp τ sig (Elt F)) :=
  [ unary main_arg20 main_v307 (broadcastInDim S1x20 ![1] bcast_S20_S1x20_1 : (⟨S20, .f32⟩ : BufTy).Contents (Elt F) → (⟨S1x20, .f32⟩ : BufTy).Contents (Elt F)),
    unary main_v307 main_v308 (broadcastInDim S20000x20 ![0, 1] bcast_S1x20_S20000x20_0_1 : (⟨S1x20, .f32⟩ : BufTy).Contents (Elt F) → (⟨S20000x20, .f32⟩ : BufTy).Contents (Elt F)),
    binary main_v306 main_v308 main_v309 (addf : (⟨S20000x20, .f32⟩ : BufTy).Contents (Elt F) → (⟨S20000x20, .f32⟩ : BufTy).Contents (Elt F) → (⟨S20000x20, .f32⟩ : BufTy).Contents (Elt F)) ]

/-- @main's operations: the pieces in order. -/
abbrev ops : List (HloOp τ sig (Elt F)) :=
  rops0 ++ [rdot0] ++ rops1 ++ [rdot1] ++ rops2 ++ [rdot2] ++ rops3 ++ [rdot3] ++ rops4 ++ [rdot4] ++ rops5 ++ [rdot5] ++ rops6 ++ [rdot6] ++ rops7 ++ [rdot7] ++ rops8 ++ [rdot8] ++ rops9 ++ [rdot9] ++ rops10 ++ [rdot10] ++ rops11 ++ [rdot11] ++ rops12 ++ [rdot12] ++ rops13 ++ [rdot13] ++ rops14 ++ [rdot14] ++ rops15 ++ [rdot15] ++ rops16 ++ [rdot16] ++ rops17 ++ [rdot17] ++ rops18 ++ [rdot18] ++ rops19 ++ [rdot19] ++ rops20 ++ [rdot20] ++ rops21 ++ [rdot21] ++ rops22 ++ [rdot22] ++ rops23

end Cert.ReferenceIdeal.Cut

end
-- ==== Proof.RefParts.lean ====
/- The reference's operation list cut at its 23 contractions: in the printed program's windows: each window's operations,
   and the window as the stretches and contractions (or half stretches, where a window ends inside one) it is made of. -/
import proofs.«114227_j13357348290767_1_alg».proof.Proof.RefOps

set_option maxRecDepth 16384

noncomputable section

namespace Cert.ReferenceIdeal.Cut

open Cert.ReferenceIdeal Cert.ReferenceIdeal.Gen Idealize.ShloMosaic Idealize.ShloMosaic.TcCoe Idealize.SL.Sem Idealize.ShloMosaic.StableHlo

variable {F : FTy → Type} [FloatOps F]

abbrev rops6a : List (HloOp τ sig (Elt F)) :=
  [ unary main_arg24 main_v49 (broadcastInDim S1x128 ![1] bcast_S128_S1x128_1 : (⟨S128, .f32⟩ : BufTy).Contents (Elt F) → (⟨S1x128, .f32⟩ : BufTy).Contents (Elt F)),
    unary main_v49 main_v50 (broadcastInDim S200000x128 ![0, 1] bcast_S1x128_S200000x128_0_1 : (⟨S1x128, .f32⟩ : BufTy).Contents (Elt F) → (⟨S200000x128, .f32⟩ : BufTy).Contents (Elt F)),
    binary main_v48 main_v50 main_v51 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v52 (broadcastInDim S200000 ![] bcast_S_S200000 : (⟨S_, .i32⟩ : BufTy).Contents (Elt F) → (⟨S200000, .i32⟩ : BufTy).Contents (Elt F)) ]

abbrev rops6b : List (HloOp τ sig (Elt F)) :=
  [ binary main_v3 main_v52 main_v53 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v54 (broadcastInDim S200000 ![] bcast_S_S200000 : (⟨S_, .i32⟩ : BufTy).Contents (Elt F) → (⟨S200000, .i32⟩ : BufTy).Contents (Elt F)),
    binary main_v3 main_v54 main_v55 (addi : (⟨S200000, .i32⟩ : BufTy).Contents (Elt F) → (⟨S200000, .i32⟩ : BufTy).Contents (Elt F) → (⟨S200000, .i32⟩ : BufTy).Contents (Elt F)),
    ternary main_v53 main_v55 main_v3 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v56 main_v57 (broadcastInDim S200000x1 ![0] bcast_S200000_S200000x1_0 : (⟨S200000, .i32⟩ : BufTy).Contents (Elt F) → (⟨S200000x1, .i32⟩ : BufTy).Contents (Elt F)),
    binary main_v13 main_v57 main_v58 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v51 main_v58 main_v59 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)),
    TRef.binary (TRef.of (T := ⟨S200000x640, .f32⟩) main_v36) (TRef.of (T := ⟨S200000x640, .f32⟩) main_v36) (TRef.of (T := ⟨S200000x640, .f32⟩) main_call0_v0) mulf,
    TRef.nullary (TRef.of (T := ⟨S_, .f32⟩) main_call0_cst) (constant S_ .f32 0x00000000#32),
    TRef.binary (TRef.of (T := ⟨S200000x640, .f32⟩) main_call0_v0) (TRef.of (T := ⟨S_, .f32⟩) main_call0_cst) (TRef.of (T := ⟨S200000, .f32⟩) main_call0_v1) (fun x v => Host.reduceAdd x v reducesTo_S200000x640_S200000_d1 h_S_),
    TRef.unary (TRef.of (T := ⟨S200000, .f32⟩) main_call0_v1) (TRef.of (T := ⟨S200000, .f32⟩) main_v60) Host.sqrt,
    nullary main_cst_6 (constant S_ .f32 0x322BCC77#32),
    unary main_cst_6 main_v61 (broadcastInDim S200000 ![] bcast_S_S200000 : (⟨S_, .f32⟩ : BufTy).Contents (Elt F) → (⟨S200000, .f32⟩ : BufTy).Contents (Elt F)),
    binary main_v60 main_v61 main_v62 (maximumf : (⟨S200000, .f32⟩ : BufTy).Contents (Elt F) → (⟨S200000, .f32⟩ : BufTy).Contents (Elt F) → (⟨S200000, .f32⟩ : BufTy).Contents (Elt F)),
    TRef.binary (TRef.of (T := ⟨S200000x640, .f32⟩) main_v59) (TRef.of (T := ⟨S200000x640, .f32⟩) main_v59) (TRef.of (T := ⟨S200000x640, .f32⟩) main_call1_v0) mulf,
    TRef.nullary (TRef.of (T := ⟨S_, .f32⟩) main_call1_cst) (constant S_ .f32 0x00000000#32),
    TRef.binary (TRef.of (T := ⟨S200000x640, .f32⟩) main_call1_v0) (TRef.of (T := ⟨S_, .f32⟩) main_call1_cst) (TRef.of (T := ⟨S200000, .f32⟩) main_call1_v1) (fun x v => Host.reduceAdd x v reducesTo_S200000x640_S200000_d1 h_S_),
    TRef.unary (TRef.of (T := ⟨S200000, .f32⟩) main_call1_v1) (TRef.of (T := ⟨S200000, .f32⟩) main_v63) Host.sqrt,
    nullary main_cst_7 (constant S_ .f32 0x322BCC77#32),
    unary main_cst_7 main_v64 (broadcastInDim S200000 ![] bcast_S_S200000 : (⟨S_, .f32⟩ : BufTy).Contents (Elt F) → (⟨S200000, .f32⟩ : BufTy).Contents (Elt F)),
    binary main_v63 main_v64 main_v65 (maximumf : (⟨S200000, .f32⟩ : BufTy).Contents (Elt F) → (⟨S200000, .f32⟩ : BufTy).Contents (Elt F) → (⟨S200000, .f32⟩ : BufTy).Contents (Elt F)),
    binary main_v36 main_v59 main_v66 (mulf : (⟨S200000x640, .f32⟩ : BufTy).Contents (Elt F) → (⟨S200000x640, .f32⟩ : BufTy).Contents (Elt F) → (⟨S200000x640, .f32⟩ : BufTy).Contents (Elt F)),
    nullary main_cst_8 (constant S_ .f32 0x00000000#32),
    binary main_v66 main_cst_8 main_v67 ((fun x v => Host.reduceAdd x v reducesTo_S200000x640_S200000_d1 h_S_) : (⟨S200000x640, .f32⟩ : BufTy).Contents (Elt F) → (⟨S_, .f32⟩ : BufTy).Contents (Elt F) → (⟨S200000, .f32⟩ : BufTy).Contents (Elt F)),
    binary main_v62 main_v65 main_v68 (mulf : (⟨S200000, .f32⟩ : BufTy).Contents (Elt F) → (⟨S200000, .f32⟩ : BufTy).Contents (Elt F) → (⟨S200000, .f32⟩ : BufTy).Contents (Elt F)),
    binary main_v67 main_v68 main_v69 (Host.divf : (⟨S200000, .f32⟩ : BufTy).Contents (Elt F) → (⟨S200000, .f32⟩ : BufTy).Contents (Elt F) → (⟨S200000, .f32⟩ : BufTy).Contents (Elt F)),
    nullary main_cst_9 (constant S_ .f32 0x3F800000#32),
    unary main_cst_9 main_v70 (broadcastInDim S200000 ![] bcast_S_S200000 : (⟨S_, .f32⟩ : BufTy).Contents (Elt F) → (⟨S200000, .f32⟩ : BufTy).Contents (Elt F)),
    binary main_v69 main_v70 main_v71 (addf : (⟨S200000, .f32⟩ : BufTy).Contents (Elt F) → (⟨S200000, .f32⟩ : BufTy).Contents (Elt F) → (⟨S200000, .f32⟩ : BufTy).Contents (Elt F)),
    nullary main_cst_10 (constant S_ .f32 0x3F000000#32),
    unary main_cst_10 main_v72 (broadcastInDim S200000 ![] bcast_S_S200000 : (⟨S_, .f32⟩ : BufTy).Contents (Elt F) → (⟨S200000, .f32⟩ : BufTy).Contents (Elt F)),
    binary main_v71 main_v72 main_v73 (mulf : (⟨S200000, .f32⟩ : BufTy).Contents (Elt F) → (⟨S200000, .f32⟩ : BufTy).Contents (Elt F) → (⟨S200000, .f32⟩ : BufTy).Contents (Elt F)),
    binary main_v8 main_v13 main_v74 ((fun a b => concatenate S20000x1024 1 [⟨S20000x512, a⟩, ⟨S20000x512, b⟩] concatenates_S20000x512_S20000x512_S20000x1024_d1) : (⟨S20000x512, .f32⟩ : BufTy).Contents (Elt F) → (⟨S20000x512, .f32⟩ : BufTy).Contents (Elt F) → (⟨S20000x1024, .f32⟩ : BufTy).Contents (Elt F)),
    unary main_arg7 main_v75 ((transpose S1024x512 [1, 0] · transposes_S512x1024_S1024x512_1_0) : (⟨S512x1024, .f32⟩ : BufTy).Contents (Elt F) → (⟨S1024x512, .f32⟩ : BufTy).Contents (Elt F)) ]

theorem rops6_split : (rops6 : List (HloOp τ sig (Elt F))) = rops6a ++ rops6b := rfl

abbrev rops7a : List (HloOp τ sig (Elt F)) :=
  [ unary main_arg8 main_v77 (broadcastInDim S1x512 ![1] bcast_S512_S1x512_1 : (⟨S512, .f32⟩ : BufTy).Contents (Elt F) → (⟨S1x512, .f32⟩ : BufTy).Contents (Elt F)),
    unary main_v77 main_v78 (broadcastInDim S20000x512 ![0, 1] bcast_S1x512_S20000x512_0_1 : (⟨S1x512, .f32⟩ : BufTy).Contents (Elt F) → (⟨S20000x512, .f32⟩ : BufTy).Contents (Elt F)),
    binary main_v76 main_v78 main_v79 (addf : (⟨S20000x512, .f32⟩ : BufTy).Contents (Elt F) → (⟨S20000x512, .f32⟩ : BufTy).Contents (Elt F) → (⟨S20000x512, .f32⟩ : BufTy).Contents (Elt F)),
    nullary main_cst_11 (constant S_ .f32 0x00000000#32),
    unary main_cst_11 main_v80 (broadcastInDim S20000 ![] bcast_S_S20000 : (⟨S_, .f32⟩ : BufTy).Contents (Elt F) → (⟨S20000, .f32⟩ : BufTy).Contents (Elt F)),
    unary main_v1 main_v81 (broadcastInDim S200000x1 ![0] bcast_S200000_S200000x1_0 : (⟨S200000, .i32⟩ : BufTy).Contents (Elt F) → (⟨S200000x1, .i32⟩ : BufTy).Contents (Elt F)),
    ternary main_v80 main_v81 main_v73 main_v82 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    nullary main_cst_12 (constant S_ .f32 0x00000000#32),
    unary main_cst_12 main_v83 (broadcastInDim S20000 ![] bcast_S_S20000 : (⟨S_, .f32⟩ : BufTy).Contents (Elt F) → (⟨S20000, .f32⟩ : BufTy).Contents (Elt F)),
    binary main_v82 main_v83 main_v84 (cmpf .ogt : (⟨S20000, .f32⟩ : BufTy).Contents (Elt F) → (⟨S20000, .f32⟩ : BufTy).Contents (Elt F) → (⟨S20000, .i1⟩ : BufTy).Contents (Elt F)),
    unary main_v82 main_v85 (Host.rsqrt : (⟨S20000, .f32⟩ : BufTy).Contents (Elt F) → (⟨S20000, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v84) (TRef.of (T := ⟨S20000, .f32⟩) main_v85) (TRef.of (T := ⟨S20000, .f32⟩) main_call2_v1) (TRef.of (T := ⟨S20000, .f32⟩) main_v86) select,
    nullary main_c_14 (constantI S_ 32 0#32),
    unary main_c_14 main_v87 (broadcastInDim S200000 ![] bcast_S_S200000 : (⟨S_, .i32⟩ : BufTy).Contents (Elt F) → (⟨S200000, .i32⟩ : BufTy).Contents (Elt F)),
    binary main_v1 main_v87 main_v88 (cmpi .slt : (⟨S200000, .i32⟩ : BufTy).Contents (Elt F) → (⟨S200000, .i32⟩ : BufTy).Contents (Elt F) → (⟨S200000, .i1⟩ : BufTy).Contents (Elt F)),
    nullary main_c_15 (constantI S_ 32 20000#32),
    unary main_c_15 main_v89 (broadcastInDim S200000 ![] bcast_S_S200000 : (⟨S_, .i32⟩ : BufTy).Contents (Elt F) → (⟨S200000, .i32⟩ : BufTy).Contents (Elt F)),
    binary main_v1 main_v89 main_v90 (addi : (⟨S200000, .i32⟩ : BufTy).Contents (Elt F) → (⟨S200000, .i32⟩ : BufTy).Contents (Elt F) → (⟨S200000, .i32⟩ : BufTy).Contents (Elt F)),
    ternary main_v88 main_v90 main_v1 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v91 main_v92 (broadcastInDim S200000x1 ![0] bcast_S200000_S200000x1_0 : (⟨S200000, .i32⟩ : BufTy).Contents (Elt F) → (⟨S200000x1, .i32⟩ : BufTy).Contents (Elt F)),
    binary main_v86 main_v92 main_v93 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v93 main_v73 main_v94 (mulf : (⟨S200000, .f32⟩ : BufTy).Contents (Elt F) → (⟨S200000, .f32⟩ : BufTy).Contents (Elt F) → (⟨S200000, .f32⟩ : BufTy).Contents (Elt F)),
    nullary main_c_16 (constantI S_ 32 0#32),
    unary main_c_16 main_v95 (broadcastInDim S200000 ![] bcast_S_S200000 : (⟨S_, .i32⟩ : BufTy).Contents (Elt F) → (⟨S200000, .i32⟩ : BufTy).Contents (Elt F)),
    binary main_v3 main_v95 main_v96 (cmpi .slt : (⟨S200000, .i32⟩ : BufTy).Contents (Elt F) → (⟨S200000, .i32⟩ : BufTy).Contents (Elt F) → (⟨S200000, .i1⟩ : BufTy).Contents (Elt F)),
    nullary main_c_17 (constantI S_ 32 20000#32),
    unary main_c_17 main_v97 (broadcastInDim S200000 ![] bcast_S_S200000 : (⟨S_, .i32⟩ : BufTy).Contents (Elt F) → (⟨S200000, .i32⟩ : BufTy).Contents (Elt F)),
    binary main_v3 main_v97 main_v98 (addi : (⟨S200000, .i32⟩ : BufTy).Contents (Elt F) → (⟨S200000, .i32⟩ : BufTy).Contents (Elt F) → (⟨S200000, .i32⟩ : BufTy).Contents (Elt F)),
    ternary main_v96 main_v98 main_v3 main_v99 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]

abbrev rops7b : List (HloOp τ sig (Elt F)) :=
  [ unary main_v99 main_v100 (broadcastInDim S200000x1 ![0] bcast_S200000_S200000x1_0 : (⟨S200000, .i32⟩ : BufTy).Contents (Elt F) → (⟨S200000x1, .i32⟩ : BufTy).Contents (Elt F)),
    binary main_v86 main_v100 main_v101 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v94 main_v101 main_v102 (mulf : (⟨S200000, .f32⟩ : BufTy).Contents (Elt F) → (⟨S200000, .f32⟩ : BufTy).Contents (Elt F) → (⟨S200000, .f32⟩ : BufTy).Contents (Elt F)),
    unary main_v102 main_v103 (broadcastInDim S200000x1 ![0] bcast_S200000_S200000x1_0 : (⟨S200000, .f32⟩ : BufTy).Contents (Elt F) → (⟨S200000x1, .f32⟩ : BufTy).Contents (Elt F)),
    nullary main_c_18 (constantI S_ 32 0#32),
    unary main_c_18 main_v104 (broadcastInDim S200000 ![] bcast_S_S200000 : (⟨S_, .i32⟩ : BufTy).Contents (Elt F) → (⟨S200000, .i32⟩ : BufTy).Contents (Elt F)),
    binary main_v1 main_v104 main_v105 (cmpi .slt : (⟨S200000, .i32⟩ : BufTy).Contents (Elt F) → (⟨S200000, .i32⟩ : BufTy).Contents (Elt F) → (⟨S200000, .i1⟩ : BufTy).Contents (Elt F)),
    nullary main_c_19 (constantI S_ 32 20000#32),
    unary main_c_19 main_v106 (broadcastInDim S200000 ![] bcast_S_S200000 : (⟨S_, .i32⟩ : BufTy).Contents (Elt F) → (⟨S200000, .i32⟩ : BufTy).Contents (Elt F)),
    binary main_v1 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v1 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v8 main_v109 main_v110 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v103 main_v111 (broadcastInDim S200000x512 ![0, 1] bcast_S200000x1_S200000x512_0_1 : (⟨S200000x1, .f32⟩ : BufTy).Contents (Elt F) → (⟨S200000x512, .f32⟩ : BufTy).Contents (Elt F)),
    binary main_v111 main_v110 main_v112 (mulf : (⟨S200000x512, .f32⟩ : BufTy).Contents (Elt F) → (⟨S200000x512, .f32⟩ : BufTy).Contents (Elt F) → (⟨S200000x512, .f32⟩ : BufTy).Contents (Elt F)),
    nullary main_cst_20 (constant S_ .f32 0x00000000#32),
    unary main_cst_20 main_v113 (broadcastInDim S20000x512 ![] bcast_S_S20000x512 : (⟨S_, .f32⟩ : BufTy).Contents (Elt F) → (⟨S20000x512, .f32⟩ : BufTy).Contents (Elt F)),
    unary main_v3 main_v114 (broadcastInDim S200000x1 ![0] bcast_S200000_S200000x1_0 : (⟨S200000, .i32⟩ : BufTy).Contents (Elt F) → (⟨S200000x1, .i32⟩ : BufTy).Contents (Elt F)),
    ternary main_v113 main_v114 main_v112 main_v115 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v115 main_v116 (Host.negf : (⟨S20000x512, .f32⟩ : BufTy).Contents (Elt F) → (⟨S20000x512, .f32⟩ : BufTy).Contents (Elt F)),
    unary main_arg9 main_v117 ((extractStridedSlice S1x512x16 ![0, 0, 0] · slices_S3x512x16_S1x512x16_0_0_0) : (⟨S3x512x16, .f32⟩ : BufTy).Contents (Elt F) → (⟨S1x512x16, .f32⟩ : BufTy).Contents (Elt F)),
    reshape main_v117 main_v118 rfl shapeCasts_S1x512x16_S512x16 ]

theorem rops7_split : (rops7 : List (HloOp τ sig (Elt F))) = rops7a ++ rops7b := rfl

abbrev rops10a : List (HloOp τ sig (Elt F)) :=
  [ binary main_v123 main_v143 main_v144 (addf : (⟨S20000x16, .f32⟩ : BufTy).Contents (Elt F) → (⟨S20000x16, .f32⟩ : BufTy).Contents (Elt F) → (⟨S20000x16, .f32⟩ : BufTy).Contents (Elt F)),
    nullary main_cst_25 (constant S_ .f32 0x00000000#32),
    unary main_cst_25 main_v145 (broadcastInDim S20000x16 ![] bcast_S_S20000x16 : (⟨S_, .f32⟩ : BufTy).Contents (Elt F) → (⟨S20000x16, .f32⟩ : BufTy).Contents (Elt F)),
    binary main_v144 main_v145 main_v146 (maximumf : (⟨S20000x16, .f32⟩ : BufTy).Contents (Elt F) → (⟨S20000x16, .f32⟩ : BufTy).Contents (Elt F) → (⟨S20000x16, .f32⟩ : BufTy).Contents (Elt F)),
    unary main_v102 main_v147 (broadcastInDim S200000x1 ![0] bcast_S200000_S200000x1_0 : (⟨S200000, .f32⟩ : BufTy).Contents (Elt F) → (⟨S200000x1, .f32⟩ : BufTy).Contents (Elt F)),
    nullary main_c_26 (constantI S_ 32 0#32),
    unary main_c_26 main_v148 (broadcastInDim S200000 ![] bcast_S_S200000 : (⟨S_, .i32⟩ : BufTy).Contents (Elt F) → (⟨S200000, .i32⟩ : BufTy).Contents (Elt F)),
    binary main_v1 main_v148 main_v149 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32) ]

abbrev rops10b : List (HloOp τ sig (Elt F)) :=
  [ unary main_c_27 main_v150 (broadcastInDim S200000 ![] bcast_S_S200000 : (⟨S_, .i32⟩ : BufTy).Contents (Elt F) → (⟨S200000, .i32⟩ : BufTy).Contents (Elt F)),
    binary main_v1 main_v150 main_v151 (addi : (⟨S200000, .i32⟩ : BufTy).Contents (Elt F) → (⟨S200000, .i32⟩ : BufTy).Contents (Elt F) → (⟨S200000, .i32⟩ : BufTy).Contents (Elt F)),
    ternary main_v149 main_v151 main_v1 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v152 main_v153 (broadcastInDim S200000x1 ![0] bcast_S200000_S200000x1_0 : (⟨S200000, .i32⟩ : BufTy).Contents (Elt F) → (⟨S200000x1, .i32⟩ : BufTy).Contents (Elt F)),
    binary main_v146 main_v153 main_v154 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v147 main_v155 (broadcastInDim S200000x16 ![0, 1] bcast_S200000x1_S200000x16_0_1 : (⟨S200000x1, .f32⟩ : BufTy).Contents (Elt F) → (⟨S200000x16, .f32⟩ : BufTy).Contents (Elt F)),
    binary main_v155 main_v154 main_v156 (mulf : (⟨S200000x16, .f32⟩ : BufTy).Contents (Elt F) → (⟨S200000x16, .f32⟩ : BufTy).Contents (Elt F) → (⟨S200000x16, .f32⟩ : BufTy).Contents (Elt F)),
    nullary main_cst_28 (constant S_ .f32 0x00000000#32),
    unary main_cst_28 main_v157 (broadcastInDim S20000x16 ![] bcast_S_S20000x16 : (⟨S_, .f32⟩ : BufTy).Contents (Elt F) → (⟨S20000x16, .f32⟩ : BufTy).Contents (Elt F)),
    unary main_v3 main_v158 (broadcastInDim S200000x1 ![0] bcast_S200000_S200000x1_0 : (⟨S200000, .i32⟩ : BufTy).Contents (Elt F) → (⟨S200000x1, .i32⟩ : BufTy).Contents (Elt F)),
    ternary main_v157 main_v158 main_v156 main_v159 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v159 main_v160 (Host.negf : (⟨S20000x16, .f32⟩ : BufTy).Contents (Elt F) → (⟨S20000x16, .f32⟩ : BufTy).Contents (Elt F)),
    unary main_arg10 main_v161 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v161 main_v162 rfl shapeCasts_S1x16x16_S16x16 ]

theorem rops10_split : (rops10 : List (HloOp τ sig (Elt F))) = rops10a ++ rops10b := rfl

abbrev rops13a : List (HloOp τ sig (Elt F)) :=
  [ binary main_v167 main_v187 main_v188 (addf : (⟨S20000x16, .f32⟩ : BufTy).Contents (Elt F) → (⟨S20000x16, .f32⟩ : BufTy).Contents (Elt F) → (⟨S20000x16, .f32⟩ : BufTy).Contents (Elt F)),
    nullary main_cst_33 (constant S_ .f32 0x00000000#32),
    unary main_cst_33 main_v189 (broadcastInDim S20000x16 ![] bcast_S_S20000x16 : (⟨S_, .f32⟩ : BufTy).Contents (Elt F) → (⟨S20000x16, .f32⟩ : BufTy).Contents (Elt F)),
    binary main_v188 main_v189 main_v190 (maximumf : (⟨S20000x16, .f32⟩ : BufTy).Contents (Elt F) → (⟨S20000x16, .f32⟩ : BufTy).Contents (Elt F) → (⟨S20000x16, .f32⟩ : BufTy).Contents (Elt F)),
    binary main_v146 main_v190 main_v191 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)),
    unary main_v102 main_v192 (broadcastInDim S200000x1 ![0] bcast_S200000_S200000x1_0 : (⟨S200000, .f32⟩ : BufTy).Contents (Elt F) → (⟨S200000x1, .f32⟩ : BufTy).Contents (Elt F)),
    nullary main_c_34 (constantI S_ 32 0#32),
    unary main_c_34 main_v193 (broadcastInDim S200000 ![] bcast_S_S200000 : (⟨S_, .i32⟩ : BufTy).Contents (Elt F) → (⟨S200000, .i32⟩ : BufTy).Contents (Elt F)),
    binary main_v1 main_v193 main_v194 (cmpi .slt : (⟨S200000, .i32⟩ : BufTy).Contents (Elt F) → (⟨S200000, .i32⟩ : BufTy).Contents (Elt F) → (⟨S200000, .i1⟩ : BufTy).Contents (Elt F)),
    nullary main_c_35 (constantI S_ 32 20000#32),
    unary main_c_35 main_v195 (broadcastInDim S200000 ![] bcast_S_S200000 : (⟨S_, .i32⟩ : BufTy).Contents (Elt F) → (⟨S200000, .i32⟩ : BufTy).Contents (Elt F)),
    binary main_v1 main_v195 main_v196 (addi : (⟨S200000, .i32⟩ : BufTy).Contents (Elt F) → (⟨S200000, .i32⟩ : BufTy).Contents (Elt F) → (⟨S200000, .i32⟩ : BufTy).Contents (Elt F)),
    ternary main_v194 main_v196 main_v1 main_v197 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v197 main_v198 (broadcastInDim S200000x1 ![0] bcast_S200000_S200000x1_0 : (⟨S200000, .i32⟩ : BufTy).Contents (Elt F) → (⟨S200000x1, .i32⟩ : BufTy).Contents (Elt F)),
    binary main_v190 main_v198 main_v199 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v192 main_v200 (broadcastInDim S200000x16 ![0, 1] bcast_S200000x1_S200000x16_0_1 : (⟨S200000x1, .f32⟩ : BufTy).Contents (Elt F) → (⟨S200000x16, .f32⟩ : BufTy).Contents (Elt F)),
    binary main_v200 main_v199 main_v201 (mulf : (⟨S200000x16, .f32⟩ : BufTy).Contents (Elt F) → (⟨S200000x16, .f32⟩ : BufTy).Contents (Elt F) → (⟨S200000x16, .f32⟩ : BufTy).Contents (Elt F)) ]

abbrev rops13b : List (HloOp τ sig (Elt F)) :=
  [ nullary main_cst_36 (constant S_ .f32 0x00000000#32),
    unary main_cst_36 main_v202 (broadcastInDim S20000x16 ![] bcast_S_S20000x16 : (⟨S_, .f32⟩ : BufTy).Contents (Elt F) → (⟨S20000x16, .f32⟩ : BufTy).Contents (Elt F)),
    unary main_v3 main_v203 (broadcastInDim S200000x1 ![0] bcast_S200000_S200000x1_0 : (⟨S200000, .i32⟩ : BufTy).Contents (Elt F) → (⟨S200000x1, .i32⟩ : BufTy).Contents (Elt F)),
    ternary main_v202 main_v203 main_v201 main_v204 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v204 main_v205 (Host.negf : (⟨S20000x16, .f32⟩ : BufTy).Contents (Elt F) → (⟨S20000x16, .f32⟩ : BufTy).Contents (Elt F)),
    unary main_arg11 main_v206 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v206 main_v207 rfl shapeCasts_S1x16x16_S16x16 ]

theorem rops13_split : (rops13 : List (HloOp τ sig (Elt F))) = rops13a ++ rops13b := rfl

abbrev rops22a : List (HloOp τ sig (Elt F)) :=
  [ unary main_arg18 main_v298 (broadcastInDim S1x256 ![1] bcast_S256_S1x256_1 : (⟨S256, .f32⟩ : BufTy).Contents (Elt F) → (⟨S1x256, .f32⟩ : BufTy).Contents (Elt F)),
    unary main_v298 main_v299 (broadcastInDim S20000x256 ![0, 1] bcast_S1x256_S20000x256_0_1 : (⟨S1x256, .f32⟩ : BufTy).Contents (Elt F) → (⟨S20000x256, .f32⟩ : BufTy).Contents (Elt F)),
    binary main_v297 main_v299 main_v300 (addf : (⟨S20000x256, .f32⟩ : BufTy).Contents (Elt F) → (⟨S20000x256, .f32⟩ : BufTy).Contents (Elt F) → (⟨S20000x256, .f32⟩ : BufTy).Contents (Elt F)),
    nullary main_cst_52 (constant S_ .f32 0x00000000#32),
    unary main_cst_52 main_v301 (broadcastInDim S20000x256 ![] bcast_S_S20000x256 : (⟨S_, .f32⟩ : BufTy).Contents (Elt F) → (⟨S20000x256, .f32⟩ : BufTy).Contents (Elt F)),
    binary main_v300 main_v301 main_v302 (maximumf : (⟨S20000x256, .f32⟩ : BufTy).Contents (Elt F) → (⟨S20000x256, .f32⟩ : BufTy).Contents (Elt F) → (⟨S20000x256, .f32⟩ : BufTy).Contents (Elt F)),
    nullary main_cst_53 (constant S_ .f32 0x3F7FFFAC#32),
    unary main_cst_53 main_v303 (broadcastInDim S20000x256 ![] bcast_S_S20000x256 : (⟨S_, .f32⟩ : BufTy).Contents (Elt F) → (⟨S20000x256, .f32⟩ : BufTy).Contents (Elt F)) ]

abbrev rops22b : List (HloOp τ sig (Elt F)) :=
  [ binary main_v302 main_v303 main_v304 (mulf : (⟨S20000x256, .f32⟩ : BufTy).Contents (Elt F) → (⟨S20000x256, .f32⟩ : BufTy).Contents (Elt F) → (⟨S20000x256, .f32⟩ : BufTy).Contents (Elt F)),
    unary main_arg19 main_v305 ((transpose S256x20 [1, 0] · transposes_S20x256_S256x20_1_0) : (⟨S20x256, .f32⟩ : BufTy).Contents (Elt F) → (⟨S256x20, .f32⟩ : BufTy).Contents (Elt F)) ]

theorem rops22_split : (rops22 : List (HloOp τ sig (Elt F))) = rops22a ++ rops22b := rfl

/-- The operations of window main_part0 of @main. -/
abbrev ops_part0 : List (HloOp τ sig (Elt F)) :=
  [ unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000,
    unary main_arg3 main_v4 ((transpose S2000x512 [1, 0] · transposes_S512x2000_S2000x512_1_0) : (⟨S512x2000, .f32⟩ : BufTy).Contents (Elt F) → (⟨S2000x512, .f32⟩ : BufTy).Contents (Elt F)),
    binary main_arg0 main_v4 main_v5 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F)),
    unary main_arg4 main_v6 (broadcastInDim S1x512 ![1] bcast_S512_S1x512_1 : (⟨S512, .f32⟩ : BufTy).Contents (Elt F) → (⟨S1x512, .f32⟩ : BufTy).Contents (Elt F)),
    unary main_v6 main_v7 (broadcastInDim S20000x512 ![0, 1] bcast_S1x512_S20000x512_0_1 : (⟨S1x512, .f32⟩ : BufTy).Contents (Elt F) → (⟨S20000x512, .f32⟩ : BufTy).Contents (Elt F)),
    binary main_v5 main_v7 main_v8 (addf : (⟨S20000x512, .f32⟩ : BufTy).Contents (Elt F) → (⟨S20000x512, .f32⟩ : BufTy).Contents (Elt F) → (⟨S20000x512, .f32⟩ : BufTy).Contents (Elt F)),
    unary main_arg5 main_v9 ((transpose S2000x512 [1, 0] · transposes_S512x2000_S2000x512_1_0) : (⟨S512x2000, .f32⟩ : BufTy).Contents (Elt F) → (⟨S2000x512, .f32⟩ : BufTy).Contents (Elt F)),
    binary main_arg0 main_v9 main_v10 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F)),
    unary main_arg6 main_v11 (broadcastInDim S1x512 ![1] bcast_S512_S1x512_1 : (⟨S512, .f32⟩ : BufTy).Contents (Elt F) → (⟨S1x512, .f32⟩ : BufTy).Contents (Elt F)),
    unary main_v11 main_v12 (broadcastInDim S20000x512 ![0, 1] bcast_S1x512_S20000x512_0_1 : (⟨S1x512, .f32⟩ : BufTy).Contents (Elt F) → (⟨S20000x512, .f32⟩ : BufTy).Contents (Elt F)),
    binary main_v10 main_v12 main_v13 (addf : (⟨S20000x512, .f32⟩ : BufTy).Contents (Elt F) → (⟨S20000x512, .f32⟩ : BufTy).Contents (Elt F) → (⟨S20000x512, .f32⟩ : BufTy).Contents (Elt F)),
    unary main_arg2 main_v14 ((extractStridedSlice S200000x3 ![0, 0] · slices_S200000x6_S200000x3_0_0) : (⟨S200000x6, .f32⟩ : BufTy).Contents (Elt F) → (⟨S200000x3, .f32⟩ : BufTy).Contents (Elt F)),
    unary main_arg21 main_v15 ((transpose S3x128 [1, 0] · transposes_S128x3_S3x128_1_0) : (⟨S128x3, .f32⟩ : BufTy).Contents (Elt F) → (⟨S3x128, .f32⟩ : BufTy).Contents (Elt F)),
    binary main_v14 main_v15 main_v16 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F)),
    unary main_arg22 main_v17 (broadcastInDim S1x128 ![1] bcast_S128_S1x128_1 : (⟨S128, .f32⟩ : BufTy).Contents (Elt F) → (⟨S1x128, .f32⟩ : BufTy).Contents (Elt F)),
    unary main_v17 main_v18 (broadcastInDim S200000x128 ![0, 1] bcast_S1x128_S200000x128_0_1 : (⟨S1x128, .f32⟩ : BufTy).Contents (Elt F) → (⟨S200000x128, .f32⟩ : BufTy).Contents (Elt F)),
    binary main_v16 main_v18 main_v19 (addf : (⟨S200000x128, .f32⟩ : BufTy).Contents (Elt F) → (⟨S200000x128, .f32⟩ : BufTy).Contents (Elt F) → (⟨S200000x128, .f32⟩ : BufTy).Contents (Elt F)),
    nullary main_cst (constant S_ .f32 0x00000000#32),
    unary main_cst main_v20 (broadcastInDim S200000x128 ![] bcast_S_S200000x128 : (⟨S_, .f32⟩ : BufTy).Contents (Elt F) → (⟨S200000x128, .f32⟩ : BufTy).Contents (Elt F)),
    binary main_v19 main_v20 main_v21 (maximumf : (⟨S200000x128, .f32⟩ : BufTy).Contents (Elt F) → (⟨S200000x128, .f32⟩ : BufTy).Contents (Elt F) → (⟨S200000x128, .f32⟩ : BufTy).Contents (Elt F)),
    nullary main_cst_0 (constant S_ .f32 0x3F7FFFAC#32),
    unary main_cst_0 main_v22 (broadcastInDim S200000x128 ![] bcast_S_S200000x128 : (⟨S_, .f32⟩ : BufTy).Contents (Elt F) → (⟨S200000x128, .f32⟩ : BufTy).Contents (Elt F)),
    binary main_v21 main_v22 main_v23 (mulf : (⟨S200000x128, .f32⟩ : BufTy).Contents (Elt F) → (⟨S200000x128, .f32⟩ : BufTy).Contents (Elt F) → (⟨S200000x128, .f32⟩ : BufTy).Contents (Elt F)),
    unary main_arg23 main_v24 ((transpose S128x128 [1, 0] · transposes_S128x128_S128x128_1_0) : (⟨S128x128, .f32⟩ : BufTy).Contents (Elt F) → (⟨S128x128, .f32⟩ : BufTy).Contents (Elt F)),
    binary main_v23 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg24 main_v26 (broadcastInDim S1x128 ![1] bcast_S128_S1x128_1 : (⟨S128, .f32⟩ : BufTy).Contents (Elt F) → (⟨S1x128, .f32⟩ : BufTy).Contents (Elt F)),
    unary main_v26 main_v27 (broadcastInDim S200000x128 ![0, 1] bcast_S1x128_S200000x128_0_1 : (⟨S1x128, .f32⟩ : BufTy).Contents (Elt F) → (⟨S200000x128, .f32⟩ : BufTy).Contents (Elt F)),
    binary main_v25 main_v27 main_v28 (addf : (⟨S200000x128, .f32⟩ : BufTy).Contents (Elt F) → (⟨S200000x128, .f32⟩ : BufTy).Contents (Elt F) → (⟨S200000x128, .f32⟩ : BufTy).Contents (Elt F)),
    nullary main_c (constantI S_ 32 0#32),
    unary main_c main_v29 (broadcastInDim S200000 ![] bcast_S_S200000 : (⟨S_, .i32⟩ : BufTy).Contents (Elt F) → (⟨S200000, .i32⟩ : BufTy).Contents (Elt F)),
    binary main_v1 main_v29 main_v30 (cmpi .slt : (⟨S200000, .i32⟩ : BufTy).Contents (Elt F) → (⟨S200000, .i32⟩ : BufTy).Contents (Elt F) → (⟨S200000, .i1⟩ : BufTy).Contents (Elt F)),
    nullary main_c_1 (constantI S_ 32 20000#32),
    unary main_c_1 main_v31 (broadcastInDim S200000 ![] bcast_S_S200000 : (⟨S_, .i32⟩ : BufTy).Contents (Elt F) → (⟨S200000, .i32⟩ : BufTy).Contents (Elt F)),
    binary main_v1 main_v31 main_v32 (addi : (⟨S200000, .i32⟩ : BufTy).Contents (Elt F) → (⟨S200000, .i32⟩ : BufTy).Contents (Elt F) → (⟨S200000, .i32⟩ : BufTy).Contents (Elt F)),
    ternary main_v30 main_v32 main_v1 main_v33 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v33 main_v34 (broadcastInDim S200000x1 ![0] bcast_S200000_S200000x1_0 : (⟨S200000, .i32⟩ : BufTy).Contents (Elt F) → (⟨S200000x1, .i32⟩ : BufTy).Contents (Elt F)),
    binary main_v13 main_v34 main_v35 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v28 main_v35 main_v36 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)),
    unary main_arg2 main_v37 ((extractStridedSlice S200000x3 ![0, 3] · slices_S200000x6_S200000x3_0_3) : (⟨S200000x6, .f32⟩ : BufTy).Contents (Elt F) → (⟨S200000x3, .f32⟩ : BufTy).Contents (Elt F)),
    unary main_arg21 main_v38 ((transpose S3x128 [1, 0] · transposes_S128x3_S3x128_1_0) : (⟨S128x3, .f32⟩ : BufTy).Contents (Elt F) → (⟨S3x128, .f32⟩ : BufTy).Contents (Elt F)),
    binary main_v37 main_v38 main_v39 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F)),
    unary main_arg22 main_v40 (broadcastInDim S1x128 ![1] bcast_S128_S1x128_1 : (⟨S128, .f32⟩ : BufTy).Contents (Elt F) → (⟨S1x128, .f32⟩ : BufTy).Contents (Elt F)),
    unary main_v40 main_v41 (broadcastInDim S200000x128 ![0, 1] bcast_S1x128_S200000x128_0_1 : (⟨S1x128, .f32⟩ : BufTy).Contents (Elt F) → (⟨S200000x128, .f32⟩ : BufTy).Contents (Elt F)),
    binary main_v39 main_v41 main_v42 (addf : (⟨S200000x128, .f32⟩ : BufTy).Contents (Elt F) → (⟨S200000x128, .f32⟩ : BufTy).Contents (Elt F) → (⟨S200000x128, .f32⟩ : BufTy).Contents (Elt F)),
    nullary main_cst_2 (constant S_ .f32 0x00000000#32),
    unary main_cst_2 main_v43 (broadcastInDim S200000x128 ![] bcast_S_S200000x128 : (⟨S_, .f32⟩ : BufTy).Contents (Elt F) → (⟨S200000x128, .f32⟩ : BufTy).Contents (Elt F)),
    binary main_v42 main_v43 main_v44 (maximumf : (⟨S200000x128, .f32⟩ : BufTy).Contents (Elt F) → (⟨S200000x128, .f32⟩ : BufTy).Contents (Elt F) → (⟨S200000x128, .f32⟩ : BufTy).Contents (Elt F)),
    nullary main_cst_3 (constant S_ .f32 0x3F7FFFAC#32),
    unary main_cst_3 main_v45 (broadcastInDim S200000x128 ![] bcast_S_S200000x128 : (⟨S_, .f32⟩ : BufTy).Contents (Elt F) → (⟨S200000x128, .f32⟩ : BufTy).Contents (Elt F)),
    binary main_v44 main_v45 main_v46 (mulf : (⟨S200000x128, .f32⟩ : BufTy).Contents (Elt F) → (⟨S200000x128, .f32⟩ : BufTy).Contents (Elt F) → (⟨S200000x128, .f32⟩ : BufTy).Contents (Elt F)),
    unary main_arg23 main_v47 ((transpose S128x128 [1, 0] · transposes_S128x128_S128x128_1_0) : (⟨S128x128, .f32⟩ : BufTy).Contents (Elt F) → (⟨S128x128, .f32⟩ : BufTy).Contents (Elt F)),
    binary main_v46 main_v47 main_v48 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg24 main_v49 (broadcastInDim S1x128 ![1] bcast_S128_S1x128_1 : (⟨S128, .f32⟩ : BufTy).Contents (Elt F) → (⟨S1x128, .f32⟩ : BufTy).Contents (Elt F)),
    unary main_v49 main_v50 (broadcastInDim S200000x128 ![0, 1] bcast_S1x128_S200000x128_0_1 : (⟨S1x128, .f32⟩ : BufTy).Contents (Elt F) → (⟨S200000x128, .f32⟩ : BufTy).Contents (Elt F)),
    binary main_v48 main_v50 main_v51 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v52 (broadcastInDim S200000 ![] bcast_S_S200000 : (⟨S_, .i32⟩ : BufTy).Contents (Elt F) → (⟨S200000, .i32⟩ : BufTy).Contents (Elt F)) ]

theorem ops_part0_cut : (ops_part0 : List (HloOp τ sig (Elt F))) = rops0 ++ ([rdot0] ++ (rops1 ++ ([rdot1] ++ (rops2 ++ ([rdot2] ++ (rops3 ++ ([rdot3] ++ (rops4 ++ ([rdot4] ++ (rops5 ++ ([rdot5] ++ (rops6a)))))))))))) := rfl

theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub ..⟩

/-- The operations of window main_part1 of @main. -/
abbrev ops_part1 : List (HloOp τ sig (Elt F)) :=
  [ binary main_v3 main_v52 main_v53 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v54 (broadcastInDim S200000 ![] bcast_S_S200000 : (⟨S_, .i32⟩ : BufTy).Contents (Elt F) → (⟨S200000, .i32⟩ : BufTy).Contents (Elt F)),
    binary main_v3 main_v54 main_v55 (addi : (⟨S200000, .i32⟩ : BufTy).Contents (Elt F) → (⟨S200000, .i32⟩ : BufTy).Contents (Elt F) → (⟨S200000, .i32⟩ : BufTy).Contents (Elt F)),
    ternary main_v53 main_v55 main_v3 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v56 main_v57 (broadcastInDim S200000x1 ![0] bcast_S200000_S200000x1_0 : (⟨S200000, .i32⟩ : BufTy).Contents (Elt F) → (⟨S200000x1, .i32⟩ : BufTy).Contents (Elt F)),
    binary main_v13 main_v57 main_v58 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v51 main_v58 main_v59 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)),
    TRef.binary (TRef.of (T := ⟨S200000x640, .f32⟩) main_v36) (TRef.of (T := ⟨S200000x640, .f32⟩) main_v36) (TRef.of (T := ⟨S200000x640, .f32⟩) main_call0_v0) mulf,
    TRef.nullary (TRef.of (T := ⟨S_, .f32⟩) main_call0_cst) (constant S_ .f32 0x00000000#32),
    TRef.binary (TRef.of (T := ⟨S200000x640, .f32⟩) main_call0_v0) (TRef.of (T := ⟨S_, .f32⟩) main_call0_cst) (TRef.of (T := ⟨S200000, .f32⟩) main_call0_v1) (fun x v => Host.reduceAdd x v reducesTo_S200000x640_S200000_d1 h_S_),
    TRef.unary (TRef.of (T := ⟨S200000, .f32⟩) main_call0_v1) (TRef.of (T := ⟨S200000, .f32⟩) main_v60) Host.sqrt,
    nullary main_cst_6 (constant S_ .f32 0x322BCC77#32),
    unary main_cst_6 main_v61 (broadcastInDim S200000 ![] bcast_S_S200000 : (⟨S_, .f32⟩ : BufTy).Contents (Elt F) → (⟨S200000, .f32⟩ : BufTy).Contents (Elt F)),
    binary main_v60 main_v61 main_v62 (maximumf : (⟨S200000, .f32⟩ : BufTy).Contents (Elt F) → (⟨S200000, .f32⟩ : BufTy).Contents (Elt F) → (⟨S200000, .f32⟩ : BufTy).Contents (Elt F)),
    TRef.binary (TRef.of (T := ⟨S200000x640, .f32⟩) main_v59) (TRef.of (T := ⟨S200000x640, .f32⟩) main_v59) (TRef.of (T := ⟨S200000x640, .f32⟩) main_call1_v0) mulf,
    TRef.nullary (TRef.of (T := ⟨S_, .f32⟩) main_call1_cst) (constant S_ .f32 0x00000000#32),
    TRef.binary (TRef.of (T := ⟨S200000x640, .f32⟩) main_call1_v0) (TRef.of (T := ⟨S_, .f32⟩) main_call1_cst) (TRef.of (T := ⟨S200000, .f32⟩) main_call1_v1) (fun x v => Host.reduceAdd x v reducesTo_S200000x640_S200000_d1 h_S_),
    TRef.unary (TRef.of (T := ⟨S200000, .f32⟩) main_call1_v1) (TRef.of (T := ⟨S200000, .f32⟩) main_v63) Host.sqrt,
    nullary main_cst_7 (constant S_ .f32 0x322BCC77#32),
    unary main_cst_7 main_v64 (broadcastInDim S200000 ![] bcast_S_S200000 : (⟨S_, .f32⟩ : BufTy).Contents (Elt F) → (⟨S200000, .f32⟩ : BufTy).Contents (Elt F)),
    binary main_v63 main_v64 main_v65 (maximumf : (⟨S200000, .f32⟩ : BufTy).Contents (Elt F) → (⟨S200000, .f32⟩ : BufTy).Contents (Elt F) → (⟨S200000, .f32⟩ : BufTy).Contents (Elt F)),
    binary main_v36 main_v59 main_v66 (mulf : (⟨S200000x640, .f32⟩ : BufTy).Contents (Elt F) → (⟨S200000x640, .f32⟩ : BufTy).Contents (Elt F) → (⟨S200000x640, .f32⟩ : BufTy).Contents (Elt F)),
    nullary main_cst_8 (constant S_ .f32 0x00000000#32),
    binary main_v66 main_cst_8 main_v67 ((fun x v => Host.reduceAdd x v reducesTo_S200000x640_S200000_d1 h_S_) : (⟨S200000x640, .f32⟩ : BufTy).Contents (Elt F) → (⟨S_, .f32⟩ : BufTy).Contents (Elt F) → (⟨S200000, .f32⟩ : BufTy).Contents (Elt F)),
    binary main_v62 main_v65 main_v68 (mulf : (⟨S200000, .f32⟩ : BufTy).Contents (Elt F) → (⟨S200000, .f32⟩ : BufTy).Contents (Elt F) → (⟨S200000, .f32⟩ : BufTy).Contents (Elt F)),
    binary main_v67 main_v68 main_v69 (Host.divf : (⟨S200000, .f32⟩ : BufTy).Contents (Elt F) → (⟨S200000, .f32⟩ : BufTy).Contents (Elt F) → (⟨S200000, .f32⟩ : BufTy).Contents (Elt F)),
    nullary main_cst_9 (constant S_ .f32 0x3F800000#32),
    unary main_cst_9 main_v70 (broadcastInDim S200000 ![] bcast_S_S200000 : (⟨S_, .f32⟩ : BufTy).Contents (Elt F) → (⟨S200000, .f32⟩ : BufTy).Contents (Elt F)),
    binary main_v69 main_v70 main_v71 (addf : (⟨S200000, .f32⟩ : BufTy).Contents (Elt F) → (⟨S200000, .f32⟩ : BufTy).Contents (Elt F) → (⟨S200000, .f32⟩ : BufTy).Contents (Elt F)),
    nullary main_cst_10 (constant S_ .f32 0x3F000000#32),
    unary main_cst_10 main_v72 (broadcastInDim S200000 ![] bcast_S_S200000 : (⟨S_, .f32⟩ : BufTy).Contents (Elt F) → (⟨S200000, .f32⟩ : BufTy).Contents (Elt F)),
    binary main_v71 main_v72 main_v73 (mulf : (⟨S200000, .f32⟩ : BufTy).Contents (Elt F) → (⟨S200000, .f32⟩ : BufTy).Contents (Elt F) → (⟨S200000, .f32⟩ : BufTy).Contents (Elt F)),
    binary main_v8 main_v13 main_v74 ((fun a b => concatenate S20000x1024 1 [⟨S20000x512, a⟩, ⟨S20000x512, b⟩] concatenates_S20000x512_S20000x512_S20000x1024_d1) : (⟨S20000x512, .f32⟩ : BufTy).Contents (Elt F) → (⟨S20000x512, .f32⟩ : BufTy).Contents (Elt F) → (⟨S20000x1024, .f32⟩ : BufTy).Contents (Elt F)),
    unary main_arg7 main_v75 ((transpose S1024x512 [1, 0] · transposes_S512x1024_S1024x512_1_0) : (⟨S512x1024, .f32⟩ : BufTy).Contents (Elt F) → (⟨S1024x512, .f32⟩ : BufTy).Contents (Elt F)),
    binary main_v74 main_v75 main_v76 ((fun l r => Host.dotGeneral dot_S20000x1024_S1024x512_S20000x512_1_0_0_1_n_n none l r) : (⟨S20000x1024, .f32⟩ : BufTy).Contents (Elt F) → (⟨S1024x512, .f32⟩ : BufTy).Contents (Elt F) → (⟨S20000x512, .f32⟩ : BufTy).Contents (Elt F)),
    unary main_arg8 main_v77 (broadcastInDim S1x512 ![1] bcast_S512_S1x512_1 : (⟨S512, .f32⟩ : BufTy).Contents (Elt F) → (⟨S1x512, .f32⟩ : BufTy).Contents (Elt F)),
    unary main_v77 main_v78 (broadcastInDim S20000x512 ![0, 1] bcast_S1x512_S20000x512_0_1 : (⟨S1x512, .f32⟩ : BufTy).Contents (Elt F) → (⟨S20000x512, .f32⟩ : BufTy).Contents (Elt F)),
    binary main_v76 main_v78 main_v79 (addf : (⟨S20000x512, .f32⟩ : BufTy).Contents (Elt F) → (⟨S20000x512, .f32⟩ : BufTy).Contents (Elt F) → (⟨S20000x512, .f32⟩ : BufTy).Contents (Elt F)),
    nullary main_cst_11 (constant S_ .f32 0x00000000#32),
    unary main_cst_11 main_v80 (broadcastInDim S20000 ![] bcast_S_S20000 : (⟨S_, .f32⟩ : BufTy).Contents (Elt F) → (⟨S20000, .f32⟩ : BufTy).Contents (Elt F)),
    unary main_v1 main_v81 (broadcastInDim S200000x1 ![0] bcast_S200000_S200000x1_0 : (⟨S200000, .i32⟩ : BufTy).Contents (Elt F) → (⟨S200000x1, .i32⟩ : BufTy).Contents (Elt F)),
    ternary main_v80 main_v81 main_v73 main_v82 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    nullary main_cst_12 (constant S_ .f32 0x00000000#32),
    unary main_cst_12 main_v83 (broadcastInDim S20000 ![] bcast_S_S20000 : (⟨S_, .f32⟩ : BufTy).Contents (Elt F) → (⟨S20000, .f32⟩ : BufTy).Contents (Elt F)),
    binary main_v82 main_v83 main_v84 (cmpf .ogt : (⟨S20000, .f32⟩ : BufTy).Contents (Elt F) → (⟨S20000, .f32⟩ : BufTy).Contents (Elt F) → (⟨S20000, .i1⟩ : BufTy).Contents (Elt F)),
    unary main_v82 main_v85 (Host.rsqrt : (⟨S20000, .f32⟩ : BufTy).Contents (Elt F) → (⟨S20000, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v84) (TRef.of (T := ⟨S20000, .f32⟩) main_v85) (TRef.of (T := ⟨S20000, .f32⟩) main_call2_v1) (TRef.of (T := ⟨S20000, .f32⟩) main_v86) select,
    nullary main_c_14 (constantI S_ 32 0#32),
    unary main_c_14 main_v87 (broadcastInDim S200000 ![] bcast_S_S200000 : (⟨S_, .i32⟩ : BufTy).Contents (Elt F) → (⟨S200000, .i32⟩ : BufTy).Contents (Elt F)),
    binary main_v1 main_v87 main_v88 (cmpi .slt : (⟨S200000, .i32⟩ : BufTy).Contents (Elt F) → (⟨S200000, .i32⟩ : BufTy).Contents (Elt F) → (⟨S200000, .i1⟩ : BufTy).Contents (Elt F)),
    nullary main_c_15 (constantI S_ 32 20000#32),
    unary main_c_15 main_v89 (broadcastInDim S200000 ![] bcast_S_S200000 : (⟨S_, .i32⟩ : BufTy).Contents (Elt F) → (⟨S200000, .i32⟩ : BufTy).Contents (Elt F)),
    binary main_v1 main_v89 main_v90 (addi : (⟨S200000, .i32⟩ : BufTy).Contents (Elt F) → (⟨S200000, .i32⟩ : BufTy).Contents (Elt F) → (⟨S200000, .i32⟩ : BufTy).Contents (Elt F)),
    ternary main_v88 main_v90 main_v1 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v91 main_v92 (broadcastInDim S200000x1 ![0] bcast_S200000_S200000x1_0 : (⟨S200000, .i32⟩ : BufTy).Contents (Elt F) → (⟨S200000x1, .i32⟩ : BufTy).Contents (Elt F)),
    binary main_v86 main_v92 main_v93 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v93 main_v73 main_v94 (mulf : (⟨S200000, .f32⟩ : BufTy).Contents (Elt F) → (⟨S200000, .f32⟩ : BufTy).Contents (Elt F) → (⟨S200000, .f32⟩ : BufTy).Contents (Elt F)),
    nullary main_c_16 (constantI S_ 32 0#32),
    unary main_c_16 main_v95 (broadcastInDim S200000 ![] bcast_S_S200000 : (⟨S_, .i32⟩ : BufTy).Contents (Elt F) → (⟨S200000, .i32⟩ : BufTy).Contents (Elt F)),
    binary main_v3 main_v95 main_v96 (cmpi .slt : (⟨S200000, .i32⟩ : BufTy).Contents (Elt F) → (⟨S200000, .i32⟩ : BufTy).Contents (Elt F) → (⟨S200000, .i1⟩ : BufTy).Contents (Elt F)),
    nullary main_c_17 (constantI S_ 32 20000#32),
    unary main_c_17 main_v97 (broadcastInDim S200000 ![] bcast_S_S200000 : (⟨S_, .i32⟩ : BufTy).Contents (Elt F) → (⟨S200000, .i32⟩ : BufTy).Contents (Elt F)),
    binary main_v3 main_v97 main_v98 (addi : (⟨S200000, .i32⟩ : BufTy).Contents (Elt F) → (⟨S200000, .i32⟩ : BufTy).Contents (Elt F) → (⟨S200000, .i32⟩ : BufTy).Contents (Elt F)),
    ternary main_v96 main_v98 main_v3 main_v99 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]

theorem ops_part1_cut : (ops_part1 : List (HloOp τ sig (Elt F))) = rops6b ++ ([rdot6] ++ (rops7a)) := rfl

theorem ops_part1_sub : (ops_part1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

/-- The operations of window main_part2 of @main. -/
abbrev ops_part2 : List (HloOp τ sig (Elt F)) :=
  [ unary main_v99 main_v100 (broadcastInDim S200000x1 ![0] bcast_S200000_S200000x1_0 : (⟨S200000, .i32⟩ : BufTy).Contents (Elt F) → (⟨S200000x1, .i32⟩ : BufTy).Contents (Elt F)),
    binary main_v86 main_v100 main_v101 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v94 main_v101 main_v102 (mulf : (⟨S200000, .f32⟩ : BufTy).Contents (Elt F) → (⟨S200000, .f32⟩ : BufTy).Contents (Elt F) → (⟨S200000, .f32⟩ : BufTy).Contents (Elt F)),
    unary main_v102 main_v103 (broadcastInDim S200000x1 ![0] bcast_S200000_S200000x1_0 : (⟨S200000, .f32⟩ : BufTy).Contents (Elt F) → (⟨S200000x1, .f32⟩ : BufTy).Contents (Elt F)),
    nullary main_c_18 (constantI S_ 32 0#32),
    unary main_c_18 main_v104 (broadcastInDim S200000 ![] bcast_S_S200000 : (⟨S_, .i32⟩ : BufTy).Contents (Elt F) → (⟨S200000, .i32⟩ : BufTy).Contents (Elt F)),
    binary main_v1 main_v104 main_v105 (cmpi .slt : (⟨S200000, .i32⟩ : BufTy).Contents (Elt F) → (⟨S200000, .i32⟩ : BufTy).Contents (Elt F) → (⟨S200000, .i1⟩ : BufTy).Contents (Elt F)),
    nullary main_c_19 (constantI S_ 32 20000#32),
    unary main_c_19 main_v106 (broadcastInDim S200000 ![] bcast_S_S200000 : (⟨S_, .i32⟩ : BufTy).Contents (Elt F) → (⟨S200000, .i32⟩ : BufTy).Contents (Elt F)),
    binary main_v1 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v1 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v8 main_v109 main_v110 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v103 main_v111 (broadcastInDim S200000x512 ![0, 1] bcast_S200000x1_S200000x512_0_1 : (⟨S200000x1, .f32⟩ : BufTy).Contents (Elt F) → (⟨S200000x512, .f32⟩ : BufTy).Contents (Elt F)),
    binary main_v111 main_v110 main_v112 (mulf : (⟨S200000x512, .f32⟩ : BufTy).Contents (Elt F) → (⟨S200000x512, .f32⟩ : BufTy).Contents (Elt F) → (⟨S200000x512, .f32⟩ : BufTy).Contents (Elt F)),
    nullary main_cst_20 (constant S_ .f32 0x00000000#32),
    unary main_cst_20 main_v113 (broadcastInDim S20000x512 ![] bcast_S_S20000x512 : (⟨S_, .f32⟩ : BufTy).Contents (Elt F) → (⟨S20000x512, .f32⟩ : BufTy).Contents (Elt F)),
    unary main_v3 main_v114 (broadcastInDim S200000x1 ![0] bcast_S200000_S200000x1_0 : (⟨S200000, .i32⟩ : BufTy).Contents (Elt F) → (⟨S200000x1, .i32⟩ : BufTy).Contents (Elt F)),
    ternary main_v113 main_v114 main_v112 main_v115 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v115 main_v116 (Host.negf : (⟨S20000x512, .f32⟩ : BufTy).Contents (Elt F) → (⟨S20000x512, .f32⟩ : BufTy).Contents (Elt F)),
    unary main_arg9 main_v117 ((extractStridedSlice S1x512x16 ![0, 0, 0] · slices_S3x512x16_S1x512x16_0_0_0) : (⟨S3x512x16, .f32⟩ : BufTy).Contents (Elt F) → (⟨S1x512x16, .f32⟩ : BufTy).Contents (Elt F)),
    reshape main_v117 main_v118 rfl shapeCasts_S1x512x16_S512x16,
    binary main_v8 main_v118 main_v119 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    unary main_arg9 main_v120 ((extractStridedSlice S1x512x16 ![1, 0, 0] · slices_S3x512x16_S1x512x16_1_0_0) : (⟨S3x512x16, .f32⟩ : BufTy).Contents (Elt F) → (⟨S1x512x16, .f32⟩ : BufTy).Contents (Elt F)),
    reshape main_v120 main_v121 rfl shapeCasts_S1x512x16_S512x16,
    binary main_v116 main_v121 main_v122 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    binary main_v119 main_v122 main_v123 (addf : (⟨S20000x16, .f32⟩ : BufTy).Contents (Elt F) → (⟨S20000x16, .f32⟩ : BufTy).Contents (Elt F) → (⟨S20000x16, .f32⟩ : BufTy).Contents (Elt F)),
    unary main_v102 main_v124 (broadcastInDim S200000x1 ![0] bcast_S200000_S200000x1_0 : (⟨S200000, .f32⟩ : BufTy).Contents (Elt F) → (⟨S200000x1, .f32⟩ : BufTy).Contents (Elt F)),
    nullary main_c_21 (constantI S_ 32 0#32),
    unary main_c_21 main_v125 (broadcastInDim S200000 ![] bcast_S_S200000 : (⟨S_, .i32⟩ : BufTy).Contents (Elt F) → (⟨S200000, .i32⟩ : BufTy).Contents (Elt F)),
    binary main_v1 main_v125 main_v126 (cmpi .slt : (⟨S200000, .i32⟩ : BufTy).Contents (Elt F) → (⟨S200000, .i32⟩ : BufTy).Contents (Elt F) → (⟨S200000, .i1⟩ : BufTy).Contents (Elt F)),
    nullary main_c_22 (constantI S_ 32 20000#32),
    unary main_c_22 main_v127 (broadcastInDim S200000 ![] bcast_S_S200000 : (⟨S_, .i32⟩ : BufTy).Contents (Elt F) → (⟨S200000, .i32⟩ : BufTy).Contents (Elt F)),
    binary main_v1 main_v127 main_v128 (addi : (⟨S200000, .i32⟩ : BufTy).Contents (Elt F) → (⟨S200000, .i32⟩ : BufTy).Contents (Elt F) → (⟨S200000, .i32⟩ : BufTy).Contents (Elt F)),
    ternary main_v126 main_v128 main_v1 main_v129 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v129 main_v130 (broadcastInDim S200000x1 ![0] bcast_S200000_S200000x1_0 : (⟨S200000, .i32⟩ : BufTy).Contents (Elt F) → (⟨S200000x1, .i32⟩ : BufTy).Contents (Elt F)),
    binary main_v116 main_v130 main_v131 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v124 main_v132 (broadcastInDim S200000x512 ![0, 1] bcast_S200000x1_S200000x512_0_1 : (⟨S200000x1, .f32⟩ : BufTy).Contents (Elt F) → (⟨S200000x512, .f32⟩ : BufTy).Contents (Elt F)),
    binary main_v132 main_v131 main_v133 (mulf : (⟨S200000x512, .f32⟩ : BufTy).Contents (Elt F) → (⟨S200000x512, .f32⟩ : BufTy).Contents (Elt F) → (⟨S200000x512, .f32⟩ : BufTy).Contents (Elt F)),
    nullary main_cst_23 (constant S_ .f32 0x00000000#32),
    unary main_cst_23 main_v134 (broadcastInDim S20000x512 ![] bcast_S_S20000x512 : (⟨S_, .f32⟩ : BufTy).Contents (Elt F) → (⟨S20000x512, .f32⟩ : BufTy).Contents (Elt F)),
    unary main_v3 main_v135 (broadcastInDim S200000x1 ![0] bcast_S200000_S200000x1_0 : (⟨S200000, .i32⟩ : BufTy).Contents (Elt F) → (⟨S200000x1, .i32⟩ : BufTy).Contents (Elt F)),
    ternary main_v134 main_v135 main_v133 main_v136 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v136 main_v137 (Host.negf : (⟨S20000x512, .f32⟩ : BufTy).Contents (Elt F) → (⟨S20000x512, .f32⟩ : BufTy).Contents (Elt F)),
    nullary main_cst_24 (constant S_ .f32 0x40000000#32),
    unary main_cst_24 main_v138 (broadcastInDim S20000x512 ![] bcast_S_S20000x512 : (⟨S_, .f32⟩ : BufTy).Contents (Elt F) → (⟨S20000x512, .f32⟩ : BufTy).Contents (Elt F)),
    binary main_v138 main_v137 main_v139 (mulf : (⟨S20000x512, .f32⟩ : BufTy).Contents (Elt F) → (⟨S20000x512, .f32⟩ : BufTy).Contents (Elt F) → (⟨S20000x512, .f32⟩ : BufTy).Contents (Elt F)),
    binary main_v139 main_v8 main_v140 (subf : (⟨S20000x512, .f32⟩ : BufTy).Contents (Elt F) → (⟨S20000x512, .f32⟩ : BufTy).Contents (Elt F) → (⟨S20000x512, .f32⟩ : BufTy).Contents (Elt F)),
    unary main_arg9 main_v141 ((extractStridedSlice S1x512x16 ![2, 0, 0] · slices_S3x512x16_S1x512x16_2_0_0) : (⟨S3x512x16, .f32⟩ : BufTy).Contents (Elt F) → (⟨S1x512x16, .f32⟩ : BufTy).Contents (Elt F)),
    reshape main_v141 main_v142 rfl shapeCasts_S1x512x16_S512x16,
    binary main_v140 main_v142 main_v143 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    binary main_v123 main_v143 main_v144 (addf : (⟨S20000x16, .f32⟩ : BufTy).Contents (Elt F) → (⟨S20000x16, .f32⟩ : BufTy).Contents (Elt F) → (⟨S20000x16, .f32⟩ : BufTy).Contents (Elt F)),
    nullary main_cst_25 (constant S_ .f32 0x00000000#32),
    unary main_cst_25 main_v145 (broadcastInDim S20000x16 ![] bcast_S_S20000x16 : (⟨S_, .f32⟩ : BufTy).Contents (Elt F) → (⟨S20000x16, .f32⟩ : BufTy).Contents (Elt F)),
    binary main_v144 main_v145 main_v146 (maximumf : (⟨S20000x16, .f32⟩ : BufTy).Contents (Elt F) → (⟨S20000x16, .f32⟩ : BufTy).Contents (Elt F) → (⟨S20000x16, .f32⟩ : BufTy).Contents (Elt F)),
    unary main_v102 main_v147 (broadcastInDim S200000x1 ![0] bcast_S200000_S200000x1_0 : (⟨S200000, .f32⟩ : BufTy).Contents (Elt F) → (⟨S200000x1, .f32⟩ : BufTy).Contents (Elt F)),
    nullary main_c_26 (constantI S_ 32 0#32),
    unary main_c_26 main_v148 (broadcastInDim S200000 ![] bcast_S_S200000 : (⟨S_, .i32⟩ : BufTy).Contents (Elt F) → (⟨S200000, .i32⟩ : BufTy).Contents (Elt F)),
    binary main_v1 main_v148 main_v149 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32) ]

theorem ops_part2_cut : (ops_part2 : List (HloOp τ sig (Elt F))) = rops7b ++ ([rdot7] ++ (rops8 ++ ([rdot8] ++ (rops9 ++ ([rdot9] ++ (rops10a)))))) := rfl

theorem ops_part2_sub : (ops_part2 : List (HloOp τ sig (Elt F))).Forall fun op => op.bufs ⊆ tcRefs τ sig :=
  ⟨unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., unary_bufs_sub .., nullary_bufs_sub .., unary_bufs_sub .., binary_bufs_sub .., nullary_bufs_sub ..⟩

/-- The operations of window main_part3 of @main. -/
abbrev ops_part3 : List (HloOp τ sig (Elt F)) :=
  [ unary main_c_27 main_v150 (broadcastInDim S200000 ![] bcast_S_S200000 : (⟨S_, .i32⟩ : BufTy).Contents (Elt F) → (⟨S200000, .i32⟩ : BufTy).Contents (Elt F)),
    binary main_v1 main_v150 main_v151 (addi : (⟨S200000, .i32⟩ : BufTy).Contents (Elt F) → (⟨S200000, .i32⟩ : BufTy).Contents (Elt F) → (⟨S200000, .i32⟩ : BufTy).Contents (Elt F)),
    ternary main_v149 main_v151 main_v1 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v152 main_v153 (broadcastInDim S200000x1 ![0] bcast_S200000_S200000x1_0 : (⟨S200000, .i32⟩ : BufTy).Contents (Elt F) → (⟨S200000x1, .i32⟩ : BufTy).Contents (Elt F)),
    binary main_v146 main_v153 main_v154 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v147 main_v155 (broadcastInDim S200000x16 ![0, 1] bcast_S200000x1_S200000x16_0_1 : (⟨S200000x1, .f32⟩ : BufTy).Contents (Elt F) → (⟨S200000x16, .f32⟩ : BufTy).Contents (Elt F)),
    binary main_v155 main_v154 main_v156 (mulf : (⟨S200000x16, .f32⟩ : BufTy).Contents (Elt F) → (⟨S200000x16, .f32⟩ : BufTy).Contents (Elt F) → (⟨S200000x16, .f32⟩ : BufTy).Contents (Elt F)),
    nullary main_cst_28 (constant S_ .f32 0x00000000#32),
    unary main_cst_28 main_v157 (broadcastInDim S20000x16 ![] bcast_S_S20000x16 : (⟨S_, .f32⟩ : BufTy).Contents (Elt F) → (⟨S20000x16, .f32⟩ : BufTy).Contents (Elt F)),
    unary main_v3 main_v158 (broadcastInDim S200000x1 ![0] bcast_S200000_S200000x1_0 : (⟨S200000, .i32⟩ : BufTy).Contents (Elt F) → (⟨S200000x1, .i32⟩ : BufTy).Contents (Elt F)),
    ternary main_v157 main_v158 main_v156 main_v159 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v159 main_v160 (Host.negf : (⟨S20000x16, .f32⟩ : BufTy).Contents (Elt F) → (⟨S20000x16, .f32⟩ : BufTy).Contents (Elt F)),
    unary main_arg10 main_v161 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v161 main_v162 rfl shapeCasts_S1x16x16_S16x16,
    binary main_v146 main_v162 main_v163 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg10 main_v164 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v164 main_v165 rfl shapeCasts_S1x16x16_S16x16,
    binary main_v160 main_v165 main_v166 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v163 main_v166 main_v167 (addf : (⟨S20000x16, .f32⟩ : BufTy).Contents (Elt F) → (⟨S20000x16, .f32⟩ : BufTy).Contents (Elt F) → (⟨S20000x16, .f32⟩ : BufTy).Contents (Elt F)),
    unary main_v102 main_v168 (broadcastInDim S200000x1 ![0] bcast_S200000_S200000x1_0 : (⟨S200000, .f32⟩ : BufTy).Contents (Elt F) → (⟨S200000x1, .f32⟩ : BufTy).Contents (Elt F)),
    nullary main_c_29 (constantI S_ 32 0#32),
    unary main_c_29 main_v169 (broadcastInDim S200000 ![] bcast_S_S200000 : (⟨S_, .i32⟩ : BufTy).Contents (Elt F) → (⟨S200000, .i32⟩ : BufTy).Contents (Elt F)),
    binary main_v1 main_v169 main_v170 (cmpi .slt : (⟨S200000, .i32⟩ : BufTy).Contents (Elt F) → (⟨S200000, .i32⟩ : BufTy).Contents (Elt F) → (⟨S200000, .i1⟩ : BufTy).Contents (Elt F)),
    nullary main_c_30 (constantI S_ 32 20000#32),
    unary main_c_30 main_v171 (broadcastInDim S200000 ![] bcast_S_S200000 : (⟨S_, .i32⟩ : BufTy).Contents (Elt F) → (⟨S200000, .i32⟩ : BufTy).Contents (Elt F)),
    binary main_v1 main_v171 main_v172 (addi : (⟨S200000, .i32⟩ : BufTy).Contents (Elt F) → (⟨S200000, .i32⟩ : BufTy).Contents (Elt F) → (⟨S200000, .i32⟩ : BufTy).Contents (Elt F)),
    ternary main_v170 main_v172 main_v1 main_v173 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v173 main_v174 (broadcastInDim S200000x1 ![0] bcast_S200000_S200000x1_0 : (⟨S200000, .i32⟩ : BufTy).Contents (Elt F) → (⟨S200000x1, .i32⟩ : BufTy).Contents (Elt F)),
    binary main_v160 main_v174 main_v175 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v168 main_v176 (broadcastInDim S200000x16 ![0, 1] bcast_S200000x1_S200000x16_0_1 : (⟨S200000x1, .f32⟩ : BufTy).Contents (Elt F) → (⟨S200000x16, .f32⟩ : BufTy).Contents (Elt F)),
    binary main_v176 main_v175 main_v177 (mulf : (⟨S200000x16, .f32⟩ : BufTy).Contents (Elt F) → (⟨S200000x16, .f32⟩ : BufTy).Contents (Elt F) → (⟨S200000x16, .f32⟩ : BufTy).Contents (Elt F)),
    nullary main_cst_31 (constant S_ .f32 0x00000000#32),
    unary main_cst_31 main_v178 (broadcastInDim S20000x16 ![] bcast_S_S20000x16 : (⟨S_, .f32⟩ : BufTy).Contents (Elt F) → (⟨S20000x16, .f32⟩ : BufTy).Contents (Elt F)),
    unary main_v3 main_v179 (broadcastInDim S200000x1 ![0] bcast_S200000_S200000x1_0 : (⟨S200000, .i32⟩ : BufTy).Contents (Elt F) → (⟨S200000x1, .i32⟩ : BufTy).Contents (Elt F)),
    ternary main_v178 main_v179 main_v177 main_v180 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v180 main_v181 (Host.negf : (⟨S20000x16, .f32⟩ : BufTy).Contents (Elt F) → (⟨S20000x16, .f32⟩ : BufTy).Contents (Elt F)),
    nullary main_cst_32 (constant S_ .f32 0x40000000#32),
    unary main_cst_32 main_v182 (broadcastInDim S20000x16 ![] bcast_S_S20000x16 : (⟨S_, .f32⟩ : BufTy).Contents (Elt F) → (⟨S20000x16, .f32⟩ : BufTy).Contents (Elt F)),
    binary main_v182 main_v181 main_v183 (mulf : (⟨S20000x16, .f32⟩ : BufTy).Contents (Elt F) → (⟨S20000x16, .f32⟩ : BufTy).Contents (Elt F) → (⟨S20000x16, .f32⟩ : BufTy).Contents (Elt F)),
    binary main_v183 main_v146 main_v184 (subf : (⟨S20000x16, .f32⟩ : BufTy).Contents (Elt F) → (⟨S20000x16, .f32⟩ : BufTy).Contents (Elt F) → (⟨S20000x16, .f32⟩ : BufTy).Contents (Elt F)),
    unary main_arg10 main_v185 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v185 main_v186 rfl shapeCasts_S1x16x16_S16x16,
    binary main_v184 main_v186 main_v187 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v167 main_v187 main_v188 (addf : (⟨S20000x16, .f32⟩ : BufTy).Contents (Elt F) → (⟨S20000x16, .f32⟩ : BufTy).Contents (Elt F) → (⟨S20000x16, .f32⟩ : BufTy).Contents (Elt F)),
    nullary main_cst_33 (constant S_ .f32 0x00000000#32),
    unary main_cst_33 main_v189 (broadcastInDim S20000x16 ![] bcast_S_S20000x16 : (⟨S_, .f32⟩ : BufTy).Contents (Elt F) → (⟨S20000x16, .f32⟩ : BufTy).Contents (Elt F)),
    binary main_v188 main_v189 main_v190 (maximumf : (⟨S20000x16, .f32⟩ : BufTy).Contents (Elt F) → (⟨S20000x16, .f32⟩ : BufTy).Contents (Elt F) → (⟨S20000x16, .f32⟩ : BufTy).Contents (Elt F)),
    binary main_v146 main_v190 main_v191 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)),
    unary main_v102 main_v192 (broadcastInDim S200000x1 ![0] bcast_S200000_S200000x1_0 : (⟨S200000, .f32⟩ : BufTy).Contents (Elt F) → (⟨S200000x1, .f32⟩ : BufTy).Contents (Elt F)),
    nullary main_c_34 (constantI S_ 32 0#32),
    unary main_c_34 main_v193 (broadcastInDim S200000 ![] bcast_S_S200000 : (⟨S_, .i32⟩ : BufTy).Contents (Elt F) → (⟨S200000, .i32⟩ : BufTy).Contents (Elt F)),
    binary main_v1 main_v193 main_v194 (cmpi .slt : (⟨S200000, .i32⟩ : BufTy).Contents (Elt F) → (⟨S200000, .i32⟩ : BufTy).Contents (Elt F) → (⟨S200000, .i1⟩ : BufTy).Contents (Elt F)),
    nullary main_c_35 (constantI S_ 32 20000#32),
    unary main_c_35 main_v195 (broadcastInDim S200000 ![] bcast_S_S200000 : (⟨S_, .i32⟩ : BufTy).Contents (Elt F) → (⟨S200000, .i32⟩ : BufTy).Contents (Elt F)),
    binary main_v1 main_v195 main_v196 (addi : (⟨S200000, .i32⟩ : BufTy).Contents (Elt F) → (⟨S200000, .i32⟩ : BufTy).Contents (Elt F) → (⟨S200000, .i32⟩ : BufTy).Contents (Elt F)),
    ternary main_v194 main_v196 main_v1 main_v197 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v197 main_v198 (broadcastInDim S200000x1 ![0] bcast_S200000_S200000x1_0 : (⟨S200000, .i32⟩ : BufTy).Contents (Elt F) → (⟨S200000x1, .i32⟩ : BufTy).Contents (Elt F)),
    binary main_v190 main_v198 main_v199 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v192 main_v200 (broadcastInDim S200000x16 ![0, 1] bcast_S200000x1_S200000x16_0_1 : (⟨S200000x1, .f32⟩ : BufTy).Contents (Elt F) → (⟨S200000x16, .f32⟩ : BufTy).Contents (Elt F)),
    binary main_v200 main_v199 main_v201 (mulf : (⟨S200000x16, .f32⟩ : BufTy).Contents (Elt F) → (⟨S200000x16, .f32⟩ : BufTy).Contents (Elt F) → (⟨S200000x16, .f32⟩ : BufTy).Contents (Elt F)) ]

theorem ops_part3_cut : (ops_part3 : List (HloOp τ sig (Elt F))) = rops10b ++ ([rdot10] ++ (rops11 ++ ([rdot11] ++ (rops12 ++ ([rdot12] ++ (rops13a)))))) := rfl

theorem ops_part3_sub : (ops_part3 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

/-- The operations of window main_part4 of @main. -/
abbrev ops_part4 : List (HloOp τ sig (Elt F)) :=
  [ nullary main_cst_36 (constant S_ .f32 0x00000000#32),
    unary main_cst_36 main_v202 (broadcastInDim S20000x16 ![] bcast_S_S20000x16 : (⟨S_, .f32⟩ : BufTy).Contents (Elt F) → (⟨S20000x16, .f32⟩ : BufTy).Contents (Elt F)),
    unary main_v3 main_v203 (broadcastInDim S200000x1 ![0] bcast_S200000_S200000x1_0 : (⟨S200000, .i32⟩ : BufTy).Contents (Elt F) → (⟨S200000x1, .i32⟩ : BufTy).Contents (Elt F)),
    ternary main_v202 main_v203 main_v201 main_v204 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v204 main_v205 (Host.negf : (⟨S20000x16, .f32⟩ : BufTy).Contents (Elt F) → (⟨S20000x16, .f32⟩ : BufTy).Contents (Elt F)),
    unary main_arg11 main_v206 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v206 main_v207 rfl shapeCasts_S1x16x16_S16x16,
    binary main_v190 main_v207 main_v208 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg11 main_v209 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v209 main_v210 rfl shapeCasts_S1x16x16_S16x16,
    binary main_v205 main_v210 main_v211 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v208 main_v211 main_v212 (addf : (⟨S20000x16, .f32⟩ : BufTy).Contents (Elt F) → (⟨S20000x16, .f32⟩ : BufTy).Contents (Elt F) → (⟨S20000x16, .f32⟩ : BufTy).Contents (Elt F)),
    unary main_v102 main_v213 (broadcastInDim S200000x1 ![0] bcast_S200000_S200000x1_0 : (⟨S200000, .f32⟩ : BufTy).Contents (Elt F) → (⟨S200000x1, .f32⟩ : BufTy).Contents (Elt F)),
    nullary main_c_37 (constantI S_ 32 0#32),
    unary main_c_37 main_v214 (broadcastInDim S200000 ![] bcast_S_S200000 : (⟨S_, .i32⟩ : BufTy).Contents (Elt F) → (⟨S200000, .i32⟩ : BufTy).Contents (Elt F)),
    binary main_v1 main_v214 main_v215 (cmpi .slt : (⟨S200000, .i32⟩ : BufTy).Contents (Elt F) → (⟨S200000, .i32⟩ : BufTy).Contents (Elt F) → (⟨S200000, .i1⟩ : BufTy).Contents (Elt F)),
    nullary main_c_38 (constantI S_ 32 20000#32),
    unary main_c_38 main_v216 (broadcastInDim S200000 ![] bcast_S_S200000 : (⟨S_, .i32⟩ : BufTy).Contents (Elt F) → (⟨S200000, .i32⟩ : BufTy).Contents (Elt F)),
    binary main_v1 main_v216 main_v217 (addi : (⟨S200000, .i32⟩ : BufTy).Contents (Elt F) → (⟨S200000, .i32⟩ : BufTy).Contents (Elt F) → (⟨S200000, .i32⟩ : BufTy).Contents (Elt F)),
    ternary main_v215 main_v217 main_v1 main_v218 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v218 main_v219 (broadcastInDim S200000x1 ![0] bcast_S200000_S200000x1_0 : (⟨S200000, .i32⟩ : BufTy).Contents (Elt F) → (⟨S200000x1, .i32⟩ : BufTy).Contents (Elt F)),
    binary main_v205 main_v219 main_v220 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v213 main_v221 (broadcastInDim S200000x16 ![0, 1] bcast_S200000x1_S200000x16_0_1 : (⟨S200000x1, .f32⟩ : BufTy).Contents (Elt F) → (⟨S200000x16, .f32⟩ : BufTy).Contents (Elt F)),
    binary main_v221 main_v220 main_v222 (mulf : (⟨S200000x16, .f32⟩ : BufTy).Contents (Elt F) → (⟨S200000x16, .f32⟩ : BufTy).Contents (Elt F) → (⟨S200000x16, .f32⟩ : BufTy).Contents (Elt F)),
    nullary main_cst_39 (constant S_ .f32 0x00000000#32),
    unary main_cst_39 main_v223 (broadcastInDim S20000x16 ![] bcast_S_S20000x16 : (⟨S_, .f32⟩ : BufTy).Contents (Elt F) → (⟨S20000x16, .f32⟩ : BufTy).Contents (Elt F)),
    unary main_v3 main_v224 (broadcastInDim S200000x1 ![0] bcast_S200000_S200000x1_0 : (⟨S200000, .i32⟩ : BufTy).Contents (Elt F) → (⟨S200000x1, .i32⟩ : BufTy).Contents (Elt F)),
    ternary main_v223 main_v224 main_v222 main_v225 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v225 main_v226 (Host.negf : (⟨S20000x16, .f32⟩ : BufTy).Contents (Elt F) → (⟨S20000x16, .f32⟩ : BufTy).Contents (Elt F)),
    nullary main_cst_40 (constant S_ .f32 0x40000000#32),
    unary main_cst_40 main_v227 (broadcastInDim S20000x16 ![] bcast_S_S20000x16 : (⟨S_, .f32⟩ : BufTy).Contents (Elt F) → (⟨S20000x16, .f32⟩ : BufTy).Contents (Elt F)),
    binary main_v227 main_v226 main_v228 (mulf : (⟨S20000x16, .f32⟩ : BufTy).Contents (Elt F) → (⟨S20000x16, .f32⟩ : BufTy).Contents (Elt F) → (⟨S20000x16, .f32⟩ : BufTy).Contents (Elt F)),
    binary main_v228 main_v190 main_v229 (subf : (⟨S20000x16, .f32⟩ : BufTy).Contents (Elt F) → (⟨S20000x16, .f32⟩ : BufTy).Contents (Elt F) → (⟨S20000x16, .f32⟩ : BufTy).Contents (Elt F)),
    unary main_arg11 main_v230 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v230 main_v231 rfl shapeCasts_S1x16x16_S16x16,
    binary main_v229 main_v231 main_v232 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v212 main_v232 main_v233 (addf : (⟨S20000x16, .f32⟩ : BufTy).Contents (Elt F) → (⟨S20000x16, .f32⟩ : BufTy).Contents (Elt F) → (⟨S20000x16, .f32⟩ : BufTy).Contents (Elt F)),
    nullary main_cst_41 (constant S_ .f32 0x00000000#32),
    unary main_cst_41 main_v234 (broadcastInDim S20000x16 ![] bcast_S_S20000x16 : (⟨S_, .f32⟩ : BufTy).Contents (Elt F) → (⟨S20000x16, .f32⟩ : BufTy).Contents (Elt F)),
    binary main_v233 main_v234 main_v235 (maximumf : (⟨S20000x16, .f32⟩ : BufTy).Contents (Elt F) → (⟨S20000x16, .f32⟩ : BufTy).Contents (Elt F) → (⟨S20000x16, .f32⟩ : BufTy).Contents (Elt F)),
    binary main_v191 main_v235 main_v236 ((fun a b => concatenate S20000x48 1 [⟨S20000x32, a⟩, ⟨S20000x16, b⟩] concatenates_S20000x32_S20000x16_S20000x48_d1) : (⟨S20000x32, .f32⟩ : BufTy).Contents (Elt F) → (⟨S20000x16, .f32⟩ : BufTy).Contents (Elt F) → (⟨S20000x48, .f32⟩ : BufTy).Contents (Elt F)),
    unary main_v102 main_v237 (broadcastInDim S200000x1 ![0] bcast_S200000_S200000x1_0 : (⟨S200000, .f32⟩ : BufTy).Contents (Elt F) → (⟨S200000x1, .f32⟩ : BufTy).Contents (Elt F)),
    nullary main_c_42 (constantI S_ 32 0#32),
    unary main_c_42 main_v238 (broadcastInDim S200000 ![] bcast_S_S200000 : (⟨S_, .i32⟩ : BufTy).Contents (Elt F) → (⟨S200000, .i32⟩ : BufTy).Contents (Elt F)),
    binary main_v1 main_v238 main_v239 (cmpi .slt : (⟨S200000, .i32⟩ : BufTy).Contents (Elt F) → (⟨S200000, .i32⟩ : BufTy).Contents (Elt F) → (⟨S200000, .i1⟩ : BufTy).Contents (Elt F)),
    nullary main_c_43 (constantI S_ 32 20000#32),
    unary main_c_43 main_v240 (broadcastInDim S200000 ![] bcast_S_S200000 : (⟨S_, .i32⟩ : BufTy).Contents (Elt F) → (⟨S200000, .i32⟩ : BufTy).Contents (Elt F)),
    binary main_v1 main_v240 main_v241 (addi : (⟨S200000, .i32⟩ : BufTy).Contents (Elt F) → (⟨S200000, .i32⟩ : BufTy).Contents (Elt F) → (⟨S200000, .i32⟩ : BufTy).Contents (Elt F)),
    ternary main_v239 main_v241 main_v1 main_v242 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v242 main_v243 (broadcastInDim S200000x1 ![0] bcast_S200000_S200000x1_0 : (⟨S200000, .i32⟩ : BufTy).Contents (Elt F) → (⟨S200000x1, .i32⟩ : BufTy).Contents (Elt F)),
    binary main_v235 main_v243 main_v244 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v237 main_v245 (broadcastInDim S200000x16 ![0, 1] bcast_S200000x1_S200000x16_0_1 : (⟨S200000x1, .f32⟩ : BufTy).Contents (Elt F) → (⟨S200000x16, .f32⟩ : BufTy).Contents (Elt F)),
    binary main_v245 main_v244 main_v246 (mulf : (⟨S200000x16, .f32⟩ : BufTy).Contents (Elt F) → (⟨S200000x16, .f32⟩ : BufTy).Contents (Elt F) → (⟨S200000x16, .f32⟩ : BufTy).Contents (Elt F)),
    nullary main_cst_44 (constant S_ .f32 0x00000000#32),
    unary main_cst_44 main_v247 (broadcastInDim S20000x16 ![] bcast_S_S20000x16 : (⟨S_, .f32⟩ : BufTy).Contents (Elt F) → (⟨S20000x16, .f32⟩ : BufTy).Contents (Elt F)),
    unary main_v3 main_v248 (broadcastInDim S200000x1 ![0] bcast_S200000_S200000x1_0 : (⟨S200000, .i32⟩ : BufTy).Contents (Elt F) → (⟨S200000x1, .i32⟩ : BufTy).Contents (Elt F)),
    ternary main_v247 main_v248 main_v246 main_v249 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v249 main_v250 (Host.negf : (⟨S20000x16, .f32⟩ : BufTy).Contents (Elt F) → (⟨S20000x16, .f32⟩ : BufTy).Contents (Elt F)),
    unary main_arg12 main_v251 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v251 main_v252 rfl shapeCasts_S1x16x16_S16x16 ]

theorem ops_part4_cut : (ops_part4 : List (HloOp τ sig (Elt F))) = rops13b ++ ([rdot13] ++ (rops14 ++ ([rdot14] ++ (rops15 ++ ([rdot15] ++ (rops16)))))) := rfl

theorem ops_part4_sub : (ops_part4 : List (HloOp τ sig (Elt F))).Forall fun op => op.bufs ⊆ tcRefs τ sig :=
  ⟨nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub ..⟩

/-- The operations of window main_part5 of @main. -/
abbrev ops_part5 : List (HloOp τ sig (Elt F)) :=
  [ binary main_v235 main_v252 main_v253 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg12 main_v254 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v254 main_v255 rfl shapeCasts_S1x16x16_S16x16,
    binary main_v250 main_v255 main_v256 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v253 main_v256 main_v257 (addf : (⟨S20000x16, .f32⟩ : BufTy).Contents (Elt F) → (⟨S20000x16, .f32⟩ : BufTy).Contents (Elt F) → (⟨S20000x16, .f32⟩ : BufTy).Contents (Elt F)),
    unary main_v102 main_v258 (broadcastInDim S200000x1 ![0] bcast_S200000_S200000x1_0 : (⟨S200000, .f32⟩ : BufTy).Contents (Elt F) → (⟨S200000x1, .f32⟩ : BufTy).Contents (Elt F)),
    nullary main_c_45 (constantI S_ 32 0#32),
    unary main_c_45 main_v259 (broadcastInDim S200000 ![] bcast_S_S200000 : (⟨S_, .i32⟩ : BufTy).Contents (Elt F) → (⟨S200000, .i32⟩ : BufTy).Contents (Elt F)),
    binary main_v1 main_v259 main_v260 (cmpi .slt : (⟨S200000, .i32⟩ : BufTy).Contents (Elt F) → (⟨S200000, .i32⟩ : BufTy).Contents (Elt F) → (⟨S200000, .i1⟩ : BufTy).Contents (Elt F)),
    nullary main_c_46 (constantI S_ 32 20000#32),
    unary main_c_46 main_v261 (broadcastInDim S200000 ![] bcast_S_S200000 : (⟨S_, .i32⟩ : BufTy).Contents (Elt F) → (⟨S200000, .i32⟩ : BufTy).Contents (Elt F)),
    binary main_v1 main_v261 main_v262 (addi : (⟨S200000, .i32⟩ : BufTy).Contents (Elt F) → (⟨S200000, .i32⟩ : BufTy).Contents (Elt F) → (⟨S200000, .i32⟩ : BufTy).Contents (Elt F)),
    ternary main_v260 main_v262 main_v1 main_v263 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v263 main_v264 (broadcastInDim S200000x1 ![0] bcast_S200000_S200000x1_0 : (⟨S200000, .i32⟩ : BufTy).Contents (Elt F) → (⟨S200000x1, .i32⟩ : BufTy).Contents (Elt F)),
    binary main_v250 main_v264 main_v265 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v258 main_v266 (broadcastInDim S200000x16 ![0, 1] bcast_S200000x1_S200000x16_0_1 : (⟨S200000x1, .f32⟩ : BufTy).Contents (Elt F) → (⟨S200000x16, .f32⟩ : BufTy).Contents (Elt F)),
    binary main_v266 main_v265 main_v267 (mulf : (⟨S200000x16, .f32⟩ : BufTy).Contents (Elt F) → (⟨S200000x16, .f32⟩ : BufTy).Contents (Elt F) → (⟨S200000x16, .f32⟩ : BufTy).Contents (Elt F)),
    nullary main_cst_47 (constant S_ .f32 0x00000000#32),
    unary main_cst_47 main_v268 (broadcastInDim S20000x16 ![] bcast_S_S20000x16 : (⟨S_, .f32⟩ : BufTy).Contents (Elt F) → (⟨S20000x16, .f32⟩ : BufTy).Contents (Elt F)),
    unary main_v3 main_v269 (broadcastInDim S200000x1 ![0] bcast_S200000_S200000x1_0 : (⟨S200000, .i32⟩ : BufTy).Contents (Elt F) → (⟨S200000x1, .i32⟩ : BufTy).Contents (Elt F)),
    ternary main_v268 main_v269 main_v267 main_v270 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v270 main_v271 (Host.negf : (⟨S20000x16, .f32⟩ : BufTy).Contents (Elt F) → (⟨S20000x16, .f32⟩ : BufTy).Contents (Elt F)),
    nullary main_cst_48 (constant S_ .f32 0x40000000#32),
    unary main_cst_48 main_v272 (broadcastInDim S20000x16 ![] bcast_S_S20000x16 : (⟨S_, .f32⟩ : BufTy).Contents (Elt F) → (⟨S20000x16, .f32⟩ : BufTy).Contents (Elt F)),
    binary main_v272 main_v271 main_v273 (mulf : (⟨S20000x16, .f32⟩ : BufTy).Contents (Elt F) → (⟨S20000x16, .f32⟩ : BufTy).Contents (Elt F) → (⟨S20000x16, .f32⟩ : BufTy).Contents (Elt F)),
    binary main_v273 main_v235 main_v274 (subf : (⟨S20000x16, .f32⟩ : BufTy).Contents (Elt F) → (⟨S20000x16, .f32⟩ : BufTy).Contents (Elt F) → (⟨S20000x16, .f32⟩ : BufTy).Contents (Elt F)),
    unary main_arg12 main_v275 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v275 main_v276 rfl shapeCasts_S1x16x16_S16x16,
    binary main_v274 main_v276 main_v277 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v257 main_v277 main_v278 (addf : (⟨S20000x16, .f32⟩ : BufTy).Contents (Elt F) → (⟨S20000x16, .f32⟩ : BufTy).Contents (Elt F) → (⟨S20000x16, .f32⟩ : BufTy).Contents (Elt F)),
    nullary main_cst_49 (constant S_ .f32 0x00000000#32),
    unary main_cst_49 main_v279 (broadcastInDim S20000x16 ![] bcast_S_S20000x16 : (⟨S_, .f32⟩ : BufTy).Contents (Elt F) → (⟨S20000x16, .f32⟩ : BufTy).Contents (Elt F)),
    binary main_v278 main_v279 main_v280 (maximumf : (⟨S20000x16, .f32⟩ : BufTy).Contents (Elt F) → (⟨S20000x16, .f32⟩ : BufTy).Contents (Elt F) → (⟨S20000x16, .f32⟩ : BufTy).Contents (Elt F)),
    binary main_v236 main_v280 main_v281 ((fun a b => concatenate S20000x64 1 [⟨S20000x48, a⟩, ⟨S20000x16, b⟩] concatenates_S20000x48_S20000x16_S20000x64_d1) : (⟨S20000x48, .f32⟩ : BufTy).Contents (Elt F) → (⟨S20000x16, .f32⟩ : BufTy).Contents (Elt F) → (⟨S20000x64, .f32⟩ : BufTy).Contents (Elt F)),
    unary main_arg13 main_v282 ((transpose S64x256 [1, 0] · transposes_S256x64_S64x256_1_0) : (⟨S256x64, .f32⟩ : BufTy).Contents (Elt F) → (⟨S64x256, .f32⟩ : BufTy).Contents (Elt F)),
    binary main_v281 main_v282 main_v283 ((fun l r => Host.dotGeneral dot_S20000x64_S64x256_S20000x256_1_0_0_1_n_n none l r) : (⟨S20000x64, .f32⟩ : BufTy).Contents (Elt F) → (⟨S64x256, .f32⟩ : BufTy).Contents (Elt F) → (⟨S20000x256, .f32⟩ : BufTy).Contents (Elt F)),
    unary main_arg14 main_v284 (broadcastInDim S1x256 ![1] bcast_S256_S1x256_1 : (⟨S256, .f32⟩ : BufTy).Contents (Elt F) → (⟨S1x256, .f32⟩ : BufTy).Contents (Elt F)),
    unary main_v284 main_v285 (broadcastInDim S20000x256 ![0, 1] bcast_S1x256_S20000x256_0_1 : (⟨S1x256, .f32⟩ : BufTy).Contents (Elt F) → (⟨S20000x256, .f32⟩ : BufTy).Contents (Elt F)),
    binary main_v283 main_v285 main_v286 (addf : (⟨S20000x256, .f32⟩ : BufTy).Contents (Elt F) → (⟨S20000x256, .f32⟩ : BufTy).Contents (Elt F) → (⟨S20000x256, .f32⟩ : BufTy).Contents (Elt F)),
    nullary main_cst_50 (constant S_ .f32 0x00000000#32),
    unary main_cst_50 main_v287 (broadcastInDim S20000x256 ![] bcast_S_S20000x256 : (⟨S_, .f32⟩ : BufTy).Contents (Elt F) → (⟨S20000x256, .f32⟩ : BufTy).Contents (Elt F)),
    binary main_v286 main_v287 main_v288 (maximumf : (⟨S20000x256, .f32⟩ : BufTy).Contents (Elt F) → (⟨S20000x256, .f32⟩ : BufTy).Contents (Elt F) → (⟨S20000x256, .f32⟩ : BufTy).Contents (Elt F)),
    nullary main_cst_51 (constant S_ .f32 0x3F7FFFAC#32),
    unary main_cst_51 main_v289 (broadcastInDim S20000x256 ![] bcast_S_S20000x256 : (⟨S_, .f32⟩ : BufTy).Contents (Elt F) → (⟨S20000x256, .f32⟩ : BufTy).Contents (Elt F)),
    binary main_v288 main_v289 main_v290 (mulf : (⟨S20000x256, .f32⟩ : BufTy).Contents (Elt F) → (⟨S20000x256, .f32⟩ : BufTy).Contents (Elt F) → (⟨S20000x256, .f32⟩ : BufTy).Contents (Elt F)),
    unary main_arg15 main_v291 ((transpose S256x2 [1, 0] · transposes_S2x256_S256x2_1_0) : (⟨S2x256, .f32⟩ : BufTy).Contents (Elt F) → (⟨S256x2, .f32⟩ : BufTy).Contents (Elt F)),
    binary main_v290 main_v291 main_v292 ((fun l r => Host.dotGeneral dot_S20000x256_S256x2_S20000x2_1_0_0_1_n_n none l r) : (⟨S20000x256, .f32⟩ : BufTy).Contents (Elt F) → (⟨S256x2, .f32⟩ : BufTy).Contents (Elt F) → (⟨S20000x2, .f32⟩ : BufTy).Contents (Elt F)),
    unary main_arg16 main_v293 (broadcastInDim S1x2 ![1] bcast_S2_S1x2_1 : (⟨S2, .f32⟩ : BufTy).Contents (Elt F) → (⟨S1x2, .f32⟩ : BufTy).Contents (Elt F)),
    unary main_v293 main_v294 (broadcastInDim S20000x2 ![0, 1] bcast_S1x2_S20000x2_0_1 : (⟨S1x2, .f32⟩ : BufTy).Contents (Elt F) → (⟨S20000x2, .f32⟩ : BufTy).Contents (Elt F)),
    binary main_v292 main_v294 main_v295 (addf : (⟨S20000x2, .f32⟩ : BufTy).Contents (Elt F) → (⟨S20000x2, .f32⟩ : BufTy).Contents (Elt F) → (⟨S20000x2, .f32⟩ : BufTy).Contents (Elt F)),
    unary main_arg17 main_v296 ((transpose S512x256 [1, 0] · transposes_S256x512_S512x256_1_0) : (⟨S256x512, .f32⟩ : BufTy).Contents (Elt F) → (⟨S512x256, .f32⟩ : BufTy).Contents (Elt F)),
    binary main_v8 main_v296 main_v297 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg18 main_v298 (broadcastInDim S1x256 ![1] bcast_S256_S1x256_1 : (⟨S256, .f32⟩ : BufTy).Contents (Elt F) → (⟨S1x256, .f32⟩ : BufTy).Contents (Elt F)),
    unary main_v298 main_v299 (broadcastInDim S20000x256 ![0, 1] bcast_S1x256_S20000x256_0_1 : (⟨S1x256, .f32⟩ : BufTy).Contents (Elt F) → (⟨S20000x256, .f32⟩ : BufTy).Contents (Elt F)),
    binary main_v297 main_v299 main_v300 (addf : (⟨S20000x256, .f32⟩ : BufTy).Contents (Elt F) → (⟨S20000x256, .f32⟩ : BufTy).Contents (Elt F) → (⟨S20000x256, .f32⟩ : BufTy).Contents (Elt F)),
    nullary main_cst_52 (constant S_ .f32 0x00000000#32),
    unary main_cst_52 main_v301 (broadcastInDim S20000x256 ![] bcast_S_S20000x256 : (⟨S_, .f32⟩ : BufTy).Contents (Elt F) → (⟨S20000x256, .f32⟩ : BufTy).Contents (Elt F)),
    binary main_v300 main_v301 main_v302 (maximumf : (⟨S20000x256, .f32⟩ : BufTy).Contents (Elt F) → (⟨S20000x256, .f32⟩ : BufTy).Contents (Elt F) → (⟨S20000x256, .f32⟩ : BufTy).Contents (Elt F)),
    nullary main_cst_53 (constant S_ .f32 0x3F7FFFAC#32),
    unary main_cst_53 main_v303 (broadcastInDim S20000x256 ![] bcast_S_S20000x256 : (⟨S_, .f32⟩ : BufTy).Contents (Elt F) → (⟨S20000x256, .f32⟩ : BufTy).Contents (Elt F)) ]

theorem ops_part5_cut : (ops_part5 : List (HloOp τ sig (Elt F))) = [rdot16] ++ (rops17 ++ ([rdot17] ++ (rops18 ++ ([rdot18] ++ (rops19 ++ ([rdot19] ++ (rops20 ++ ([rdot20] ++ (rops21 ++ ([rdot21] ++ (rops22a))))))))))) := rfl

theorem ops_part5_sub : (ops_part5 : List (HloOp τ sig (Elt F))).Forall fun op => op.bufs ⊆ tcRefs τ sig :=
  ⟨binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

/-- The operations of window main_part6 of @main. -/
abbrev ops_part6 : List (HloOp τ sig (Elt F)) :=
  [ binary main_v302 main_v303 main_v304 (mulf : (⟨S20000x256, .f32⟩ : BufTy).Contents (Elt F) → (⟨S20000x256, .f32⟩ : BufTy).Contents (Elt F) → (⟨S20000x256, .f32⟩ : BufTy).Contents (Elt F)),
    unary main_arg19 main_v305 ((transpose S256x20 [1, 0] · transposes_S20x256_S256x20_1_0) : (⟨S20x256, .f32⟩ : BufTy).Contents (Elt F) → (⟨S256x20, .f32⟩ : BufTy).Contents (Elt F)),
    binary main_v304 main_v305 main_v306 ((fun l r => Host.dotGeneral dot_S20000x256_S256x20_S20000x20_1_0_0_1_n_n none l r) : (⟨S20000x256, .f32⟩ : BufTy).Contents (Elt F) → (⟨S256x20, .f32⟩ : BufTy).Contents (Elt F) → (⟨S20000x20, .f32⟩ : BufTy).Contents (Elt F)),
    unary main_arg20 main_v307 (broadcastInDim S1x20 ![1] bcast_S20_S1x20_1 : (⟨S20, .f32⟩ : BufTy).Contents (Elt F) → (⟨S1x20, .f32⟩ : BufTy).Contents (Elt F)),
    unary main_v307 main_v308 (broadcastInDim S20000x20 ![0, 1] bcast_S1x20_S20000x20_0_1 : (⟨S1x20, .f32⟩ : BufTy).Contents (Elt F) → (⟨S20000x20, .f32⟩ : BufTy).Contents (Elt F)),
    binary main_v306 main_v308 main_v309 (addf : (⟨S20000x20, .f32⟩ : BufTy).Contents (Elt F) → (⟨S20000x20, .f32⟩ : BufTy).Contents (Elt F) → (⟨S20000x20, .f32⟩ : BufTy).Contents (Elt F)) ]

theorem ops_part6_cut : (ops_part6 : List (HloOp τ sig (Elt F))) = rops22b ++ ([rdot22] ++ (rops23)) := rfl

theorem ops_part6_sub : (ops_part6 : List (HloOp τ sig (Elt F))).Forall fun op => op.bufs ⊆ tcRefs τ sig :=
  ⟨binary_bufs_sub .., unary_bufs_sub .., binary_bufs_sub .., unary_bufs_sub .., unary_bufs_sub .., binary_bufs_sub ..⟩

/-- @main's operations: the stretches and the contractions in order. -/
abbrev opsA : List (HloOp τ sig (Elt F)) :=
  rops0 ++ ([rdot0] ++ (rops1 ++ ([rdot1] ++ (rops2 ++ ([rdot2] ++ (rops3 ++ ([rdot3] ++ (rops4 ++ ([rdot4] ++ (rops5 ++ ([rdot5] ++ (rops6a ++ (rops6b ++ ([rdot6] ++ (rops7a ++ (rops7b ++ ([rdot7] ++ (rops8 ++ ([rdot8] ++ (rops9 ++ ([rdot9] ++ (rops10a ++ (rops10b ++ ([rdot10] ++ (rops11 ++ ([rdot11] ++ (rops12 ++ ([rdot12] ++ (rops13a ++ (rops13b ++ ([rdot13] ++ (rops14 ++ ([rdot14] ++ (rops15 ++ ([rdot15] ++ (rops16 ++ ([rdot16] ++ (rops17 ++ ([rdot17] ++ (rops18 ++ ([rdot18] ++ (rops19 ++ ([rdot19] ++ (rops20 ++ ([rdot20] ++ (rops21 ++ ([rdot21] ++ (rops22a ++ (rops22b ++ ([rdot22] ++ (rops23)))))))))))))))))))))))))))))))))))))))))))))))))))

end Cert.ReferenceIdeal.Cut

end
-- ==== Proof.RefArgs.lean ====
/-
  No operation of the reference writes one of @main's arguments: after the whole operation list each argument's buffer
  holds what it was launched with. The arguments are the first 25 buffers of HBM; every operation writes exactly one
  buffer, the one its builder names, and that one is a later buffer; the whole list is the concatenation of the pieces it
  was cut into, and a buffer that no operation of a line writes keeps its contents across the line.
-/
import proofs.«114227_j13357348290767_1_alg».proof.Proof.RunRef
import Idealize.ShloMosaic.PureOps.Ideal

set_option maxRecDepth 16384

noncomputable section

namespace Cert.ReferenceIdeal.Args

open Cert.ReferenceIdeal Cert.ReferenceIdeal.Gen Idealize.ShloMosaic Idealize.ShloMosaic.TcCoe Idealize.SL.Sem Idealize.ShloMosaic.StableHlo

/-- One of @main's 25 arguments: among the first 25 buffers of HBM. -/
def isArg (r : Ref sig .tc) : Bool := r.space == .hbm && decide (r.idx.val < 25)

/-- An operation whose one written buffer is no argument's writes no argument's buffer. -/
theorem single_no_arg {y : Ref sig .tc} (hy : isArg y = false) :
    ∀ r : Ref sig .tc, isArg r = true → (Proc.devRef .tc r : DevRef τ sig) ∉ ({Proc.devRef .tc y} : Finset (DevRef τ sig)) :=
  fun r hr hm => by
    rw [Proc.devRef_injective _ (Finset.mem_singleton.1 hm), hy] at hr
    exact Bool.false_ne_true hr

variable {F : FTy → Type} [FloatOps F]

/-- No operation of the line writes an argument's buffer. -/
abbrev NoArg (l : List (HloOp τ sig (Elt F))) : Prop :=
  l.Forall fun op => ∀ r : Ref sig .tc, isArg r = true → (Proc.devRef .tc r : DevRef τ sig) ∉ op.writes

/-- Two such lines in a row are such a line. -/
theorem noArg_append {l₁ l₂ : List (HloOp τ sig (Elt F))} (h₁ : NoArg l₁) (h₂ : NoArg l₂) : NoArg (l₁ ++ l₂) :=
  List.forall_iff_forall_mem.2 (List.forall_mem_append.2 ⟨List.forall_iff_forall_mem.1 h₁, List.forall_iff_forall_mem.1 h₂⟩)

/-- Each of the seven windows of the list, operation by operation. -/
theorem noArg_part0 : NoArg (Cut.ops_part0 (F := F)) := by
  (repeat' apply And.intro) <;> exact single_no_arg (by decide)
theorem noArg_part1 : NoArg (Cut.ops_part1 (F := F)) := by
  (repeat' apply And.intro) <;> exact single_no_arg (by decide)
theorem noArg_part2 : NoArg (Cut.ops_part2 (F := F)) := by
  (repeat' apply And.intro) <;> exact single_no_arg (by decide)
theorem noArg_part3 : NoArg (Cut.ops_part3 (F := F)) := by
  (repeat' apply And.intro) <;> exact single_no_arg (by decide)
theorem noArg_part4 : NoArg (Cut.ops_part4 (F := F)) := by
  (repeat' apply And.intro) <;> exact single_no_arg (by decide)
theorem noArg_part5 : NoArg (Cut.ops_part5 (F := F)) := by
  (repeat' apply And.intro) <;> exact single_no_arg (by decide)
theorem noArg_part6 : NoArg (Cut.ops_part6 (F := F)) := by
  (repeat' apply And.intro) <;> exact single_no_arg (by decide)

/-- The whole list: the seven windows in order. -/
theorem noArg_ops : NoArg (RunP.ops (F := F)) :=
  noArg_append noArg_part0 (noArg_append noArg_part1 (noArg_append noArg_part2 (noArg_append noArg_part3
    (noArg_append noArg_part4 (noArg_append noArg_part5 noArg_part6)))))

variable (m : (ℓ : Loc nD τ sig) → Buf (Elt Ideal) ℓ) (c : Dev nD)

/-- An argument's buffer after the whole list holds what it was launched with. -/
theorem keep {r : Ref sig .tc} (hr : isArg r = true) :
    after (RunP.ops (F := Ideal)) (launchContents m c) (Proc.devRef .tc r) = m ((c.tc : Thread nD τ).loc r) :=
  after_of_forall_not_mem _ _ fun op hop => List.forall_iff_forall_mem.1 noArg_ops op hop r hr

theorem keep_main_arg0 : after (RunP.ops (F := Ideal)) (launchContents m c) (Proc.devRef .tc main_arg0) = m ((c.tc : Thread nD τ).loc main_arg0) :=
  keep m c (by decide)
theorem keep_main_arg1 : after (RunP.ops (F := Ideal)) (launchContents m c) (Proc.devRef .tc main_arg1) = m ((c.tc : Thread nD τ).loc main_arg1) :=
  keep m c (by decide)
theorem keep_main_arg2 : after (RunP.ops (F := Ideal)) (launchContents m c) (Proc.devRef .tc main_arg2) = m ((c.tc : Thread nD τ).loc main_arg2) :=
  keep m c (by decide)
theorem keep_main_arg3 : after (RunP.ops (F := Ideal)) (launchContents m c) (Proc.devRef .tc main_arg3) = m ((c.tc : Thread nD τ).loc main_arg3) :=
  keep m c (by decide)
theorem keep_main_arg4 : after (RunP.ops (F := Ideal)) (launchContents m c) (Proc.devRef .tc main_arg4) = m ((c.tc : Thread nD τ).loc main_arg4) :=
  keep m c (by decide)
theorem keep_main_arg5 : after (RunP.ops (F := Ideal)) (launchContents m c) (Proc.devRef .tc main_arg5) = m ((c.tc : Thread nD τ).loc main_arg5) :=
  keep m c (by decide)
theorem keep_main_arg6 : after (RunP.ops (F := Ideal)) (launchContents m c) (Proc.devRef .tc main_arg6) = m ((c.tc : Thread nD τ).loc main_arg6) :=
  keep m c (by decide)
theorem keep_main_arg7 : after (RunP.ops (F := Ideal)) (launchContents m c) (Proc.devRef .tc main_arg7) = m ((c.tc : Thread nD τ).loc main_arg7) :=
  keep m c (by decide)
theorem keep_main_arg8 : after (RunP.ops (F := Ideal)) (launchContents m c) (Proc.devRef .tc main_arg8) = m ((c.tc : Thread nD τ).loc main_arg8) :=
  keep m c (by decide)
theorem keep_main_arg9 : after (RunP.ops (F := Ideal)) (launchContents m c) (Proc.devRef .tc main_arg9) = m ((c.tc : Thread nD τ).loc main_arg9) :=
  keep m c (by decide)
theorem keep_main_arg10 : after (RunP.ops (F := Ideal)) (launchContents m c) (Proc.devRef .tc main_arg10) = m ((c.tc : Thread nD τ).loc main_arg10) :=
  keep m c (by decide)
theorem keep_main_arg11 : after (RunP.ops (F := Ideal)) (launchContents m c) (Proc.devRef .tc main_arg11) = m ((c.tc : Thread nD τ).loc main_arg11) :=
  keep m c (by decide)
theorem keep_main_arg12 : after (RunP.ops (F := Ideal)) (launchContents m c) (Proc.devRef .tc main_arg12) = m ((c.tc : Thread nD τ).loc main_arg12) :=
  keep m c (by decide)
theorem keep_main_arg13 : after (RunP.ops (F := Ideal)) (launchContents m c) (Proc.devRef .tc main_arg13) = m ((c.tc : Thread nD τ).loc main_arg13) :=
  keep m c (by decide)
theorem keep_main_arg14 : after (RunP.ops (F := Ideal)) (launchContents m c) (Proc.devRef .tc main_arg14) = m ((c.tc : Thread nD τ).loc main_arg14) :=
  keep m c (by decide)
theorem keep_main_arg15 : after (RunP.ops (F := Ideal)) (launchContents m c) (Proc.devRef .tc main_arg15) = m ((c.tc : Thread nD τ).loc main_arg15) :=
  keep m c (by decide)
theorem keep_main_arg16 : after (RunP.ops (F := Ideal)) (launchContents m c) (Proc.devRef .tc main_arg16) = m ((c.tc : Thread nD τ).loc main_arg16) :=
  keep m c (by decide)
theorem keep_main_arg17 : after (RunP.ops (F := Ideal)) (launchContents m c) (Proc.devRef .tc main_arg17) = m ((c.tc : Thread nD τ).loc main_arg17) :=
  keep m c (by decide)
theorem keep_main_arg18 : after (RunP.ops (F := Ideal)) (launchContents m c) (Proc.devRef .tc main_arg18) = m ((c.tc : Thread nD τ).loc main_arg18) :=
  keep m c (by decide)
theorem keep_main_arg19 : after (RunP.ops (F := Ideal)) (launchContents m c) (Proc.devRef .tc main_arg19) = m ((c.tc : Thread nD τ).loc main_arg19) :=
  keep m c (by decide)
theorem keep_main_arg20 : after (RunP.ops (F := Ideal)) (launchContents m c) (Proc.devRef .tc main_arg20) = m ((c.tc : Thread nD τ).loc main_arg20) :=
  keep m c (by decide)
theorem keep_main_arg21 : after (RunP.ops (F := Ideal)) (launchContents m c) (Proc.devRef .tc main_arg21) = m ((c.tc : Thread nD τ).loc main_arg21) :=
  keep m c (by decide)
theorem keep_main_arg22 : after (RunP.ops (F := Ideal)) (launchContents m c) (Proc.devRef .tc main_arg22) = m ((c.tc : Thread nD τ).loc main_arg22) :=
  keep m c (by decide)
theorem keep_main_arg23 : after (RunP.ops (F := Ideal)) (launchContents m c) (Proc.devRef .tc main_arg23) = m ((c.tc : Thread nD τ).loc main_arg23) :=
  keep m c (by decide)
theorem keep_main_arg24 : after (RunP.ops (F := Ideal)) (launchContents m c) (Proc.devRef .tc main_arg24) = m ((c.tc : Thread nD τ).loc main_arg24) :=
  keep m c (by decide)

end Cert.ReferenceIdeal.Args

end
-- ==== Proof.Inv.lean ====
/- Which buffers the two programs must agree on at each boundary between @main's segments: the buffers written before
   the boundary (the arguments among them) that some later operation, or the result, reads. -/
import proofs.«114227_j13357348290767_1_alg».proof.KernelIdeal
import proofs.«114227_j13357348290767_1_alg».proof.ReferenceIdeal
import Idealize.ShloMosaic.PureOps.Ideal
import Idealize.ShloMosaic.Lib.StableHlo.Run

set_option maxRecDepth 16384

noncomputable section

namespace Cert.Sim

open Idealize.ShloMosaic Idealize.ShloMosaic.TcCoe Idealize.ShloMosaic.StableHlo Idealize.SL.Sem

/-- The two programs agree on the 25 buffers that are read after this boundary. -/
abbrev Inv_start (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg0) = WR (Proc.devRef .tc Cert.ReferenceIdeal.main_arg0)
    ∧ WK (Proc.devRef .tc Cert.KernelIdeal.main_arg1) = WR (Proc.devRef .tc Cert.ReferenceIdeal.main_arg1)
    ∧ WK (Proc.devRef .tc Cert.KernelIdeal.main_arg2) = WR (Proc.devRef .tc Cert.ReferenceIdeal.main_arg2)
    ∧ WK (Proc.devRef .tc Cert.KernelIdeal.main_arg3) = WR (Proc.devRef .tc Cert.ReferenceIdeal.main_arg3)
    ∧ WK (Proc.devRef .tc Cert.KernelIdeal.main_arg4) = WR (Proc.devRef .tc Cert.ReferenceIdeal.main_arg4)
    ∧ WK (Proc.devRef .tc Cert.KernelIdeal.main_arg5) = WR (Proc.devRef .tc Cert.ReferenceIdeal.main_arg5)
    ∧ WK (Proc.devRef .tc Cert.KernelIdeal.main_arg6) = WR (Proc.devRef .tc Cert.ReferenceIdeal.main_arg6)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)

/-- The two programs agree on the 26 buffers that are read after this boundary. -/
abbrev Inv_in0 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg0) = WR (Proc.devRef .tc Cert.ReferenceIdeal.main_arg0)
    ∧ WK (Proc.devRef .tc Cert.KernelIdeal.main_arg2) = WR (Proc.devRef .tc Cert.ReferenceIdeal.main_arg2)
    ∧ WK (Proc.devRef .tc Cert.KernelIdeal.main_arg4) = WR (Proc.devRef .tc Cert.ReferenceIdeal.main_arg4)
    ∧ WK (Proc.devRef .tc Cert.KernelIdeal.main_arg5) = WR (Proc.devRef .tc Cert.ReferenceIdeal.main_arg5)
    ∧ WK (Proc.devRef .tc Cert.KernelIdeal.main_arg6) = WR (Proc.devRef .tc Cert.ReferenceIdeal.main_arg6)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v4) = WR (Proc.devRef .tc Cert.ReferenceIdeal.main_v4)

/-- The two programs agree on the 26 buffers that are read after this boundary. -/
abbrev Inv_out0 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg0) = WR (Proc.devRef .tc Cert.ReferenceIdeal.main_arg0)
    ∧ WK (Proc.devRef .tc Cert.KernelIdeal.main_arg2) = WR (Proc.devRef .tc Cert.ReferenceIdeal.main_arg2)
    ∧ WK (Proc.devRef .tc Cert.KernelIdeal.main_arg4) = WR (Proc.devRef .tc Cert.ReferenceIdeal.main_arg4)
    ∧ WK (Proc.devRef .tc Cert.KernelIdeal.main_arg5) = WR (Proc.devRef .tc Cert.ReferenceIdeal.main_arg5)
    ∧ WK (Proc.devRef .tc Cert.KernelIdeal.main_arg6) = WR (Proc.devRef .tc Cert.ReferenceIdeal.main_arg6)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v5) = WR (Proc.devRef .tc Cert.ReferenceIdeal.main_v5)

/-- The two programs agree on the 25 buffers that are read after this boundary. -/
abbrev Inv_in1 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg0) = WR (Proc.devRef .tc Cert.ReferenceIdeal.main_arg0)
    ∧ WK (Proc.devRef .tc Cert.KernelIdeal.main_arg2) = WR (Proc.devRef .tc Cert.ReferenceIdeal.main_arg2)
    ∧ WK (Proc.devRef .tc Cert.KernelIdeal.main_arg6) = WR (Proc.devRef .tc Cert.ReferenceIdeal.main_arg6)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v9) = WR (Proc.devRef .tc Cert.ReferenceIdeal.main_v9)

/-- The two programs agree on the 24 buffers that are read after this boundary. -/
abbrev Inv_out1 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg2) = WR (Proc.devRef .tc Cert.ReferenceIdeal.main_arg2)
    ∧ WK (Proc.devRef .tc Cert.KernelIdeal.main_arg6) = WR (Proc.devRef .tc Cert.ReferenceIdeal.main_arg6)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v10) = WR (Proc.devRef .tc Cert.ReferenceIdeal.main_v10)

/-- The two programs agree on the 25 buffers that are read after this boundary. -/
abbrev Inv_in2 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg2) = WR (Proc.devRef .tc Cert.ReferenceIdeal.main_arg2)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v14) = WR (Proc.devRef .tc Cert.ReferenceIdeal.main_v14)
    ∧ WK (Proc.devRef .tc Cert.KernelIdeal.main_v15) = WR (Proc.devRef .tc Cert.ReferenceIdeal.main_v15)

/-- The two programs agree on the 24 buffers that are read after this boundary. -/
abbrev Inv_out2 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg2) = WR (Proc.devRef .tc Cert.ReferenceIdeal.main_arg2)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v16) = WR (Proc.devRef .tc Cert.ReferenceIdeal.main_v16)

/-- The two programs agree on the 25 buffers that are read after this boundary. -/
abbrev Inv_in3 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg2) = WR (Proc.devRef .tc Cert.ReferenceIdeal.main_arg2)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v23) = WR (Proc.devRef .tc Cert.ReferenceIdeal.main_v23)
    ∧ WK (Proc.devRef .tc Cert.KernelIdeal.main_v24) = WR (Proc.devRef .tc Cert.ReferenceIdeal.main_v24)

/-- The two programs agree on the 24 buffers that are read after this boundary. -/
abbrev Inv_out3 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg2) = WR (Proc.devRef .tc Cert.ReferenceIdeal.main_arg2)
    ∧ WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg21) = WR (Proc.devRef .tc Cert.ReferenceIdeal.main_arg21)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v25) = WR (Proc.devRef .tc Cert.ReferenceIdeal.main_v25)

/-- The two programs agree on the 24 buffers that are read after this boundary. -/
abbrev Inv_in4 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v36) = WR (Proc.devRef .tc Cert.ReferenceIdeal.main_v36)
    ∧ WK (Proc.devRef .tc Cert.KernelIdeal.main_v37) = WR (Proc.devRef .tc Cert.ReferenceIdeal.main_v37)
    ∧ WK (Proc.devRef .tc Cert.KernelIdeal.main_v38) = WR (Proc.devRef .tc Cert.ReferenceIdeal.main_v38)

/-- The two programs agree on the 23 buffers that are read after this boundary. -/
abbrev Inv_out4 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg22) = WR (Proc.devRef .tc Cert.ReferenceIdeal.main_arg22)
    ∧ WK (Proc.devRef .tc Cert.KernelIdeal.main_arg23) = WR (Proc.devRef .tc Cert.ReferenceIdeal.main_arg23)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v36) = WR (Proc.devRef .tc Cert.ReferenceIdeal.main_v36)
    ∧ WK (Proc.devRef .tc Cert.KernelIdeal.main_v39) = WR (Proc.devRef .tc Cert.ReferenceIdeal.main_v39)

/-- The two programs agree on the 22 buffers that are read after this boundary. -/
abbrev Inv_in5 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v36) = WR (Proc.devRef .tc Cert.ReferenceIdeal.main_v36)
    ∧ WK (Proc.devRef .tc Cert.KernelIdeal.main_v46) = WR (Proc.devRef .tc Cert.ReferenceIdeal.main_v46)
    ∧ WK (Proc.devRef .tc Cert.KernelIdeal.main_v47) = WR (Proc.devRef .tc Cert.ReferenceIdeal.main_v47)

/-- The two programs agree on the 21 buffers that are read after this boundary. -/
abbrev Inv_out5 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg7) = WR (Proc.devRef .tc Cert.ReferenceIdeal.main_arg7)
    ∧ WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_arg24) = WR (Proc.devRef .tc Cert.ReferenceIdeal.main_arg24)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v36) = WR (Proc.devRef .tc Cert.ReferenceIdeal.main_v36)
    ∧ WK (Proc.devRef .tc Cert.KernelIdeal.main_v48) = WR (Proc.devRef .tc Cert.ReferenceIdeal.main_v48)

/-- The two programs agree on the 20 buffers that are read after this boundary. -/
abbrev Inv_in6 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v73) = WR (Proc.devRef .tc Cert.ReferenceIdeal.main_v73)
    ∧ WK (Proc.devRef .tc Cert.KernelIdeal.main_v74) = WR (Proc.devRef .tc Cert.ReferenceIdeal.main_v74)
    ∧ WK (Proc.devRef .tc Cert.KernelIdeal.main_v75) = WR (Proc.devRef .tc Cert.ReferenceIdeal.main_v75)

/-- The two programs agree on the 19 buffers that are read after this boundary. -/
abbrev Inv_out6 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg8) = WR (Proc.devRef .tc Cert.ReferenceIdeal.main_arg8)
    ∧ WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v73) = WR (Proc.devRef .tc Cert.ReferenceIdeal.main_v73)
    ∧ WK (Proc.devRef .tc Cert.KernelIdeal.main_v76) = WR (Proc.devRef .tc Cert.ReferenceIdeal.main_v76)

/-- The two programs agree on the 20 buffers that are read after this boundary. -/
abbrev Inv_in7 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v116) = WR (Proc.devRef .tc Cert.ReferenceIdeal.main_v116)
    ∧ WK (Proc.devRef .tc Cert.KernelIdeal.main_v118) = WR (Proc.devRef .tc Cert.ReferenceIdeal.main_v118)

/-- The two programs agree on the 20 buffers that are read after this boundary. -/
abbrev Inv_out7 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v116) = WR (Proc.devRef .tc Cert.ReferenceIdeal.main_v116)
    ∧ WK (Proc.devRef .tc Cert.KernelIdeal.main_v119) = WR (Proc.devRef .tc Cert.ReferenceIdeal.main_v119)

/-- The two programs agree on the 21 buffers that are read after this boundary. -/
abbrev Inv_in8 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v116) = WR (Proc.devRef .tc Cert.ReferenceIdeal.main_v116)
    ∧ WK (Proc.devRef .tc Cert.KernelIdeal.main_v119) = WR (Proc.devRef .tc Cert.ReferenceIdeal.main_v119)
    ∧ WK (Proc.devRef .tc Cert.KernelIdeal.main_v121) = WR (Proc.devRef .tc Cert.ReferenceIdeal.main_v121)

/-- The two programs agree on the 21 buffers that are read after this boundary. -/
abbrev Inv_out8 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg9) = WR (Proc.devRef .tc Cert.ReferenceIdeal.main_arg9)
    ∧ WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v116) = WR (Proc.devRef .tc Cert.ReferenceIdeal.main_v116)
    ∧ WK (Proc.devRef .tc Cert.KernelIdeal.main_v119) = WR (Proc.devRef .tc Cert.ReferenceIdeal.main_v119)
    ∧ WK (Proc.devRef .tc Cert.KernelIdeal.main_v122) = WR (Proc.devRef .tc Cert.ReferenceIdeal.main_v122)

/-- The two programs agree on the 20 buffers that are read after this boundary. -/
abbrev Inv_in9 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v123) = WR (Proc.devRef .tc Cert.ReferenceIdeal.main_v123)
    ∧ WK (Proc.devRef .tc Cert.KernelIdeal.main_v140) = WR (Proc.devRef .tc Cert.ReferenceIdeal.main_v140)
    ∧ WK (Proc.devRef .tc Cert.KernelIdeal.main_v142) = WR (Proc.devRef .tc Cert.ReferenceIdeal.main_v142)

/-- The two programs agree on the 19 buffers that are read after this boundary. -/
abbrev Inv_out9 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v123) = WR (Proc.devRef .tc Cert.ReferenceIdeal.main_v123)
    ∧ WK (Proc.devRef .tc Cert.KernelIdeal.main_v143) = WR (Proc.devRef .tc Cert.ReferenceIdeal.main_v143)

/-- The two programs agree on the 20 buffers that are read after this boundary. -/
abbrev Inv_in10 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v160) = WR (Proc.devRef .tc Cert.ReferenceIdeal.main_v160)
    ∧ WK (Proc.devRef .tc Cert.KernelIdeal.main_v162) = WR (Proc.devRef .tc Cert.ReferenceIdeal.main_v162)

/-- The two programs agree on the 20 buffers that are read after this boundary. -/
abbrev Inv_out10 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v160) = WR (Proc.devRef .tc Cert.ReferenceIdeal.main_v160)
    ∧ WK (Proc.devRef .tc Cert.KernelIdeal.main_v163) = WR (Proc.devRef .tc Cert.ReferenceIdeal.main_v163)

/-- The two programs agree on the 21 buffers that are read after this boundary. -/
abbrev Inv_in11 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v160) = WR (Proc.devRef .tc Cert.ReferenceIdeal.main_v160)
    ∧ WK (Proc.devRef .tc Cert.KernelIdeal.main_v163) = WR (Proc.devRef .tc Cert.ReferenceIdeal.main_v163)
    ∧ WK (Proc.devRef .tc Cert.KernelIdeal.main_v165) = WR (Proc.devRef .tc Cert.ReferenceIdeal.main_v165)

/-- The two programs agree on the 21 buffers that are read after this boundary. -/
abbrev Inv_out11 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg10) = WR (Proc.devRef .tc Cert.ReferenceIdeal.main_arg10)
    ∧ WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v160) = WR (Proc.devRef .tc Cert.ReferenceIdeal.main_v160)
    ∧ WK (Proc.devRef .tc Cert.KernelIdeal.main_v163) = WR (Proc.devRef .tc Cert.ReferenceIdeal.main_v163)
    ∧ WK (Proc.devRef .tc Cert.KernelIdeal.main_v166) = WR (Proc.devRef .tc Cert.ReferenceIdeal.main_v166)

/-- The two programs agree on the 20 buffers that are read after this boundary. -/
abbrev Inv_in12 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v167) = WR (Proc.devRef .tc Cert.ReferenceIdeal.main_v167)
    ∧ WK (Proc.devRef .tc Cert.KernelIdeal.main_v184) = WR (Proc.devRef .tc Cert.ReferenceIdeal.main_v184)
    ∧ WK (Proc.devRef .tc Cert.KernelIdeal.main_v186) = WR (Proc.devRef .tc Cert.ReferenceIdeal.main_v186)

/-- The two programs agree on the 19 buffers that are read after this boundary. -/
abbrev Inv_out12 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v146) = WR (Proc.devRef .tc Cert.ReferenceIdeal.main_v146)
    ∧ WK (Proc.devRef .tc Cert.KernelIdeal.main_v167) = WR (Proc.devRef .tc Cert.ReferenceIdeal.main_v167)
    ∧ WK (Proc.devRef .tc Cert.KernelIdeal.main_v187) = WR (Proc.devRef .tc Cert.ReferenceIdeal.main_v187)

/-- The two programs agree on the 20 buffers that are read after this boundary. -/
abbrev Inv_in13 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v190) = WR (Proc.devRef .tc Cert.ReferenceIdeal.main_v190)
    ∧ WK (Proc.devRef .tc Cert.KernelIdeal.main_v191) = WR (Proc.devRef .tc Cert.ReferenceIdeal.main_v191)
    ∧ WK (Proc.devRef .tc Cert.KernelIdeal.main_v205) = WR (Proc.devRef .tc Cert.ReferenceIdeal.main_v205)
    ∧ WK (Proc.devRef .tc Cert.KernelIdeal.main_v207) = WR (Proc.devRef .tc Cert.ReferenceIdeal.main_v207)

/-- The two programs agree on the 20 buffers that are read after this boundary. -/
abbrev Inv_out13 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v190) = WR (Proc.devRef .tc Cert.ReferenceIdeal.main_v190)
    ∧ WK (Proc.devRef .tc Cert.KernelIdeal.main_v191) = WR (Proc.devRef .tc Cert.ReferenceIdeal.main_v191)
    ∧ WK (Proc.devRef .tc Cert.KernelIdeal.main_v205) = WR (Proc.devRef .tc Cert.ReferenceIdeal.main_v205)
    ∧ WK (Proc.devRef .tc Cert.KernelIdeal.main_v208) = WR (Proc.devRef .tc Cert.ReferenceIdeal.main_v208)

/-- The two programs agree on the 21 buffers that are read after this boundary. -/
abbrev Inv_in14 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v190) = WR (Proc.devRef .tc Cert.ReferenceIdeal.main_v190)
    ∧ WK (Proc.devRef .tc Cert.KernelIdeal.main_v191) = WR (Proc.devRef .tc Cert.ReferenceIdeal.main_v191)
    ∧ WK (Proc.devRef .tc Cert.KernelIdeal.main_v205) = WR (Proc.devRef .tc Cert.ReferenceIdeal.main_v205)
    ∧ WK (Proc.devRef .tc Cert.KernelIdeal.main_v208) = WR (Proc.devRef .tc Cert.ReferenceIdeal.main_v208)
    ∧ WK (Proc.devRef .tc Cert.KernelIdeal.main_v210) = WR (Proc.devRef .tc Cert.ReferenceIdeal.main_v210)

/-- The two programs agree on the 21 buffers that are read after this boundary. -/
abbrev Inv_out14 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg11) = WR (Proc.devRef .tc Cert.ReferenceIdeal.main_arg11)
    ∧ WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v190) = WR (Proc.devRef .tc Cert.ReferenceIdeal.main_v190)
    ∧ WK (Proc.devRef .tc Cert.KernelIdeal.main_v191) = WR (Proc.devRef .tc Cert.ReferenceIdeal.main_v191)
    ∧ WK (Proc.devRef .tc Cert.KernelIdeal.main_v205) = WR (Proc.devRef .tc Cert.ReferenceIdeal.main_v205)
    ∧ WK (Proc.devRef .tc Cert.KernelIdeal.main_v208) = WR (Proc.devRef .tc Cert.ReferenceIdeal.main_v208)
    ∧ WK (Proc.devRef .tc Cert.KernelIdeal.main_v211) = WR (Proc.devRef .tc Cert.ReferenceIdeal.main_v211)

/-- The two programs agree on the 19 buffers that are read after this boundary. -/
abbrev Inv_in15 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v191) = WR (Proc.devRef .tc Cert.ReferenceIdeal.main_v191)
    ∧ WK (Proc.devRef .tc Cert.KernelIdeal.main_v212) = WR (Proc.devRef .tc Cert.ReferenceIdeal.main_v212)
    ∧ WK (Proc.devRef .tc Cert.KernelIdeal.main_v229) = WR (Proc.devRef .tc Cert.ReferenceIdeal.main_v229)
    ∧ WK (Proc.devRef .tc Cert.KernelIdeal.main_v231) = WR (Proc.devRef .tc Cert.ReferenceIdeal.main_v231)

/-- The two programs agree on the 18 buffers that are read after this boundary. -/
abbrev Inv_out15 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v191) = WR (Proc.devRef .tc Cert.ReferenceIdeal.main_v191)
    ∧ WK (Proc.devRef .tc Cert.KernelIdeal.main_v212) = WR (Proc.devRef .tc Cert.ReferenceIdeal.main_v212)
    ∧ WK (Proc.devRef .tc Cert.KernelIdeal.main_v232) = WR (Proc.devRef .tc Cert.ReferenceIdeal.main_v232)

/-- The two programs agree on the 19 buffers that are read after this boundary. -/
abbrev Inv_in16 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v235) = WR (Proc.devRef .tc Cert.ReferenceIdeal.main_v235)
    ∧ WK (Proc.devRef .tc Cert.KernelIdeal.main_v236) = WR (Proc.devRef .tc Cert.ReferenceIdeal.main_v236)
    ∧ WK (Proc.devRef .tc Cert.KernelIdeal.main_v250) = WR (Proc.devRef .tc Cert.ReferenceIdeal.main_v250)
    ∧ WK (Proc.devRef .tc Cert.KernelIdeal.main_v252) = WR (Proc.devRef .tc Cert.ReferenceIdeal.main_v252)

/-- The two programs agree on the 19 buffers that are read after this boundary. -/
abbrev Inv_out16 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v235) = WR (Proc.devRef .tc Cert.ReferenceIdeal.main_v235)
    ∧ WK (Proc.devRef .tc Cert.KernelIdeal.main_v236) = WR (Proc.devRef .tc Cert.ReferenceIdeal.main_v236)
    ∧ WK (Proc.devRef .tc Cert.KernelIdeal.main_v250) = WR (Proc.devRef .tc Cert.ReferenceIdeal.main_v250)
    ∧ WK (Proc.devRef .tc Cert.KernelIdeal.main_v253) = WR (Proc.devRef .tc Cert.ReferenceIdeal.main_v253)

/-- The two programs agree on the 20 buffers that are read after this boundary. -/
abbrev Inv_in17 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v235) = WR (Proc.devRef .tc Cert.ReferenceIdeal.main_v235)
    ∧ WK (Proc.devRef .tc Cert.KernelIdeal.main_v236) = WR (Proc.devRef .tc Cert.ReferenceIdeal.main_v236)
    ∧ WK (Proc.devRef .tc Cert.KernelIdeal.main_v250) = WR (Proc.devRef .tc Cert.ReferenceIdeal.main_v250)
    ∧ WK (Proc.devRef .tc Cert.KernelIdeal.main_v253) = WR (Proc.devRef .tc Cert.ReferenceIdeal.main_v253)
    ∧ WK (Proc.devRef .tc Cert.KernelIdeal.main_v255) = WR (Proc.devRef .tc Cert.ReferenceIdeal.main_v255)

/-- The two programs agree on the 20 buffers that are read after this boundary. -/
abbrev Inv_out17 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg12) = WR (Proc.devRef .tc Cert.ReferenceIdeal.main_arg12)
    ∧ WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v1) = WR (Proc.devRef .tc Cert.ReferenceIdeal.main_v1)
    ∧ WK (Proc.devRef .tc Cert.KernelIdeal.main_v3) = WR (Proc.devRef .tc Cert.ReferenceIdeal.main_v3)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v102) = WR (Proc.devRef .tc Cert.ReferenceIdeal.main_v102)
    ∧ WK (Proc.devRef .tc Cert.KernelIdeal.main_v235) = WR (Proc.devRef .tc Cert.ReferenceIdeal.main_v235)
    ∧ WK (Proc.devRef .tc Cert.KernelIdeal.main_v236) = WR (Proc.devRef .tc Cert.ReferenceIdeal.main_v236)
    ∧ WK (Proc.devRef .tc Cert.KernelIdeal.main_v250) = WR (Proc.devRef .tc Cert.ReferenceIdeal.main_v250)
    ∧ WK (Proc.devRef .tc Cert.KernelIdeal.main_v253) = WR (Proc.devRef .tc Cert.ReferenceIdeal.main_v253)
    ∧ WK (Proc.devRef .tc Cert.KernelIdeal.main_v256) = WR (Proc.devRef .tc Cert.ReferenceIdeal.main_v256)

/-- The two programs agree on the 15 buffers that are read after this boundary. -/
abbrev Inv_in18 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v236) = WR (Proc.devRef .tc Cert.ReferenceIdeal.main_v236)
    ∧ WK (Proc.devRef .tc Cert.KernelIdeal.main_v257) = WR (Proc.devRef .tc Cert.ReferenceIdeal.main_v257)
    ∧ WK (Proc.devRef .tc Cert.KernelIdeal.main_v274) = WR (Proc.devRef .tc Cert.ReferenceIdeal.main_v274)
    ∧ WK (Proc.devRef .tc Cert.KernelIdeal.main_v276) = WR (Proc.devRef .tc Cert.ReferenceIdeal.main_v276)

/-- The two programs agree on the 14 buffers that are read after this boundary. -/
abbrev Inv_out18 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg13) = WR (Proc.devRef .tc Cert.ReferenceIdeal.main_arg13)
    ∧ WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v236) = WR (Proc.devRef .tc Cert.ReferenceIdeal.main_v236)
    ∧ WK (Proc.devRef .tc Cert.KernelIdeal.main_v257) = WR (Proc.devRef .tc Cert.ReferenceIdeal.main_v257)
    ∧ WK (Proc.devRef .tc Cert.KernelIdeal.main_v277) = WR (Proc.devRef .tc Cert.ReferenceIdeal.main_v277)

/-- The two programs agree on the 12 buffers that are read after this boundary. -/
abbrev Inv_in19 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v281) = WR (Proc.devRef .tc Cert.ReferenceIdeal.main_v281)
    ∧ WK (Proc.devRef .tc Cert.KernelIdeal.main_v282) = WR (Proc.devRef .tc Cert.ReferenceIdeal.main_v282)

/-- The two programs agree on the 11 buffers that are read after this boundary. -/
abbrev Inv_out19 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg14) = WR (Proc.devRef .tc Cert.ReferenceIdeal.main_arg14)
    ∧ WK (Proc.devRef .tc Cert.KernelIdeal.main_arg15) = WR (Proc.devRef .tc Cert.ReferenceIdeal.main_arg15)
    ∧ WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v283) = WR (Proc.devRef .tc Cert.ReferenceIdeal.main_v283)

/-- The two programs agree on the 10 buffers that are read after this boundary. -/
abbrev Inv_in20 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v290) = WR (Proc.devRef .tc Cert.ReferenceIdeal.main_v290)
    ∧ WK (Proc.devRef .tc Cert.KernelIdeal.main_v291) = WR (Proc.devRef .tc Cert.ReferenceIdeal.main_v291)

/-- The two programs agree on the 9 buffers that are read after this boundary. -/
abbrev Inv_out20 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg16) = WR (Proc.devRef .tc Cert.ReferenceIdeal.main_arg16)
    ∧ WK (Proc.devRef .tc Cert.KernelIdeal.main_arg17) = WR (Proc.devRef .tc Cert.ReferenceIdeal.main_arg17)
    ∧ WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v292) = WR (Proc.devRef .tc Cert.ReferenceIdeal.main_v292)

/-- The two programs agree on the 8 buffers that are read after this boundary. -/
abbrev Inv_in21 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v8) = WR (Proc.devRef .tc Cert.ReferenceIdeal.main_v8)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v295) = WR (Proc.devRef .tc Cert.ReferenceIdeal.main_v295)
    ∧ WK (Proc.devRef .tc Cert.KernelIdeal.main_v296) = WR (Proc.devRef .tc Cert.ReferenceIdeal.main_v296)

/-- The two programs agree on the 7 buffers that are read after this boundary. -/
abbrev Inv_out21 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg18) = WR (Proc.devRef .tc Cert.ReferenceIdeal.main_arg18)
    ∧ WK (Proc.devRef .tc Cert.KernelIdeal.main_arg19) = WR (Proc.devRef .tc Cert.ReferenceIdeal.main_arg19)
    ∧ WK (Proc.devRef .tc Cert.KernelIdeal.main_arg20) = WR (Proc.devRef .tc Cert.ReferenceIdeal.main_arg20)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v295) = WR (Proc.devRef .tc Cert.ReferenceIdeal.main_v295)
    ∧ WK (Proc.devRef .tc Cert.KernelIdeal.main_v297) = WR (Proc.devRef .tc Cert.ReferenceIdeal.main_v297)

/-- The two programs agree on the 6 buffers that are read after this boundary. -/
abbrev Inv_in22 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg20) = WR (Proc.devRef .tc Cert.ReferenceIdeal.main_arg20)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v295) = WR (Proc.devRef .tc Cert.ReferenceIdeal.main_v295)
    ∧ WK (Proc.devRef .tc Cert.KernelIdeal.main_v304) = WR (Proc.devRef .tc Cert.ReferenceIdeal.main_v304)
    ∧ WK (Proc.devRef .tc Cert.KernelIdeal.main_v305) = WR (Proc.devRef .tc Cert.ReferenceIdeal.main_v305)

/-- The two programs agree on the 5 buffers that are read after this boundary. -/
abbrev Inv_out22 (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_arg20) = WR (Proc.devRef .tc Cert.ReferenceIdeal.main_arg20)
    ∧ WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v295) = WR (Proc.devRef .tc Cert.ReferenceIdeal.main_v295)
    ∧ WK (Proc.devRef .tc Cert.KernelIdeal.main_v306) = WR (Proc.devRef .tc Cert.ReferenceIdeal.main_v306)

/-- The two programs agree on the 4 buffers that are read after this boundary. -/
abbrev Inv_fin (WK : Valuation Cert.KernelIdeal.τ Cert.KernelIdeal.sig (Elt Ideal)) (WR : Valuation Cert.ReferenceIdeal.τ Cert.ReferenceIdeal.sig (Elt Ideal)) : Prop :=
    WK (Proc.devRef .tc Cert.KernelIdeal.main_v13) = WR (Proc.devRef .tc Cert.ReferenceIdeal.main_v13)
    ∧ WK (Proc.devRef .tc Cert.KernelIdeal.main_v79) = WR (Proc.devRef .tc Cert.ReferenceIdeal.main_v79)
    ∧ WK (Proc.devRef .tc Cert.KernelIdeal.main_v295) = WR (Proc.devRef .tc Cert.ReferenceIdeal.main_v295)
    ∧ WK (Proc.devRef .tc Cert.KernelIdeal.main_v309) = WR (Proc.devRef .tc Cert.ReferenceIdeal.main_v309)

end Cert.Sim

end
-- ==== Proof.StepTac.lean ====
/-
  The steps of the walk through the two programs' segments, side by side. A boundary's relation says the two programs
  hold the same contents in every buffer that is read later. Across a stretch of host operations both sides apply the
  same operations to buffers they agree on; the kernel regions between the stretches are RegTac.lean's.
-/
import Idealize.ShloMosaic.Lib.StableHlo.Run

namespace Cert.Sim

open Idealize.ShloMosaic Idealize.ShloMosaic.StableHlo

/-- Equal operands give equal concatenations: the proof that the shapes concatenate reads only the operands' shapes,
    so it serves both sides. -/
@[congr] theorem concatenate_congr2 {α : Type} (t : Shape) (a : Fin t.rank) (s1 s2 : Shape) {x1 x1' : s1.Idx → α} {x2 x2' : s2.Idx → α}
    (h : Shape.Concatenates (([⟨s1, x1⟩, ⟨s2, x2⟩] : List ((s : Shape) × (s.Idx → α))).map (·.1)) t a) (e1 : x1 = x1') (e2 : x2 = x2') :
    concatenate t a [⟨s1, x1⟩, ⟨s2, x2⟩] h = concatenate t a [⟨s1, x1'⟩, ⟨s2, x2'⟩] h := by
  subst e1; subst e2; rfl

/-- One buffer after a stretch of host operations, on both sides: open the two operation lists, read each side's fold
    back to the operations applied to what the stretch found, and rewrite the left side's inputs to the right side's. -/
syntax "host_goal" "[" term,* "]" "[" term,* "]" : tactic
macro_rules
  | `(tactic| host_goal [$us,*] [$hs,*]) =>
    `(tactic| (dsimp only [$[$us:term],*]; after_results_simp; (try simp only [$[$hs:term],*]); (try rfl)))

end Cert.Sim
-- ==== Proof.Host0.lean ====
/- The host operations before region 0: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_0 (WK : Valuation Cert.KernelIdeal.τ Cert.KernelIdeal.sig (Elt Ideal)) (WR : Valuation Cert.ReferenceIdeal.τ Cert.ReferenceIdeal.sig (Elt Ideal)) (h : Inv_start WK WR) :
    Inv_in0 (StableHlo.after (Cert.KernelIdeal.Gen.hostOps0 (F := Ideal)) WK) (StableHlo.after (Cert.ReferenceIdeal.Cut.rops0 (F := Ideal)) WR) := by
  obtain ⟨h0, h1, h2, h3, h4, h5, h6, h7, h8, h9, h10, h11, h12, h13, h14, h15, h16, h17, h18, h19, h20, h21, h22, h23, h24⟩ := h
  refine ⟨?_, ?_, ?_, ?_, ?_, ?_, ?_, ?_, ?_, ?_, ?_, ?_, ?_, ?_, ?_, ?_, ?_, ?_, ?_, ?_, ?_, ?_, ?_, ?_, ?_, ?_⟩ <;>
    host_goal [Cert.KernelIdeal.Gen.hostOps0, Cert.ReferenceIdeal.Cut.rops0] [h0, h1, h2, h3, h4, h5, h6, h7, h8, h9, h10, h11, h12, h13, h14, h15, h16, h17, h18, h19, h20, h21, h22, h23, h24]

end Cert.Sim

end
-- ==== Proof.Host1.lean ====
/- The host operations before region 1: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_1 (WK : Valuation Cert.KernelIdeal.τ Cert.KernelIdeal.sig (Elt Ideal)) (WR : Valuation Cert.ReferenceIdeal.τ Cert.ReferenceIdeal.sig (Elt Ideal)) (h : Inv_out0 WK WR) :
    Inv_in1 (StableHlo.after (Cert.KernelIdeal.Gen.hostOps1 (F := Ideal)) WK) (StableHlo.after (Cert.ReferenceIdeal.Cut.rops1 (F := Ideal)) WR) := by
  obtain ⟨h0, h1, h2, h3, h4, h5, h6, h7, h8, h9, h10, h11, h12, h13, h14, h15, h16, h17, h18, h19, h20, h21, h22, h23, h24, h25⟩ := h
  refine ⟨?_, ?_, ?_, ?_, ?_, ?_, ?_, ?_, ?_, ?_, ?_, ?_, ?_, ?_, ?_, ?_, ?_, ?_, ?_, ?_, ?_, ?_, ?_, ?_, ?_⟩ <;>
    host_goal [Cert.KernelIdeal.Gen.hostOps1, Cert.ReferenceIdeal.Cut.rops1] [h0, h1, h2, h3, h4, h5, h6, h7, h8, h9, h10, h11, h12, h13, h14, h15, h16, h17, h18, h19, h20, h21, h22, h23, h24, h25]

end Cert.Sim

end
-- ==== Proof.Host2.lean ====
/- The host operations before region 2: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_2 (WK : Valuation Cert.KernelIdeal.τ Cert.KernelIdeal.sig (Elt Ideal)) (WR : Valuation Cert.ReferenceIdeal.τ Cert.ReferenceIdeal.sig (Elt Ideal)) (h : Inv_out1 WK WR) :
    Inv_in2 (StableHlo.after (Cert.KernelIdeal.Gen.hostOps2 (F := Ideal)) WK) (StableHlo.after (Cert.ReferenceIdeal.Cut.rops2 (F := Ideal)) WR) := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_, ?_, ?_, ?_, ?_, ?_, ?_, ?_, ?_, ?_, ?_, ?_⟩ <;>
    host_goal [Cert.KernelIdeal.Gen.hostOps2, Cert.ReferenceIdeal.Cut.rops2] [h0, h1, h2, h3, h4, h5, h6, h7, h8, h9, h10, h11, h12, h13, h14, h15, h16, h17, h18, h19, h20, h21, h22, h23]

end Cert.Sim

end
-- ==== Proof.Host3.lean ====
/- The host operations before region 3: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_3 (WK : Valuation Cert.KernelIdeal.τ Cert.KernelIdeal.sig (Elt Ideal)) (WR : Valuation Cert.ReferenceIdeal.τ Cert.ReferenceIdeal.sig (Elt Ideal)) (h : Inv_out2 WK WR) :
    Inv_in3 (StableHlo.after (Cert.KernelIdeal.Gen.hostOps3 (F := Ideal)) WK) (StableHlo.after (Cert.ReferenceIdeal.Cut.rops3 (F := Ideal)) WR) := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_, ?_, ?_, ?_, ?_, ?_, ?_, ?_, ?_, ?_, ?_, ?_⟩ <;>
    host_goal [Cert.KernelIdeal.Gen.hostOps3, Cert.ReferenceIdeal.Cut.rops3] [h0, h1, h2, h3, h4, h5, h6, h7, h8, h9, h10, h11, h12, h13, h14, h15, h16, h17, h18, h19, h20, h21, h22, h23]

end Cert.Sim

end
-- ==== Proof.Host4.lean ====
/- The host operations before region 4: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_4 (WK : Valuation Cert.KernelIdeal.τ Cert.KernelIdeal.sig (Elt Ideal)) (WR : Valuation Cert.ReferenceIdeal.τ Cert.ReferenceIdeal.sig (Elt Ideal)) (h : Inv_out3 WK WR) :
    Inv_in4 (StableHlo.after (Cert.KernelIdeal.Gen.hostOps4 (F := Ideal)) WK) (StableHlo.after (Cert.ReferenceIdeal.Cut.rops4 (F := Ideal)) WR) := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_, ?_, ?_, ?_, ?_, ?_, ?_, ?_, ?_, ?_, ?_⟩ <;>
    host_goal [Cert.KernelIdeal.Gen.hostOps4, Cert.ReferenceIdeal.Cut.rops4] [h0, h1, h2, h3, h4, h5, h6, h7, h8, h9, h10, h11, h12, h13, h14, h15, h16, h17, h18, h19, h20, h21, h22, h23]

end Cert.Sim

end
-- ==== Proof.Host5.lean ====
/- The host operations before region 5: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_5 (WK : Valuation Cert.KernelIdeal.τ Cert.KernelIdeal.sig (Elt Ideal)) (WR : Valuation Cert.ReferenceIdeal.τ Cert.ReferenceIdeal.sig (Elt Ideal)) (h : Inv_out4 WK WR) :
    Inv_in5 (StableHlo.after (Cert.KernelIdeal.Gen.hostOps5 (F := Ideal)) WK) (StableHlo.after (Cert.ReferenceIdeal.Cut.rops5 (F := Ideal)) WR) := by
  obtain ⟨h0, h1, h2, h3, h4, h5, h6, h7, h8, h9, h10, h11, h12, h13, h14, h15, h16, h17, h18, h19, h20, h21, h22⟩ := h
  refine ⟨?_, ?_, ?_, ?_, ?_, ?_, ?_, ?_, ?_, ?_, ?_, ?_, ?_, ?_, ?_, ?_, ?_, ?_, ?_, ?_, ?_, ?_⟩ <;>
    host_goal [Cert.KernelIdeal.Gen.hostOps5, Cert.ReferenceIdeal.Cut.rops5] [h0, h1, h2, h3, h4, h5, h6, h7, h8, h9, h10, h11, h12, h13, h14, h15, h16, h17, h18, h19, h20, h21, h22]

end Cert.Sim

end
-- ==== Proof.Host6.lean ====
/- The host operations before region 6: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_6 (WK : Valuation Cert.KernelIdeal.τ Cert.KernelIdeal.sig (Elt Ideal)) (WR : Valuation Cert.ReferenceIdeal.τ Cert.ReferenceIdeal.sig (Elt Ideal)) (h : Inv_out5 WK WR) :
    Inv_in6 (StableHlo.after (Cert.KernelIdeal.Gen.hostOps6_4 (F := Ideal)) (StableHlo.after (Cert.KernelIdeal.Gen.hostOps6_3 (F := Ideal)) (StableHlo.after (Cert.KernelIdeal.Gen.hostOps6_2 (F := Ideal)) (StableHlo.after (Cert.KernelIdeal.Gen.hostOps6_1 (F := Ideal)) (StableHlo.after (Cert.KernelIdeal.Gen.hostOps6 (F := Ideal)) WK))))) (StableHlo.after (Cert.ReferenceIdeal.Cut.rops6 (F := Ideal)) WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps6, Cert.KernelIdeal.Gen.hostOps6_1, Cert.KernelIdeal.Gen.hostOps6_2, Cert.KernelIdeal.Gen.hostOps6_3, Cert.KernelIdeal.Gen.hostOps6_4, Cert.ReferenceIdeal.Cut.rops6] [h0, h1, h2, h3, h4, h5, h6, h7, h8, h9, h10, h11, h12, h13, h14, h15, h16, h17, h18, h19, h20]

end Cert.Sim

end
-- ==== Proof.Host7.lean ====
/- The host operations before region 7: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_7 (WK : Valuation Cert.KernelIdeal.τ Cert.KernelIdeal.sig (Elt Ideal)) (WR : Valuation Cert.ReferenceIdeal.τ Cert.ReferenceIdeal.sig (Elt Ideal)) (h : Inv_out6 WK WR) :
    Inv_in7 (StableHlo.after (Cert.KernelIdeal.Gen.hostOps7_2 (F := Ideal)) (StableHlo.after (Cert.KernelIdeal.Gen.hostOps7_1 (F := Ideal)) (StableHlo.after (Cert.KernelIdeal.Gen.hostOps7 (F := Ideal)) WK))) (StableHlo.after (Cert.ReferenceIdeal.Cut.rops7 (F := Ideal)) WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps7, Cert.KernelIdeal.Gen.hostOps7_1, Cert.KernelIdeal.Gen.hostOps7_2, Cert.ReferenceIdeal.Cut.rops7] [h0, h1, h2, h3, h4, h5, h6, h7, h8, h9, h10, h11, h12, h13, h14, h15, h16, h17, h18]

end Cert.Sim

end
-- ==== Proof.Host8.lean ====
/- The host operations before region 8: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_8 (WK : Valuation Cert.KernelIdeal.τ Cert.KernelIdeal.sig (Elt Ideal)) (WR : Valuation Cert.ReferenceIdeal.τ Cert.ReferenceIdeal.sig (Elt Ideal)) (h : Inv_out7 WK WR) :
    Inv_in8 (StableHlo.after (Cert.KernelIdeal.Gen.hostOps8 (F := Ideal)) WK) (StableHlo.after (Cert.ReferenceIdeal.Cut.rops8 (F := Ideal)) WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_, ?_⟩ <;>
    host_goal [Cert.KernelIdeal.Gen.hostOps8, Cert.ReferenceIdeal.Cut.rops8] [h0, h1, h2, h3, h4, h5, h6, h7, h8, h9, h10, h11, h12, h13, h14, h15, h16, h17, h18, h19]

end Cert.Sim

end
-- ==== Proof.Host9.lean ====
/- The host operations before region 9: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_9 (WK : Valuation Cert.KernelIdeal.τ Cert.KernelIdeal.sig (Elt Ideal)) (WR : Valuation Cert.ReferenceIdeal.τ Cert.ReferenceIdeal.sig (Elt Ideal)) (h : Inv_out8 WK WR) :
    Inv_in9 (StableHlo.after (Cert.KernelIdeal.Gen.hostOps9 (F := Ideal)) WK) (StableHlo.after (Cert.ReferenceIdeal.Cut.rops9 (F := Ideal)) WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps9, Cert.ReferenceIdeal.Cut.rops9] [h0, h1, h2, h3, h4, h5, h6, h7, h8, h9, h10, h11, h12, h13, h14, h15, h16, h17, h18, h19, h20]

end Cert.Sim

end
-- ==== Proof.Host10.lean ====
/- The host operations before region 10: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_10 (WK : Valuation Cert.KernelIdeal.τ Cert.KernelIdeal.sig (Elt Ideal)) (WR : Valuation Cert.ReferenceIdeal.τ Cert.ReferenceIdeal.sig (Elt Ideal)) (h : Inv_out9 WK WR) :
    Inv_in10 (StableHlo.after (Cert.KernelIdeal.Gen.hostOps10 (F := Ideal)) WK) (StableHlo.after (Cert.ReferenceIdeal.Cut.rops10 (F := Ideal)) WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps10, Cert.ReferenceIdeal.Cut.rops10] [h0, h1, h2, h3, h4, h5, h6, h7, h8, h9, h10, h11, h12, h13, h14, h15, h16, h17, h18]

end Cert.Sim

end
-- ==== Proof.Host11.lean ====
/- The host operations before region 11: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_11 (WK : Valuation Cert.KernelIdeal.τ Cert.KernelIdeal.sig (Elt Ideal)) (WR : Valuation Cert.ReferenceIdeal.τ Cert.ReferenceIdeal.sig (Elt Ideal)) (h : Inv_out10 WK WR) :
    Inv_in11 (StableHlo.after (Cert.KernelIdeal.Gen.hostOps11 (F := Ideal)) WK) (StableHlo.after (Cert.ReferenceIdeal.Cut.rops11 (F := Ideal)) WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_, ?_⟩ <;>
    host_goal [Cert.KernelIdeal.Gen.hostOps11, Cert.ReferenceIdeal.Cut.rops11] [h0, h1, h2, h3, h4, h5, h6, h7, h8, h9, h10, h11, h12, h13, h14, h15, h16, h17, h18, h19]

end Cert.Sim

end
-- ==== Proof.Host12.lean ====
/- The host operations before region 12: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_12 (WK : Valuation Cert.KernelIdeal.τ Cert.KernelIdeal.sig (Elt Ideal)) (WR : Valuation Cert.ReferenceIdeal.τ Cert.ReferenceIdeal.sig (Elt Ideal)) (h : Inv_out11 WK WR) :
    Inv_in12 (StableHlo.after (Cert.KernelIdeal.Gen.hostOps12 (F := Ideal)) WK) (StableHlo.after (Cert.ReferenceIdeal.Cut.rops12 (F := Ideal)) WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps12, Cert.ReferenceIdeal.Cut.rops12] [h0, h1, h2, h3, h4, h5, h6, h7, h8, h9, h10, h11, h12, h13, h14, h15, h16, h17, h18, h19, h20]

end Cert.Sim

end
-- ==== Proof.Host13.lean ====
/- The host operations before region 13: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_13 (WK : Valuation Cert.KernelIdeal.τ Cert.KernelIdeal.sig (Elt Ideal)) (WR : Valuation Cert.ReferenceIdeal.τ Cert.ReferenceIdeal.sig (Elt Ideal)) (h : Inv_out12 WK WR) :
    Inv_in13 (StableHlo.after (Cert.KernelIdeal.Gen.hostOps13 (F := Ideal)) WK) (StableHlo.after (Cert.ReferenceIdeal.Cut.rops13 (F := Ideal)) WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps13, Cert.ReferenceIdeal.Cut.rops13] [h0, h1, h2, h3, h4, h5, h6, h7, h8, h9, h10, h11, h12, h13, h14, h15, h16, h17, h18]

end Cert.Sim

end
-- ==== Proof.Host14.lean ====
/- The host operations before region 14: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_14 (WK : Valuation Cert.KernelIdeal.τ Cert.KernelIdeal.sig (Elt Ideal)) (WR : Valuation Cert.ReferenceIdeal.τ Cert.ReferenceIdeal.sig (Elt Ideal)) (h : Inv_out13 WK WR) :
    Inv_in14 (StableHlo.after (Cert.KernelIdeal.Gen.hostOps14 (F := Ideal)) WK) (StableHlo.after (Cert.ReferenceIdeal.Cut.rops14 (F := Ideal)) WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_, ?_⟩ <;>
    host_goal [Cert.KernelIdeal.Gen.hostOps14, Cert.ReferenceIdeal.Cut.rops14] [h0, h1, h2, h3, h4, h5, h6, h7, h8, h9, h10, h11, h12, h13, h14, h15, h16, h17, h18, h19]

end Cert.Sim

end
-- ==== Proof.Host15.lean ====
/- The host operations before region 15: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_15 (WK : Valuation Cert.KernelIdeal.τ Cert.KernelIdeal.sig (Elt Ideal)) (WR : Valuation Cert.ReferenceIdeal.τ Cert.ReferenceIdeal.sig (Elt Ideal)) (h : Inv_out14 WK WR) :
    Inv_in15 (StableHlo.after (Cert.KernelIdeal.Gen.hostOps15 (F := Ideal)) WK) (StableHlo.after (Cert.ReferenceIdeal.Cut.rops15 (F := Ideal)) WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_⟩ <;>
    host_goal [Cert.KernelIdeal.Gen.hostOps15, Cert.ReferenceIdeal.Cut.rops15] [h0, h1, h2, h3, h4, h5, h6, h7, h8, h9, h10, h11, h12, h13, h14, h15, h16, h17, h18, h19, h20]

end Cert.Sim

end
-- ==== Proof.Host16.lean ====
/- The host operations before region 16: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_16 (WK : Valuation Cert.KernelIdeal.τ Cert.KernelIdeal.sig (Elt Ideal)) (WR : Valuation Cert.ReferenceIdeal.τ Cert.ReferenceIdeal.sig (Elt Ideal)) (h : Inv_out15 WK WR) :
    Inv_in16 (StableHlo.after (Cert.KernelIdeal.Gen.hostOps16 (F := Ideal)) WK) (StableHlo.after (Cert.ReferenceIdeal.Cut.rops16 (F := Ideal)) WR) := by
  obtain ⟨h0, h1, h2, h3, h4, h5, h6, h7, h8, h9, h10, h11, h12, h13, h14, h15, h16, h17⟩ := h
  refine ⟨?_, ?_, ?_, ?_, ?_, ?_, ?_, ?_, ?_, ?_, ?_, ?_, ?_, ?_, ?_, ?_, ?_, ?_, ?_⟩ <;>
    host_goal [Cert.KernelIdeal.Gen.hostOps16, Cert.ReferenceIdeal.Cut.rops16] [h0, h1, h2, h3, h4, h5, h6, h7, h8, h9, h10, h11, h12, h13, h14, h15, h16, h17]

end Cert.Sim

end
-- ==== Proof.Host17.lean ====
/- The host operations before region 17: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_17 (WK : Valuation Cert.KernelIdeal.τ Cert.KernelIdeal.sig (Elt Ideal)) (WR : Valuation Cert.ReferenceIdeal.τ Cert.ReferenceIdeal.sig (Elt Ideal)) (h : Inv_out16 WK WR) :
    Inv_in17 (StableHlo.after (Cert.KernelIdeal.Gen.hostOps17 (F := Ideal)) WK) (StableHlo.after (Cert.ReferenceIdeal.Cut.rops17 (F := Ideal)) WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_, ?_⟩ <;>
    host_goal [Cert.KernelIdeal.Gen.hostOps17, Cert.ReferenceIdeal.Cut.rops17] [h0, h1, h2, h3, h4, h5, h6, h7, h8, h9, h10, h11, h12, h13, h14, h15, h16, h17, h18]

end Cert.Sim

end
-- ==== Proof.Host18.lean ====
/- The host operations before region 18: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_18 (WK : Valuation Cert.KernelIdeal.τ Cert.KernelIdeal.sig (Elt Ideal)) (WR : Valuation Cert.ReferenceIdeal.τ Cert.ReferenceIdeal.sig (Elt Ideal)) (h : Inv_out17 WK WR) :
    Inv_in18 (StableHlo.after (Cert.KernelIdeal.Gen.hostOps18 (F := Ideal)) WK) (StableHlo.after (Cert.ReferenceIdeal.Cut.rops18 (F := Ideal)) WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_⟩ <;>
    host_goal [Cert.KernelIdeal.Gen.hostOps18, Cert.ReferenceIdeal.Cut.rops18] [h0, h1, h2, h3, h4, h5, h6, h7, h8, h9, h10, h11, h12, h13, h14, h15, h16, h17, h18, h19]

end Cert.Sim

end
-- ==== Proof.Host19.lean ====
/- The host operations before region 19: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_19 (WK : Valuation Cert.KernelIdeal.τ Cert.KernelIdeal.sig (Elt Ideal)) (WR : Valuation Cert.ReferenceIdeal.τ Cert.ReferenceIdeal.sig (Elt Ideal)) (h : Inv_out18 WK WR) :
    Inv_in19 (StableHlo.after (Cert.KernelIdeal.Gen.hostOps19 (F := Ideal)) WK) (StableHlo.after (Cert.ReferenceIdeal.Cut.rops19 (F := Ideal)) WR) := by
  obtain ⟨h0, h1, h2, h3, h4, h5, h6, h7, h8, h9, h10, h11, h12, h13⟩ := h
  refine ⟨?_, ?_, ?_, ?_, ?_, ?_, ?_, ?_, ?_, ?_, ?_, ?_⟩ <;>
    host_goal [Cert.KernelIdeal.Gen.hostOps19, Cert.ReferenceIdeal.Cut.rops19] [h0, h1, h2, h3, h4, h5, h6, h7, h8, h9, h10, h11, h12, h13]

end Cert.Sim

end
-- ==== Proof.Host20.lean ====
/- The host operations before region 20: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_20 (WK : Valuation Cert.KernelIdeal.τ Cert.KernelIdeal.sig (Elt Ideal)) (WR : Valuation Cert.ReferenceIdeal.τ Cert.ReferenceIdeal.sig (Elt Ideal)) (h : Inv_out19 WK WR) :
    Inv_in20 (StableHlo.after (Cert.KernelIdeal.Gen.hostOps20 (F := Ideal)) WK) (StableHlo.after (Cert.ReferenceIdeal.Cut.rops20 (F := Ideal)) WR) := by
  obtain ⟨h0, h1, h2, h3, h4, h5, h6, h7, h8, h9, h10⟩ := h
  refine ⟨?_, ?_, ?_, ?_, ?_, ?_, ?_, ?_, ?_, ?_⟩ <;>
    host_goal [Cert.KernelIdeal.Gen.hostOps20, Cert.ReferenceIdeal.Cut.rops20] [h0, h1, h2, h3, h4, h5, h6, h7, h8, h9, h10]

end Cert.Sim

end
-- ==== Proof.Host21.lean ====
/- The host operations before region 21: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_21 (WK : Valuation Cert.KernelIdeal.τ Cert.KernelIdeal.sig (Elt Ideal)) (WR : Valuation Cert.ReferenceIdeal.τ Cert.ReferenceIdeal.sig (Elt Ideal)) (h : Inv_out20 WK WR) :
    Inv_in21 (StableHlo.after (Cert.KernelIdeal.Gen.hostOps21 (F := Ideal)) WK) (StableHlo.after (Cert.ReferenceIdeal.Cut.rops21 (F := Ideal)) WR) := by
  obtain ⟨h0, h1, h2, h3, h4, h5, h6, h7, h8⟩ := h
  refine ⟨?_, ?_, ?_, ?_, ?_, ?_, ?_, ?_⟩ <;>
    host_goal [Cert.KernelIdeal.Gen.hostOps21, Cert.ReferenceIdeal.Cut.rops21] [h0, h1, h2, h3, h4, h5, h6, h7, h8]

end Cert.Sim

end
-- ==== Proof.Host22.lean ====
/- The host operations before region 22: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_22 (WK : Valuation Cert.KernelIdeal.τ Cert.KernelIdeal.sig (Elt Ideal)) (WR : Valuation Cert.ReferenceIdeal.τ Cert.ReferenceIdeal.sig (Elt Ideal)) (h : Inv_out21 WK WR) :
    Inv_in22 (StableHlo.after (Cert.KernelIdeal.Gen.hostOps22 (F := Ideal)) WK) (StableHlo.after (Cert.ReferenceIdeal.Cut.rops22 (F := Ideal)) WR) := by
  obtain ⟨h0, h1, h2, h3, h4, h5, h6⟩ := h
  refine ⟨?_, ?_, ?_, ?_, ?_, ?_⟩ <;>
    host_goal [Cert.KernelIdeal.Gen.hostOps22, Cert.ReferenceIdeal.Cut.rops22] [h0, h1, h2, h3, h4, h5, h6]

end Cert.Sim

end
-- ==== Proof.Host23.lean ====
/- The host operations before the return: both programs apply the same operations to buffers they agree on. -/
import proofs.«114227_j13357348290767_1_alg».proof.Proof.Inv
import proofs.«114227_j13357348290767_1_alg».proof.Proof.RefOps
import proofs.«114227_j13357348290767_1_alg».proof.Proof.StepTac
import proofs.«114227_j13357348290767_1_alg».proof.Proof.Gen.KernelIdeal.Launch

set_option maxRecDepth 16384

noncomputable section

namespace Cert.Sim

open Idealize.ShloMosaic Idealize.ShloMosaic.TcCoe Idealize.ShloMosaic.StableHlo Idealize.SL.Sem

set_option maxHeartbeats 16000000 in
theorem host_23 (WK : Valuation Cert.KernelIdeal.τ Cert.KernelIdeal.sig (Elt Ideal)) (WR : Valuation Cert.ReferenceIdeal.τ Cert.ReferenceIdeal.sig (Elt Ideal)) (h : Inv_out22 WK WR) :
    Inv_fin (StableHlo.after (Cert.KernelIdeal.Gen.hostOps23 (F := Ideal)) WK) (StableHlo.after (Cert.ReferenceIdeal.Cut.rops23 (F := Ideal)) WR) := by
  obtain ⟨h0, h1, h2, h3, h4⟩ := h
  refine ⟨?_, ?_, ?_, ?_⟩ <;>
    host_goal [Cert.KernelIdeal.Gen.hostOps23, Cert.ReferenceIdeal.Cut.rops23] [h0, h1, h2, h3, h4]

end Cert.Sim

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibRowDot.lean ====
/-
  A matrix product whose left operand is cut into blocks of consecutive rows: each block's product is the same rows
  of the whole product. Stated on the extended reals, where a finite sum may be taken in any order: the whole product
  at an entry is the sum over the shared axis, and so is the host's contraction.
-/
import proofs.«114227_j13357348290767_1_alg».proof.Proof.LibPlainDot

noncomputable section

open scoped BigOperators

namespace Cert.LibRowDot

open Idealize.ShloMosaic Idealize.ShloMosaic.ValueIdx Cert.LibPlainDot

/-- The product of an `M×K` array by a `K×N` array, entry by entry: the sum over the shared axis. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply {M K N : Nat} (A : (⟨2, ![M, K]⟩ : Shape).Idx → EReal) (B : (⟨2, ![K, N]⟩ : Shape).Idx → EReal)
    (p : Fin M) (j : Fin N) : mm A B (ix2 p j) = ∑ k : Fin K, A (ix2 p k) * B (ix2 k j) := rfl

/-- The host's contraction of the second axis of the left operand with the first of the right one is that product. -/
theorem dotGeneral_eq_mm {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (sched : HostSchedule)
    (l : FVec Ideal ⟨2, ![M, K]⟩ .f32) (r : FVec Ideal ⟨2, ![K, N]⟩ .f32) :
    FloatOps.dotGeneral D prec sched l r = mm l r := by
  funext i
  rw [Ideal.dotGeneral_apply, eq_ix2 i]
  exact sum_plain D hr hs hl0 hl1 hr0 hr1 l r (i 0) (i 1)

/-- A block of `T` consecutive rows from row `o` of the left operand, times the whole right operand, accumulated into
    zeros: at entry `(p, j)` of the block it is the whole product at entry `(o + p, j)`. -/
theorem matmul_rows {T M K N : Nat} {φ₁ φ₂ : FTy} (D : DotDims ⟨2, ![T, K]⟩ ⟨2, ![K, N]⟩ ⟨2, ![T, N]⟩)
    (hr : D.contr.rank = 1) (hs : D.contr.size ⟨0, by omega⟩ = K)
    (hl0 : ∀ (i : (⟨2, ![T, N]⟩ : Shape).Idx) (q : D.contr.Idx), (D.lhsIdx i q 0).val = (i 0).val)
    (hl1 : ∀ (i : (⟨2, ![T, N]⟩ : Shape).Idx) (q : D.contr.Idx), (D.lhsIdx i q 1).val = (q ⟨0, by omega⟩).val)
    (hr0 : ∀ (i : (⟨2, ![T, N]⟩ : Shape).Idx) (q : D.contr.Idx), (D.rhsIdx i q 0).val = (q ⟨0, by omega⟩).val)
    (hr1 : ∀ (i : (⟨2, ![T, N]⟩ : Shape).Idx) (q : D.contr.Idx), (D.rhsIdx i q 1).val = (i 1).val)
    (prec : Option ContractPrecision)
    (A : (⟨2, ![M, K]⟩ : Shape).Idx → EReal) (B : (⟨2, ![K, N]⟩ : Shape).Idx → EReal)
    (x0 : FVec Ideal ⟨2, ![T, K]⟩ φ₁) (x1 : FVec Ideal ⟨2, ![K, N]⟩ φ₂)
    (i : (⟨2, ![M, N]⟩ : Shape).Idx) (y : (⟨2, ![T, N]⟩ : Shape).Idx)
    (h0 : ∀ k : Fin K, x0 (ix2 (y 0) k) = A (ix2 (i 0) k)) (h1 : ∀ k : Fin K, x1 (ix2 k (y 1)) = B (ix2 k (i 1))) :
    FloatOps.matmul D prec x0 x1 (constant (F := Ideal) ⟨2, ![T, N]⟩ .f32 0x00000000#32) y = mm A B i := by
  rw [Ideal.matmul_constant_zero_apply]
  have hy : y = ix2 (y 0) (y 1) := eq_ix2 y
  refine (congrArg (fun z => ∑ q : D.contr.Idx, (x0 : _ → EReal) (D.lhsIdx z q) * (x1 : _ → EReal) (D.rhsIdx z q)) hy).trans ?_
  refine (sum_plain D hr hs hl0 hl1 hr0 hr1 (x0 : _ → EReal) (x1 : _ → EReal) (y 0) (y 1)).trans ?_
  exact Finset.sum_congr rfl fun k _ => by rw [h0 k, h1 k]

end Cert.LibRowDot

end
-- ==== Proof.RegTac.lean ====
/-
  A kernel region against the reference's contraction, buffer by buffer: the left program's output array ends at the
  product of its two input arrays, which is what the right program's contraction writes; an input array is left as the
  region found it; both programs keep every other buffer.
-/
import Idealize.ShloMosaic.Lib.StableHlo.Run
import Idealize.ShloMosaic.Lib.Pipeline.FrameSuffix
import Idealize.ShloMosaic.Lib.Pipeline.Value
import proofs.«114227_j13357348290767_1_alg».proof.Proof.LibRowDot

namespace Cert.Sim

open Idealize.ShloMosaic Idealize.ShloMosaic.StableHlo

/-- A buffer the region does not touch: the left side keeps it (it is none of the region's arrays), the right side's
    contraction writes another buffer. -/
syntax "reg_keep" term:max term:max : tactic
macro_rules
  | `(tactic| reg_keep $rd $h) =>
    `(tactic| (refine (Pipeline.withArrays_of_ne _ _ _ _ _ (by decide)).trans (($h).trans ?_)
               symm; dsimp only [$rd:term]; after_results_simp))

/-- An input array of the region: a window that is never written back leaves its array as the region found it. -/
syntax "reg_in" term:max term:max term:max term:max term:max term:max term:max : tactic
macro_rules
  | `(tactic| reg_in $spec $launch $dat $aeq $w $rd $h) =>
    `(tactic| (refine ((Pipeline.withArrays_arr $spec ($launch).win.arr_inj _ _ _ $w).trans
                 ((($dat _ _).arrAt_in $w rfl _).trans ($aeq _ _ $w))).trans (($h).trans ?_)
               symm; dsimp only [$rd:term]; after_results_simp))

/-- The region's output array: the product of the two input arrays on the left, the host's contraction of the same
    two buffers on the right; the two programs agree on both operands, so the two products are equal. -/
syntax "reg_out" term:max term:max term:max term:max term:max term:max term:max : tactic
macro_rules
  | `(tactic| reg_out $spec $launch $final $dotlem $rd $ha $hb) =>
    `(tactic| (refine ((Pipeline.withArrays_arr $spec ($launch).win.arr_inj _ _ _ 2).trans ($final _ _)).trans ?_
               symm; dsimp only [$rd:term]; after_results_simp
               rw [$dotlem:term]
               exact congrArg₂ Cert.LibRowDot.mm ($ha).symm ($hb).symm))

end Cert.Sim
-- ==== Proof.Reg0.lean ====
/-
  Region 0 of the idealized kernel program: a [20000, 2000] array times a [2000, 512] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two operands as the region finds them. -/
abbrev lhs (c : Dev nD) : S20000x2000.Idx → EReal := V c main_arg0
abbrev rhs (c : Dev nD) : S2000x512.Idx → EReal := V c main_v4

/-- Row `p` of the left operand's block at point `t` is row `400 t + p` of the array. -/
theorem lhs_block (c : Dev nD) (t : Fin cfg0.N) (p : Fin 400) (k : Fin 2000) (r : Fin 20000) (hr : r.val = t.val * 400 + p.val) :
    (iblk0 V c 0 t : Vec Ideal S400x2000 .f32) (ix2 p k) = lhs V c (ix2 r k) := by
  obtain ⟨e0, e1, e2, e3, e4, e5⟩ := idx_facts t
  unfold iblk0
  rw [View.read_apply]
  show V c main_arg0 _ = V c main_arg0 _
  congr 1
  funext a
  apply Fin.ext
  match a with
  | ⟨0, _⟩ => show win0_0.index t (0 : Fin 2) * 400 + 1 * p.val = r.val; omega
  | ⟨1, _⟩ => show win0_0.index t (1 : Fin 2) * 2000 + 1 * k.val = k.val; omega

/-- The right operand's block at every point is the whole array. -/
theorem rhs_block (c : Dev nD) (t : Fin cfg0.N) (k : Fin 2000) (j : Fin 512) :
    (iblk0 V c 1 t : Vec Ideal S2000x512 .f32) (ix2 k j) = rhs V c (ix2 k j) := by
  obtain ⟨e0, e1, e2, e3, e4, e5⟩ := idx_facts t
  unfold iblk0
  rw [View.read_apply]
  show V c main_v4 _ = V c main_v4 _
  congr 1
  funext a
  apply Fin.ext
  match a with
  | ⟨0, _⟩ => show win0_1.index t (0 : Fin 2) * 2000 + 1 * k.val = k.val; omega
  | ⟨1, _⟩ => show win0_1.index t (1 : Fin 2) * 512 + 1 * j.val = j.val; omega

set_option maxHeartbeats 4000000 in
/-- What point `t` writes back is block `t` of the whole product. -/
theorem flushed_eq (c : Dev nD) (t : Fin cfg0.N) :
    (dat0 V c).flushed 2 t = ((cfg0.win 2).blk t).view.read (Elt Ideal) (mm (lhs V c) (rhs V c)) := by
  show (cfg0.win 2).cut (grid0.coords t) ((dat0 V c).after 2 t) = _
  rw [after0_2]
  unfold out0_2
  rw [View.canon_unit_zero hz]
  simp only [View.ld_unit_zero (S := S400x2000) hz, View.ld_unit_zero (S := S2000x512) hz]
  obtain ⟨e0, e1, e2, e3, e4, e5⟩ := idx_facts t
  funext y
  rw [View.read_apply]
  unfold k0_pay1
  dsimp only
  simp only [shapeCast_self]
  have hy0 : (y 0).val < 400 := (y 0).isLt
  have ht : t.val < 50 := Nat.lt_of_lt_of_eq t.isLt N_0
  have hi0 : ((((cfg0.win 2).blk t).view.emb y) 0).val = win0_2.index t (0 : Fin 2) * 400 + 1 * (y 0).val := rfl
  have hi1 : ((((cfg0.win 2).blk t).view.emb y) 1).val = win0_2.index t (1 : Fin 2) * 512 + 1 * (y 1).val := rfl
  refine matmul_rows dot_S400x2000_S2000x512_S400x512_1_0_0_1_n_n rfl rfl (fun _ _ => rfl) (fun _ _ => rfl) (fun _ _ => rfl) (fun _ _ => rfl) none
    (lhs V c) (rhs V c) _ _ (((cfg0.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg0.win 2).blk t).view.emb y) 1).val; rw [hi1, e5]; omega

/-- An index of the output array is in point `t`'s block iff its row is one of the block's 400 rows. -/
theorem mem_blk (t : Fin cfg0.N) (i : S20000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_v5).slice (win0_2.rect t)).set ↔ _
  rw [View.set_slice_whole, Rect.mem_set_unit]
  exact Iff.rfl

/-- Every index of the output array is in the block of the point that takes its row. -/
theorem cover (i : S20000x512.Idx) : ∃ t : Fin cfg0.N, (cfg0.win 2).flush t = true ∧ i ∈ ((cfg0.win 2).blk t).view.set := by
  have hi0 : (i 0).val < 20000 := (i 0).isLt
  have hi1 : (i 1).val < 512 := (i 1).isLt
  have hN : cfg0.N = 50 := N_0
  have hq : (i 0).val / 400 < cfg0.N := by rw [hN]; omega
  let t0 : Fin cfg0.N := ⟨(i 0).val / 400, hq⟩
  obtain ⟨e0, e1, e2, e3, e4, e5⟩ := idx_facts t0
  have e4' : win0_2.index t0 (0 : Fin 2) = (i 0).val / 400 := e4
  refine ⟨t0, flush0_2 t0, ?_⟩
  rw [mem_blk]
  intro a
  match a with
  | ⟨0, _⟩ => show win0_2.index t0 (0 : Fin 2) * 400 ≤ (i 0).val ∧ (i 0).val < win0_2.index t0 (0 : Fin 2) * 400 + 400; rw [e4']; omega
  | ⟨1, _⟩ => show win0_2.index t0 (1 : Fin 2) * 512 ≤ (i 1).val ∧ (i 1).val < win0_2.index t0 (1 : Fin 2) * 512 + 512; rw [e5]; omega

/-- After the last point the output array is the whole product of the two arrays as the region found them. -/
theorem final (c : Dev nD) : (dat0 V c).arrAt 2 cfg0.N = mm (lhs V c) (rhs V c) :=
  (dat0 V c).arrAt_eq_of_cover 2 (mm (lhs V c) (rhs V c)) (fun t _ => flushed_eq V c t) cover

end Cert.KernelIdeal.Reg0

end
-- ==== Proof.RefDots.lean ====
/-
  Each contraction of the reference, read on the extended reals: the host's product of an [M, K] array by a [K, N]
  array over the shared axis is the entry-by-entry sum over that axis.
-/
import proofs.«114227_j13357348290767_1_alg».proof.Proof.Gen.ReferenceIdeal
import proofs.«114227_j13357348290767_1_alg».proof.Proof.LibRowDot

set_option maxRecDepth 16384

noncomputable section

namespace Cert.ReferenceIdeal.Dots

open Idealize.ShloMosaic Idealize.ShloMosaic.ValueIdx Cert.ReferenceIdeal Cert.LibRowDot

theorem dot_S20000x2000_S2000x512_S20000x512_1_0_0_1_n_n_eq (l : FVec Ideal S20000x2000 .f32) (r : FVec Ideal S2000x512 .f32) :
    Host.dotGeneral dot_S20000x2000_S2000x512_S20000x512_1_0_0_1_n_n none l r = mm l r :=
  dotGeneral_eq_mm dot_S20000x2000_S2000x512_S20000x512_1_0_0_1_n_n rfl rfl (fun _ _ => rfl) (fun _ _ => rfl) (fun _ _ => rfl) (fun _ _ => rfl) none .single l r

theorem dot_S200000x3_S3x128_S200000x128_1_0_0_1_n_n_eq (l : FVec Ideal S200000x3 .f32) (r : FVec Ideal S3x128 .f32) :
    Host.dotGeneral dot_S200000x3_S3x128_S200000x128_1_0_0_1_n_n none l r = mm l r :=
  dotGeneral_eq_mm dot_S200000x3_S3x128_S200000x128_1_0_0_1_n_n rfl rfl (fun _ _ => rfl) (fun _ _ => rfl) (fun _ _ => rfl) (fun _ _ => rfl) none .single l r

theorem dot_S200000x128_S128x128_S200000x128_1_0_0_1_n_n_eq (l : FVec Ideal S200000x128 .f32) (r : FVec Ideal S128x128 .f32) :
    Host.dotGeneral dot_S200000x128_S128x128_S200000x128_1_0_0_1_n_n none l r = mm l r :=
  dotGeneral_eq_mm dot_S200000x128_S128x128_S200000x128_1_0_0_1_n_n rfl rfl (fun _ _ => rfl) (fun _ _ => rfl) (fun _ _ => rfl) (fun _ _ => rfl) none .single l r

theorem dot_S20000x1024_S1024x512_S20000x512_1_0_0_1_n_n_eq (l : FVec Ideal S20000x1024 .f32) (r : FVec Ideal S1024x512 .f32) :
    Host.dotGeneral dot_S20000x1024_S1024x512_S20000x512_1_0_0_1_n_n none l r = mm l r :=
  dotGeneral_eq_mm dot_S20000x1024_S1024x512_S20000x512_1_0_0_1_n_n rfl rfl (fun _ _ => rfl) (fun _ _ => rfl) (fun _ _ => rfl) (fun _ _ => rfl) none .single l r

theorem dot_S20000x512_S512x16_S20000x16_1_0_0_1_n_n_eq (l : FVec Ideal S20000x512 .f32) (r : FVec Ideal S512x16 .f32) :
    Host.dotGeneral dot_S20000x512_S512x16_S20000x16_1_0_0_1_n_n none l r = mm l r :=
  dotGeneral_eq_mm dot_S20000x512_S512x16_S20000x16_1_0_0_1_n_n rfl rfl (fun _ _ => rfl) (fun _ _ => rfl) (fun _ _ => rfl) (fun _ _ => rfl) none .single l r

theorem dot_S20000x16_S16x16_S20000x16_1_0_0_1_n_n_eq (l : FVec Ideal S20000x16 .f32) (r : FVec Ideal S16x16 .f32) :
    Host.dotGeneral dot_S20000x16_S16x16_S20000x16_1_0_0_1_n_n none l r = mm l r :=
  dotGeneral_eq_mm dot_S20000x16_S16x16_S20000x16_1_0_0_1_n_n rfl rfl (fun _ _ => rfl) (fun _ _ => rfl) (fun _ _ => rfl) (fun _ _ => rfl) none .single l r

theorem dot_S20000x64_S64x256_S20000x256_1_0_0_1_n_n_eq (l : FVec Ideal S20000x64 .f32) (r : FVec Ideal S64x256 .f32) :
    Host.dotGeneral dot_S20000x64_S64x256_S20000x256_1_0_0_1_n_n none l r = mm l r :=
  dotGeneral_eq_mm dot_S20000x64_S64x256_S20000x256_1_0_0_1_n_n rfl rfl (fun _ _ => rfl) (fun _ _ => rfl) (fun _ _ => rfl) (fun _ _ => rfl) none .single l r

theorem dot_S20000x256_S256x2_S20000x2_1_0_0_1_n_n_eq (l : FVec Ideal S20000x256 .f32) (r : FVec Ideal S256x2 .f32) :
    Host.dotGeneral dot_S20000x256_S256x2_S20000x2_1_0_0_1_n_n none l r = mm l r :=
  dotGeneral_eq_mm dot_S20000x256_S256x2_S20000x2_1_0_0_1_n_n rfl rfl (fun _ _ => rfl) (fun _ _ => rfl) (fun _ _ => rfl) (fun _ _ => rfl) none .single l r

theorem dot_S20000x512_S512x256_S20000x256_1_0_0_1_n_n_eq (l : FVec Ideal S20000x512 .f32) (r : FVec Ideal S512x256 .f32) :
    Host.dotGeneral dot_S20000x512_S512x256_S20000x256_1_0_0_1_n_n none l r = mm l r :=
  dotGeneral_eq_mm dot_S20000x512_S512x256_S20000x256_1_0_0_1_n_n rfl rfl (fun _ _ => rfl) (fun _ _ => rfl) (fun _ _ => rfl) (fun _ _ => rfl) none .single l r

theorem dot_S20000x256_S256x20_S20000x20_1_0_0_1_n_n_eq (l : FVec Ideal S20000x256 .f32) (r : FVec Ideal S256x20 .f32) :
    Host.dotGeneral dot_S20000x256_S256x20_S20000x20_1_0_0_1_n_n none l r = mm l r :=
  dotGeneral_eq_mm dot_S20000x256_S256x20_S20000x20_1_0_0_1_n_n rfl rfl (fun _ _ => rfl) (fun _ _ => rfl) (fun _ _ => rfl) (fun _ _ => rfl) none .single l r

end Cert.ReferenceIdeal.Dots

end
-- ==== Proof.RegStep0.lean ====
/- Region 0 against the reference's contraction 0: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg0
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_0 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in0 (WK c) WR) :
    Inv_out0 (Pipeline.withArrays Cert.KernelIdeal.spec0 c (WK c) fun w => (Cert.KernelIdeal.Gen.dat0 (fun c b => WK c b) c).arrAt w Cert.KernelIdeal.cfg0.N)
      (StableHlo.after [Cert.ReferenceIdeal.Cut.rdot0 (F := Ideal)] WR) := by
  obtain ⟨h0, h1, h2, h3, h4, h5, h6, h7, h8, h9, h10, h11, h12, h13, h14, h15, h16, h17, h18, h19, h20, h21, h22, h23, h24, h25⟩ := h
  refine ⟨?_, ?_, ?_, ?_, ?_, ?_, ?_, ?_, ?_, ?_, ?_, ?_, ?_, ?_, ?_, ?_, ?_, ?_, ?_, ?_, ?_, ?_, ?_, ?_, ?_, ?_⟩
  · reg_in Cert.KernelIdeal.spec0 Cert.KernelIdeal.Gen.launch0 Cert.KernelIdeal.Gen.dat0 Cert.KernelIdeal.Gen.A_eq0 0 Cert.ReferenceIdeal.Cut.rdot0 h0 -- main_arg0
  · reg_keep Cert.ReferenceIdeal.Cut.rdot0 h1 -- main_arg2
  · reg_keep Cert.ReferenceIdeal.Cut.rdot0 h2 -- main_arg4
  · reg_keep Cert.ReferenceIdeal.Cut.rdot0 h3 -- main_arg5
  · reg_keep Cert.ReferenceIdeal.Cut.rdot0 h4 -- main_arg6
  · reg_keep Cert.ReferenceIdeal.Cut.rdot0 h5 -- main_arg7
  · reg_keep Cert.ReferenceIdeal.Cut.rdot0 h6 -- main_arg8
  · reg_keep Cert.ReferenceIdeal.Cut.rdot0 h7 -- main_arg9
  · reg_keep Cert.ReferenceIdeal.Cut.rdot0 h8 -- main_arg10
  · reg_keep Cert.ReferenceIdeal.Cut.rdot0 h9 -- main_arg11
  · reg_keep Cert.ReferenceIdeal.Cut.rdot0 h10 -- main_arg12
  · reg_keep Cert.ReferenceIdeal.Cut.rdot0 h11 -- main_arg13
  · reg_keep Cert.ReferenceIdeal.Cut.rdot0 h12 -- main_arg14
  · reg_keep Cert.ReferenceIdeal.Cut.rdot0 h13 -- main_arg15
  · reg_keep Cert.ReferenceIdeal.Cut.rdot0 h14 -- main_arg16
  · reg_keep Cert.ReferenceIdeal.Cut.rdot0 h15 -- main_arg17
  · reg_keep Cert.ReferenceIdeal.Cut.rdot0 h16 -- main_arg18
  · reg_keep Cert.ReferenceIdeal.Cut.rdot0 h17 -- main_arg19
  · reg_keep Cert.ReferenceIdeal.Cut.rdot0 h18 -- main_arg20
  · reg_keep Cert.ReferenceIdeal.Cut.rdot0 h19 -- main_arg21
  · reg_keep Cert.ReferenceIdeal.Cut.rdot0 h20 -- main_arg22
  · reg_keep Cert.ReferenceIdeal.Cut.rdot0 h21 -- main_arg23
  · reg_keep Cert.ReferenceIdeal.Cut.rdot0 h22 -- main_arg24
  · reg_keep Cert.ReferenceIdeal.Cut.rdot0 h23 -- main_v1
  · reg_keep Cert.ReferenceIdeal.Cut.rdot0 h24 -- main_v3
  · reg_out Cert.KernelIdeal.spec0 Cert.KernelIdeal.Gen.launch0 Cert.KernelIdeal.Reg0.final Cert.ReferenceIdeal.Dots.dot_S20000x2000_S2000x512_S20000x512_1_0_0_1_n_n_eq Cert.ReferenceIdeal.Cut.rdot0 h0 h25 -- main_v5

end Cert.Sim

end
-- ==== Proof.Reg1.lean ====
/-
  Region 1 of the idealized kernel program: a [20000, 2000] array times a [2000, 512] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two operands as the region finds them. -/
abbrev lhs (c : Dev nD) : S20000x2000.Idx → EReal := V c main_arg0
abbrev rhs (c : Dev nD) : S2000x512.Idx → EReal := V c main_v9

/-- Row `p` of the left operand's block at point `t` is row `400 t + p` of the array. -/
theorem lhs_block (c : Dev nD) (t : Fin cfg1.N) (p : Fin 400) (k : Fin 2000) (r : Fin 20000) (hr : r.val = t.val * 400 + p.val) :
    (iblk1 V c 0 t : Vec Ideal S400x2000 .f32) (ix2 p k) = lhs V c (ix2 r k) := by
  obtain ⟨e0, e1, e2, e3, e4, e5⟩ := idx_facts t
  unfold iblk1
  rw [View.read_apply]
  show V c main_arg0 _ = V c main_arg0 _
  congr 1
  funext a
  apply Fin.ext
  match a with
  | ⟨0, _⟩ => show win1_0.index t (0 : Fin 2) * 400 + 1 * p.val = r.val; omega
  | ⟨1, _⟩ => show win1_0.index t (1 : Fin 2) * 2000 + 1 * k.val = k.val; omega

/-- The right operand's block at every point is the whole array. -/
theorem rhs_block (c : Dev nD) (t : Fin cfg1.N) (k : Fin 2000) (j : Fin 512) :
    (iblk1 V c 1 t : Vec Ideal S2000x512 .f32) (ix2 k j) = rhs V c (ix2 k j) := by
  obtain ⟨e0, e1, e2, e3, e4, e5⟩ := idx_facts t
  unfold iblk1
  rw [View.read_apply]
  show V c main_v9 _ = V c main_v9 _
  congr 1
  funext a
  apply Fin.ext
  match a with
  | ⟨0, _⟩ => show win1_1.index t (0 : Fin 2) * 2000 + 1 * k.val = k.val; omega
  | ⟨1, _⟩ => show win1_1.index t (1 : Fin 2) * 512 + 1 * j.val = j.val; omega

set_option maxHeartbeats 4000000 in
/-- What point `t` writes back is block `t` of the whole product. -/
theorem flushed_eq (c : Dev nD) (t : Fin cfg1.N) :
    (dat1 V c).flushed 2 t = ((cfg1.win 2).blk t).view.read (Elt Ideal) (mm (lhs V c) (rhs V c)) := by
  show (cfg1.win 2).cut (grid1.coords t) ((dat1 V c).after 2 t) = _
  rw [after1_2]
  unfold out1_2
  rw [View.canon_unit_zero hz]
  simp only [View.ld_unit_zero (S := S400x2000) hz, View.ld_unit_zero (S := S2000x512) hz]
  obtain ⟨e0, e1, e2, e3, e4, e5⟩ := idx_facts t
  funext y
  rw [View.read_apply]
  unfold k1_pay1
  dsimp only
  simp only [shapeCast_self]
  have hy0 : (y 0).val < 400 := (y 0).isLt
  have ht : t.val < 50 := Nat.lt_of_lt_of_eq t.isLt N_1
  have hi0 : ((((cfg1.win 2).blk t).view.emb y) 0).val = win1_2.index t (0 : Fin 2) * 400 + 1 * (y 0).val := rfl
  have hi1 : ((((cfg1.win 2).blk t).view.emb y) 1).val = win1_2.index t (1 : Fin 2) * 512 + 1 * (y 1).val := rfl
  refine matmul_rows dot_S400x2000_S2000x512_S400x512_1_0_0_1_n_n rfl rfl (fun _ _ => rfl) (fun _ _ => rfl) (fun _ _ => rfl) (fun _ _ => rfl) none
    (lhs V c) (rhs V c) _ _ (((cfg1.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg1.win 2).blk t).view.emb y) 1).val; rw [hi1, e5]; omega

/-- An index of the output array is in point `t`'s block iff its row is one of the block's 400 rows. -/
theorem mem_blk (t : Fin cfg1.N) (i : S20000x512.Idx) :
    i ∈ ((cfg1.win 2).blk t).view.set ↔ ∀ a : Fin 2, win1_2.index t a * S400x512.size a ≤ (i a).val ∧ (i a).val < win1_2.index t a * S400x512.size a + S400x512.size a := by
  show i ∈ ((View.whole main_v10).slice (win1_2.rect t)).set ↔ _
  rw [View.set_slice_whole, Rect.mem_set_unit]
  exact Iff.rfl

/-- Every index of the output array is in the block of the point that takes its row. -/
theorem cover (i : S20000x512.Idx) : ∃ t : Fin cfg1.N, (cfg1.win 2).flush t = true ∧ i ∈ ((cfg1.win 2).blk t).view.set := by
  have hi0 : (i 0).val < 20000 := (i 0).isLt
  have hi1 : (i 1).val < 512 := (i 1).isLt
  have hN : cfg1.N = 50 := N_1
  have hq : (i 0).val / 400 < cfg1.N := by rw [hN]; omega
  let t0 : Fin cfg1.N := ⟨(i 0).val / 400, hq⟩
  obtain ⟨e0, e1, e2, e3, e4, e5⟩ := idx_facts t0
  have e4' : win1_2.index t0 (0 : Fin 2) = (i 0).val / 400 := e4
  refine ⟨t0, flush1_2 t0, ?_⟩
  rw [mem_blk]
  intro a
  match a with
  | ⟨0, _⟩ => show win1_2.index t0 (0 : Fin 2) * 400 ≤ (i 0).val ∧ (i 0).val < win1_2.index t0 (0 : Fin 2) * 400 + 400; rw [e4']; omega
  | ⟨1, _⟩ => show win1_2.index t0 (1 : Fin 2) * 512 ≤ (i 1).val ∧ (i 1).val < win1_2.index t0 (1 : Fin 2) * 512 + 512; rw [e5]; omega

/-- After the last point the output array is the whole product of the two arrays as the region found them. -/
theorem final (c : Dev nD) : (dat1 V c).arrAt 2 cfg1.N = mm (lhs V c) (rhs V c) :=
  (dat1 V c).arrAt_eq_of_cover 2 (mm (lhs V c) (rhs V c)) (fun t _ => flushed_eq V c t) cover

end Cert.KernelIdeal.Reg1

end
-- ==== Proof.RegStep1.lean ====
/- Region 1 against the reference's contraction 1: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg1
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_1 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in1 (WK c) WR) :
    Inv_out1 (Pipeline.withArrays Cert.KernelIdeal.spec1 c (WK c) fun w => (Cert.KernelIdeal.Gen.dat1 (fun c b => WK c b) c).arrAt w Cert.KernelIdeal.cfg1.N)
      (StableHlo.after [Cert.ReferenceIdeal.Cut.rdot1 (F := Ideal)] WR) := by
  obtain ⟨h0, h1, h2, h3, h4, h5, h6, h7, h8, h9, h10, h11, h12, h13, h14, h15, h16, h17, h18, h19, h20, h21, h22, h23, h24⟩ := h
  refine ⟨?_, ?_, ?_, ?_, ?_, ?_, ?_, ?_, ?_, ?_, ?_, ?_, ?_, ?_, ?_, ?_, ?_, ?_, ?_, ?_, ?_, ?_, ?_, ?_⟩
  · reg_keep Cert.ReferenceIdeal.Cut.rdot1 h1 -- main_arg2
  · reg_keep Cert.ReferenceIdeal.Cut.rdot1 h2 -- main_arg6
  · reg_keep Cert.ReferenceIdeal.Cut.rdot1 h3 -- main_arg7
  · reg_keep Cert.ReferenceIdeal.Cut.rdot1 h4 -- main_arg8
  · reg_keep Cert.ReferenceIdeal.Cut.rdot1 h5 -- main_arg9
  · reg_keep Cert.ReferenceIdeal.Cut.rdot1 h6 -- main_arg10
  · reg_keep Cert.ReferenceIdeal.Cut.rdot1 h7 -- main_arg11
  · reg_keep Cert.ReferenceIdeal.Cut.rdot1 h8 -- main_arg12
  · reg_keep Cert.ReferenceIdeal.Cut.rdot1 h9 -- main_arg13
  · reg_keep Cert.ReferenceIdeal.Cut.rdot1 h10 -- main_arg14
  · reg_keep Cert.ReferenceIdeal.Cut.rdot1 h11 -- main_arg15
  · reg_keep Cert.ReferenceIdeal.Cut.rdot1 h12 -- main_arg16
  · reg_keep Cert.ReferenceIdeal.Cut.rdot1 h13 -- main_arg17
  · reg_keep Cert.ReferenceIdeal.Cut.rdot1 h14 -- main_arg18
  · reg_keep Cert.ReferenceIdeal.Cut.rdot1 h15 -- main_arg19
  · reg_keep Cert.ReferenceIdeal.Cut.rdot1 h16 -- main_arg20
  · reg_keep Cert.ReferenceIdeal.Cut.rdot1 h17 -- main_arg21
  · reg_keep Cert.ReferenceIdeal.Cut.rdot1 h18 -- main_arg22
  · reg_keep Cert.ReferenceIdeal.Cut.rdot1 h19 -- main_arg23
  · reg_keep Cert.ReferenceIdeal.Cut.rdot1 h20 -- main_arg24
  · reg_keep Cert.ReferenceIdeal.Cut.rdot1 h21 -- main_v1
  · reg_keep Cert.ReferenceIdeal.Cut.rdot1 h22 -- main_v3
  · reg_keep Cert.ReferenceIdeal.Cut.rdot1 h23 -- main_v8
  · reg_out Cert.KernelIdeal.spec1 Cert.KernelIdeal.Gen.launch1 Cert.KernelIdeal.Reg1.final Cert.ReferenceIdeal.Dots.dot_S20000x2000_S2000x512_S20000x512_1_0_0_1_n_n_eq Cert.ReferenceIdeal.Cut.rdot1 h0 h24 -- main_v10

end Cert.Sim

end
-- ==== Proof.Reg2.lean ====
/-
  Region 2 of the idealized kernel program: a [200000, 3] array times a [3, 128] array, the left operand's rows
  taken 400 at a time over a grid of 500 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two operands as the region finds them. -/
abbrev lhs (c : Dev nD) : S200000x3.Idx → EReal := V c main_v14
abbrev rhs (c : Dev nD) : S3x128.Idx → EReal := V c main_v15

/-- Row `p` of the left operand's block at point `t` is row `400 t + p` of the array. -/
theorem lhs_block (c : Dev nD) (t : Fin cfg2.N) (p : Fin 400) (k : Fin 3) (r : Fin 200000) (hr : r.val = t.val * 400 + p.val) :
    (iblk2 V c 0 t : Vec Ideal S400x3 .f32) (ix2 p k) = lhs V c (ix2 r k) := by
  obtain ⟨e0, e1, e2, e3, e4, e5⟩ := idx_facts t
  unfold iblk2
  rw [View.read_apply]
  show V c main_v14 _ = V c main_v14 _
  congr 1
  funext a
  apply Fin.ext
  match a with
  | ⟨0, _⟩ => show win2_0.index t (0 : Fin 2) * 400 + 1 * p.val = r.val; omega
  | ⟨1, _⟩ => show win2_0.index t (1 : Fin 2) * 3 + 1 * k.val = k.val; omega

/-- The right operand's block at every point is the whole array. -/
theorem rhs_block (c : Dev nD) (t : Fin cfg2.N) (k : Fin 3) (j : Fin 128) :
    (iblk2 V c 1 t : Vec Ideal S3x128 .f32) (ix2 k j) = rhs V c (ix2 k j) := by
  obtain ⟨e0, e1, e2, e3, e4, e5⟩ := idx_facts t
  unfold iblk2
  rw [View.read_apply]
  show V c main_v15 _ = V c main_v15 _
  congr 1
  funext a
  apply Fin.ext
  match a with
  | ⟨0, _⟩ => show win2_1.index t (0 : Fin 2) * 3 + 1 * k.val = k.val; omega
  | ⟨1, _⟩ => show win2_1.index t (1 : Fin 2) * 128 + 1 * j.val = j.val; omega

set_option maxHeartbeats 4000000 in
/-- What point `t` writes back is block `t` of the whole product. -/
theorem flushed_eq (c : Dev nD) (t : Fin cfg2.N) :
    (dat2 V c).flushed 2 t = ((cfg2.win 2).blk t).view.read (Elt Ideal) (mm (lhs V c) (rhs V c)) := by
  show (cfg2.win 2).cut (grid2.coords t) ((dat2 V c).after 2 t) = _
  rw [after2_2]
  unfold out2_2
  rw [View.canon_unit_zero hz]
  simp only [View.ld_unit_zero (S := S400x3) hz, View.ld_unit_zero (S := S3x128) hz]
  obtain ⟨e0, e1, e2, e3, e4, e5⟩ := idx_facts t
  funext y
  rw [View.read_apply]
  unfold k2_pay1
  dsimp only
  simp only [shapeCast_self]
  have hy0 : (y 0).val < 400 := (y 0).isLt
  have ht : t.val < 500 := Nat.lt_of_lt_of_eq t.isLt N_2
  have hi0 : ((((cfg2.win 2).blk t).view.emb y) 0).val = win2_2.index t (0 : Fin 2) * 400 + 1 * (y 0).val := rfl
  have hi1 : ((((cfg2.win 2).blk t).view.emb y) 1).val = win2_2.index t (1 : Fin 2) * 128 + 1 * (y 1).val := rfl
  refine matmul_rows dot_S400x3_S3x128_S400x128_1_0_0_1_n_n rfl rfl (fun _ _ => rfl) (fun _ _ => rfl) (fun _ _ => rfl) (fun _ _ => rfl) none
    (lhs V c) (rhs V c) _ _ (((cfg2.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg2.win 2).blk t).view.emb y) 1).val; rw [hi1, e5]; omega

/-- An index of the output array is in point `t`'s block iff its row is one of the block's 400 rows. -/
theorem mem_blk (t : Fin cfg2.N) (i : S200000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v16).slice (win2_2.rect t)).set ↔ _
  rw [View.set_slice_whole, Rect.mem_set_unit]
  exact Iff.rfl

/-- Every index of the output array is in the block of the point that takes its row. -/
theorem cover (i : S200000x128.Idx) : ∃ t : Fin cfg2.N, (cfg2.win 2).flush t = true ∧ i ∈ ((cfg2.win 2).blk t).view.set := by
  have hi0 : (i 0).val < 200000 := (i 0).isLt
  have hi1 : (i 1).val < 128 := (i 1).isLt
  have hN : cfg2.N = 500 := N_2
  have hq : (i 0).val / 400 < cfg2.N := by rw [hN]; omega
  let t0 : Fin cfg2.N := ⟨(i 0).val / 400, hq⟩
  obtain ⟨e0, e1, e2, e3, e4, e5⟩ := idx_facts t0
  have e4' : win2_2.index t0 (0 : Fin 2) = (i 0).val / 400 := e4
  refine ⟨t0, flush2_2 t0, ?_⟩
  rw [mem_blk]
  intro a
  match a with
  | ⟨0, _⟩ => show win2_2.index t0 (0 : Fin 2) * 400 ≤ (i 0).val ∧ (i 0).val < win2_2.index t0 (0 : Fin 2) * 400 + 400; rw [e4']; omega
  | ⟨1, _⟩ => show win2_2.index t0 (1 : Fin 2) * 128 ≤ (i 1).val ∧ (i 1).val < win2_2.index t0 (1 : Fin 2) * 128 + 128; rw [e5]; omega

/-- After the last point the output array is the whole product of the two arrays as the region found them. -/
theorem final (c : Dev nD) : (dat2 V c).arrAt 2 cfg2.N = mm (lhs V c) (rhs V c) :=
  (dat2 V c).arrAt_eq_of_cover 2 (mm (lhs V c) (rhs V c)) (fun t _ => flushed_eq V c t) cover

end Cert.KernelIdeal.Reg2

end
-- ==== Proof.RegStep2.lean ====
/- Region 2 against the reference's contraction 2: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg2
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_2 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in2 (WK c) WR) :
    Inv_out2 (Pipeline.withArrays Cert.KernelIdeal.spec2 c (WK c) fun w => (Cert.KernelIdeal.Gen.dat2 (fun c b => WK c b) c).arrAt w Cert.KernelIdeal.cfg2.N)
      (StableHlo.after [Cert.ReferenceIdeal.Cut.rdot2 (F := Ideal)] WR) := by
  obtain ⟨h0, h1, h2, h3, h4, h5, h6, h7, h8, h9, h10, h11, h12, h13, h14, h15, h16, h17, h18, h19, h20, h21, h22, h23, h24⟩ := h
  refine ⟨?_, ?_, ?_, ?_, ?_, ?_, ?_, ?_, ?_, ?_, ?_, ?_, ?_, ?_, ?_, ?_, ?_, ?_, ?_, ?_, ?_, ?_, ?_, ?_⟩
  · reg_keep Cert.ReferenceIdeal.Cut.rdot2 h0 -- main_arg2
  · reg_keep Cert.ReferenceIdeal.Cut.rdot2 h1 -- main_arg7
  · reg_keep Cert.ReferenceIdeal.Cut.rdot2 h2 -- main_arg8
  · reg_keep Cert.ReferenceIdeal.Cut.rdot2 h3 -- main_arg9
  · reg_keep Cert.ReferenceIdeal.Cut.rdot2 h4 -- main_arg10
  · reg_keep Cert.ReferenceIdeal.Cut.rdot2 h5 -- main_arg11
  · reg_keep Cert.ReferenceIdeal.Cut.rdot2 h6 -- main_arg12
  · reg_keep Cert.ReferenceIdeal.Cut.rdot2 h7 -- main_arg13
  · reg_keep Cert.ReferenceIdeal.Cut.rdot2 h8 -- main_arg14
  · reg_keep Cert.ReferenceIdeal.Cut.rdot2 h9 -- main_arg15
  · reg_keep Cert.ReferenceIdeal.Cut.rdot2 h10 -- main_arg16
  · reg_keep Cert.ReferenceIdeal.Cut.rdot2 h11 -- main_arg17
  · reg_keep Cert.ReferenceIdeal.Cut.rdot2 h12 -- main_arg18
  · reg_keep Cert.ReferenceIdeal.Cut.rdot2 h13 -- main_arg19
  · reg_keep Cert.ReferenceIdeal.Cut.rdot2 h14 -- main_arg20
  · reg_keep Cert.ReferenceIdeal.Cut.rdot2 h15 -- main_arg21
  · reg_keep Cert.ReferenceIdeal.Cut.rdot2 h16 -- main_arg22
  · reg_keep Cert.ReferenceIdeal.Cut.rdot2 h17 -- main_arg23
  · reg_keep Cert.ReferenceIdeal.Cut.rdot2 h18 -- main_arg24
  · reg_keep Cert.ReferenceIdeal.Cut.rdot2 h19 -- main_v1
  · reg_keep Cert.ReferenceIdeal.Cut.rdot2 h20 -- main_v3
  · reg_keep Cert.ReferenceIdeal.Cut.rdot2 h21 -- main_v8
  · reg_keep Cert.ReferenceIdeal.Cut.rdot2 h22 -- main_v13
  · reg_out Cert.KernelIdeal.spec2 Cert.KernelIdeal.Gen.launch2 Cert.KernelIdeal.Reg2.final Cert.ReferenceIdeal.Dots.dot_S200000x3_S3x128_S200000x128_1_0_0_1_n_n_eq Cert.ReferenceIdeal.Cut.rdot2 h23 h24 -- main_v16

end Cert.Sim

end
-- ==== Proof.Reg3.lean ====
/-
  Region 3 of the idealized kernel program: a [200000, 128] array times a [128, 128] array, the left operand's rows
  taken 400 at a time over a grid of 500 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The two operands as the region finds them. -/
abbrev lhs (c : Dev nD) : S200000x128.Idx → EReal := V c main_v23
abbrev rhs (c : Dev nD) : S128x128.Idx → EReal := V c main_v24

/-- Row `p` of the left operand's block at point `t` is row `400 t + p` of the array. -/
theorem lhs_block (c : Dev nD) (t : Fin cfg3.N) (p : Fin 400) (k : Fin 128) (r : Fin 200000) (hr : r.val = t.val * 400 + p.val) :
    (iblk3 V c 0 t : Vec Ideal S400x128 .f32) (ix2 p k) = lhs V c (ix2 r k) := by
  obtain ⟨e0, e1, e2, e3, e4, e5⟩ := idx_facts t
  unfold iblk3
  rw [View.read_apply]
  show V c main_v23 _ = V c main_v23 _
  congr 1
  funext a
  apply Fin.ext
  match a with
  | ⟨0, _⟩ => show win3_0.index t (0 : Fin 2) * 400 + 1 * p.val = r.val; omega
  | ⟨1, _⟩ => show win3_0.index t (1 : Fin 2) * 128 + 1 * k.val = k.val; omega

/-- The right operand's block at every point is the whole array. -/
theorem rhs_block (c : Dev nD) (t : Fin cfg3.N) (k : Fin 128) (j : Fin 128) :
    (iblk3 V c 1 t : Vec Ideal S128x128 .f32) (ix2 k j) = rhs V c (ix2 k j) := by
  obtain ⟨e0, e1, e2, e3, e4, e5⟩ := idx_facts t
  unfold iblk3
  rw [View.read_apply]
  show V c main_v24 _ = V c main_v24 _
  congr 1
  funext a
  apply Fin.ext
  match a with
  | ⟨0, _⟩ => show win3_1.index t (0 : Fin 2) * 128 + 1 * k.val = k.val; omega
  | ⟨1, _⟩ => show win3_1.index t (1 : Fin 2) * 128 + 1 * j.val = j.val; omega

set_option maxHeartbeats 4000000 in
/-- What point `t` writes back is block `t` of the whole product. -/
theorem flushed_eq (c : Dev nD) (t : Fin cfg3.N) :
    (dat3 V c).flushed 2 t = ((cfg3.win 2).blk t).view.read (Elt Ideal) (mm (lhs V c) (rhs V c)) := by
  show (cfg3.win 2).cut (grid3.coords t) ((dat3 V c).after 2 t) = _
  rw [after3_2]
  unfold out3_2
  rw [View.canon_unit_zero hz]
  simp only [View.ld_unit_zero (S := S400x128) hz, View.ld_unit_zero (S := S128x128) hz]
  obtain ⟨e0, e1, e2, e3, e4, e5⟩ := idx_facts t
  funext y
  rw [View.read_apply]
  unfold k3_pay1
  dsimp only
  simp only [shapeCast_self]
  have hy0 : (y 0).val < 400 := (y 0).isLt
  have ht : t.val < 500 := Nat.lt_of_lt_of_eq t.isLt N_3
  have hi0 : ((((cfg3.win 2).blk t).view.emb y) 0).val = win3_2.index t (0 : Fin 2) * 400 + 1 * (y 0).val := rfl
  have hi1 : ((((cfg3.win 2).blk t).view.emb y) 1).val = win3_2.index t (1 : Fin 2) * 128 + 1 * (y 1).val := rfl
  refine matmul_rows dot_S400x128_S128x128_S400x128_1_0_0_1_n_n rfl rfl (fun _ _ => rfl) (fun _ _ => rfl) (fun _ _ => rfl) (fun _ _ => rfl) none
    (lhs V c) (rhs V c) _ _ (((cfg3.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg3.win 2).blk t).view.emb y) 1).val; rw [hi1, e5]; omega

/-- An index of the output array is in point `t`'s block iff its row is one of the block's 400 rows. -/
theorem mem_blk (t : Fin cfg3.N) (i : S200000x128.Idx) :
    i ∈ ((cfg3.win 2).blk t).view.set ↔ ∀ a : Fin 2, win3_2.index t a * S400x128.size a ≤ (i a).val ∧ (i a).val < win3_2.index t a * S400x128.size a + S400x128.size a := by
  show i ∈ ((View.whole main_v25).slice (win3_2.rect t)).set ↔ _
  rw [View.set_slice_whole, Rect.mem_set_unit]
  exact Iff.rfl

/-- Every index of the output array is in the block of the point that takes its row. -/
theorem cover (i : S200000x128.Idx) : ∃ t : Fin cfg3.N, (cfg3.win 2).flush t = true ∧ i ∈ ((cfg3.win 2).blk t).view.set := by
  have hi0 : (i 0).val < 200000 := (i 0).isLt
  have hi1 : (i 1).val < 128 := (i 1).isLt
  have hN : cfg3.N = 500 := N_3
  have hq : (i 0).val / 400 < cfg3.N := by rw [hN]; omega
  let t0 : Fin cfg3.N := ⟨(i 0).val / 400, hq⟩
  obtain ⟨e0, e1, e2, e3, e4, e5⟩ := idx_facts t0
  have e4' : win3_2.index t0 (0 : Fin 2) = (i 0).val / 400 := e4
  refine ⟨t0, flush3_2 t0, ?_⟩
  rw [mem_blk]
  intro a
  match a with
  | ⟨0, _⟩ => show win3_2.index t0 (0 : Fin 2) * 400 ≤ (i 0).val ∧ (i 0).val < win3_2.index t0 (0 : Fin 2) * 400 + 400; rw [e4']; omega
  | ⟨1, _⟩ => show win3_2.index t0 (1 : Fin 2) * 128 ≤ (i 1).val ∧ (i 1).val < win3_2.index t0 (1 : Fin 2) * 128 + 128; rw [e5]; omega

/-- After the last point the output array is the whole product of the two arrays as the region found them. -/
theorem final (c : Dev nD) : (dat3 V c).arrAt 2 cfg3.N = mm (lhs V c) (rhs V c) :=
  (dat3 V c).arrAt_eq_of_cover 2 (mm (lhs V c) (rhs V c)) (fun t _ => flushed_eq V c t) cover

end Cert.KernelIdeal.Reg3

end
-- ==== Proof.RegStep3.lean ====
/- Region 3 against the reference's contraction 3: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg3
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_3 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in3 (WK c) WR) :
    Inv_out3 (Pipeline.withArrays Cert.KernelIdeal.spec3 c (WK c) fun w => (Cert.KernelIdeal.Gen.dat3 (fun c b => WK c b) c).arrAt w Cert.KernelIdeal.cfg3.N)
      (StableHlo.after [Cert.ReferenceIdeal.Cut.rdot3 (F := Ideal)] WR) := by
  obtain ⟨h0, h1, h2, h3, h4, h5, h6, h7, h8, h9, h10, h11, h12, h13, h14, h15, h16, h17, h18, h19, h20, h21, h22, h23, h24⟩ := h
  refine ⟨?_, ?_, ?_, ?_, ?_, ?_, ?_, ?_, ?_, ?_, ?_, ?_, ?_, ?_, ?_, ?_, ?_, ?_, ?_, ?_, ?_, ?_, ?_, ?_⟩
  · reg_keep Cert.ReferenceIdeal.Cut.rdot3 h0 -- main_arg2
  · reg_keep Cert.ReferenceIdeal.Cut.rdot3 h1 -- main_arg7
  · reg_keep Cert.ReferenceIdeal.Cut.rdot3 h2 -- main_arg8
  · reg_keep Cert.ReferenceIdeal.Cut.rdot3 h3 -- main_arg9
  · reg_keep Cert.ReferenceIdeal.Cut.rdot3 h4 -- main_arg10
  · reg_keep Cert.ReferenceIdeal.Cut.rdot3 h5 -- main_arg11
  · reg_keep Cert.ReferenceIdeal.Cut.rdot3 h6 -- main_arg12
  · reg_keep Cert.ReferenceIdeal.Cut.rdot3 h7 -- main_arg13
  · reg_keep Cert.ReferenceIdeal.Cut.rdot3 h8 -- main_arg14
  · reg_keep Cert.ReferenceIdeal.Cut.rdot3 h9 -- main_arg15
  · reg_keep Cert.ReferenceIdeal.Cut.rdot3 h10 -- main_arg16
  · reg_keep Cert.ReferenceIdeal.Cut.rdot3 h11 -- main_arg17
  · reg_keep Cert.ReferenceIdeal.Cut.rdot3 h12 -- main_arg18
  · reg_keep Cert.ReferenceIdeal.Cut.rdot3 h13 -- main_arg19
  · reg_keep Cert.ReferenceIdeal.Cut.rdot3 h14 -- main_arg20
  · reg_keep Cert.ReferenceIdeal.Cut.rdot3 h15 -- main_arg21
  · reg_keep Cert.ReferenceIdeal.Cut.rdot3 h16 -- main_arg22
  · reg_keep Cert.ReferenceIdeal.Cut.rdot3 h17 -- main_arg23
  · reg_keep Cert.ReferenceIdeal.Cut.rdot3 h18 -- main_arg24
  · reg_keep Cert.ReferenceIdeal.Cut.rdot3 h19 -- main_v1
  · reg_keep Cert.ReferenceIdeal.Cut.rdot3 h20 -- main_v3
  · reg_keep Cert.ReferenceIdeal.Cut.rdot3 h21 -- main_v8
  · reg_keep Cert.ReferenceIdeal.Cut.rdot3 h22 -- main_v13
  · reg_out Cert.KernelIdeal.spec3 Cert.KernelIdeal.Gen.launch3 Cert.KernelIdeal.Reg3.final Cert.ReferenceIdeal.Dots.dot_S200000x128_S128x128_S200000x128_1_0_0_1_n_n_eq Cert.ReferenceIdeal.Cut.rdot3 h23 h24 -- main_v25

end Cert.Sim

end
-- ==== Proof.Reg4.lean ====
/-
  Region 4 of the idealized kernel program: a [200000, 3] array times a [3, 128] array, the left operand's rows
  taken 400 at a time over a grid of 500 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The two operands as the region finds them. -/
abbrev lhs (c : Dev nD) : S200000x3.Idx → EReal := V c main_v37
abbrev rhs (c : Dev nD) : S3x128.Idx → EReal := V c main_v38

/-- Row `p` of the left operand's block at point `t` is row `400 t + p` of the array. -/
theorem lhs_block (c : Dev nD) (t : Fin cfg4.N) (p : Fin 400) (k : Fin 3) (r : Fin 200000) (hr : r.val = t.val * 400 + p.val) :
    (iblk4 V c 0 t : Vec Ideal S400x3 .f32) (ix2 p k) = lhs V c (ix2 r k) := by
  obtain ⟨e0, e1, e2, e3, e4, e5⟩ := idx_facts t
  unfold iblk4
  rw [View.read_apply]
  show V c main_v37 _ = V c main_v37 _
  congr 1
  funext a
  apply Fin.ext
  match a with
  | ⟨0, _⟩ => show win4_0.index t (0 : Fin 2) * 400 + 1 * p.val = r.val; omega
  | ⟨1, _⟩ => show win4_0.index t (1 : Fin 2) * 3 + 1 * k.val = k.val; omega

/-- The right operand's block at every point is the whole array. -/
theorem rhs_block (c : Dev nD) (t : Fin cfg4.N) (k : Fin 3) (j : Fin 128) :
    (iblk4 V c 1 t : Vec Ideal S3x128 .f32) (ix2 k j) = rhs V c (ix2 k j) := by
  obtain ⟨e0, e1, e2, e3, e4, e5⟩ := idx_facts t
  unfold iblk4
  rw [View.read_apply]
  show V c main_v38 _ = V c main_v38 _
  congr 1
  funext a
  apply Fin.ext
  match a with
  | ⟨0, _⟩ => show win4_1.index t (0 : Fin 2) * 3 + 1 * k.val = k.val; omega
  | ⟨1, _⟩ => show win4_1.index t (1 : Fin 2) * 128 + 1 * j.val = j.val; omega

set_option maxHeartbeats 4000000 in
/-- What point `t` writes back is block `t` of the whole product. -/
theorem flushed_eq (c : Dev nD) (t : Fin cfg4.N) :
    (dat4 V c).flushed 2 t = ((cfg4.win 2).blk t).view.read (Elt Ideal) (mm (lhs V c) (rhs V c)) := by
  show (cfg4.win 2).cut (grid4.coords t) ((dat4 V c).after 2 t) = _
  rw [after4_2]
  unfold out4_2
  rw [View.canon_unit_zero hz]
  simp only [View.ld_unit_zero (S := S400x3) hz, View.ld_unit_zero (S := S3x128) hz]
  obtain ⟨e0, e1, e2, e3, e4, e5⟩ := idx_facts t
  funext y
  rw [View.read_apply]
  unfold k4_pay1
  dsimp only
  simp only [shapeCast_self]
  have hy0 : (y 0).val < 400 := (y 0).isLt
  have ht : t.val < 500 := Nat.lt_of_lt_of_eq t.isLt N_4
  have hi0 : ((((cfg4.win 2).blk t).view.emb y) 0).val = win4_2.index t (0 : Fin 2) * 400 + 1 * (y 0).val := rfl
  have hi1 : ((((cfg4.win 2).blk t).view.emb y) 1).val = win4_2.index t (1 : Fin 2) * 128 + 1 * (y 1).val := rfl
  refine matmul_rows dot_S400x3_S3x128_S400x128_1_0_0_1_n_n rfl rfl (fun _ _ => rfl) (fun _ _ => rfl) (fun _ _ => rfl) (fun _ _ => rfl) none
    (lhs V c) (rhs V c) _ _ (((cfg4.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg4.win 2).blk t).view.emb y) 1).val; rw [hi1, e5]; omega

/-- An index of the output array is in point `t`'s block iff its row is one of the block's 400 rows. -/
theorem mem_blk (t : Fin cfg4.N) (i : S200000x128.Idx) :
    i ∈ ((cfg4.win 2).blk t).view.set ↔ ∀ a : Fin 2, win4_2.index t a * S400x128.size a ≤ (i a).val ∧ (i a).val < win4_2.index t a * S400x128.size a + S400x128.size a := by
  show i ∈ ((View.whole main_v39).slice (win4_2.rect t)).set ↔ _
  rw [View.set_slice_whole, Rect.mem_set_unit]
  exact Iff.rfl

/-- Every index of the output array is in the block of the point that takes its row. -/
theorem cover (i : S200000x128.Idx) : ∃ t : Fin cfg4.N, (cfg4.win 2).flush t = true ∧ i ∈ ((cfg4.win 2).blk t).view.set := by
  have hi0 : (i 0).val < 200000 := (i 0).isLt
  have hi1 : (i 1).val < 128 := (i 1).isLt
  have hN : cfg4.N = 500 := N_4
  have hq : (i 0).val / 400 < cfg4.N := by rw [hN]; omega
  let t0 : Fin cfg4.N := ⟨(i 0).val / 400, hq⟩
  obtain ⟨e0, e1, e2, e3, e4, e5⟩ := idx_facts t0
  have e4' : win4_2.index t0 (0 : Fin 2) = (i 0).val / 400 := e4
  refine ⟨t0, flush4_2 t0, ?_⟩
  rw [mem_blk]
  intro a
  match a with
  | ⟨0, _⟩ => show win4_2.index t0 (0 : Fin 2) * 400 ≤ (i 0).val ∧ (i 0).val < win4_2.index t0 (0 : Fin 2) * 400 + 400; rw [e4']; omega
  | ⟨1, _⟩ => show win4_2.index t0 (1 : Fin 2) * 128 ≤ (i 1).val ∧ (i 1).val < win4_2.index t0 (1 : Fin 2) * 128 + 128; rw [e5]; omega

/-- After the last point the output array is the whole product of the two arrays as the region found them. -/
theorem final (c : Dev nD) : (dat4 V c).arrAt 2 cfg4.N = mm (lhs V c) (rhs V c) :=
  (dat4 V c).arrAt_eq_of_cover 2 (mm (lhs V c) (rhs V c)) (fun t _ => flushed_eq V c t) cover

end Cert.KernelIdeal.Reg4

end
-- ==== Proof.RegStep4.lean ====
/- Region 4 against the reference's contraction 4: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg4
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_4 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in4 (WK c) WR) :
    Inv_out4 (Pipeline.withArrays Cert.KernelIdeal.spec4 c (WK c) fun w => (Cert.KernelIdeal.Gen.dat4 (fun c b => WK c b) c).arrAt w Cert.KernelIdeal.cfg4.N)
      (StableHlo.after [Cert.ReferenceIdeal.Cut.rdot4 (F := Ideal)] WR) := by
  obtain ⟨h0, h1, h2, h3, h4, h5, h6, h7, h8, h9, h10, h11, h12, h13, h14, h15, h16, h17, h18, h19, h20, h21, h22, h23⟩ := h
  refine ⟨?_, ?_, ?_, ?_, ?_, ?_, ?_, ?_, ?_, ?_, ?_, ?_, ?_, ?_, ?_, ?_, ?_, ?_, ?_, ?_, ?_, ?_, ?_⟩
  · reg_keep Cert.ReferenceIdeal.Cut.rdot4 h0 -- main_arg7
  · reg_keep Cert.ReferenceIdeal.Cut.rdot4 h1 -- main_arg8
  · reg_keep Cert.ReferenceIdeal.Cut.rdot4 h2 -- main_arg9
  · reg_keep Cert.ReferenceIdeal.Cut.rdot4 h3 -- main_arg10
  · reg_keep Cert.ReferenceIdeal.Cut.rdot4 h4 -- main_arg11
  · reg_keep Cert.ReferenceIdeal.Cut.rdot4 h5 -- main_arg12
  · reg_keep Cert.ReferenceIdeal.Cut.rdot4 h6 -- main_arg13
  · reg_keep Cert.ReferenceIdeal.Cut.rdot4 h7 -- main_arg14
  · reg_keep Cert.ReferenceIdeal.Cut.rdot4 h8 -- main_arg15
  · reg_keep Cert.ReferenceIdeal.Cut.rdot4 h9 -- main_arg16
  · reg_keep Cert.ReferenceIdeal.Cut.rdot4 h10 -- main_arg17
  · reg_keep Cert.ReferenceIdeal.Cut.rdot4 h11 -- main_arg18
  · reg_keep Cert.ReferenceIdeal.Cut.rdot4 h12 -- main_arg19
  · reg_keep Cert.ReferenceIdeal.Cut.rdot4 h13 -- main_arg20
  · reg_keep Cert.ReferenceIdeal.Cut.rdot4 h14 -- main_arg22
  · reg_keep Cert.ReferenceIdeal.Cut.rdot4 h15 -- main_arg23
  · reg_keep Cert.ReferenceIdeal.Cut.rdot4 h16 -- main_arg24
  · reg_keep Cert.ReferenceIdeal.Cut.rdot4 h17 -- main_v1
  · reg_keep Cert.ReferenceIdeal.Cut.rdot4 h18 -- main_v3
  · reg_keep Cert.ReferenceIdeal.Cut.rdot4 h19 -- main_v8
  · reg_keep Cert.ReferenceIdeal.Cut.rdot4 h20 -- main_v13
  · reg_keep Cert.ReferenceIdeal.Cut.rdot4 h21 -- main_v36
  · reg_out Cert.KernelIdeal.spec4 Cert.KernelIdeal.Gen.launch4 Cert.KernelIdeal.Reg4.final Cert.ReferenceIdeal.Dots.dot_S200000x3_S3x128_S200000x128_1_0_0_1_n_n_eq Cert.ReferenceIdeal.Cut.rdot4 h22 h23 -- main_v39

end Cert.Sim

end
-- ==== Proof.Reg5.lean ====
/-
  Region 5 of the idealized kernel program: a [200000, 128] array times a [128, 128] array, the left operand's rows
  taken 400 at a time over a grid of 500 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The two operands as the region finds them. -/
abbrev lhs (c : Dev nD) : S200000x128.Idx → EReal := V c main_v46
abbrev rhs (c : Dev nD) : S128x128.Idx → EReal := V c main_v47

/-- Row `p` of the left operand's block at point `t` is row `400 t + p` of the array. -/
theorem lhs_block (c : Dev nD) (t : Fin cfg5.N) (p : Fin 400) (k : Fin 128) (r : Fin 200000) (hr : r.val = t.val * 400 + p.val) :
    (iblk5 V c 0 t : Vec Ideal S400x128 .f32) (ix2 p k) = lhs V c (ix2 r k) := by
  obtain ⟨e0, e1, e2, e3, e4, e5⟩ := idx_facts t
  unfold iblk5
  rw [View.read_apply]
  show V c main_v46 _ = V c main_v46 _
  congr 1
  funext a
  apply Fin.ext
  match a with
  | ⟨0, _⟩ => show win5_0.index t (0 : Fin 2) * 400 + 1 * p.val = r.val; omega
  | ⟨1, _⟩ => show win5_0.index t (1 : Fin 2) * 128 + 1 * k.val = k.val; omega

/-- The right operand's block at every point is the whole array. -/
theorem rhs_block (c : Dev nD) (t : Fin cfg5.N) (k : Fin 128) (j : Fin 128) :
    (iblk5 V c 1 t : Vec Ideal S128x128 .f32) (ix2 k j) = rhs V c (ix2 k j) := by
  obtain ⟨e0, e1, e2, e3, e4, e5⟩ := idx_facts t
  unfold iblk5
  rw [View.read_apply]
  show V c main_v47 _ = V c main_v47 _
  congr 1
  funext a
  apply Fin.ext
  match a with
  | ⟨0, _⟩ => show win5_1.index t (0 : Fin 2) * 128 + 1 * k.val = k.val; omega
  | ⟨1, _⟩ => show win5_1.index t (1 : Fin 2) * 128 + 1 * j.val = j.val; omega

set_option maxHeartbeats 4000000 in
/-- What point `t` writes back is block `t` of the whole product. -/
theorem flushed_eq (c : Dev nD) (t : Fin cfg5.N) :
    (dat5 V c).flushed 2 t = ((cfg5.win 2).blk t).view.read (Elt Ideal) (mm (lhs V c) (rhs V c)) := by
  show (cfg5.win 2).cut (grid5.coords t) ((dat5 V c).after 2 t) = _
  rw [after5_2]
  unfold out5_2
  rw [View.canon_unit_zero hz]
  simp only [View.ld_unit_zero (S := S400x128) hz, View.ld_unit_zero (S := S128x128) hz]
  obtain ⟨e0, e1, e2, e3, e4, e5⟩ := idx_facts t
  funext y
  rw [View.read_apply]
  unfold k5_pay1
  dsimp only
  simp only [shapeCast_self]
  have hy0 : (y 0).val < 400 := (y 0).isLt
  have ht : t.val < 500 := Nat.lt_of_lt_of_eq t.isLt N_5
  have hi0 : ((((cfg5.win 2).blk t).view.emb y) 0).val = win5_2.index t (0 : Fin 2) * 400 + 1 * (y 0).val := rfl
  have hi1 : ((((cfg5.win 2).blk t).view.emb y) 1).val = win5_2.index t (1 : Fin 2) * 128 + 1 * (y 1).val := rfl
  refine matmul_rows dot_S400x128_S128x128_S400x128_1_0_0_1_n_n rfl rfl (fun _ _ => rfl) (fun _ _ => rfl) (fun _ _ => rfl) (fun _ _ => rfl) none
    (lhs V c) (rhs V c) _ _ (((cfg5.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg5.win 2).blk t).view.emb y) 1).val; rw [hi1, e5]; omega

/-- An index of the output array is in point `t`'s block iff its row is one of the block's 400 rows. -/
theorem mem_blk (t : Fin cfg5.N) (i : S200000x128.Idx) :
    i ∈ ((cfg5.win 2).blk t).view.set ↔ ∀ a : Fin 2, win5_2.index t a * S400x128.size a ≤ (i a).val ∧ (i a).val < win5_2.index t a * S400x128.size a + S400x128.size a := by
  show i ∈ ((View.whole main_v48).slice (win5_2.rect t)).set ↔ _
  rw [View.set_slice_whole, Rect.mem_set_unit]
  exact Iff.rfl

/-- Every index of the output array is in the block of the point that takes its row. -/
theorem cover (i : S200000x128.Idx) : ∃ t : Fin cfg5.N, (cfg5.win 2).flush t = true ∧ i ∈ ((cfg5.win 2).blk t).view.set := by
  have hi0 : (i 0).val < 200000 := (i 0).isLt
  have hi1 : (i 1).val < 128 := (i 1).isLt
  have hN : cfg5.N = 500 := N_5
  have hq : (i 0).val / 400 < cfg5.N := by rw [hN]; omega
  let t0 : Fin cfg5.N := ⟨(i 0).val / 400, hq⟩
  obtain ⟨e0, e1, e2, e3, e4, e5⟩ := idx_facts t0
  have e4' : win5_2.index t0 (0 : Fin 2) = (i 0).val / 400 := e4
  refine ⟨t0, flush5_2 t0, ?_⟩
  rw [mem_blk]
  intro a
  match a with
  | ⟨0, _⟩ => show win5_2.index t0 (0 : Fin 2) * 400 ≤ (i 0).val ∧ (i 0).val < win5_2.index t0 (0 : Fin 2) * 400 + 400; rw [e4']; omega
  | ⟨1, _⟩ => show win5_2.index t0 (1 : Fin 2) * 128 ≤ (i 1).val ∧ (i 1).val < win5_2.index t0 (1 : Fin 2) * 128 + 128; rw [e5]; omega

/-- After the last point the output array is the whole product of the two arrays as the region found them. -/
theorem final (c : Dev nD) : (dat5 V c).arrAt 2 cfg5.N = mm (lhs V c) (rhs V c) :=
  (dat5 V c).arrAt_eq_of_cover 2 (mm (lhs V c) (rhs V c)) (fun t _ => flushed_eq V c t) cover

end Cert.KernelIdeal.Reg5

end
-- ==== Proof.RegStep5.lean ====
/- Region 5 against the reference's contraction 5: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg5
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_5 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in5 (WK c) WR) :
    Inv_out5 (Pipeline.withArrays Cert.KernelIdeal.spec5 c (WK c) fun w => (Cert.KernelIdeal.Gen.dat5 (fun c b => WK c b) c).arrAt w Cert.KernelIdeal.cfg5.N)
      (StableHlo.after [Cert.ReferenceIdeal.Cut.rdot5 (F := Ideal)] WR) := by
  obtain ⟨h0, h1, h2, h3, h4, h5, h6, h7, h8, h9, h10, h11, h12, h13, h14, h15, h16, h17, h18, h19, h20, h21⟩ := h
  refine ⟨?_, ?_, ?_, ?_, ?_, ?_, ?_, ?_, ?_, ?_, ?_, ?_, ?_, ?_, ?_, ?_, ?_, ?_, ?_, ?_, ?_⟩
  · reg_keep Cert.ReferenceIdeal.Cut.rdot5 h0 -- main_arg7
  · reg_keep Cert.ReferenceIdeal.Cut.rdot5 h1 -- main_arg8
  · reg_keep Cert.ReferenceIdeal.Cut.rdot5 h2 -- main_arg9
  · reg_keep Cert.ReferenceIdeal.Cut.rdot5 h3 -- main_arg10
  · reg_keep Cert.ReferenceIdeal.Cut.rdot5 h4 -- main_arg11
  · reg_keep Cert.ReferenceIdeal.Cut.rdot5 h5 -- main_arg12
  · reg_keep Cert.ReferenceIdeal.Cut.rdot5 h6 -- main_arg13
  · reg_keep Cert.ReferenceIdeal.Cut.rdot5 h7 -- main_arg14
  · reg_keep Cert.ReferenceIdeal.Cut.rdot5 h8 -- main_arg15
  · reg_keep Cert.ReferenceIdeal.Cut.rdot5 h9 -- main_arg16
  · reg_keep Cert.ReferenceIdeal.Cut.rdot5 h10 -- main_arg17
  · reg_keep Cert.ReferenceIdeal.Cut.rdot5 h11 -- main_arg18
  · reg_keep Cert.ReferenceIdeal.Cut.rdot5 h12 -- main_arg19
  · reg_keep Cert.ReferenceIdeal.Cut.rdot5 h13 -- main_arg20
  · reg_keep Cert.ReferenceIdeal.Cut.rdot5 h14 -- main_arg24
  · reg_keep Cert.ReferenceIdeal.Cut.rdot5 h15 -- main_v1
  · reg_keep Cert.ReferenceIdeal.Cut.rdot5 h16 -- main_v3
  · reg_keep Cert.ReferenceIdeal.Cut.rdot5 h17 -- main_v8
  · reg_keep Cert.ReferenceIdeal.Cut.rdot5 h18 -- main_v13
  · reg_keep Cert.ReferenceIdeal.Cut.rdot5 h19 -- main_v36
  · reg_out Cert.KernelIdeal.spec5 Cert.KernelIdeal.Gen.launch5 Cert.KernelIdeal.Reg5.final Cert.ReferenceIdeal.Dots.dot_S200000x128_S128x128_S200000x128_1_0_0_1_n_n_eq Cert.ReferenceIdeal.Cut.rdot5 h20 h21 -- main_v48

end Cert.Sim

end
-- ==== Proof.Reg6.lean ====
/-
  Region 6 of the idealized kernel program: a [20000, 1024] array times a [1024, 512] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg6

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The two operands as the region finds them. -/
abbrev lhs (c : Dev nD) : S20000x1024.Idx → EReal := V c main_v74
abbrev rhs (c : Dev nD) : S1024x512.Idx → EReal := V c main_v75

/-- Row `p` of the left operand's block at point `t` is row `400 t + p` of the array. -/
theorem lhs_block (c : Dev nD) (t : Fin cfg6.N) (p : Fin 400) (k : Fin 1024) (r : Fin 20000) (hr : r.val = t.val * 400 + p.val) :
    (iblk6 V c 0 t : Vec Ideal S400x1024 .f32) (ix2 p k) = lhs V c (ix2 r k) := by
  obtain ⟨e0, e1, e2, e3, e4, e5⟩ := idx_facts t
  unfold iblk6
  rw [View.read_apply]
  show V c main_v74 _ = V c main_v74 _
  congr 1
  funext a
  apply Fin.ext
  match a with
  | ⟨0, _⟩ => show win6_0.index t (0 : Fin 2) * 400 + 1 * p.val = r.val; omega
  | ⟨1, _⟩ => show win6_0.index t (1 : Fin 2) * 1024 + 1 * k.val = k.val; omega

/-- The right operand's block at every point is the whole array. -/
theorem rhs_block (c : Dev nD) (t : Fin cfg6.N) (k : Fin 1024) (j : Fin 512) :
    (iblk6 V c 1 t : Vec Ideal S1024x512 .f32) (ix2 k j) = rhs V c (ix2 k j) := by
  obtain ⟨e0, e1, e2, e3, e4, e5⟩ := idx_facts t
  unfold iblk6
  rw [View.read_apply]
  show V c main_v75 _ = V c main_v75 _
  congr 1
  funext a
  apply Fin.ext
  match a with
  | ⟨0, _⟩ => show win6_1.index t (0 : Fin 2) * 1024 + 1 * k.val = k.val; omega
  | ⟨1, _⟩ => show win6_1.index t (1 : Fin 2) * 512 + 1 * j.val = j.val; omega

set_option maxHeartbeats 4000000 in
/-- What point `t` writes back is block `t` of the whole product. -/
theorem flushed_eq (c : Dev nD) (t : Fin cfg6.N) :
    (dat6 V c).flushed 2 t = ((cfg6.win 2).blk t).view.read (Elt Ideal) (mm (lhs V c) (rhs V c)) := by
  show (cfg6.win 2).cut (grid6.coords t) ((dat6 V c).after 2 t) = _
  rw [after6_2]
  unfold out6_2
  rw [View.canon_unit_zero hz]
  simp only [View.ld_unit_zero (S := S400x1024) hz, View.ld_unit_zero (S := S1024x512) hz]
  obtain ⟨e0, e1, e2, e3, e4, e5⟩ := idx_facts t
  funext y
  rw [View.read_apply]
  unfold k6_pay1
  dsimp only
  simp only [shapeCast_self]
  have hy0 : (y 0).val < 400 := (y 0).isLt
  have ht : t.val < 50 := Nat.lt_of_lt_of_eq t.isLt N_6
  have hi0 : ((((cfg6.win 2).blk t).view.emb y) 0).val = win6_2.index t (0 : Fin 2) * 400 + 1 * (y 0).val := rfl
  have hi1 : ((((cfg6.win 2).blk t).view.emb y) 1).val = win6_2.index t (1 : Fin 2) * 512 + 1 * (y 1).val := rfl
  refine matmul_rows dot_S400x1024_S1024x512_S400x512_1_0_0_1_n_n rfl rfl (fun _ _ => rfl) (fun _ _ => rfl) (fun _ _ => rfl) (fun _ _ => rfl) none
    (lhs V c) (rhs V c) _ _ (((cfg6.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg6.win 2).blk t).view.emb y) 1).val; rw [hi1, e5]; omega

/-- An index of the output array is in point `t`'s block iff its row is one of the block's 400 rows. -/
theorem mem_blk (t : Fin cfg6.N) (i : S20000x512.Idx) :
    i ∈ ((cfg6.win 2).blk t).view.set ↔ ∀ a : Fin 2, win6_2.index t a * S400x512.size a ≤ (i a).val ∧ (i a).val < win6_2.index t a * S400x512.size a + S400x512.size a := by
  show i ∈ ((View.whole main_v76).slice (win6_2.rect t)).set ↔ _
  rw [View.set_slice_whole, Rect.mem_set_unit]
  exact Iff.rfl

/-- Every index of the output array is in the block of the point that takes its row. -/
theorem cover (i : S20000x512.Idx) : ∃ t : Fin cfg6.N, (cfg6.win 2).flush t = true ∧ i ∈ ((cfg6.win 2).blk t).view.set := by
  have hi0 : (i 0).val < 20000 := (i 0).isLt
  have hi1 : (i 1).val < 512 := (i 1).isLt
  have hN : cfg6.N = 50 := N_6
  have hq : (i 0).val / 400 < cfg6.N := by rw [hN]; omega
  let t0 : Fin cfg6.N := ⟨(i 0).val / 400, hq⟩
  obtain ⟨e0, e1, e2, e3, e4, e5⟩ := idx_facts t0
  have e4' : win6_2.index t0 (0 : Fin 2) = (i 0).val / 400 := e4
  refine ⟨t0, flush6_2 t0, ?_⟩
  rw [mem_blk]
  intro a
  match a with
  | ⟨0, _⟩ => show win6_2.index t0 (0 : Fin 2) * 400 ≤ (i 0).val ∧ (i 0).val < win6_2.index t0 (0 : Fin 2) * 400 + 400; rw [e4']; omega
  | ⟨1, _⟩ => show win6_2.index t0 (1 : Fin 2) * 512 ≤ (i 1).val ∧ (i 1).val < win6_2.index t0 (1 : Fin 2) * 512 + 512; rw [e5]; omega

/-- After the last point the output array is the whole product of the two arrays as the region found them. -/
theorem final (c : Dev nD) : (dat6 V c).arrAt 2 cfg6.N = mm (lhs V c) (rhs V c) :=
  (dat6 V c).arrAt_eq_of_cover 2 (mm (lhs V c) (rhs V c)) (fun t _ => flushed_eq V c t) cover

end Cert.KernelIdeal.Reg6

end
-- ==== Proof.RegStep6.lean ====
/- Region 6 against the reference's contraction 6: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg6
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_6 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in6 (WK c) WR) :
    Inv_out6 (Pipeline.withArrays Cert.KernelIdeal.spec6 c (WK c) fun w => (Cert.KernelIdeal.Gen.dat6 (fun c b => WK c b) c).arrAt w Cert.KernelIdeal.cfg6.N)
      (StableHlo.after [Cert.ReferenceIdeal.Cut.rdot6 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_⟩
  · reg_keep Cert.ReferenceIdeal.Cut.rdot6 h0 -- main_arg8
  · reg_keep Cert.ReferenceIdeal.Cut.rdot6 h1 -- main_arg9
  · reg_keep Cert.ReferenceIdeal.Cut.rdot6 h2 -- main_arg10
  · reg_keep Cert.ReferenceIdeal.Cut.rdot6 h3 -- main_arg11
  · reg_keep Cert.ReferenceIdeal.Cut.rdot6 h4 -- main_arg12
  · reg_keep Cert.ReferenceIdeal.Cut.rdot6 h5 -- main_arg13
  · reg_keep Cert.ReferenceIdeal.Cut.rdot6 h6 -- main_arg14
  · reg_keep Cert.ReferenceIdeal.Cut.rdot6 h7 -- main_arg15
  · reg_keep Cert.ReferenceIdeal.Cut.rdot6 h8 -- main_arg16
  · reg_keep Cert.ReferenceIdeal.Cut.rdot6 h9 -- main_arg17
  · reg_keep Cert.ReferenceIdeal.Cut.rdot6 h10 -- main_arg18
  · reg_keep Cert.ReferenceIdeal.Cut.rdot6 h11 -- main_arg19
  · reg_keep Cert.ReferenceIdeal.Cut.rdot6 h12 -- main_arg20
  · reg_keep Cert.ReferenceIdeal.Cut.rdot6 h13 -- main_v1
  · reg_keep Cert.ReferenceIdeal.Cut.rdot6 h14 -- main_v3
  · reg_keep Cert.ReferenceIdeal.Cut.rdot6 h15 -- main_v8
  · reg_keep Cert.ReferenceIdeal.Cut.rdot6 h16 -- main_v13
  · reg_keep Cert.ReferenceIdeal.Cut.rdot6 h17 -- main_v73
  · reg_out Cert.KernelIdeal.spec6 Cert.KernelIdeal.Gen.launch6 Cert.KernelIdeal.Reg6.final Cert.ReferenceIdeal.Dots.dot_S20000x1024_S1024x512_S20000x512_1_0_0_1_n_n_eq Cert.ReferenceIdeal.Cut.rdot6 h18 h19 -- main_v76

end Cert.Sim

end
-- ==== Proof.Reg7.lean ====
/-
  Region 7 of the idealized kernel program: a [20000, 512] array times a [512, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg7

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The two operands as the region finds them. -/
abbrev lhs (c : Dev nD) : S20000x512.Idx → EReal := V c main_v8
abbrev rhs (c : Dev nD) : S512x16.Idx → EReal := V c main_v118

/-- Row `p` of the left operand's block at point `t` is row `400 t + p` of the array. -/
theorem lhs_block (c : Dev nD) (t : Fin cfg7.N) (p : Fin 400) (k : Fin 512) (r : Fin 20000) (hr : r.val = t.val * 400 + p.val) :
    (iblk7 V c 0 t : Vec Ideal S400x512 .f32) (ix2 p k) = lhs V c (ix2 r k) := by
  obtain ⟨e0, e1, e2, e3, e4, e5⟩ := idx_facts t
  unfold iblk7
  rw [View.read_apply]
  show V c main_v8 _ = V c main_v8 _
  congr 1
  funext a
  apply Fin.ext
  match a with
  | ⟨0, _⟩ => show win7_0.index t (0 : Fin 2) * 400 + 1 * p.val = r.val; omega
  | ⟨1, _⟩ => show win7_0.index t (1 : Fin 2) * 512 + 1 * k.val = k.val; omega

/-- The right operand's block at every point is the whole array. -/
theorem rhs_block (c : Dev nD) (t : Fin cfg7.N) (k : Fin 512) (j : Fin 16) :
    (iblk7 V c 1 t : Vec Ideal S512x16 .f32) (ix2 k j) = rhs V c (ix2 k j) := by
  obtain ⟨e0, e1, e2, e3, e4, e5⟩ := idx_facts t
  unfold iblk7
  rw [View.read_apply]
  show V c main_v118 _ = V c main_v118 _
  congr 1
  funext a
  apply Fin.ext
  match a with
  | ⟨0, _⟩ => show win7_1.index t (0 : Fin 2) * 512 + 1 * k.val = k.val; omega
  | ⟨1, _⟩ => show win7_1.index t (1 : Fin 2) * 16 + 1 * j.val = j.val; omega

set_option maxHeartbeats 4000000 in
/-- What point `t` writes back is block `t` of the whole product. -/
theorem flushed_eq (c : Dev nD) (t : Fin cfg7.N) :
    (dat7 V c).flushed 2 t = ((cfg7.win 2).blk t).view.read (Elt Ideal) (mm (lhs V c) (rhs V c)) := by
  show (cfg7.win 2).cut (grid7.coords t) ((dat7 V c).after 2 t) = _
  rw [after7_2]
  unfold out7_2
  rw [View.canon_unit_zero hz]
  simp only [View.ld_unit_zero (S := S400x512) hz, View.ld_unit_zero (S := S512x16) hz]
  obtain ⟨e0, e1, e2, e3, e4, e5⟩ := idx_facts t
  funext y
  rw [View.read_apply]
  unfold k7_pay1
  dsimp only
  simp only [shapeCast_self]
  have hy0 : (y 0).val < 400 := (y 0).isLt
  have ht : t.val < 50 := Nat.lt_of_lt_of_eq t.isLt N_7
  have hi0 : ((((cfg7.win 2).blk t).view.emb y) 0).val = win7_2.index t (0 : Fin 2) * 400 + 1 * (y 0).val := rfl
  have hi1 : ((((cfg7.win 2).blk t).view.emb y) 1).val = win7_2.index t (1 : Fin 2) * 16 + 1 * (y 1).val := rfl
  refine matmul_rows dot_S400x512_S512x16_S400x16_1_0_0_1_n_n rfl rfl (fun _ _ => rfl) (fun _ _ => rfl) (fun _ _ => rfl) (fun _ _ => rfl) none
    (lhs V c) (rhs V c) _ _ (((cfg7.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg7.win 2).blk t).view.emb y) 1).val; rw [hi1, e5]; omega

/-- An index of the output array is in point `t`'s block iff its row is one of the block's 400 rows. -/
theorem mem_blk (t : Fin cfg7.N) (i : S20000x16.Idx) :
    i ∈ ((cfg7.win 2).blk t).view.set ↔ ∀ a : Fin 2, win7_2.index t a * S400x16.size a ≤ (i a).val ∧ (i a).val < win7_2.index t a * S400x16.size a + S400x16.size a := by
  show i ∈ ((View.whole main_v119).slice (win7_2.rect t)).set ↔ _
  rw [View.set_slice_whole, Rect.mem_set_unit]
  exact Iff.rfl

/-- Every index of the output array is in the block of the point that takes its row. -/
theorem cover (i : S20000x16.Idx) : ∃ t : Fin cfg7.N, (cfg7.win 2).flush t = true ∧ i ∈ ((cfg7.win 2).blk t).view.set := by
  have hi0 : (i 0).val < 20000 := (i 0).isLt
  have hi1 : (i 1).val < 16 := (i 1).isLt
  have hN : cfg7.N = 50 := N_7
  have hq : (i 0).val / 400 < cfg7.N := by rw [hN]; omega
  let t0 : Fin cfg7.N := ⟨(i 0).val / 400, hq⟩
  obtain ⟨e0, e1, e2, e3, e4, e5⟩ := idx_facts t0
  have e4' : win7_2.index t0 (0 : Fin 2) = (i 0).val / 400 := e4
  refine ⟨t0, flush7_2 t0, ?_⟩
  rw [mem_blk]
  intro a
  match a with
  | ⟨0, _⟩ => show win7_2.index t0 (0 : Fin 2) * 400 ≤ (i 0).val ∧ (i 0).val < win7_2.index t0 (0 : Fin 2) * 400 + 400; rw [e4']; omega
  | ⟨1, _⟩ => show win7_2.index t0 (1 : Fin 2) * 16 ≤ (i 1).val ∧ (i 1).val < win7_2.index t0 (1 : Fin 2) * 16 + 16; rw [e5]; omega

/-- After the last point the output array is the whole product of the two arrays as the region found them. -/
theorem final (c : Dev nD) : (dat7 V c).arrAt 2 cfg7.N = mm (lhs V c) (rhs V c) :=
  (dat7 V c).arrAt_eq_of_cover 2 (mm (lhs V c) (rhs V c)) (fun t _ => flushed_eq V c t) cover

end Cert.KernelIdeal.Reg7

end
-- ==== Proof.RegStep7.lean ====
/- Region 7 against the reference's contraction 7: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg7
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_7 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in7 (WK c) WR) :
    Inv_out7 (Pipeline.withArrays Cert.KernelIdeal.spec7 c (WK c) fun w => (Cert.KernelIdeal.Gen.dat7 (fun c b => WK c b) c).arrAt w Cert.KernelIdeal.cfg7.N)
      (StableHlo.after [Cert.ReferenceIdeal.Cut.rdot7 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_⟩
  · reg_keep Cert.ReferenceIdeal.Cut.rdot7 h0 -- main_arg9
  · reg_keep Cert.ReferenceIdeal.Cut.rdot7 h1 -- main_arg10
  · reg_keep Cert.ReferenceIdeal.Cut.rdot7 h2 -- main_arg11
  · reg_keep Cert.ReferenceIdeal.Cut.rdot7 h3 -- main_arg12
  · reg_keep Cert.ReferenceIdeal.Cut.rdot7 h4 -- main_arg13
  · reg_keep Cert.ReferenceIdeal.Cut.rdot7 h5 -- main_arg14
  · reg_keep Cert.ReferenceIdeal.Cut.rdot7 h6 -- main_arg15
  · reg_keep Cert.ReferenceIdeal.Cut.rdot7 h7 -- main_arg16
  · reg_keep Cert.ReferenceIdeal.Cut.rdot7 h8 -- main_arg17
  · reg_keep Cert.ReferenceIdeal.Cut.rdot7 h9 -- main_arg18
  · reg_keep Cert.ReferenceIdeal.Cut.rdot7 h10 -- main_arg19
  · reg_keep Cert.ReferenceIdeal.Cut.rdot7 h11 -- main_arg20
  · reg_keep Cert.ReferenceIdeal.Cut.rdot7 h12 -- main_v1
  · reg_keep Cert.ReferenceIdeal.Cut.rdot7 h13 -- main_v3
  · reg_in Cert.KernelIdeal.spec7 Cert.KernelIdeal.Gen.launch7 Cert.KernelIdeal.Gen.dat7 Cert.KernelIdeal.Gen.A_eq7 0 Cert.ReferenceIdeal.Cut.rdot7 h14 -- main_v8
  · reg_keep Cert.ReferenceIdeal.Cut.rdot7 h15 -- main_v13
  · reg_keep Cert.ReferenceIdeal.Cut.rdot7 h16 -- main_v79
  · reg_keep Cert.ReferenceIdeal.Cut.rdot7 h17 -- main_v102
  · reg_keep Cert.ReferenceIdeal.Cut.rdot7 h18 -- main_v116
  · reg_out Cert.KernelIdeal.spec7 Cert.KernelIdeal.Gen.launch7 Cert.KernelIdeal.Reg7.final Cert.ReferenceIdeal.Dots.dot_S20000x512_S512x16_S20000x16_1_0_0_1_n_n_eq Cert.ReferenceIdeal.Cut.rdot7 h14 h19 -- main_v119

end Cert.Sim

end
-- ==== Proof.Reg8.lean ====
/-
  Region 8 of the idealized kernel program: a [20000, 512] array times a [512, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg8

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The two operands as the region finds them. -/
abbrev lhs (c : Dev nD) : S20000x512.Idx → EReal := V c main_v116
abbrev rhs (c : Dev nD) : S512x16.Idx → EReal := V c main_v121

/-- Row `p` of the left operand's block at point `t` is row `400 t + p` of the array. -/
theorem lhs_block (c : Dev nD) (t : Fin cfg8.N) (p : Fin 400) (k : Fin 512) (r : Fin 20000) (hr : r.val = t.val * 400 + p.val) :
    (iblk8 V c 0 t : Vec Ideal S400x512 .f32) (ix2 p k) = lhs V c (ix2 r k) := by
  obtain ⟨e0, e1, e2, e3, e4, e5⟩ := idx_facts t
  unfold iblk8
  rw [View.read_apply]
  show V c main_v116 _ = V c main_v116 _
  congr 1
  funext a
  apply Fin.ext
  match a with
  | ⟨0, _⟩ => show win8_0.index t (0 : Fin 2) * 400 + 1 * p.val = r.val; omega
  | ⟨1, _⟩ => show win8_0.index t (1 : Fin 2) * 512 + 1 * k.val = k.val; omega

/-- The right operand's block at every point is the whole array. -/
theorem rhs_block (c : Dev nD) (t : Fin cfg8.N) (k : Fin 512) (j : Fin 16) :
    (iblk8 V c 1 t : Vec Ideal S512x16 .f32) (ix2 k j) = rhs V c (ix2 k j) := by
  obtain ⟨e0, e1, e2, e3, e4, e5⟩ := idx_facts t
  unfold iblk8
  rw [View.read_apply]
  show V c main_v121 _ = V c main_v121 _
  congr 1
  funext a
  apply Fin.ext
  match a with
  | ⟨0, _⟩ => show win8_1.index t (0 : Fin 2) * 512 + 1 * k.val = k.val; omega
  | ⟨1, _⟩ => show win8_1.index t (1 : Fin 2) * 16 + 1 * j.val = j.val; omega

set_option maxHeartbeats 4000000 in
/-- What point `t` writes back is block `t` of the whole product. -/
theorem flushed_eq (c : Dev nD) (t : Fin cfg8.N) :
    (dat8 V c).flushed 2 t = ((cfg8.win 2).blk t).view.read (Elt Ideal) (mm (lhs V c) (rhs V c)) := by
  show (cfg8.win 2).cut (grid8.coords t) ((dat8 V c).after 2 t) = _
  rw [after8_2]
  unfold out8_2
  rw [View.canon_unit_zero hz]
  simp only [View.ld_unit_zero (S := S400x512) hz, View.ld_unit_zero (S := S512x16) hz]
  obtain ⟨e0, e1, e2, e3, e4, e5⟩ := idx_facts t
  funext y
  rw [View.read_apply]
  unfold k8_pay1
  dsimp only
  simp only [shapeCast_self]
  have hy0 : (y 0).val < 400 := (y 0).isLt
  have ht : t.val < 50 := Nat.lt_of_lt_of_eq t.isLt N_8
  have hi0 : ((((cfg8.win 2).blk t).view.emb y) 0).val = win8_2.index t (0 : Fin 2) * 400 + 1 * (y 0).val := rfl
  have hi1 : ((((cfg8.win 2).blk t).view.emb y) 1).val = win8_2.index t (1 : Fin 2) * 16 + 1 * (y 1).val := rfl
  refine matmul_rows dot_S400x512_S512x16_S400x16_1_0_0_1_n_n rfl rfl (fun _ _ => rfl) (fun _ _ => rfl) (fun _ _ => rfl) (fun _ _ => rfl) none
    (lhs V c) (rhs V c) _ _ (((cfg8.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg8.win 2).blk t).view.emb y) 1).val; rw [hi1, e5]; omega

/-- An index of the output array is in point `t`'s block iff its row is one of the block's 400 rows. -/
theorem mem_blk (t : Fin cfg8.N) (i : S20000x16.Idx) :
    i ∈ ((cfg8.win 2).blk t).view.set ↔ ∀ a : Fin 2, win8_2.index t a * S400x16.size a ≤ (i a).val ∧ (i a).val < win8_2.index t a * S400x16.size a + S400x16.size a := by
  show i ∈ ((View.whole main_v122).slice (win8_2.rect t)).set ↔ _
  rw [View.set_slice_whole, Rect.mem_set_unit]
  exact Iff.rfl

/-- Every index of the output array is in the block of the point that takes its row. -/
theorem cover (i : S20000x16.Idx) : ∃ t : Fin cfg8.N, (cfg8.win 2).flush t = true ∧ i ∈ ((cfg8.win 2).blk t).view.set := by
  have hi0 : (i 0).val < 20000 := (i 0).isLt
  have hi1 : (i 1).val < 16 := (i 1).isLt
  have hN : cfg8.N = 50 := N_8
  have hq : (i 0).val / 400 < cfg8.N := by rw [hN]; omega
  let t0 : Fin cfg8.N := ⟨(i 0).val / 400, hq⟩
  obtain ⟨e0, e1, e2, e3, e4, e5⟩ := idx_facts t0
  have e4' : win8_2.index t0 (0 : Fin 2) = (i 0).val / 400 := e4
  refine ⟨t0, flush8_2 t0, ?_⟩
  rw [mem_blk]
  intro a
  match a with
  | ⟨0, _⟩ => show win8_2.index t0 (0 : Fin 2) * 400 ≤ (i 0).val ∧ (i 0).val < win8_2.index t0 (0 : Fin 2) * 400 + 400; rw [e4']; omega
  | ⟨1, _⟩ => show win8_2.index t0 (1 : Fin 2) * 16 ≤ (i 1).val ∧ (i 1).val < win8_2.index t0 (1 : Fin 2) * 16 + 16; rw [e5]; omega

/-- After the last point the output array is the whole product of the two arrays as the region found them. -/
theorem final (c : Dev nD) : (dat8 V c).arrAt 2 cfg8.N = mm (lhs V c) (rhs V c) :=
  (dat8 V c).arrAt_eq_of_cover 2 (mm (lhs V c) (rhs V c)) (fun t _ => flushed_eq V c t) cover

end Cert.KernelIdeal.Reg8

end
-- ==== Proof.RegStep8.lean ====
/- Region 8 against the reference's contraction 8: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg8
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_8 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in8 (WK c) WR) :
    Inv_out8 (Pipeline.withArrays Cert.KernelIdeal.spec8 c (WK c) fun w => (Cert.KernelIdeal.Gen.dat8 (fun c b => WK c b) c).arrAt w Cert.KernelIdeal.cfg8.N)
      (StableHlo.after [Cert.ReferenceIdeal.Cut.rdot8 (F := Ideal)] WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_⟩
  · reg_keep Cert.ReferenceIdeal.Cut.rdot8 h0 -- main_arg9
  · reg_keep Cert.ReferenceIdeal.Cut.rdot8 h1 -- main_arg10
  · reg_keep Cert.ReferenceIdeal.Cut.rdot8 h2 -- main_arg11
  · reg_keep Cert.ReferenceIdeal.Cut.rdot8 h3 -- main_arg12
  · reg_keep Cert.ReferenceIdeal.Cut.rdot8 h4 -- main_arg13
  · reg_keep Cert.ReferenceIdeal.Cut.rdot8 h5 -- main_arg14
  · reg_keep Cert.ReferenceIdeal.Cut.rdot8 h6 -- main_arg15
  · reg_keep Cert.ReferenceIdeal.Cut.rdot8 h7 -- main_arg16
  · reg_keep Cert.ReferenceIdeal.Cut.rdot8 h8 -- main_arg17
  · reg_keep Cert.ReferenceIdeal.Cut.rdot8 h9 -- main_arg18
  · reg_keep Cert.ReferenceIdeal.Cut.rdot8 h10 -- main_arg19
  · reg_keep Cert.ReferenceIdeal.Cut.rdot8 h11 -- main_arg20
  · reg_keep Cert.ReferenceIdeal.Cut.rdot8 h12 -- main_v1
  · reg_keep Cert.ReferenceIdeal.Cut.rdot8 h13 -- main_v3
  · reg_keep Cert.ReferenceIdeal.Cut.rdot8 h14 -- main_v8
  · reg_keep Cert.ReferenceIdeal.Cut.rdot8 h15 -- main_v13
  · reg_keep Cert.ReferenceIdeal.Cut.rdot8 h16 -- main_v79
  · reg_keep Cert.ReferenceIdeal.Cut.rdot8 h17 -- main_v102
  · reg_in Cert.KernelIdeal.spec8 Cert.KernelIdeal.Gen.launch8 Cert.KernelIdeal.Gen.dat8 Cert.KernelIdeal.Gen.A_eq8 0 Cert.ReferenceIdeal.Cut.rdot8 h18 -- main_v116
  · reg_keep Cert.ReferenceIdeal.Cut.rdot8 h19 -- main_v119
  · reg_out Cert.KernelIdeal.spec8 Cert.KernelIdeal.Gen.launch8 Cert.KernelIdeal.Reg8.final Cert.ReferenceIdeal.Dots.dot_S20000x512_S512x16_S20000x16_1_0_0_1_n_n_eq Cert.ReferenceIdeal.Cut.rdot8 h18 h20 -- main_v122

end Cert.Sim

end
-- ==== Proof.Reg9.lean ====
/-
  Region 9 of the idealized kernel program: a [20000, 512] array times a [512, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg9

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The two operands as the region finds them. -/
abbrev lhs (c : Dev nD) : S20000x512.Idx → EReal := V c main_v140
abbrev rhs (c : Dev nD) : S512x16.Idx → EReal := V c main_v142

/-- Row `p` of the left operand's block at point `t` is row `400 t + p` of the array. -/
theorem lhs_block (c : Dev nD) (t : Fin cfg9.N) (p : Fin 400) (k : Fin 512) (r : Fin 20000) (hr : r.val = t.val * 400 + p.val) :
    (iblk9 V c 0 t : Vec Ideal S400x512 .f32) (ix2 p k) = lhs V c (ix2 r k) := by
  obtain ⟨e0, e1, e2, e3, e4, e5⟩ := idx_facts t
  unfold iblk9
  rw [View.read_apply]
  show V c main_v140 _ = V c main_v140 _
  congr 1
  funext a
  apply Fin.ext
  match a with
  | ⟨0, _⟩ => show win9_0.index t (0 : Fin 2) * 400 + 1 * p.val = r.val; omega
  | ⟨1, _⟩ => show win9_0.index t (1 : Fin 2) * 512 + 1 * k.val = k.val; omega

/-- The right operand's block at every point is the whole array. -/
theorem rhs_block (c : Dev nD) (t : Fin cfg9.N) (k : Fin 512) (j : Fin 16) :
    (iblk9 V c 1 t : Vec Ideal S512x16 .f32) (ix2 k j) = rhs V c (ix2 k j) := by
  obtain ⟨e0, e1, e2, e3, e4, e5⟩ := idx_facts t
  unfold iblk9
  rw [View.read_apply]
  show V c main_v142 _ = V c main_v142 _
  congr 1
  funext a
  apply Fin.ext
  match a with
  | ⟨0, _⟩ => show win9_1.index t (0 : Fin 2) * 512 + 1 * k.val = k.val; omega
  | ⟨1, _⟩ => show win9_1.index t (1 : Fin 2) * 16 + 1 * j.val = j.val; omega

set_option maxHeartbeats 4000000 in
/-- What point `t` writes back is block `t` of the whole product. -/
theorem flushed_eq (c : Dev nD) (t : Fin cfg9.N) :
    (dat9 V c).flushed 2 t = ((cfg9.win 2).blk t).view.read (Elt Ideal) (mm (lhs V c) (rhs V c)) := by
  show (cfg9.win 2).cut (grid9.coords t) ((dat9 V c).after 2 t) = _
  rw [after9_2]
  unfold out9_2
  rw [View.canon_unit_zero hz]
  simp only [View.ld_unit_zero (S := S400x512) hz, View.ld_unit_zero (S := S512x16) hz]
  obtain ⟨e0, e1, e2, e3, e4, e5⟩ := idx_facts t
  funext y
  rw [View.read_apply]
  unfold k9_pay1
  dsimp only
  simp only [shapeCast_self]
  have hy0 : (y 0).val < 400 := (y 0).isLt
  have ht : t.val < 50 := Nat.lt_of_lt_of_eq t.isLt N_9
  have hi0 : ((((cfg9.win 2).blk t).view.emb y) 0).val = win9_2.index t (0 : Fin 2) * 400 + 1 * (y 0).val := rfl
  have hi1 : ((((cfg9.win 2).blk t).view.emb y) 1).val = win9_2.index t (1 : Fin 2) * 16 + 1 * (y 1).val := rfl
  refine matmul_rows dot_S400x512_S512x16_S400x16_1_0_0_1_n_n rfl rfl (fun _ _ => rfl) (fun _ _ => rfl) (fun _ _ => rfl) (fun _ _ => rfl) none
    (lhs V c) (rhs V c) _ _ (((cfg9.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg9.win 2).blk t).view.emb y) 1).val; rw [hi1, e5]; omega

/-- An index of the output array is in point `t`'s block iff its row is one of the block's 400 rows. -/
theorem mem_blk (t : Fin cfg9.N) (i : S20000x16.Idx) :
    i ∈ ((cfg9.win 2).blk t).view.set ↔ ∀ a : Fin 2, win9_2.index t a * S400x16.size a ≤ (i a).val ∧ (i a).val < win9_2.index t a * S400x16.size a + S400x16.size a := by
  show i ∈ ((View.whole main_v143).slice (win9_2.rect t)).set ↔ _
  rw [View.set_slice_whole, Rect.mem_set_unit]
  exact Iff.rfl

/-- Every index of the output array is in the block of the point that takes its row. -/
theorem cover (i : S20000x16.Idx) : ∃ t : Fin cfg9.N, (cfg9.win 2).flush t = true ∧ i ∈ ((cfg9.win 2).blk t).view.set := by
  have hi0 : (i 0).val < 20000 := (i 0).isLt
  have hi1 : (i 1).val < 16 := (i 1).isLt
  have hN : cfg9.N = 50 := N_9
  have hq : (i 0).val / 400 < cfg9.N := by rw [hN]; omega
  let t0 : Fin cfg9.N := ⟨(i 0).val / 400, hq⟩
  obtain ⟨e0, e1, e2, e3, e4, e5⟩ := idx_facts t0
  have e4' : win9_2.index t0 (0 : Fin 2) = (i 0).val / 400 := e4
  refine ⟨t0, flush9_2 t0, ?_⟩
  rw [mem_blk]
  intro a
  match a with
  | ⟨0, _⟩ => show win9_2.index t0 (0 : Fin 2) * 400 ≤ (i 0).val ∧ (i 0).val < win9_2.index t0 (0 : Fin 2) * 400 + 400; rw [e4']; omega
  | ⟨1, _⟩ => show win9_2.index t0 (1 : Fin 2) * 16 ≤ (i 1).val ∧ (i 1).val < win9_2.index t0 (1 : Fin 2) * 16 + 16; rw [e5]; omega

/-- After the last point the output array is the whole product of the two arrays as the region found them. -/
theorem final (c : Dev nD) : (dat9 V c).arrAt 2 cfg9.N = mm (lhs V c) (rhs V c) :=
  (dat9 V c).arrAt_eq_of_cover 2 (mm (lhs V c) (rhs V c)) (fun t _ => flushed_eq V c t) cover

end Cert.KernelIdeal.Reg9

end
-- ==== Proof.RegStep9.lean ====
/- Region 9 against the reference's contraction 9: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg9
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_9 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in9 (WK c) WR) :
    Inv_out9 (Pipeline.withArrays Cert.KernelIdeal.spec9 c (WK c) fun w => (Cert.KernelIdeal.Gen.dat9 (fun c b => WK c b) c).arrAt w Cert.KernelIdeal.cfg9.N)
      (StableHlo.after [Cert.ReferenceIdeal.Cut.rdot9 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_⟩
  · reg_keep Cert.ReferenceIdeal.Cut.rdot9 h0 -- main_arg10
  · reg_keep Cert.ReferenceIdeal.Cut.rdot9 h1 -- main_arg11
  · reg_keep Cert.ReferenceIdeal.Cut.rdot9 h2 -- main_arg12
  · reg_keep Cert.ReferenceIdeal.Cut.rdot9 h3 -- main_arg13
  · reg_keep Cert.ReferenceIdeal.Cut.rdot9 h4 -- main_arg14
  · reg_keep Cert.ReferenceIdeal.Cut.rdot9 h5 -- main_arg15
  · reg_keep Cert.ReferenceIdeal.Cut.rdot9 h6 -- main_arg16
  · reg_keep Cert.ReferenceIdeal.Cut.rdot9 h7 -- main_arg17
  · reg_keep Cert.ReferenceIdeal.Cut.rdot9 h8 -- main_arg18
  · reg_keep Cert.ReferenceIdeal.Cut.rdot9 h9 -- main_arg19
  · reg_keep Cert.ReferenceIdeal.Cut.rdot9 h10 -- main_arg20
  · reg_keep Cert.ReferenceIdeal.Cut.rdot9 h11 -- main_v1
  · reg_keep Cert.ReferenceIdeal.Cut.rdot9 h12 -- main_v3
  · reg_keep Cert.ReferenceIdeal.Cut.rdot9 h13 -- main_v8
  · reg_keep Cert.ReferenceIdeal.Cut.rdot9 h14 -- main_v13
  · reg_keep Cert.ReferenceIdeal.Cut.rdot9 h15 -- main_v79
  · reg_keep Cert.ReferenceIdeal.Cut.rdot9 h16 -- main_v102
  · reg_keep Cert.ReferenceIdeal.Cut.rdot9 h17 -- main_v123
  · reg_out Cert.KernelIdeal.spec9 Cert.KernelIdeal.Gen.launch9 Cert.KernelIdeal.Reg9.final Cert.ReferenceIdeal.Dots.dot_S20000x512_S512x16_S20000x16_1_0_0_1_n_n_eq Cert.ReferenceIdeal.Cut.rdot9 h18 h19 -- main_v143

end Cert.Sim

end
-- ==== Proof.Reg10.lean ====
/-
  Region 10 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg10

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- The two operands as the region finds them. -/
abbrev lhs (c : Dev nD) : S20000x16.Idx → EReal := V c main_v146
abbrev rhs (c : Dev nD) : S16x16.Idx → EReal := V c main_v162

/-- Row `p` of the left operand's block at point `t` is row `400 t + p` of the array. -/
theorem lhs_block (c : Dev nD) (t : Fin cfg10.N) (p : Fin 400) (k : Fin 16) (r : Fin 20000) (hr : r.val = t.val * 400 + p.val) :
    (iblk10 V c 0 t : Vec Ideal S400x16 .f32) (ix2 p k) = lhs V c (ix2 r k) := by
  obtain ⟨e0, e1, e2, e3, e4, e5⟩ := idx_facts t
  unfold iblk10
  rw [View.read_apply]
  show V c main_v146 _ = V c main_v146 _
  congr 1
  funext a
  apply Fin.ext
  match a with
  | ⟨0, _⟩ => show win10_0.index t (0 : Fin 2) * 400 + 1 * p.val = r.val; omega
  | ⟨1, _⟩ => show win10_0.index t (1 : Fin 2) * 16 + 1 * k.val = k.val; omega

/-- The right operand's block at every point is the whole array. -/
theorem rhs_block (c : Dev nD) (t : Fin cfg10.N) (k : Fin 16) (j : Fin 16) :
    (iblk10 V c 1 t : Vec Ideal S16x16 .f32) (ix2 k j) = rhs V c (ix2 k j) := by
  obtain ⟨e0, e1, e2, e3, e4, e5⟩ := idx_facts t
  unfold iblk10
  rw [View.read_apply]
  show V c main_v162 _ = V c main_v162 _
  congr 1
  funext a
  apply Fin.ext
  match a with
  | ⟨0, _⟩ => show win10_1.index t (0 : Fin 2) * 16 + 1 * k.val = k.val; omega
  | ⟨1, _⟩ => show win10_1.index t (1 : Fin 2) * 16 + 1 * j.val = j.val; omega

set_option maxHeartbeats 4000000 in
/-- What point `t` writes back is block `t` of the whole product. -/
theorem flushed_eq (c : Dev nD) (t : Fin cfg10.N) :
    (dat10 V c).flushed 2 t = ((cfg10.win 2).blk t).view.read (Elt Ideal) (mm (lhs V c) (rhs V c)) := by
  show (cfg10.win 2).cut (grid10.coords t) ((dat10 V c).after 2 t) = _
  rw [after10_2]
  unfold out10_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k10_pay1
  dsimp only
  simp only [shapeCast_self]
  have hy0 : (y 0).val < 400 := (y 0).isLt
  have ht : t.val < 50 := Nat.lt_of_lt_of_eq t.isLt N_10
  have hi0 : ((((cfg10.win 2).blk t).view.emb y) 0).val = win10_2.index t (0 : Fin 2) * 400 + 1 * (y 0).val := rfl
  have hi1 : ((((cfg10.win 2).blk t).view.emb y) 1).val = win10_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg10.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg10.win 2).blk t).view.emb y) 1).val; rw [hi1, e5]; omega

/-- An index of the output array is in point `t`'s block iff its row is one of the block's 400 rows. -/
theorem mem_blk (t : Fin cfg10.N) (i : S20000x16.Idx) :
    i ∈ ((cfg10.win 2).blk t).view.set ↔ ∀ a : Fin 2, win10_2.index t a * S400x16.size a ≤ (i a).val ∧ (i a).val < win10_2.index t a * S400x16.size a + S400x16.size a := by
  show i ∈ ((View.whole main_v163).slice (win10_2.rect t)).set ↔ _
  rw [View.set_slice_whole, Rect.mem_set_unit]
  exact Iff.rfl

/-- Every index of the output array is in the block of the point that takes its row. -/
theorem cover (i : S20000x16.Idx) : ∃ t : Fin cfg10.N, (cfg10.win 2).flush t = true ∧ i ∈ ((cfg10.win 2).blk t).view.set := by
  have hi0 : (i 0).val < 20000 := (i 0).isLt
  have hi1 : (i 1).val < 16 := (i 1).isLt
  have hN : cfg10.N = 50 := N_10
  have hq : (i 0).val / 400 < cfg10.N := by rw [hN]; omega
  let t0 : Fin cfg10.N := ⟨(i 0).val / 400, hq⟩
  obtain ⟨e0, e1, e2, e3, e4, e5⟩ := idx_facts t0
  have e4' : win10_2.index t0 (0 : Fin 2) = (i 0).val / 400 := e4
  refine ⟨t0, flush10_2 t0, ?_⟩
  rw [mem_blk]
  intro a
  match a with
  | ⟨0, _⟩ => show win10_2.index t0 (0 : Fin 2) * 400 ≤ (i 0).val ∧ (i 0).val < win10_2.index t0 (0 : Fin 2) * 400 + 400; rw [e4']; omega
  | ⟨1, _⟩ => show win10_2.index t0 (1 : Fin 2) * 16 ≤ (i 1).val ∧ (i 1).val < win10_2.index t0 (1 : Fin 2) * 16 + 16; rw [e5]; omega

/-- After the last point the output array is the whole product of the two arrays as the region found them. -/
theorem final (c : Dev nD) : (dat10 V c).arrAt 2 cfg10.N = mm (lhs V c) (rhs V c) :=
  (dat10 V c).arrAt_eq_of_cover 2 (mm (lhs V c) (rhs V c)) (fun t _ => flushed_eq V c t) cover

end Cert.KernelIdeal.Reg10

end
-- ==== Proof.RegStep10.lean ====
/- Region 10 against the reference's contraction 10: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg10
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_10 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in10 (WK c) WR) :
    Inv_out10 (Pipeline.withArrays Cert.KernelIdeal.spec10 c (WK c) fun w => (Cert.KernelIdeal.Gen.dat10 (fun c b => WK c b) c).arrAt w Cert.KernelIdeal.cfg10.N)
      (StableHlo.after [Cert.ReferenceIdeal.Cut.rdot10 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_⟩
  · reg_keep Cert.ReferenceIdeal.Cut.rdot10 h0 -- main_arg10
  · reg_keep Cert.ReferenceIdeal.Cut.rdot10 h1 -- main_arg11
  · reg_keep Cert.ReferenceIdeal.Cut.rdot10 h2 -- main_arg12
  · reg_keep Cert.ReferenceIdeal.Cut.rdot10 h3 -- main_arg13
  · reg_keep Cert.ReferenceIdeal.Cut.rdot10 h4 -- main_arg14
  · reg_keep Cert.ReferenceIdeal.Cut.rdot10 h5 -- main_arg15
  · reg_keep Cert.ReferenceIdeal.Cut.rdot10 h6 -- main_arg16
  · reg_keep Cert.ReferenceIdeal.Cut.rdot10 h7 -- main_arg17
  · reg_keep Cert.ReferenceIdeal.Cut.rdot10 h8 -- main_arg18
  · reg_keep Cert.ReferenceIdeal.Cut.rdot10 h9 -- main_arg19
  · reg_keep Cert.ReferenceIdeal.Cut.rdot10 h10 -- main_arg20
  · reg_keep Cert.ReferenceIdeal.Cut.rdot10 h11 -- main_v1
  · reg_keep Cert.ReferenceIdeal.Cut.rdot10 h12 -- main_v3
  · reg_keep Cert.ReferenceIdeal.Cut.rdot10 h13 -- main_v8
  · reg_keep Cert.ReferenceIdeal.Cut.rdot10 h14 -- main_v13
  · reg_keep Cert.ReferenceIdeal.Cut.rdot10 h15 -- main_v79
  · reg_keep Cert.ReferenceIdeal.Cut.rdot10 h16 -- main_v102
  · reg_in Cert.KernelIdeal.spec10 Cert.KernelIdeal.Gen.launch10 Cert.KernelIdeal.Gen.dat10 Cert.KernelIdeal.Gen.A_eq10 0 Cert.ReferenceIdeal.Cut.rdot10 h17 -- main_v146
  · reg_keep Cert.ReferenceIdeal.Cut.rdot10 h18 -- main_v160
  · reg_out Cert.KernelIdeal.spec10 Cert.KernelIdeal.Gen.launch10 Cert.KernelIdeal.Reg10.final Cert.ReferenceIdeal.Dots.dot_S20000x16_S16x16_S20000x16_1_0_0_1_n_n_eq Cert.ReferenceIdeal.Cut.rdot10 h17 h19 -- main_v163

end Cert.Sim

end
-- ==== Proof.Reg11.lean ====
/-
  Region 11 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg11

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- The two operands as the region finds them. -/
abbrev lhs (c : Dev nD) : S20000x16.Idx → EReal := V c main_v160
abbrev rhs (c : Dev nD) : S16x16.Idx → EReal := V c main_v165

/-- Row `p` of the left operand's block at point `t` is row `400 t + p` of the array. -/
theorem lhs_block (c : Dev nD) (t : Fin cfg11.N) (p : Fin 400) (k : Fin 16) (r : Fin 20000) (hr : r.val = t.val * 400 + p.val) :
    (iblk11 V c 0 t : Vec Ideal S400x16 .f32) (ix2 p k) = lhs V c (ix2 r k) := by
  obtain ⟨e0, e1, e2, e3, e4, e5⟩ := idx_facts t
  unfold iblk11
  rw [View.read_apply]
  show V c main_v160 _ = V c main_v160 _
  congr 1
  funext a
  apply Fin.ext
  match a with
  | ⟨0, _⟩ => show win11_0.index t (0 : Fin 2) * 400 + 1 * p.val = r.val; omega
  | ⟨1, _⟩ => show win11_0.index t (1 : Fin 2) * 16 + 1 * k.val = k.val; omega

/-- The right operand's block at every point is the whole array. -/
theorem rhs_block (c : Dev nD) (t : Fin cfg11.N) (k : Fin 16) (j : Fin 16) :
    (iblk11 V c 1 t : Vec Ideal S16x16 .f32) (ix2 k j) = rhs V c (ix2 k j) := by
  obtain ⟨e0, e1, e2, e3, e4, e5⟩ := idx_facts t
  unfold iblk11
  rw [View.read_apply]
  show V c main_v165 _ = V c main_v165 _
  congr 1
  funext a
  apply Fin.ext
  match a with
  | ⟨0, _⟩ => show win11_1.index t (0 : Fin 2) * 16 + 1 * k.val = k.val; omega
  | ⟨1, _⟩ => show win11_1.index t (1 : Fin 2) * 16 + 1 * j.val = j.val; omega

set_option maxHeartbeats 4000000 in
/-- What point `t` writes back is block `t` of the whole product. -/
theorem flushed_eq (c : Dev nD) (t : Fin cfg11.N) :
    (dat11 V c).flushed 2 t = ((cfg11.win 2).blk t).view.read (Elt Ideal) (mm (lhs V c) (rhs V c)) := by
  show (cfg11.win 2).cut (grid11.coords t) ((dat11 V c).after 2 t) = _
  rw [after11_2]
  unfold out11_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k11_pay1
  dsimp only
  simp only [shapeCast_self]
  have hy0 : (y 0).val < 400 := (y 0).isLt
  have ht : t.val < 50 := Nat.lt_of_lt_of_eq t.isLt N_11
  have hi0 : ((((cfg11.win 2).blk t).view.emb y) 0).val = win11_2.index t (0 : Fin 2) * 400 + 1 * (y 0).val := rfl
  have hi1 : ((((cfg11.win 2).blk t).view.emb y) 1).val = win11_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg11.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg11.win 2).blk t).view.emb y) 1).val; rw [hi1, e5]; omega

/-- An index of the output array is in point `t`'s block iff its row is one of the block's 400 rows. -/
theorem mem_blk (t : Fin cfg11.N) (i : S20000x16.Idx) :
    i ∈ ((cfg11.win 2).blk t).view.set ↔ ∀ a : Fin 2, win11_2.index t a * S400x16.size a ≤ (i a).val ∧ (i a).val < win11_2.index t a * S400x16.size a + S400x16.size a := by
  show i ∈ ((View.whole main_v166).slice (win11_2.rect t)).set ↔ _
  rw [View.set_slice_whole, Rect.mem_set_unit]
  exact Iff.rfl

/-- Every index of the output array is in the block of the point that takes its row. -/
theorem cover (i : S20000x16.Idx) : ∃ t : Fin cfg11.N, (cfg11.win 2).flush t = true ∧ i ∈ ((cfg11.win 2).blk t).view.set := by
  have hi0 : (i 0).val < 20000 := (i 0).isLt
  have hi1 : (i 1).val < 16 := (i 1).isLt
  have hN : cfg11.N = 50 := N_11
  have hq : (i 0).val / 400 < cfg11.N := by rw [hN]; omega
  let t0 : Fin cfg11.N := ⟨(i 0).val / 400, hq⟩
  obtain ⟨e0, e1, e2, e3, e4, e5⟩ := idx_facts t0
  have e4' : win11_2.index t0 (0 : Fin 2) = (i 0).val / 400 := e4
  refine ⟨t0, flush11_2 t0, ?_⟩
  rw [mem_blk]
  intro a
  match a with
  | ⟨0, _⟩ => show win11_2.index t0 (0 : Fin 2) * 400 ≤ (i 0).val ∧ (i 0).val < win11_2.index t0 (0 : Fin 2) * 400 + 400; rw [e4']; omega
  | ⟨1, _⟩ => show win11_2.index t0 (1 : Fin 2) * 16 ≤ (i 1).val ∧ (i 1).val < win11_2.index t0 (1 : Fin 2) * 16 + 16; rw [e5]; omega

/-- After the last point the output array is the whole product of the two arrays as the region found them. -/
theorem final (c : Dev nD) : (dat11 V c).arrAt 2 cfg11.N = mm (lhs V c) (rhs V c) :=
  (dat11 V c).arrAt_eq_of_cover 2 (mm (lhs V c) (rhs V c)) (fun t _ => flushed_eq V c t) cover

end Cert.KernelIdeal.Reg11

end
-- ==== Proof.RegStep11.lean ====
/- Region 11 against the reference's contraction 11: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg11
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_11 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in11 (WK c) WR) :
    Inv_out11 (Pipeline.withArrays Cert.KernelIdeal.spec11 c (WK c) fun w => (Cert.KernelIdeal.Gen.dat11 (fun c b => WK c b) c).arrAt w Cert.KernelIdeal.cfg11.N)
      (StableHlo.after [Cert.ReferenceIdeal.Cut.rdot11 (F := Ideal)] WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_⟩
  · reg_keep Cert.ReferenceIdeal.Cut.rdot11 h0 -- main_arg10
  · reg_keep Cert.ReferenceIdeal.Cut.rdot11 h1 -- main_arg11
  · reg_keep Cert.ReferenceIdeal.Cut.rdot11 h2 -- main_arg12
  · reg_keep Cert.ReferenceIdeal.Cut.rdot11 h3 -- main_arg13
  · reg_keep Cert.ReferenceIdeal.Cut.rdot11 h4 -- main_arg14
  · reg_keep Cert.ReferenceIdeal.Cut.rdot11 h5 -- main_arg15
  · reg_keep Cert.ReferenceIdeal.Cut.rdot11 h6 -- main_arg16
  · reg_keep Cert.ReferenceIdeal.Cut.rdot11 h7 -- main_arg17
  · reg_keep Cert.ReferenceIdeal.Cut.rdot11 h8 -- main_arg18
  · reg_keep Cert.ReferenceIdeal.Cut.rdot11 h9 -- main_arg19
  · reg_keep Cert.ReferenceIdeal.Cut.rdot11 h10 -- main_arg20
  · reg_keep Cert.ReferenceIdeal.Cut.rdot11 h11 -- main_v1
  · reg_keep Cert.ReferenceIdeal.Cut.rdot11 h12 -- main_v3
  · reg_keep Cert.ReferenceIdeal.Cut.rdot11 h13 -- main_v8
  · reg_keep Cert.ReferenceIdeal.Cut.rdot11 h14 -- main_v13
  · reg_keep Cert.ReferenceIdeal.Cut.rdot11 h15 -- main_v79
  · reg_keep Cert.ReferenceIdeal.Cut.rdot11 h16 -- main_v102
  · reg_keep Cert.ReferenceIdeal.Cut.rdot11 h17 -- main_v146
  · reg_in Cert.KernelIdeal.spec11 Cert.KernelIdeal.Gen.launch11 Cert.KernelIdeal.Gen.dat11 Cert.KernelIdeal.Gen.A_eq11 0 Cert.ReferenceIdeal.Cut.rdot11 h18 -- main_v160
  · reg_keep Cert.ReferenceIdeal.Cut.rdot11 h19 -- main_v163
  · reg_out Cert.KernelIdeal.spec11 Cert.KernelIdeal.Gen.launch11 Cert.KernelIdeal.Reg11.final Cert.ReferenceIdeal.Dots.dot_S20000x16_S16x16_S20000x16_1_0_0_1_n_n_eq Cert.ReferenceIdeal.Cut.rdot11 h18 h20 -- main_v166

end Cert.Sim

end
-- ==== Proof.Reg12.lean ====
/-
  Region 12 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg12

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- The two operands as the region finds them. -/
abbrev lhs (c : Dev nD) : S20000x16.Idx → EReal := V c main_v184
abbrev rhs (c : Dev nD) : S16x16.Idx → EReal := V c main_v186

/-- Row `p` of the left operand's block at point `t` is row `400 t + p` of the array. -/
theorem lhs_block (c : Dev nD) (t : Fin cfg12.N) (p : Fin 400) (k : Fin 16) (r : Fin 20000) (hr : r.val = t.val * 400 + p.val) :
    (iblk12 V c 0 t : Vec Ideal S400x16 .f32) (ix2 p k) = lhs V c (ix2 r k) := by
  obtain ⟨e0, e1, e2, e3, e4, e5⟩ := idx_facts t
  unfold iblk12
  rw [View.read_apply]
  show V c main_v184 _ = V c main_v184 _
  congr 1
  funext a
  apply Fin.ext
  match a with
  | ⟨0, _⟩ => show win12_0.index t (0 : Fin 2) * 400 + 1 * p.val = r.val; omega
  | ⟨1, _⟩ => show win12_0.index t (1 : Fin 2) * 16 + 1 * k.val = k.val; omega

/-- The right operand's block at every point is the whole array. -/
theorem rhs_block (c : Dev nD) (t : Fin cfg12.N) (k : Fin 16) (j : Fin 16) :
    (iblk12 V c 1 t : Vec Ideal S16x16 .f32) (ix2 k j) = rhs V c (ix2 k j) := by
  obtain ⟨e0, e1, e2, e3, e4, e5⟩ := idx_facts t
  unfold iblk12
  rw [View.read_apply]
  show V c main_v186 _ = V c main_v186 _
  congr 1
  funext a
  apply Fin.ext
  match a with
  | ⟨0, _⟩ => show win12_1.index t (0 : Fin 2) * 16 + 1 * k.val = k.val; omega
  | ⟨1, _⟩ => show win12_1.index t (1 : Fin 2) * 16 + 1 * j.val = j.val; omega

set_option maxHeartbeats 4000000 in
/-- What point `t` writes back is block `t` of the whole product. -/
theorem flushed_eq (c : Dev nD) (t : Fin cfg12.N) :
    (dat12 V c).flushed 2 t = ((cfg12.win 2).blk t).view.read (Elt Ideal) (mm (lhs V c) (rhs V c)) := by
  show (cfg12.win 2).cut (grid12.coords t) ((dat12 V c).after 2 t) = _
  rw [after12_2]
  unfold out12_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k12_pay1
  dsimp only
  simp only [shapeCast_self]
  have hy0 : (y 0).val < 400 := (y 0).isLt
  have ht : t.val < 50 := Nat.lt_of_lt_of_eq t.isLt N_12
  have hi0 : ((((cfg12.win 2).blk t).view.emb y) 0).val = win12_2.index t (0 : Fin 2) * 400 + 1 * (y 0).val := rfl
  have hi1 : ((((cfg12.win 2).blk t).view.emb y) 1).val = win12_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg12.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg12.win 2).blk t).view.emb y) 1).val; rw [hi1, e5]; omega

/-- An index of the output array is in point `t`'s block iff its row is one of the block's 400 rows. -/
theorem mem_blk (t : Fin cfg12.N) (i : S20000x16.Idx) :
    i ∈ ((cfg12.win 2).blk t).view.set ↔ ∀ a : Fin 2, win12_2.index t a * S400x16.size a ≤ (i a).val ∧ (i a).val < win12_2.index t a * S400x16.size a + S400x16.size a := by
  show i ∈ ((View.whole main_v187).slice (win12_2.rect t)).set ↔ _
  rw [View.set_slice_whole, Rect.mem_set_unit]
  exact Iff.rfl

/-- Every index of the output array is in the block of the point that takes its row. -/
theorem cover (i : S20000x16.Idx) : ∃ t : Fin cfg12.N, (cfg12.win 2).flush t = true ∧ i ∈ ((cfg12.win 2).blk t).view.set := by
  have hi0 : (i 0).val < 20000 := (i 0).isLt
  have hi1 : (i 1).val < 16 := (i 1).isLt
  have hN : cfg12.N = 50 := N_12
  have hq : (i 0).val / 400 < cfg12.N := by rw [hN]; omega
  let t0 : Fin cfg12.N := ⟨(i 0).val / 400, hq⟩
  obtain ⟨e0, e1, e2, e3, e4, e5⟩ := idx_facts t0
  have e4' : win12_2.index t0 (0 : Fin 2) = (i 0).val / 400 := e4
  refine ⟨t0, flush12_2 t0, ?_⟩
  rw [mem_blk]
  intro a
  match a with
  | ⟨0, _⟩ => show win12_2.index t0 (0 : Fin 2) * 400 ≤ (i 0).val ∧ (i 0).val < win12_2.index t0 (0 : Fin 2) * 400 + 400; rw [e4']; omega
  | ⟨1, _⟩ => show win12_2.index t0 (1 : Fin 2) * 16 ≤ (i 1).val ∧ (i 1).val < win12_2.index t0 (1 : Fin 2) * 16 + 16; rw [e5]; omega

/-- After the last point the output array is the whole product of the two arrays as the region found them. -/
theorem final (c : Dev nD) : (dat12 V c).arrAt 2 cfg12.N = mm (lhs V c) (rhs V c) :=
  (dat12 V c).arrAt_eq_of_cover 2 (mm (lhs V c) (rhs V c)) (fun t _ => flushed_eq V c t) cover

end Cert.KernelIdeal.Reg12

end
-- ==== Proof.RegStep12.lean ====
/- Region 12 against the reference's contraction 12: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg12
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_12 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in12 (WK c) WR) :
    Inv_out12 (Pipeline.withArrays Cert.KernelIdeal.spec12 c (WK c) fun w => (Cert.KernelIdeal.Gen.dat12 (fun c b => WK c b) c).arrAt w Cert.KernelIdeal.cfg12.N)
      (StableHlo.after [Cert.ReferenceIdeal.Cut.rdot12 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_⟩
  · reg_keep Cert.ReferenceIdeal.Cut.rdot12 h0 -- main_arg11
  · reg_keep Cert.ReferenceIdeal.Cut.rdot12 h1 -- main_arg12
  · reg_keep Cert.ReferenceIdeal.Cut.rdot12 h2 -- main_arg13
  · reg_keep Cert.ReferenceIdeal.Cut.rdot12 h3 -- main_arg14
  · reg_keep Cert.ReferenceIdeal.Cut.rdot12 h4 -- main_arg15
  · reg_keep Cert.ReferenceIdeal.Cut.rdot12 h5 -- main_arg16
  · reg_keep Cert.ReferenceIdeal.Cut.rdot12 h6 -- main_arg17
  · reg_keep Cert.ReferenceIdeal.Cut.rdot12 h7 -- main_arg18
  · reg_keep Cert.ReferenceIdeal.Cut.rdot12 h8 -- main_arg19
  · reg_keep Cert.ReferenceIdeal.Cut.rdot12 h9 -- main_arg20
  · reg_keep Cert.ReferenceIdeal.Cut.rdot12 h10 -- main_v1
  · reg_keep Cert.ReferenceIdeal.Cut.rdot12 h11 -- main_v3
  · reg_keep Cert.ReferenceIdeal.Cut.rdot12 h12 -- main_v8
  · reg_keep Cert.ReferenceIdeal.Cut.rdot12 h13 -- main_v13
  · reg_keep Cert.ReferenceIdeal.Cut.rdot12 h14 -- main_v79
  · reg_keep Cert.ReferenceIdeal.Cut.rdot12 h15 -- main_v102
  · reg_keep Cert.ReferenceIdeal.Cut.rdot12 h16 -- main_v146
  · reg_keep Cert.ReferenceIdeal.Cut.rdot12 h17 -- main_v167
  · reg_out Cert.KernelIdeal.spec12 Cert.KernelIdeal.Gen.launch12 Cert.KernelIdeal.Reg12.final Cert.ReferenceIdeal.Dots.dot_S20000x16_S16x16_S20000x16_1_0_0_1_n_n_eq Cert.ReferenceIdeal.Cut.rdot12 h18 h19 -- main_v187

end Cert.Sim

end
-- ==== Proof.Reg13.lean ====
/-
  Region 13 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg13

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- The two operands as the region finds them. -/
abbrev lhs (c : Dev nD) : S20000x16.Idx → EReal := V c main_v190
abbrev rhs (c : Dev nD) : S16x16.Idx → EReal := V c main_v207

/-- Row `p` of the left operand's block at point `t` is row `400 t + p` of the array. -/
theorem lhs_block (c : Dev nD) (t : Fin cfg13.N) (p : Fin 400) (k : Fin 16) (r : Fin 20000) (hr : r.val = t.val * 400 + p.val) :
    (iblk13 V c 0 t : Vec Ideal S400x16 .f32) (ix2 p k) = lhs V c (ix2 r k) := by
  obtain ⟨e0, e1, e2, e3, e4, e5⟩ := idx_facts t
  unfold iblk13
  rw [View.read_apply]
  show V c main_v190 _ = V c main_v190 _
  congr 1
  funext a
  apply Fin.ext
  match a with
  | ⟨0, _⟩ => show win13_0.index t (0 : Fin 2) * 400 + 1 * p.val = r.val; omega
  | ⟨1, _⟩ => show win13_0.index t (1 : Fin 2) * 16 + 1 * k.val = k.val; omega

/-- The right operand's block at every point is the whole array. -/
theorem rhs_block (c : Dev nD) (t : Fin cfg13.N) (k : Fin 16) (j : Fin 16) :
    (iblk13 V c 1 t : Vec Ideal S16x16 .f32) (ix2 k j) = rhs V c (ix2 k j) := by
  obtain ⟨e0, e1, e2, e3, e4, e5⟩ := idx_facts t
  unfold iblk13
  rw [View.read_apply]
  show V c main_v207 _ = V c main_v207 _
  congr 1
  funext a
  apply Fin.ext
  match a with
  | ⟨0, _⟩ => show win13_1.index t (0 : Fin 2) * 16 + 1 * k.val = k.val; omega
  | ⟨1, _⟩ => show win13_1.index t (1 : Fin 2) * 16 + 1 * j.val = j.val; omega

set_option maxHeartbeats 4000000 in
/-- What point `t` writes back is block `t` of the whole product. -/
theorem flushed_eq (c : Dev nD) (t : Fin cfg13.N) :
    (dat13 V c).flushed 2 t = ((cfg13.win 2).blk t).view.read (Elt Ideal) (mm (lhs V c) (rhs V c)) := by
  show (cfg13.win 2).cut (grid13.coords t) ((dat13 V c).after 2 t) = _
  rw [after13_2]
  unfold out13_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k13_pay1
  dsimp only
  simp only [shapeCast_self]
  have hy0 : (y 0).val < 400 := (y 0).isLt
  have ht : t.val < 50 := Nat.lt_of_lt_of_eq t.isLt N_13
  have hi0 : ((((cfg13.win 2).blk t).view.emb y) 0).val = win13_2.index t (0 : Fin 2) * 400 + 1 * (y 0).val := rfl
  have hi1 : ((((cfg13.win 2).blk t).view.emb y) 1).val = win13_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg13.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg13.win 2).blk t).view.emb y) 1).val; rw [hi1, e5]; omega

/-- An index of the output array is in point `t`'s block iff its row is one of the block's 400 rows. -/
theorem mem_blk (t : Fin cfg13.N) (i : S20000x16.Idx) :
    i ∈ ((cfg13.win 2).blk t).view.set ↔ ∀ a : Fin 2, win13_2.index t a * S400x16.size a ≤ (i a).val ∧ (i a).val < win13_2.index t a * S400x16.size a + S400x16.size a := by
  show i ∈ ((View.whole main_v208).slice (win13_2.rect t)).set ↔ _
  rw [View.set_slice_whole, Rect.mem_set_unit]
  exact Iff.rfl

/-- Every index of the output array is in the block of the point that takes its row. -/
theorem cover (i : S20000x16.Idx) : ∃ t : Fin cfg13.N, (cfg13.win 2).flush t = true ∧ i ∈ ((cfg13.win 2).blk t).view.set := by
  have hi0 : (i 0).val < 20000 := (i 0).isLt
  have hi1 : (i 1).val < 16 := (i 1).isLt
  have hN : cfg13.N = 50 := N_13
  have hq : (i 0).val / 400 < cfg13.N := by rw [hN]; omega
  let t0 : Fin cfg13.N := ⟨(i 0).val / 400, hq⟩
  obtain ⟨e0, e1, e2, e3, e4, e5⟩ := idx_facts t0
  have e4' : win13_2.index t0 (0 : Fin 2) = (i 0).val / 400 := e4
  refine ⟨t0, flush13_2 t0, ?_⟩
  rw [mem_blk]
  intro a
  match a with
  | ⟨0, _⟩ => show win13_2.index t0 (0 : Fin 2) * 400 ≤ (i 0).val ∧ (i 0).val < win13_2.index t0 (0 : Fin 2) * 400 + 400; rw [e4']; omega
  | ⟨1, _⟩ => show win13_2.index t0 (1 : Fin 2) * 16 ≤ (i 1).val ∧ (i 1).val < win13_2.index t0 (1 : Fin 2) * 16 + 16; rw [e5]; omega

/-- After the last point the output array is the whole product of the two arrays as the region found them. -/
theorem final (c : Dev nD) : (dat13 V c).arrAt 2 cfg13.N = mm (lhs V c) (rhs V c) :=
  (dat13 V c).arrAt_eq_of_cover 2 (mm (lhs V c) (rhs V c)) (fun t _ => flushed_eq V c t) cover

end Cert.KernelIdeal.Reg13

end
-- ==== Proof.RegStep13.lean ====
/- Region 13 against the reference's contraction 13: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg13
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_13 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in13 (WK c) WR) :
    Inv_out13 (Pipeline.withArrays Cert.KernelIdeal.spec13 c (WK c) fun w => (Cert.KernelIdeal.Gen.dat13 (fun c b => WK c b) c).arrAt w Cert.KernelIdeal.cfg13.N)
      (StableHlo.after [Cert.ReferenceIdeal.Cut.rdot13 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_⟩
  · reg_keep Cert.ReferenceIdeal.Cut.rdot13 h0 -- main_arg11
  · reg_keep Cert.ReferenceIdeal.Cut.rdot13 h1 -- main_arg12
  · reg_keep Cert.ReferenceIdeal.Cut.rdot13 h2 -- main_arg13
  · reg_keep Cert.ReferenceIdeal.Cut.rdot13 h3 -- main_arg14
  · reg_keep Cert.ReferenceIdeal.Cut.rdot13 h4 -- main_arg15
  · reg_keep Cert.ReferenceIdeal.Cut.rdot13 h5 -- main_arg16
  · reg_keep Cert.ReferenceIdeal.Cut.rdot13 h6 -- main_arg17
  · reg_keep Cert.ReferenceIdeal.Cut.rdot13 h7 -- main_arg18
  · reg_keep Cert.ReferenceIdeal.Cut.rdot13 h8 -- main_arg19
  · reg_keep Cert.ReferenceIdeal.Cut.rdot13 h9 -- main_arg20
  · reg_keep Cert.ReferenceIdeal.Cut.rdot13 h10 -- main_v1
  · reg_keep Cert.ReferenceIdeal.Cut.rdot13 h11 -- main_v3
  · reg_keep Cert.ReferenceIdeal.Cut.rdot13 h12 -- main_v8
  · reg_keep Cert.ReferenceIdeal.Cut.rdot13 h13 -- main_v13
  · reg_keep Cert.ReferenceIdeal.Cut.rdot13 h14 -- main_v79
  · reg_keep Cert.ReferenceIdeal.Cut.rdot13 h15 -- main_v102
  · reg_in Cert.KernelIdeal.spec13 Cert.KernelIdeal.Gen.launch13 Cert.KernelIdeal.Gen.dat13 Cert.KernelIdeal.Gen.A_eq13 0 Cert.ReferenceIdeal.Cut.rdot13 h16 -- main_v190
  · reg_keep Cert.ReferenceIdeal.Cut.rdot13 h17 -- main_v191
  · reg_keep Cert.ReferenceIdeal.Cut.rdot13 h18 -- main_v205
  · reg_out Cert.KernelIdeal.spec13 Cert.KernelIdeal.Gen.launch13 Cert.KernelIdeal.Reg13.final Cert.ReferenceIdeal.Dots.dot_S20000x16_S16x16_S20000x16_1_0_0_1_n_n_eq Cert.ReferenceIdeal.Cut.rdot13 h16 h19 -- main_v208

end Cert.Sim

end
-- ==== Proof.Reg14.lean ====
/-
  Region 14 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg14

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- The two operands as the region finds them. -/
abbrev lhs (c : Dev nD) : S20000x16.Idx → EReal := V c main_v205
abbrev rhs (c : Dev nD) : S16x16.Idx → EReal := V c main_v210

/-- Row `p` of the left operand's block at point `t` is row `400 t + p` of the array. -/
theorem lhs_block (c : Dev nD) (t : Fin cfg14.N) (p : Fin 400) (k : Fin 16) (r : Fin 20000) (hr : r.val = t.val * 400 + p.val) :
    (iblk14 V c 0 t : Vec Ideal S400x16 .f32) (ix2 p k) = lhs V c (ix2 r k) := by
  obtain ⟨e0, e1, e2, e3, e4, e5⟩ := idx_facts t
  unfold iblk14
  rw [View.read_apply]
  show V c main_v205 _ = V c main_v205 _
  congr 1
  funext a
  apply Fin.ext
  match a with
  | ⟨0, _⟩ => show win14_0.index t (0 : Fin 2) * 400 + 1 * p.val = r.val; omega
  | ⟨1, _⟩ => show win14_0.index t (1 : Fin 2) * 16 + 1 * k.val = k.val; omega

/-- The right operand's block at every point is the whole array. -/
theorem rhs_block (c : Dev nD) (t : Fin cfg14.N) (k : Fin 16) (j : Fin 16) :
    (iblk14 V c 1 t : Vec Ideal S16x16 .f32) (ix2 k j) = rhs V c (ix2 k j) := by
  obtain ⟨e0, e1, e2, e3, e4, e5⟩ := idx_facts t
  unfold iblk14
  rw [View.read_apply]
  show V c main_v210 _ = V c main_v210 _
  congr 1
  funext a
  apply Fin.ext
  match a with
  | ⟨0, _⟩ => show win14_1.index t (0 : Fin 2) * 16 + 1 * k.val = k.val; omega
  | ⟨1, _⟩ => show win14_1.index t (1 : Fin 2) * 16 + 1 * j.val = j.val; omega

set_option maxHeartbeats 4000000 in
/-- What point `t` writes back is block `t` of the whole product. -/
theorem flushed_eq (c : Dev nD) (t : Fin cfg14.N) :
    (dat14 V c).flushed 2 t = ((cfg14.win 2).blk t).view.read (Elt Ideal) (mm (lhs V c) (rhs V c)) := by
  show (cfg14.win 2).cut (grid14.coords t) ((dat14 V c).after 2 t) = _
  rw [after14_2]
  unfold out14_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k14_pay1
  dsimp only
  simp only [shapeCast_self]
  have hy0 : (y 0).val < 400 := (y 0).isLt
  have ht : t.val < 50 := Nat.lt_of_lt_of_eq t.isLt N_14
  have hi0 : ((((cfg14.win 2).blk t).view.emb y) 0).val = win14_2.index t (0 : Fin 2) * 400 + 1 * (y 0).val := rfl
  have hi1 : ((((cfg14.win 2).blk t).view.emb y) 1).val = win14_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg14.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg14.win 2).blk t).view.emb y) 1).val; rw [hi1, e5]; omega

/-- An index of the output array is in point `t`'s block iff its row is one of the block's 400 rows. -/
theorem mem_blk (t : Fin cfg14.N) (i : S20000x16.Idx) :
    i ∈ ((cfg14.win 2).blk t).view.set ↔ ∀ a : Fin 2, win14_2.index t a * S400x16.size a ≤ (i a).val ∧ (i a).val < win14_2.index t a * S400x16.size a + S400x16.size a := by
  show i ∈ ((View.whole main_v211).slice (win14_2.rect t)).set ↔ _
  rw [View.set_slice_whole, Rect.mem_set_unit]
  exact Iff.rfl

/-- Every index of the output array is in the block of the point that takes its row. -/
theorem cover (i : S20000x16.Idx) : ∃ t : Fin cfg14.N, (cfg14.win 2).flush t = true ∧ i ∈ ((cfg14.win 2).blk t).view.set := by
  have hi0 : (i 0).val < 20000 := (i 0).isLt
  have hi1 : (i 1).val < 16 := (i 1).isLt
  have hN : cfg14.N = 50 := N_14
  have hq : (i 0).val / 400 < cfg14.N := by rw [hN]; omega
  let t0 : Fin cfg14.N := ⟨(i 0).val / 400, hq⟩
  obtain ⟨e0, e1, e2, e3, e4, e5⟩ := idx_facts t0
  have e4' : win14_2.index t0 (0 : Fin 2) = (i 0).val / 400 := e4
  refine ⟨t0, flush14_2 t0, ?_⟩
  rw [mem_blk]
  intro a
  match a with
  | ⟨0, _⟩ => show win14_2.index t0 (0 : Fin 2) * 400 ≤ (i 0).val ∧ (i 0).val < win14_2.index t0 (0 : Fin 2) * 400 + 400; rw [e4']; omega
  | ⟨1, _⟩ => show win14_2.index t0 (1 : Fin 2) * 16 ≤ (i 1).val ∧ (i 1).val < win14_2.index t0 (1 : Fin 2) * 16 + 16; rw [e5]; omega

/-- After the last point the output array is the whole product of the two arrays as the region found them. -/
theorem final (c : Dev nD) : (dat14 V c).arrAt 2 cfg14.N = mm (lhs V c) (rhs V c) :=
  (dat14 V c).arrAt_eq_of_cover 2 (mm (lhs V c) (rhs V c)) (fun t _ => flushed_eq V c t) cover

end Cert.KernelIdeal.Reg14

end
-- ==== Proof.RegStep14.lean ====
/- Region 14 against the reference's contraction 14: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg14
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_14 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in14 (WK c) WR) :
    Inv_out14 (Pipeline.withArrays Cert.KernelIdeal.spec14 c (WK c) fun w => (Cert.KernelIdeal.Gen.dat14 (fun c b => WK c b) c).arrAt w Cert.KernelIdeal.cfg14.N)
      (StableHlo.after [Cert.ReferenceIdeal.Cut.rdot14 (F := Ideal)] WR) := by
  obtain ⟨h0, h1, h2, h3, h4, h5, h6, h7, h8, h9, h10, h11, h12, h13, h14, h15, h16, h17, h18, h19, h20⟩ := h
  refine ⟨?_, ?_, ?_, ?_, ?_, ?_, ?_, ?_, ?_, ?_, ?_, ?_, ?_, ?_, ?_, ?_, ?_, ?_, ?_, ?_, ?_⟩
  · reg_keep Cert.ReferenceIdeal.Cut.rdot14 h0 -- main_arg11
  · reg_keep Cert.ReferenceIdeal.Cut.rdot14 h1 -- main_arg12
  · reg_keep Cert.ReferenceIdeal.Cut.rdot14 h2 -- main_arg13
  · reg_keep Cert.ReferenceIdeal.Cut.rdot14 h3 -- main_arg14
  · reg_keep Cert.ReferenceIdeal.Cut.rdot14 h4 -- main_arg15
  · reg_keep Cert.ReferenceIdeal.Cut.rdot14 h5 -- main_arg16
  · reg_keep Cert.ReferenceIdeal.Cut.rdot14 h6 -- main_arg17
  · reg_keep Cert.ReferenceIdeal.Cut.rdot14 h7 -- main_arg18
  · reg_keep Cert.ReferenceIdeal.Cut.rdot14 h8 -- main_arg19
  · reg_keep Cert.ReferenceIdeal.Cut.rdot14 h9 -- main_arg20
  · reg_keep Cert.ReferenceIdeal.Cut.rdot14 h10 -- main_v1
  · reg_keep Cert.ReferenceIdeal.Cut.rdot14 h11 -- main_v3
  · reg_keep Cert.ReferenceIdeal.Cut.rdot14 h12 -- main_v8
  · reg_keep Cert.ReferenceIdeal.Cut.rdot14 h13 -- main_v13
  · reg_keep Cert.ReferenceIdeal.Cut.rdot14 h14 -- main_v79
  · reg_keep Cert.ReferenceIdeal.Cut.rdot14 h15 -- main_v102
  · reg_keep Cert.ReferenceIdeal.Cut.rdot14 h16 -- main_v190
  · reg_keep Cert.ReferenceIdeal.Cut.rdot14 h17 -- main_v191
  · reg_in Cert.KernelIdeal.spec14 Cert.KernelIdeal.Gen.launch14 Cert.KernelIdeal.Gen.dat14 Cert.KernelIdeal.Gen.A_eq14 0 Cert.ReferenceIdeal.Cut.rdot14 h18 -- main_v205
  · reg_keep Cert.ReferenceIdeal.Cut.rdot14 h19 -- main_v208
  · reg_out Cert.KernelIdeal.spec14 Cert.KernelIdeal.Gen.launch14 Cert.KernelIdeal.Reg14.final Cert.ReferenceIdeal.Dots.dot_S20000x16_S16x16_S20000x16_1_0_0_1_n_n_eq Cert.ReferenceIdeal.Cut.rdot14 h18 h20 -- main_v211

end Cert.Sim

end
-- ==== Proof.Reg15.lean ====
/-
  Region 15 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg15

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- The two operands as the region finds them. -/
abbrev lhs (c : Dev nD) : S20000x16.Idx → EReal := V c main_v229
abbrev rhs (c : Dev nD) : S16x16.Idx → EReal := V c main_v231

/-- Row `p` of the left operand's block at point `t` is row `400 t + p` of the array. -/
theorem lhs_block (c : Dev nD) (t : Fin cfg15.N) (p : Fin 400) (k : Fin 16) (r : Fin 20000) (hr : r.val = t.val * 400 + p.val) :
    (iblk15 V c 0 t : Vec Ideal S400x16 .f32) (ix2 p k) = lhs V c (ix2 r k) := by
  obtain ⟨e0, e1, e2, e3, e4, e5⟩ := idx_facts t
  unfold iblk15
  rw [View.read_apply]
  show V c main_v229 _ = V c main_v229 _
  congr 1
  funext a
  apply Fin.ext
  match a with
  | ⟨0, _⟩ => show win15_0.index t (0 : Fin 2) * 400 + 1 * p.val = r.val; omega
  | ⟨1, _⟩ => show win15_0.index t (1 : Fin 2) * 16 + 1 * k.val = k.val; omega

/-- The right operand's block at every point is the whole array. -/
theorem rhs_block (c : Dev nD) (t : Fin cfg15.N) (k : Fin 16) (j : Fin 16) :
    (iblk15 V c 1 t : Vec Ideal S16x16 .f32) (ix2 k j) = rhs V c (ix2 k j) := by
  obtain ⟨e0, e1, e2, e3, e4, e5⟩ := idx_facts t
  unfold iblk15
  rw [View.read_apply]
  show V c main_v231 _ = V c main_v231 _
  congr 1
  funext a
  apply Fin.ext
  match a with
  | ⟨0, _⟩ => show win15_1.index t (0 : Fin 2) * 16 + 1 * k.val = k.val; omega
  | ⟨1, _⟩ => show win15_1.index t (1 : Fin 2) * 16 + 1 * j.val = j.val; omega

set_option maxHeartbeats 4000000 in
/-- What point `t` writes back is block `t` of the whole product. -/
theorem flushed_eq (c : Dev nD) (t : Fin cfg15.N) :
    (dat15 V c).flushed 2 t = ((cfg15.win 2).blk t).view.read (Elt Ideal) (mm (lhs V c) (rhs V c)) := by
  show (cfg15.win 2).cut (grid15.coords t) ((dat15 V c).after 2 t) = _
  rw [after15_2]
  unfold out15_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k15_pay1
  dsimp only
  simp only [shapeCast_self]
  have hy0 : (y 0).val < 400 := (y 0).isLt
  have ht : t.val < 50 := Nat.lt_of_lt_of_eq t.isLt N_15
  have hi0 : ((((cfg15.win 2).blk t).view.emb y) 0).val = win15_2.index t (0 : Fin 2) * 400 + 1 * (y 0).val := rfl
  have hi1 : ((((cfg15.win 2).blk t).view.emb y) 1).val = win15_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg15.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg15.win 2).blk t).view.emb y) 1).val; rw [hi1, e5]; omega

/-- An index of the output array is in point `t`'s block iff its row is one of the block's 400 rows. -/
theorem mem_blk (t : Fin cfg15.N) (i : S20000x16.Idx) :
    i ∈ ((cfg15.win 2).blk t).view.set ↔ ∀ a : Fin 2, win15_2.index t a * S400x16.size a ≤ (i a).val ∧ (i a).val < win15_2.index t a * S400x16.size a + S400x16.size a := by
  show i ∈ ((View.whole main_v232).slice (win15_2.rect t)).set ↔ _
  rw [View.set_slice_whole, Rect.mem_set_unit]
  exact Iff.rfl

/-- Every index of the output array is in the block of the point that takes its row. -/
theorem cover (i : S20000x16.Idx) : ∃ t : Fin cfg15.N, (cfg15.win 2).flush t = true ∧ i ∈ ((cfg15.win 2).blk t).view.set := by
  have hi0 : (i 0).val < 20000 := (i 0).isLt
  have hi1 : (i 1).val < 16 := (i 1).isLt
  have hN : cfg15.N = 50 := N_15
  have hq : (i 0).val / 400 < cfg15.N := by rw [hN]; omega
  let t0 : Fin cfg15.N := ⟨(i 0).val / 400, hq⟩
  obtain ⟨e0, e1, e2, e3, e4, e5⟩ := idx_facts t0
  have e4' : win15_2.index t0 (0 : Fin 2) = (i 0).val / 400 := e4
  refine ⟨t0, flush15_2 t0, ?_⟩
  rw [mem_blk]
  intro a
  match a with
  | ⟨0, _⟩ => show win15_2.index t0 (0 : Fin 2) * 400 ≤ (i 0).val ∧ (i 0).val < win15_2.index t0 (0 : Fin 2) * 400 + 400; rw [e4']; omega
  | ⟨1, _⟩ => show win15_2.index t0 (1 : Fin 2) * 16 ≤ (i 1).val ∧ (i 1).val < win15_2.index t0 (1 : Fin 2) * 16 + 16; rw [e5]; omega

/-- After the last point the output array is the whole product of the two arrays as the region found them. -/
theorem final (c : Dev nD) : (dat15 V c).arrAt 2 cfg15.N = mm (lhs V c) (rhs V c) :=
  (dat15 V c).arrAt_eq_of_cover 2 (mm (lhs V c) (rhs V c)) (fun t _ => flushed_eq V c t) cover

end Cert.KernelIdeal.Reg15

end
-- ==== Proof.RegStep15.lean ====
/- Region 15 against the reference's contraction 15: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg15
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_15 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in15 (WK c) WR) :
    Inv_out15 (Pipeline.withArrays Cert.KernelIdeal.spec15 c (WK c) fun w => (Cert.KernelIdeal.Gen.dat15 (fun c b => WK c b) c).arrAt w Cert.KernelIdeal.cfg15.N)
      (StableHlo.after [Cert.ReferenceIdeal.Cut.rdot15 (F := Ideal)] WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_⟩
  · reg_keep Cert.ReferenceIdeal.Cut.rdot15 h0 -- main_arg12
  · reg_keep Cert.ReferenceIdeal.Cut.rdot15 h1 -- main_arg13
  · reg_keep Cert.ReferenceIdeal.Cut.rdot15 h2 -- main_arg14
  · reg_keep Cert.ReferenceIdeal.Cut.rdot15 h3 -- main_arg15
  · reg_keep Cert.ReferenceIdeal.Cut.rdot15 h4 -- main_arg16
  · reg_keep Cert.ReferenceIdeal.Cut.rdot15 h5 -- main_arg17
  · reg_keep Cert.ReferenceIdeal.Cut.rdot15 h6 -- main_arg18
  · reg_keep Cert.ReferenceIdeal.Cut.rdot15 h7 -- main_arg19
  · reg_keep Cert.ReferenceIdeal.Cut.rdot15 h8 -- main_arg20
  · reg_keep Cert.ReferenceIdeal.Cut.rdot15 h9 -- main_v1
  · reg_keep Cert.ReferenceIdeal.Cut.rdot15 h10 -- main_v3
  · reg_keep Cert.ReferenceIdeal.Cut.rdot15 h11 -- main_v8
  · reg_keep Cert.ReferenceIdeal.Cut.rdot15 h12 -- main_v13
  · reg_keep Cert.ReferenceIdeal.Cut.rdot15 h13 -- main_v79
  · reg_keep Cert.ReferenceIdeal.Cut.rdot15 h14 -- main_v102
  · reg_keep Cert.ReferenceIdeal.Cut.rdot15 h15 -- main_v191
  · reg_keep Cert.ReferenceIdeal.Cut.rdot15 h16 -- main_v212
  · reg_out Cert.KernelIdeal.spec15 Cert.KernelIdeal.Gen.launch15 Cert.KernelIdeal.Reg15.final Cert.ReferenceIdeal.Dots.dot_S20000x16_S16x16_S20000x16_1_0_0_1_n_n_eq Cert.ReferenceIdeal.Cut.rdot15 h17 h18 -- main_v232

end Cert.Sim

end
-- ==== Proof.Reg16.lean ====
/-
  Region 16 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg16

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0 :=
  (by decide +kernel : ∀ t : Fin grid16.N, _)

/-- The two operands as the region finds them. -/
abbrev lhs (c : Dev nD) : S20000x16.Idx → EReal := V c main_v235
abbrev rhs (c : Dev nD) : S16x16.Idx → EReal := V c main_v252

/-- Row `p` of the left operand's block at point `t` is row `400 t + p` of the array. -/
theorem lhs_block (c : Dev nD) (t : Fin cfg16.N) (p : Fin 400) (k : Fin 16) (r : Fin 20000) (hr : r.val = t.val * 400 + p.val) :
    (iblk16 V c 0 t : Vec Ideal S400x16 .f32) (ix2 p k) = lhs V c (ix2 r k) := by
  obtain ⟨e0, e1, e2, e3, e4, e5⟩ := idx_facts t
  unfold iblk16
  rw [View.read_apply]
  show V c main_v235 _ = V c main_v235 _
  congr 1
  funext a
  apply Fin.ext
  match a with
  | ⟨0, _⟩ => show win16_0.index t (0 : Fin 2) * 400 + 1 * p.val = r.val; omega
  | ⟨1, _⟩ => show win16_0.index t (1 : Fin 2) * 16 + 1 * k.val = k.val; omega

/-- The right operand's block at every point is the whole array. -/
theorem rhs_block (c : Dev nD) (t : Fin cfg16.N) (k : Fin 16) (j : Fin 16) :
    (iblk16 V c 1 t : Vec Ideal S16x16 .f32) (ix2 k j) = rhs V c (ix2 k j) := by
  obtain ⟨e0, e1, e2, e3, e4, e5⟩ := idx_facts t
  unfold iblk16
  rw [View.read_apply]
  show V c main_v252 _ = V c main_v252 _
  congr 1
  funext a
  apply Fin.ext
  match a with
  | ⟨0, _⟩ => show win16_1.index t (0 : Fin 2) * 16 + 1 * k.val = k.val; omega
  | ⟨1, _⟩ => show win16_1.index t (1 : Fin 2) * 16 + 1 * j.val = j.val; omega

set_option maxHeartbeats 4000000 in
/-- What point `t` writes back is block `t` of the whole product. -/
theorem flushed_eq (c : Dev nD) (t : Fin cfg16.N) :
    (dat16 V c).flushed 2 t = ((cfg16.win 2).blk t).view.read (Elt Ideal) (mm (lhs V c) (rhs V c)) := by
  show (cfg16.win 2).cut (grid16.coords t) ((dat16 V c).after 2 t) = _
  rw [after16_2]
  unfold out16_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k16_pay1
  dsimp only
  simp only [shapeCast_self]
  have hy0 : (y 0).val < 400 := (y 0).isLt
  have ht : t.val < 50 := Nat.lt_of_lt_of_eq t.isLt N_16
  have hi0 : ((((cfg16.win 2).blk t).view.emb y) 0).val = win16_2.index t (0 : Fin 2) * 400 + 1 * (y 0).val := rfl
  have hi1 : ((((cfg16.win 2).blk t).view.emb y) 1).val = win16_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg16.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg16.win 2).blk t).view.emb y) 1).val; rw [hi1, e5]; omega

/-- An index of the output array is in point `t`'s block iff its row is one of the block's 400 rows. -/
theorem mem_blk (t : Fin cfg16.N) (i : S20000x16.Idx) :
    i ∈ ((cfg16.win 2).blk t).view.set ↔ ∀ a : Fin 2, win16_2.index t a * S400x16.size a ≤ (i a).val ∧ (i a).val < win16_2.index t a * S400x16.size a + S400x16.size a := by
  show i ∈ ((View.whole main_v253).slice (win16_2.rect t)).set ↔ _
  rw [View.set_slice_whole, Rect.mem_set_unit]
  exact Iff.rfl

/-- Every index of the output array is in the block of the point that takes its row. -/
theorem cover (i : S20000x16.Idx) : ∃ t : Fin cfg16.N, (cfg16.win 2).flush t = true ∧ i ∈ ((cfg16.win 2).blk t).view.set := by
  have hi0 : (i 0).val < 20000 := (i 0).isLt
  have hi1 : (i 1).val < 16 := (i 1).isLt
  have hN : cfg16.N = 50 := N_16
  have hq : (i 0).val / 400 < cfg16.N := by rw [hN]; omega
  let t0 : Fin cfg16.N := ⟨(i 0).val / 400, hq⟩
  obtain ⟨e0, e1, e2, e3, e4, e5⟩ := idx_facts t0
  have e4' : win16_2.index t0 (0 : Fin 2) = (i 0).val / 400 := e4
  refine ⟨t0, flush16_2 t0, ?_⟩
  rw [mem_blk]
  intro a
  match a with
  | ⟨0, _⟩ => show win16_2.index t0 (0 : Fin 2) * 400 ≤ (i 0).val ∧ (i 0).val < win16_2.index t0 (0 : Fin 2) * 400 + 400; rw [e4']; omega
  | ⟨1, _⟩ => show win16_2.index t0 (1 : Fin 2) * 16 ≤ (i 1).val ∧ (i 1).val < win16_2.index t0 (1 : Fin 2) * 16 + 16; rw [e5]; omega

/-- After the last point the output array is the whole product of the two arrays as the region found them. -/
theorem final (c : Dev nD) : (dat16 V c).arrAt 2 cfg16.N = mm (lhs V c) (rhs V c) :=
  (dat16 V c).arrAt_eq_of_cover 2 (mm (lhs V c) (rhs V c)) (fun t _ => flushed_eq V c t) cover

end Cert.KernelIdeal.Reg16

end
-- ==== Proof.RegStep16.lean ====
/- Region 16 against the reference's contraction 16: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg16
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_16 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in16 (WK c) WR) :
    Inv_out16 (Pipeline.withArrays Cert.KernelIdeal.spec16 c (WK c) fun w => (Cert.KernelIdeal.Gen.dat16 (fun c b => WK c b) c).arrAt w Cert.KernelIdeal.cfg16.N)
      (StableHlo.after [Cert.ReferenceIdeal.Cut.rdot16 (F := Ideal)] WR) := by
  obtain ⟨h0, h1, h2, h3, h4, h5, h6, h7, h8, h9, h10, h11, h12, h13, h14, h15, h16, h17, h18⟩ := h
  refine ⟨?_, ?_, ?_, ?_, ?_, ?_, ?_, ?_, ?_, ?_, ?_, ?_, ?_, ?_, ?_, ?_, ?_, ?_, ?_⟩
  · reg_keep Cert.ReferenceIdeal.Cut.rdot16 h0 -- main_arg12
  · reg_keep Cert.ReferenceIdeal.Cut.rdot16 h1 -- main_arg13
  · reg_keep Cert.ReferenceIdeal.Cut.rdot16 h2 -- main_arg14
  · reg_keep Cert.ReferenceIdeal.Cut.rdot16 h3 -- main_arg15
  · reg_keep Cert.ReferenceIdeal.Cut.rdot16 h4 -- main_arg16
  · reg_keep Cert.ReferenceIdeal.Cut.rdot16 h5 -- main_arg17
  · reg_keep Cert.ReferenceIdeal.Cut.rdot16 h6 -- main_arg18
  · reg_keep Cert.ReferenceIdeal.Cut.rdot16 h7 -- main_arg19
  · reg_keep Cert.ReferenceIdeal.Cut.rdot16 h8 -- main_arg20
  · reg_keep Cert.ReferenceIdeal.Cut.rdot16 h9 -- main_v1
  · reg_keep Cert.ReferenceIdeal.Cut.rdot16 h10 -- main_v3
  · reg_keep Cert.ReferenceIdeal.Cut.rdot16 h11 -- main_v8
  · reg_keep Cert.ReferenceIdeal.Cut.rdot16 h12 -- main_v13
  · reg_keep Cert.ReferenceIdeal.Cut.rdot16 h13 -- main_v79
  · reg_keep Cert.ReferenceIdeal.Cut.rdot16 h14 -- main_v102
  · reg_in Cert.KernelIdeal.spec16 Cert.KernelIdeal.Gen.launch16 Cert.KernelIdeal.Gen.dat16 Cert.KernelIdeal.Gen.A_eq16 0 Cert.ReferenceIdeal.Cut.rdot16 h15 -- main_v235
  · reg_keep Cert.ReferenceIdeal.Cut.rdot16 h16 -- main_v236
  · reg_keep Cert.ReferenceIdeal.Cut.rdot16 h17 -- main_v250
  · reg_out Cert.KernelIdeal.spec16 Cert.KernelIdeal.Gen.launch16 Cert.KernelIdeal.Reg16.final Cert.ReferenceIdeal.Dots.dot_S20000x16_S16x16_S20000x16_1_0_0_1_n_n_eq Cert.ReferenceIdeal.Cut.rdot16 h15 h18 -- main_v253

end Cert.Sim

end
-- ==== Proof.Reg17.lean ====
/-
  Region 17 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg17

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- The two operands as the region finds them. -/
abbrev lhs (c : Dev nD) : S20000x16.Idx → EReal := V c main_v250
abbrev rhs (c : Dev nD) : S16x16.Idx → EReal := V c main_v255

/-- Row `p` of the left operand's block at point `t` is row `400 t + p` of the array. -/
theorem lhs_block (c : Dev nD) (t : Fin cfg17.N) (p : Fin 400) (k : Fin 16) (r : Fin 20000) (hr : r.val = t.val * 400 + p.val) :
    (iblk17 V c 0 t : Vec Ideal S400x16 .f32) (ix2 p k) = lhs V c (ix2 r k) := by
  obtain ⟨e0, e1, e2, e3, e4, e5⟩ := idx_facts t
  unfold iblk17
  rw [View.read_apply]
  show V c main_v250 _ = V c main_v250 _
  congr 1
  funext a
  apply Fin.ext
  match a with
  | ⟨0, _⟩ => show win17_0.index t (0 : Fin 2) * 400 + 1 * p.val = r.val; omega
  | ⟨1, _⟩ => show win17_0.index t (1 : Fin 2) * 16 + 1 * k.val = k.val; omega

/-- The right operand's block at every point is the whole array. -/
theorem rhs_block (c : Dev nD) (t : Fin cfg17.N) (k : Fin 16) (j : Fin 16) :
    (iblk17 V c 1 t : Vec Ideal S16x16 .f32) (ix2 k j) = rhs V c (ix2 k j) := by
  obtain ⟨e0, e1, e2, e3, e4, e5⟩ := idx_facts t
  unfold iblk17
  rw [View.read_apply]
  show V c main_v255 _ = V c main_v255 _
  congr 1
  funext a
  apply Fin.ext
  match a with
  | ⟨0, _⟩ => show win17_1.index t (0 : Fin 2) * 16 + 1 * k.val = k.val; omega
  | ⟨1, _⟩ => show win17_1.index t (1 : Fin 2) * 16 + 1 * j.val = j.val; omega

set_option maxHeartbeats 4000000 in
/-- What point `t` writes back is block `t` of the whole product. -/
theorem flushed_eq (c : Dev nD) (t : Fin cfg17.N) :
    (dat17 V c).flushed 2 t = ((cfg17.win 2).blk t).view.read (Elt Ideal) (mm (lhs V c) (rhs V c)) := by
  show (cfg17.win 2).cut (grid17.coords t) ((dat17 V c).after 2 t) = _
  rw [after17_2]
  unfold out17_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k17_pay1
  dsimp only
  simp only [shapeCast_self]
  have hy0 : (y 0).val < 400 := (y 0).isLt
  have ht : t.val < 50 := Nat.lt_of_lt_of_eq t.isLt N_17
  have hi0 : ((((cfg17.win 2).blk t).view.emb y) 0).val = win17_2.index t (0 : Fin 2) * 400 + 1 * (y 0).val := rfl
  have hi1 : ((((cfg17.win 2).blk t).view.emb y) 1).val = win17_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg17.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg17.win 2).blk t).view.emb y) 1).val; rw [hi1, e5]; omega

/-- An index of the output array is in point `t`'s block iff its row is one of the block's 400 rows. -/
theorem mem_blk (t : Fin cfg17.N) (i : S20000x16.Idx) :
    i ∈ ((cfg17.win 2).blk t).view.set ↔ ∀ a : Fin 2, win17_2.index t a * S400x16.size a ≤ (i a).val ∧ (i a).val < win17_2.index t a * S400x16.size a + S400x16.size a := by
  show i ∈ ((View.whole main_v256).slice (win17_2.rect t)).set ↔ _
  rw [View.set_slice_whole, Rect.mem_set_unit]
  exact Iff.rfl

/-- Every index of the output array is in the block of the point that takes its row. -/
theorem cover (i : S20000x16.Idx) : ∃ t : Fin cfg17.N, (cfg17.win 2).flush t = true ∧ i ∈ ((cfg17.win 2).blk t).view.set := by
  have hi0 : (i 0).val < 20000 := (i 0).isLt
  have hi1 : (i 1).val < 16 := (i 1).isLt
  have hN : cfg17.N = 50 := N_17
  have hq : (i 0).val / 400 < cfg17.N := by rw [hN]; omega
  let t0 : Fin cfg17.N := ⟨(i 0).val / 400, hq⟩
  obtain ⟨e0, e1, e2, e3, e4, e5⟩ := idx_facts t0
  have e4' : win17_2.index t0 (0 : Fin 2) = (i 0).val / 400 := e4
  refine ⟨t0, flush17_2 t0, ?_⟩
  rw [mem_blk]
  intro a
  match a with
  | ⟨0, _⟩ => show win17_2.index t0 (0 : Fin 2) * 400 ≤ (i 0).val ∧ (i 0).val < win17_2.index t0 (0 : Fin 2) * 400 + 400; rw [e4']; omega
  | ⟨1, _⟩ => show win17_2.index t0 (1 : Fin 2) * 16 ≤ (i 1).val ∧ (i 1).val < win17_2.index t0 (1 : Fin 2) * 16 + 16; rw [e5]; omega

/-- After the last point the output array is the whole product of the two arrays as the region found them. -/
theorem final (c : Dev nD) : (dat17 V c).arrAt 2 cfg17.N = mm (lhs V c) (rhs V c) :=
  (dat17 V c).arrAt_eq_of_cover 2 (mm (lhs V c) (rhs V c)) (fun t _ => flushed_eq V c t) cover

end Cert.KernelIdeal.Reg17

end
-- ==== Proof.RegStep17.lean ====
/- Region 17 against the reference's contraction 17: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg17
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_17 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in17 (WK c) WR) :
    Inv_out17 (Pipeline.withArrays Cert.KernelIdeal.spec17 c (WK c) fun w => (Cert.KernelIdeal.Gen.dat17 (fun c b => WK c b) c).arrAt w Cert.KernelIdeal.cfg17.N)
      (StableHlo.after [Cert.ReferenceIdeal.Cut.rdot17 (F := Ideal)] WR) := by
  obtain ⟨h0, h1, h2, h3, h4, h5, h6, h7, h8, h9, h10, h11, h12, h13, h14, h15, h16, h17, h18, h19⟩ := h
  refine ⟨?_, ?_, ?_, ?_, ?_, ?_, ?_, ?_, ?_, ?_, ?_, ?_, ?_, ?_, ?_, ?_, ?_, ?_, ?_, ?_⟩
  · reg_keep Cert.ReferenceIdeal.Cut.rdot17 h0 -- main_arg12
  · reg_keep Cert.ReferenceIdeal.Cut.rdot17 h1 -- main_arg13
  · reg_keep Cert.ReferenceIdeal.Cut.rdot17 h2 -- main_arg14
  · reg_keep Cert.ReferenceIdeal.Cut.rdot17 h3 -- main_arg15
  · reg_keep Cert.ReferenceIdeal.Cut.rdot17 h4 -- main_arg16
  · reg_keep Cert.ReferenceIdeal.Cut.rdot17 h5 -- main_arg17
  · reg_keep Cert.ReferenceIdeal.Cut.rdot17 h6 -- main_arg18
  · reg_keep Cert.ReferenceIdeal.Cut.rdot17 h7 -- main_arg19
  · reg_keep Cert.ReferenceIdeal.Cut.rdot17 h8 -- main_arg20
  · reg_keep Cert.ReferenceIdeal.Cut.rdot17 h9 -- main_v1
  · reg_keep Cert.ReferenceIdeal.Cut.rdot17 h10 -- main_v3
  · reg_keep Cert.ReferenceIdeal.Cut.rdot17 h11 -- main_v8
  · reg_keep Cert.ReferenceIdeal.Cut.rdot17 h12 -- main_v13
  · reg_keep Cert.ReferenceIdeal.Cut.rdot17 h13 -- main_v79
  · reg_keep Cert.ReferenceIdeal.Cut.rdot17 h14 -- main_v102
  · reg_keep Cert.ReferenceIdeal.Cut.rdot17 h15 -- main_v235
  · reg_keep Cert.ReferenceIdeal.Cut.rdot17 h16 -- main_v236
  · reg_in Cert.KernelIdeal.spec17 Cert.KernelIdeal.Gen.launch17 Cert.KernelIdeal.Gen.dat17 Cert.KernelIdeal.Gen.A_eq17 0 Cert.ReferenceIdeal.Cut.rdot17 h17 -- main_v250
  · reg_keep Cert.ReferenceIdeal.Cut.rdot17 h18 -- main_v253
  · reg_out Cert.KernelIdeal.spec17 Cert.KernelIdeal.Gen.launch17 Cert.KernelIdeal.Reg17.final Cert.ReferenceIdeal.Dots.dot_S20000x16_S16x16_S20000x16_1_0_0_1_n_n_eq Cert.ReferenceIdeal.Cut.rdot17 h17 h19 -- main_v256

end Cert.Sim

end
-- ==== Proof.Reg18.lean ====
/-
  Region 18 of the idealized kernel program: a [20000, 16] array times a [16, 16] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg18

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

/-- The two operands as the region finds them. -/
abbrev lhs (c : Dev nD) : S20000x16.Idx → EReal := V c main_v274
abbrev rhs (c : Dev nD) : S16x16.Idx → EReal := V c main_v276

/-- Row `p` of the left operand's block at point `t` is row `400 t + p` of the array. -/
theorem lhs_block (c : Dev nD) (t : Fin cfg18.N) (p : Fin 400) (k : Fin 16) (r : Fin 20000) (hr : r.val = t.val * 400 + p.val) :
    (iblk18 V c 0 t : Vec Ideal S400x16 .f32) (ix2 p k) = lhs V c (ix2 r k) := by
  obtain ⟨e0, e1, e2, e3, e4, e5⟩ := idx_facts t
  unfold iblk18
  rw [View.read_apply]
  show V c main_v274 _ = V c main_v274 _
  congr 1
  funext a
  apply Fin.ext
  match a with
  | ⟨0, _⟩ => show win18_0.index t (0 : Fin 2) * 400 + 1 * p.val = r.val; omega
  | ⟨1, _⟩ => show win18_0.index t (1 : Fin 2) * 16 + 1 * k.val = k.val; omega

/-- The right operand's block at every point is the whole array. -/
theorem rhs_block (c : Dev nD) (t : Fin cfg18.N) (k : Fin 16) (j : Fin 16) :
    (iblk18 V c 1 t : Vec Ideal S16x16 .f32) (ix2 k j) = rhs V c (ix2 k j) := by
  obtain ⟨e0, e1, e2, e3, e4, e5⟩ := idx_facts t
  unfold iblk18
  rw [View.read_apply]
  show V c main_v276 _ = V c main_v276 _
  congr 1
  funext a
  apply Fin.ext
  match a with
  | ⟨0, _⟩ => show win18_1.index t (0 : Fin 2) * 16 + 1 * k.val = k.val; omega
  | ⟨1, _⟩ => show win18_1.index t (1 : Fin 2) * 16 + 1 * j.val = j.val; omega

set_option maxHeartbeats 4000000 in
/-- What point `t` writes back is block `t` of the whole product. -/
theorem flushed_eq (c : Dev nD) (t : Fin cfg18.N) :
    (dat18 V c).flushed 2 t = ((cfg18.win 2).blk t).view.read (Elt Ideal) (mm (lhs V c) (rhs V c)) := by
  show (cfg18.win 2).cut (grid18.coords t) ((dat18 V c).after 2 t) = _
  rw [after18_2]
  unfold out18_2
  rw [View.canon_unit_zero hz]
  simp only [View.ld_unit_zero (S := S400x16) hz, View.ld_unit_zero (S := S16x16) hz]
  obtain ⟨e0, e1, e2, e3, e4, e5⟩ := idx_facts t
  funext y
  rw [View.read_apply]
  unfold k18_pay1
  dsimp only
  simp only [shapeCast_self]
  have hy0 : (y 0).val < 400 := (y 0).isLt
  have ht : t.val < 50 := Nat.lt_of_lt_of_eq t.isLt N_18
  have hi0 : ((((cfg18.win 2).blk t).view.emb y) 0).val = win18_2.index t (0 : Fin 2) * 400 + 1 * (y 0).val := rfl
  have hi1 : ((((cfg18.win 2).blk t).view.emb y) 1).val = win18_2.index t (1 : Fin 2) * 16 + 1 * (y 1).val := rfl
  refine matmul_rows dot_S400x16_S16x16_S400x16_1_0_0_1_n_n rfl rfl (fun _ _ => rfl) (fun _ _ => rfl) (fun _ _ => rfl) (fun _ _ => rfl) none
    (lhs V c) (rhs V c) _ _ (((cfg18.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg18.win 2).blk t).view.emb y) 1).val; rw [hi1, e5]; omega

/-- An index of the output array is in point `t`'s block iff its row is one of the block's 400 rows. -/
theorem mem_blk (t : Fin cfg18.N) (i : S20000x16.Idx) :
    i ∈ ((cfg18.win 2).blk t).view.set ↔ ∀ a : Fin 2, win18_2.index t a * S400x16.size a ≤ (i a).val ∧ (i a).val < win18_2.index t a * S400x16.size a + S400x16.size a := by
  show i ∈ ((View.whole main_v277).slice (win18_2.rect t)).set ↔ _
  rw [View.set_slice_whole, Rect.mem_set_unit]
  exact Iff.rfl

/-- Every index of the output array is in the block of the point that takes its row. -/
theorem cover (i : S20000x16.Idx) : ∃ t : Fin cfg18.N, (cfg18.win 2).flush t = true ∧ i ∈ ((cfg18.win 2).blk t).view.set := by
  have hi0 : (i 0).val < 20000 := (i 0).isLt
  have hi1 : (i 1).val < 16 := (i 1).isLt
  have hN : cfg18.N = 50 := N_18
  have hq : (i 0).val / 400 < cfg18.N := by rw [hN]; omega
  let t0 : Fin cfg18.N := ⟨(i 0).val / 400, hq⟩
  obtain ⟨e0, e1, e2, e3, e4, e5⟩ := idx_facts t0
  have e4' : win18_2.index t0 (0 : Fin 2) = (i 0).val / 400 := e4
  refine ⟨t0, flush18_2 t0, ?_⟩
  rw [mem_blk]
  intro a
  match a with
  | ⟨0, _⟩ => show win18_2.index t0 (0 : Fin 2) * 400 ≤ (i 0).val ∧ (i 0).val < win18_2.index t0 (0 : Fin 2) * 400 + 400; rw [e4']; omega
  | ⟨1, _⟩ => show win18_2.index t0 (1 : Fin 2) * 16 ≤ (i 1).val ∧ (i 1).val < win18_2.index t0 (1 : Fin 2) * 16 + 16; rw [e5]; omega

/-- After the last point the output array is the whole product of the two arrays as the region found them. -/
theorem final (c : Dev nD) : (dat18 V c).arrAt 2 cfg18.N = mm (lhs V c) (rhs V c) :=
  (dat18 V c).arrAt_eq_of_cover 2 (mm (lhs V c) (rhs V c)) (fun t _ => flushed_eq V c t) cover

end Cert.KernelIdeal.Reg18

end
-- ==== Proof.RegStep18.lean ====
/- Region 18 against the reference's contraction 18: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg18
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_18 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in18 (WK c) WR) :
    Inv_out18 (Pipeline.withArrays Cert.KernelIdeal.spec18 c (WK c) fun w => (Cert.KernelIdeal.Gen.dat18 (fun c b => WK c b) c).arrAt w Cert.KernelIdeal.cfg18.N)
      (StableHlo.after [Cert.ReferenceIdeal.Cut.rdot18 (F := Ideal)] WR) := by
  obtain ⟨h0, h1, h2, h3, h4, h5, h6, h7, h8, h9, h10, h11, h12, h13, h14⟩ := h
  refine ⟨?_, ?_, ?_, ?_, ?_, ?_, ?_, ?_, ?_, ?_, ?_, ?_, ?_, ?_⟩
  · reg_keep Cert.ReferenceIdeal.Cut.rdot18 h0 -- main_arg13
  · reg_keep Cert.ReferenceIdeal.Cut.rdot18 h1 -- main_arg14
  · reg_keep Cert.ReferenceIdeal.Cut.rdot18 h2 -- main_arg15
  · reg_keep Cert.ReferenceIdeal.Cut.rdot18 h3 -- main_arg16
  · reg_keep Cert.ReferenceIdeal.Cut.rdot18 h4 -- main_arg17
  · reg_keep Cert.ReferenceIdeal.Cut.rdot18 h5 -- main_arg18
  · reg_keep Cert.ReferenceIdeal.Cut.rdot18 h6 -- main_arg19
  · reg_keep Cert.ReferenceIdeal.Cut.rdot18 h7 -- main_arg20
  · reg_keep Cert.ReferenceIdeal.Cut.rdot18 h8 -- main_v8
  · reg_keep Cert.ReferenceIdeal.Cut.rdot18 h9 -- main_v13
  · reg_keep Cert.ReferenceIdeal.Cut.rdot18 h10 -- main_v79
  · reg_keep Cert.ReferenceIdeal.Cut.rdot18 h11 -- main_v236
  · reg_keep Cert.ReferenceIdeal.Cut.rdot18 h12 -- main_v257
  · reg_out Cert.KernelIdeal.spec18 Cert.KernelIdeal.Gen.launch18 Cert.KernelIdeal.Reg18.final Cert.ReferenceIdeal.Dots.dot_S20000x16_S16x16_S20000x16_1_0_0_1_n_n_eq Cert.ReferenceIdeal.Cut.rdot18 h13 h14 -- main_v277

end Cert.Sim

end
-- ==== Proof.Reg19.lean ====
/-
  Region 19 of the idealized kernel program: a [20000, 64] array times a [64, 256] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg19

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

/-- The two operands as the region finds them. -/
abbrev lhs (c : Dev nD) : S20000x64.Idx → EReal := V c main_v281
abbrev rhs (c : Dev nD) : S64x256.Idx → EReal := V c main_v282

/-- Row `p` of the left operand's block at point `t` is row `400 t + p` of the array. -/
theorem lhs_block (c : Dev nD) (t : Fin cfg19.N) (p : Fin 400) (k : Fin 64) (r : Fin 20000) (hr : r.val = t.val * 400 + p.val) :
    (iblk19 V c 0 t : Vec Ideal S400x64 .f32) (ix2 p k) = lhs V c (ix2 r k) := by
  obtain ⟨e0, e1, e2, e3, e4, e5⟩ := idx_facts t
  unfold iblk19
  rw [View.read_apply]
  show V c main_v281 _ = V c main_v281 _
  congr 1
  funext a
  apply Fin.ext
  match a with
  | ⟨0, _⟩ => show win19_0.index t (0 : Fin 2) * 400 + 1 * p.val = r.val; omega
  | ⟨1, _⟩ => show win19_0.index t (1 : Fin 2) * 64 + 1 * k.val = k.val; omega

/-- The right operand's block at every point is the whole array. -/
theorem rhs_block (c : Dev nD) (t : Fin cfg19.N) (k : Fin 64) (j : Fin 256) :
    (iblk19 V c 1 t : Vec Ideal S64x256 .f32) (ix2 k j) = rhs V c (ix2 k j) := by
  obtain ⟨e0, e1, e2, e3, e4, e5⟩ := idx_facts t
  unfold iblk19
  rw [View.read_apply]
  show V c main_v282 _ = V c main_v282 _
  congr 1
  funext a
  apply Fin.ext
  match a with
  | ⟨0, _⟩ => show win19_1.index t (0 : Fin 2) * 64 + 1 * k.val = k.val; omega
  | ⟨1, _⟩ => show win19_1.index t (1 : Fin 2) * 256 + 1 * j.val = j.val; omega

set_option maxHeartbeats 4000000 in
/-- What point `t` writes back is block `t` of the whole product. -/
theorem flushed_eq (c : Dev nD) (t : Fin cfg19.N) :
    (dat19 V c).flushed 2 t = ((cfg19.win 2).blk t).view.read (Elt Ideal) (mm (lhs V c) (rhs V c)) := by
  show (cfg19.win 2).cut (grid19.coords t) ((dat19 V c).after 2 t) = _
  rw [after19_2]
  unfold out19_2
  rw [View.canon_unit_zero hz]
  simp only [View.ld_unit_zero (S := S400x64) hz, View.ld_unit_zero (S := S64x256) hz]
  obtain ⟨e0, e1, e2, e3, e4, e5⟩ := idx_facts t
  funext y
  rw [View.read_apply]
  unfold k19_pay1
  dsimp only
  simp only [shapeCast_self]
  have hy0 : (y 0).val < 400 := (y 0).isLt
  have ht : t.val < 50 := Nat.lt_of_lt_of_eq t.isLt N_19
  have hi0 : ((((cfg19.win 2).blk t).view.emb y) 0).val = win19_2.index t (0 : Fin 2) * 400 + 1 * (y 0).val := rfl
  have hi1 : ((((cfg19.win 2).blk t).view.emb y) 1).val = win19_2.index t (1 : Fin 2) * 256 + 1 * (y 1).val := rfl
  refine matmul_rows dot_S400x64_S64x256_S400x256_1_0_0_1_n_n rfl rfl (fun _ _ => rfl) (fun _ _ => rfl) (fun _ _ => rfl) (fun _ _ => rfl) none
    (lhs V c) (rhs V c) _ _ (((cfg19.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg19.win 2).blk t).view.emb y) 1).val; rw [hi1, e5]; omega

/-- An index of the output array is in point `t`'s block iff its row is one of the block's 400 rows. -/
theorem mem_blk (t : Fin cfg19.N) (i : S20000x256.Idx) :
    i ∈ ((cfg19.win 2).blk t).view.set ↔ ∀ a : Fin 2, win19_2.index t a * S400x256.size a ≤ (i a).val ∧ (i a).val < win19_2.index t a * S400x256.size a + S400x256.size a := by
  show i ∈ ((View.whole main_v283).slice (win19_2.rect t)).set ↔ _
  rw [View.set_slice_whole, Rect.mem_set_unit]
  exact Iff.rfl

/-- Every index of the output array is in the block of the point that takes its row. -/
theorem cover (i : S20000x256.Idx) : ∃ t : Fin cfg19.N, (cfg19.win 2).flush t = true ∧ i ∈ ((cfg19.win 2).blk t).view.set := by
  have hi0 : (i 0).val < 20000 := (i 0).isLt
  have hi1 : (i 1).val < 256 := (i 1).isLt
  have hN : cfg19.N = 50 := N_19
  have hq : (i 0).val / 400 < cfg19.N := by rw [hN]; omega
  let t0 : Fin cfg19.N := ⟨(i 0).val / 400, hq⟩
  obtain ⟨e0, e1, e2, e3, e4, e5⟩ := idx_facts t0
  have e4' : win19_2.index t0 (0 : Fin 2) = (i 0).val / 400 := e4
  refine ⟨t0, flush19_2 t0, ?_⟩
  rw [mem_blk]
  intro a
  match a with
  | ⟨0, _⟩ => show win19_2.index t0 (0 : Fin 2) * 400 ≤ (i 0).val ∧ (i 0).val < win19_2.index t0 (0 : Fin 2) * 400 + 400; rw [e4']; omega
  | ⟨1, _⟩ => show win19_2.index t0 (1 : Fin 2) * 256 ≤ (i 1).val ∧ (i 1).val < win19_2.index t0 (1 : Fin 2) * 256 + 256; rw [e5]; omega

/-- After the last point the output array is the whole product of the two arrays as the region found them. -/
theorem final (c : Dev nD) : (dat19 V c).arrAt 2 cfg19.N = mm (lhs V c) (rhs V c) :=
  (dat19 V c).arrAt_eq_of_cover 2 (mm (lhs V c) (rhs V c)) (fun t _ => flushed_eq V c t) cover

end Cert.KernelIdeal.Reg19

end
-- ==== Proof.RegStep19.lean ====
/- Region 19 against the reference's contraction 19: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg19
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_19 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in19 (WK c) WR) :
    Inv_out19 (Pipeline.withArrays Cert.KernelIdeal.spec19 c (WK c) fun w => (Cert.KernelIdeal.Gen.dat19 (fun c b => WK c b) c).arrAt w Cert.KernelIdeal.cfg19.N)
      (StableHlo.after [Cert.ReferenceIdeal.Cut.rdot19 (F := Ideal)] WR) := by
  obtain ⟨h0, h1, h2, h3, h4, h5, h6, h7, h8, h9, h10, h11⟩ := h
  refine ⟨?_, ?_, ?_, ?_, ?_, ?_, ?_, ?_, ?_, ?_, ?_⟩
  · reg_keep Cert.ReferenceIdeal.Cut.rdot19 h0 -- main_arg14
  · reg_keep Cert.ReferenceIdeal.Cut.rdot19 h1 -- main_arg15
  · reg_keep Cert.ReferenceIdeal.Cut.rdot19 h2 -- main_arg16
  · reg_keep Cert.ReferenceIdeal.Cut.rdot19 h3 -- main_arg17
  · reg_keep Cert.ReferenceIdeal.Cut.rdot19 h4 -- main_arg18
  · reg_keep Cert.ReferenceIdeal.Cut.rdot19 h5 -- main_arg19
  · reg_keep Cert.ReferenceIdeal.Cut.rdot19 h6 -- main_arg20
  · reg_keep Cert.ReferenceIdeal.Cut.rdot19 h7 -- main_v8
  · reg_keep Cert.ReferenceIdeal.Cut.rdot19 h8 -- main_v13
  · reg_keep Cert.ReferenceIdeal.Cut.rdot19 h9 -- main_v79
  · reg_out Cert.KernelIdeal.spec19 Cert.KernelIdeal.Gen.launch19 Cert.KernelIdeal.Reg19.final Cert.ReferenceIdeal.Dots.dot_S20000x64_S64x256_S20000x256_1_0_0_1_n_n_eq Cert.ReferenceIdeal.Cut.rdot19 h10 h11 -- main_v283

end Cert.Sim

end
-- ==== Proof.Reg20.lean ====
/-
  Region 20 of the idealized kernel program: a [20000, 256] array times a [256, 2] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg20

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg20.N, win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0 :=
  (by decide +kernel : ∀ t : Fin grid20.N, _)

/-- The two operands as the region finds them. -/
abbrev lhs (c : Dev nD) : S20000x256.Idx → EReal := V c main_v290
abbrev rhs (c : Dev nD) : S256x2.Idx → EReal := V c main_v291

/-- Row `p` of the left operand's block at point `t` is row `400 t + p` of the array. -/
theorem lhs_block (c : Dev nD) (t : Fin cfg20.N) (p : Fin 400) (k : Fin 256) (r : Fin 20000) (hr : r.val = t.val * 400 + p.val) :
    (iblk20 V c 0 t : Vec Ideal S400x256 .f32) (ix2 p k) = lhs V c (ix2 r k) := by
  obtain ⟨e0, e1, e2, e3, e4, e5⟩ := idx_facts t
  unfold iblk20
  rw [View.read_apply]
  show V c main_v290 _ = V c main_v290 _
  congr 1
  funext a
  apply Fin.ext
  match a with
  | ⟨0, _⟩ => show win20_0.index t (0 : Fin 2) * 400 + 1 * p.val = r.val; omega
  | ⟨1, _⟩ => show win20_0.index t (1 : Fin 2) * 256 + 1 * k.val = k.val; omega

/-- The right operand's block at every point is the whole array. -/
theorem rhs_block (c : Dev nD) (t : Fin cfg20.N) (k : Fin 256) (j : Fin 2) :
    (iblk20 V c 1 t : Vec Ideal S256x2 .f32) (ix2 k j) = rhs V c (ix2 k j) := by
  obtain ⟨e0, e1, e2, e3, e4, e5⟩ := idx_facts t
  unfold iblk20
  rw [View.read_apply]
  show V c main_v291 _ = V c main_v291 _
  congr 1
  funext a
  apply Fin.ext
  match a with
  | ⟨0, _⟩ => show win20_1.index t (0 : Fin 2) * 256 + 1 * k.val = k.val; omega
  | ⟨1, _⟩ => show win20_1.index t (1 : Fin 2) * 2 + 1 * j.val = j.val; omega

set_option maxHeartbeats 4000000 in
/-- What point `t` writes back is block `t` of the whole product. -/
theorem flushed_eq (c : Dev nD) (t : Fin cfg20.N) :
    (dat20 V c).flushed 2 t = ((cfg20.win 2).blk t).view.read (Elt Ideal) (mm (lhs V c) (rhs V c)) := by
  show (cfg20.win 2).cut (grid20.coords t) ((dat20 V c).after 2 t) = _
  rw [after20_2]
  unfold out20_2
  rw [View.canon_unit_zero hz]
  simp only [View.ld_unit_zero (S := S400x256) hz, View.ld_unit_zero (S := S256x2) hz]
  obtain ⟨e0, e1, e2, e3, e4, e5⟩ := idx_facts t
  funext y
  rw [View.read_apply]
  unfold k20_pay1
  dsimp only
  simp only [shapeCast_self]
  have hy0 : (y 0).val < 400 := (y 0).isLt
  have ht : t.val < 50 := Nat.lt_of_lt_of_eq t.isLt N_20
  have hi0 : ((((cfg20.win 2).blk t).view.emb y) 0).val = win20_2.index t (0 : Fin 2) * 400 + 1 * (y 0).val := rfl
  have hi1 : ((((cfg20.win 2).blk t).view.emb y) 1).val = win20_2.index t (1 : Fin 2) * 2 + 1 * (y 1).val := rfl
  refine matmul_rows dot_S400x256_S256x2_S400x2_1_0_0_1_n_n rfl rfl (fun _ _ => rfl) (fun _ _ => rfl) (fun _ _ => rfl) (fun _ _ => rfl) none
    (lhs V c) (rhs V c) _ _ (((cfg20.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg20.win 2).blk t).view.emb y) 1).val; rw [hi1, e5]; omega

/-- An index of the output array is in point `t`'s block iff its row is one of the block's 400 rows. -/
theorem mem_blk (t : Fin cfg20.N) (i : S20000x2.Idx) :
    i ∈ ((cfg20.win 2).blk t).view.set ↔ ∀ a : Fin 2, win20_2.index t a * S400x2.size a ≤ (i a).val ∧ (i a).val < win20_2.index t a * S400x2.size a + S400x2.size a := by
  show i ∈ ((View.whole main_v292).slice (win20_2.rect t)).set ↔ _
  rw [View.set_slice_whole, Rect.mem_set_unit]
  exact Iff.rfl

/-- Every index of the output array is in the block of the point that takes its row. -/
theorem cover (i : S20000x2.Idx) : ∃ t : Fin cfg20.N, (cfg20.win 2).flush t = true ∧ i ∈ ((cfg20.win 2).blk t).view.set := by
  have hi0 : (i 0).val < 20000 := (i 0).isLt
  have hi1 : (i 1).val < 2 := (i 1).isLt
  have hN : cfg20.N = 50 := N_20
  have hq : (i 0).val / 400 < cfg20.N := by rw [hN]; omega
  let t0 : Fin cfg20.N := ⟨(i 0).val / 400, hq⟩
  obtain ⟨e0, e1, e2, e3, e4, e5⟩ := idx_facts t0
  have e4' : win20_2.index t0 (0 : Fin 2) = (i 0).val / 400 := e4
  refine ⟨t0, flush20_2 t0, ?_⟩
  rw [mem_blk]
  intro a
  match a with
  | ⟨0, _⟩ => show win20_2.index t0 (0 : Fin 2) * 400 ≤ (i 0).val ∧ (i 0).val < win20_2.index t0 (0 : Fin 2) * 400 + 400; rw [e4']; omega
  | ⟨1, _⟩ => show win20_2.index t0 (1 : Fin 2) * 2 ≤ (i 1).val ∧ (i 1).val < win20_2.index t0 (1 : Fin 2) * 2 + 2; rw [e5]; omega

/-- After the last point the output array is the whole product of the two arrays as the region found them. -/
theorem final (c : Dev nD) : (dat20 V c).arrAt 2 cfg20.N = mm (lhs V c) (rhs V c) :=
  (dat20 V c).arrAt_eq_of_cover 2 (mm (lhs V c) (rhs V c)) (fun t _ => flushed_eq V c t) cover

end Cert.KernelIdeal.Reg20

end
-- ==== Proof.RegStep20.lean ====
/- Region 20 against the reference's contraction 20: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg20
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_20 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in20 (WK c) WR) :
    Inv_out20 (Pipeline.withArrays Cert.KernelIdeal.spec20 c (WK c) fun w => (Cert.KernelIdeal.Gen.dat20 (fun c b => WK c b) c).arrAt w Cert.KernelIdeal.cfg20.N)
      (StableHlo.after [Cert.ReferenceIdeal.Cut.rdot20 (F := Ideal)] WR) := by
  obtain ⟨h0, h1, h2, h3, h4, h5, h6, h7, h8, h9⟩ := h
  refine ⟨?_, ?_, ?_, ?_, ?_, ?_, ?_, ?_, ?_⟩
  · reg_keep Cert.ReferenceIdeal.Cut.rdot20 h0 -- main_arg16
  · reg_keep Cert.ReferenceIdeal.Cut.rdot20 h1 -- main_arg17
  · reg_keep Cert.ReferenceIdeal.Cut.rdot20 h2 -- main_arg18
  · reg_keep Cert.ReferenceIdeal.Cut.rdot20 h3 -- main_arg19
  · reg_keep Cert.ReferenceIdeal.Cut.rdot20 h4 -- main_arg20
  · reg_keep Cert.ReferenceIdeal.Cut.rdot20 h5 -- main_v8
  · reg_keep Cert.ReferenceIdeal.Cut.rdot20 h6 -- main_v13
  · reg_keep Cert.ReferenceIdeal.Cut.rdot20 h7 -- main_v79
  · reg_out Cert.KernelIdeal.spec20 Cert.KernelIdeal.Gen.launch20 Cert.KernelIdeal.Reg20.final Cert.ReferenceIdeal.Dots.dot_S20000x256_S256x2_S20000x2_1_0_0_1_n_n_eq Cert.ReferenceIdeal.Cut.rdot20 h8 h9 -- main_v292

end Cert.Sim

end
-- ==== Proof.Reg21.lean ====
/-
  Region 21 of the idealized kernel program: a [20000, 512] array times a [512, 256] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg21

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0 :=
  (by decide +kernel : ∀ t : Fin grid21.N, _)

/-- The two operands as the region finds them. -/
abbrev lhs (c : Dev nD) : S20000x512.Idx → EReal := V c main_v8
abbrev rhs (c : Dev nD) : S512x256.Idx → EReal := V c main_v296

/-- Row `p` of the left operand's block at point `t` is row `400 t + p` of the array. -/
theorem lhs_block (c : Dev nD) (t : Fin cfg21.N) (p : Fin 400) (k : Fin 512) (r : Fin 20000) (hr : r.val = t.val * 400 + p.val) :
    (iblk21 V c 0 t : Vec Ideal S400x512 .f32) (ix2 p k) = lhs V c (ix2 r k) := by
  obtain ⟨e0, e1, e2, e3, e4, e5⟩ := idx_facts t
  unfold iblk21
  rw [View.read_apply]
  show V c main_v8 _ = V c main_v8 _
  congr 1
  funext a
  apply Fin.ext
  match a with
  | ⟨0, _⟩ => show win21_0.index t (0 : Fin 2) * 400 + 1 * p.val = r.val; omega
  | ⟨1, _⟩ => show win21_0.index t (1 : Fin 2) * 512 + 1 * k.val = k.val; omega

/-- The right operand's block at every point is the whole array. -/
theorem rhs_block (c : Dev nD) (t : Fin cfg21.N) (k : Fin 512) (j : Fin 256) :
    (iblk21 V c 1 t : Vec Ideal S512x256 .f32) (ix2 k j) = rhs V c (ix2 k j) := by
  obtain ⟨e0, e1, e2, e3, e4, e5⟩ := idx_facts t
  unfold iblk21
  rw [View.read_apply]
  show V c main_v296 _ = V c main_v296 _
  congr 1
  funext a
  apply Fin.ext
  match a with
  | ⟨0, _⟩ => show win21_1.index t (0 : Fin 2) * 512 + 1 * k.val = k.val; omega
  | ⟨1, _⟩ => show win21_1.index t (1 : Fin 2) * 256 + 1 * j.val = j.val; omega

set_option maxHeartbeats 4000000 in
/-- What point `t` writes back is block `t` of the whole product. -/
theorem flushed_eq (c : Dev nD) (t : Fin cfg21.N) :
    (dat21 V c).flushed 2 t = ((cfg21.win 2).blk t).view.read (Elt Ideal) (mm (lhs V c) (rhs V c)) := by
  show (cfg21.win 2).cut (grid21.coords t) ((dat21 V c).after 2 t) = _
  rw [after21_2]
  unfold out21_2
  rw [View.canon_unit_zero hz]
  simp only [View.ld_unit_zero (S := S400x512) hz, View.ld_unit_zero (S := S512x256) hz]
  obtain ⟨e0, e1, e2, e3, e4, e5⟩ := idx_facts t
  funext y
  rw [View.read_apply]
  unfold k21_pay1
  dsimp only
  simp only [shapeCast_self]
  have hy0 : (y 0).val < 400 := (y 0).isLt
  have ht : t.val < 50 := Nat.lt_of_lt_of_eq t.isLt N_21
  have hi0 : ((((cfg21.win 2).blk t).view.emb y) 0).val = win21_2.index t (0 : Fin 2) * 400 + 1 * (y 0).val := rfl
  have hi1 : ((((cfg21.win 2).blk t).view.emb y) 1).val = win21_2.index t (1 : Fin 2) * 256 + 1 * (y 1).val := rfl
  refine matmul_rows dot_S400x512_S512x256_S400x256_1_0_0_1_n_n rfl rfl (fun _ _ => rfl) (fun _ _ => rfl) (fun _ _ => rfl) (fun _ _ => rfl) none
    (lhs V c) (rhs V c) _ _ (((cfg21.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg21.win 2).blk t).view.emb y) 1).val; rw [hi1, e5]; omega

/-- An index of the output array is in point `t`'s block iff its row is one of the block's 400 rows. -/
theorem mem_blk (t : Fin cfg21.N) (i : S20000x256.Idx) :
    i ∈ ((cfg21.win 2).blk t).view.set ↔ ∀ a : Fin 2, win21_2.index t a * S400x256.size a ≤ (i a).val ∧ (i a).val < win21_2.index t a * S400x256.size a + S400x256.size a := by
  show i ∈ ((View.whole main_v297).slice (win21_2.rect t)).set ↔ _
  rw [View.set_slice_whole, Rect.mem_set_unit]
  exact Iff.rfl

/-- Every index of the output array is in the block of the point that takes its row. -/
theorem cover (i : S20000x256.Idx) : ∃ t : Fin cfg21.N, (cfg21.win 2).flush t = true ∧ i ∈ ((cfg21.win 2).blk t).view.set := by
  have hi0 : (i 0).val < 20000 := (i 0).isLt
  have hi1 : (i 1).val < 256 := (i 1).isLt
  have hN : cfg21.N = 50 := N_21
  have hq : (i 0).val / 400 < cfg21.N := by rw [hN]; omega
  let t0 : Fin cfg21.N := ⟨(i 0).val / 400, hq⟩
  obtain ⟨e0, e1, e2, e3, e4, e5⟩ := idx_facts t0
  have e4' : win21_2.index t0 (0 : Fin 2) = (i 0).val / 400 := e4
  refine ⟨t0, flush21_2 t0, ?_⟩
  rw [mem_blk]
  intro a
  match a with
  | ⟨0, _⟩ => show win21_2.index t0 (0 : Fin 2) * 400 ≤ (i 0).val ∧ (i 0).val < win21_2.index t0 (0 : Fin 2) * 400 + 400; rw [e4']; omega
  | ⟨1, _⟩ => show win21_2.index t0 (1 : Fin 2) * 256 ≤ (i 1).val ∧ (i 1).val < win21_2.index t0 (1 : Fin 2) * 256 + 256; rw [e5]; omega

/-- After the last point the output array is the whole product of the two arrays as the region found them. -/
theorem final (c : Dev nD) : (dat21 V c).arrAt 2 cfg21.N = mm (lhs V c) (rhs V c) :=
  (dat21 V c).arrAt_eq_of_cover 2 (mm (lhs V c) (rhs V c)) (fun t _ => flushed_eq V c t) cover

end Cert.KernelIdeal.Reg21

end
-- ==== Proof.RegStep21.lean ====
/- Region 21 against the reference's contraction 21: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg21
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_21 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in21 (WK c) WR) :
    Inv_out21 (Pipeline.withArrays Cert.KernelIdeal.spec21 c (WK c) fun w => (Cert.KernelIdeal.Gen.dat21 (fun c b => WK c b) c).arrAt w Cert.KernelIdeal.cfg21.N)
      (StableHlo.after [Cert.ReferenceIdeal.Cut.rdot21 (F := Ideal)] WR) := by
  obtain ⟨h0, h1, h2, h3, h4, h5, h6, h7⟩ := h
  refine ⟨?_, ?_, ?_, ?_, ?_, ?_, ?_⟩
  · reg_keep Cert.ReferenceIdeal.Cut.rdot21 h0 -- main_arg18
  · reg_keep Cert.ReferenceIdeal.Cut.rdot21 h1 -- main_arg19
  · reg_keep Cert.ReferenceIdeal.Cut.rdot21 h2 -- main_arg20
  · reg_keep Cert.ReferenceIdeal.Cut.rdot21 h4 -- main_v13
  · reg_keep Cert.ReferenceIdeal.Cut.rdot21 h5 -- main_v79
  · reg_keep Cert.ReferenceIdeal.Cut.rdot21 h6 -- main_v295
  · reg_out Cert.KernelIdeal.spec21 Cert.KernelIdeal.Gen.launch21 Cert.KernelIdeal.Reg21.final Cert.ReferenceIdeal.Dots.dot_S20000x512_S512x256_S20000x256_1_0_0_1_n_n_eq Cert.ReferenceIdeal.Cut.rdot21 h3 h7 -- main_v297

end Cert.Sim

end
-- ==== Proof.Reg22.lean ====
/-
  Region 22 of the idealized kernel program: a [20000, 256] array times a [256, 20] array, the left operand's rows
  taken 400 at a time over a grid of 50 points, each point storing its 400 rows of the product. On the extended reals
  every block's product is the same rows of the whole product, so after the last point the output array holds the whole
  product of the two arrays as the region found them.
-/
import proofs.«114227_j13357348290767_1_alg».proof.Proof.FrameKernelIdeal
import proofs.«114227_j13357348290767_1_alg».proof.Proof.LibRowDot
import Idealize.ShloMosaic.Lib.Pipeline.Value
import Idealize.ShloMosaic.Lib.ValueIdx

set_option maxRecDepth 16384

noncomputable section

namespace Cert.KernelIdeal.Reg22

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the left operand and of the output, and the whole
    right operand. -/
theorem idx_facts : ∀ t : Fin cfg22.N, win22_0.index t (0 : Fin 2) = t.val ∧ win22_0.index t (1 : Fin 2) = 0
    ∧ win22_1.index t (0 : Fin 2) = 0 ∧ win22_1.index t (1 : Fin 2) = 0
    ∧ win22_2.index t (0 : Fin 2) = t.val ∧ win22_2.index t (1 : Fin 2) = 0 :=
  (by decide +kernel : ∀ t : Fin grid22.N, _)

/-- The two operands as the region finds them. -/
abbrev lhs (c : Dev nD) : S20000x256.Idx → EReal := V c main_v304
abbrev rhs (c : Dev nD) : S256x20.Idx → EReal := V c main_v305

/-- Row `p` of the left operand's block at point `t` is row `400 t + p` of the array. -/
theorem lhs_block (c : Dev nD) (t : Fin cfg22.N) (p : Fin 400) (k : Fin 256) (r : Fin 20000) (hr : r.val = t.val * 400 + p.val) :
    (iblk22 V c 0 t : Vec Ideal S400x256 .f32) (ix2 p k) = lhs V c (ix2 r k) := by
  obtain ⟨e0, e1, e2, e3, e4, e5⟩ := idx_facts t
  unfold iblk22
  rw [View.read_apply]
  show V c main_v304 _ = V c main_v304 _
  congr 1
  funext a
  apply Fin.ext
  match a with
  | ⟨0, _⟩ => show win22_0.index t (0 : Fin 2) * 400 + 1 * p.val = r.val; omega
  | ⟨1, _⟩ => show win22_0.index t (1 : Fin 2) * 256 + 1 * k.val = k.val; omega

/-- The right operand's block at every point is the whole array. -/
theorem rhs_block (c : Dev nD) (t : Fin cfg22.N) (k : Fin 256) (j : Fin 20) :
    (iblk22 V c 1 t : Vec Ideal S256x20 .f32) (ix2 k j) = rhs V c (ix2 k j) := by
  obtain ⟨e0, e1, e2, e3, e4, e5⟩ := idx_facts t
  unfold iblk22
  rw [View.read_apply]
  show V c main_v305 _ = V c main_v305 _
  congr 1
  funext a
  apply Fin.ext
  match a with
  | ⟨0, _⟩ => show win22_1.index t (0 : Fin 2) * 256 + 1 * k.val = k.val; omega
  | ⟨1, _⟩ => show win22_1.index t (1 : Fin 2) * 20 + 1 * j.val = j.val; omega

set_option maxHeartbeats 4000000 in
/-- What point `t` writes back is block `t` of the whole product. -/
theorem flushed_eq (c : Dev nD) (t : Fin cfg22.N) :
    (dat22 V c).flushed 2 t = ((cfg22.win 2).blk t).view.read (Elt Ideal) (mm (lhs V c) (rhs V c)) := by
  show (cfg22.win 2).cut (grid22.coords t) ((dat22 V c).after 2 t) = _
  rw [after22_2]
  unfold out22_2
  rw [View.canon_unit_zero hz]
  simp only [View.ld_unit_zero (S := S400x256) hz, View.ld_unit_zero (S := S256x20) hz]
  obtain ⟨e0, e1, e2, e3, e4, e5⟩ := idx_facts t
  funext y
  rw [View.read_apply]
  unfold k22_pay1
  dsimp only
  simp only [shapeCast_self]
  have hy0 : (y 0).val < 400 := (y 0).isLt
  have ht : t.val < 50 := Nat.lt_of_lt_of_eq t.isLt N_22
  have hi0 : ((((cfg22.win 2).blk t).view.emb y) 0).val = win22_2.index t (0 : Fin 2) * 400 + 1 * (y 0).val := rfl
  have hi1 : ((((cfg22.win 2).blk t).view.emb y) 1).val = win22_2.index t (1 : Fin 2) * 20 + 1 * (y 1).val := rfl
  refine matmul_rows dot_S400x256_S256x20_S400x20_1_0_0_1_n_n rfl rfl (fun _ _ => rfl) (fun _ _ => rfl) (fun _ _ => rfl) (fun _ _ => rfl) none
    (lhs V c) (rhs V c) _ _ (((cfg22.win 2).blk t).view.emb y) y (fun k => ?_) (fun k => ?_)
  · exact lhs_block V c t (y 0) k _ (by rw [hi0, e4]; omega)
  · refine (rhs_block V c t k (y 1)).trans ?_
    congr 1
    funext a
    apply Fin.ext
    match a with
    | ⟨0, _⟩ => rfl
    | ⟨1, _⟩ => show (y 1).val = ((((cfg22.win 2).blk t).view.emb y) 1).val; rw [hi1, e5]; omega

/-- An index of the output array is in point `t`'s block iff its row is one of the block's 400 rows. -/
theorem mem_blk (t : Fin cfg22.N) (i : S20000x20.Idx) :
    i ∈ ((cfg22.win 2).blk t).view.set ↔ ∀ a : Fin 2, win22_2.index t a * S400x20.size a ≤ (i a).val ∧ (i a).val < win22_2.index t a * S400x20.size a + S400x20.size a := by
  show i ∈ ((View.whole main_v306).slice (win22_2.rect t)).set ↔ _
  rw [View.set_slice_whole, Rect.mem_set_unit]
  exact Iff.rfl

/-- Every index of the output array is in the block of the point that takes its row. -/
theorem cover (i : S20000x20.Idx) : ∃ t : Fin cfg22.N, (cfg22.win 2).flush t = true ∧ i ∈ ((cfg22.win 2).blk t).view.set := by
  have hi0 : (i 0).val < 20000 := (i 0).isLt
  have hi1 : (i 1).val < 20 := (i 1).isLt
  have hN : cfg22.N = 50 := N_22
  have hq : (i 0).val / 400 < cfg22.N := by rw [hN]; omega
  let t0 : Fin cfg22.N := ⟨(i 0).val / 400, hq⟩
  obtain ⟨e0, e1, e2, e3, e4, e5⟩ := idx_facts t0
  have e4' : win22_2.index t0 (0 : Fin 2) = (i 0).val / 400 := e4
  refine ⟨t0, flush22_2 t0, ?_⟩
  rw [mem_blk]
  intro a
  match a with
  | ⟨0, _⟩ => show win22_2.index t0 (0 : Fin 2) * 400 ≤ (i 0).val ∧ (i 0).val < win22_2.index t0 (0 : Fin 2) * 400 + 400; rw [e4']; omega
  | ⟨1, _⟩ => show win22_2.index t0 (1 : Fin 2) * 20 ≤ (i 1).val ∧ (i 1).val < win22_2.index t0 (1 : Fin 2) * 20 + 20; rw [e5]; omega

/-- After the last point the output array is the whole product of the two arrays as the region found them. -/
theorem final (c : Dev nD) : (dat22 V c).arrAt 2 cfg22.N = mm (lhs V c) (rhs V c) :=
  (dat22 V c).arrAt_eq_of_cover 2 (mm (lhs V c) (rhs V c)) (fun t _ => flushed_eq V c t) cover

end Cert.KernelIdeal.Reg22

end
-- ==== Proof.RegStep22.lean ====
/- Region 22 against the reference's contraction 22: the region's output array ends at the product of its two input arrays,
   which is what the host's contraction writes; every other buffer is kept by both. -/
import proofs.«114227_j13357348290767_1_alg».proof.Proof.Inv
import proofs.«114227_j13357348290767_1_alg».proof.Proof.RefOps
import proofs.«114227_j13357348290767_1_alg».proof.Proof.RegTac
import proofs.«114227_j13357348290767_1_alg».proof.Proof.Reg22
import proofs.«114227_j13357348290767_1_alg».proof.Proof.RefDots

set_option maxRecDepth 16384

noncomputable section

namespace Cert.Sim

open Idealize.ShloMosaic Idealize.ShloMosaic.TcCoe Idealize.ShloMosaic.StableHlo Idealize.SL.Sem

theorem reg_22 (WK : Dev Cert.KernelIdeal.nD → Valuation Cert.KernelIdeal.τ Cert.KernelIdeal.sig (Elt Ideal)) (c : Dev Cert.KernelIdeal.nD) (WR : Valuation Cert.ReferenceIdeal.τ Cert.ReferenceIdeal.sig (Elt Ideal)) (h : Inv_in22 (WK c) WR) :
    Inv_out22 (Pipeline.withArrays Cert.KernelIdeal.spec22 c (WK c) fun w => (Cert.KernelIdeal.Gen.dat22 (fun c b => WK c b) c).arrAt w Cert.KernelIdeal.cfg22.N)
      (StableHlo.after [Cert.ReferenceIdeal.Cut.rdot22 (F := Ideal)] WR) := by
  obtain ⟨h0, h1, h2, h3, h4, h5⟩ := h
  refine ⟨?_, ?_, ?_, ?_, ?_⟩
  · reg_keep Cert.ReferenceIdeal.Cut.rdot22 h0 -- main_arg20
  · reg_keep Cert.ReferenceIdeal.Cut.rdot22 h1 -- main_v13
  · reg_keep Cert.ReferenceIdeal.Cut.rdot22 h2 -- main_v79
  · reg_keep Cert.ReferenceIdeal.Cut.rdot22 h3 -- main_v295
  · reg_out Cert.KernelIdeal.spec22 Cert.KernelIdeal.Gen.launch22 Cert.KernelIdeal.Reg22.final Cert.ReferenceIdeal.Dots.dot_S20000x256_S256x20_S20000x20_1_0_0_1_n_n_eq Cert.ReferenceIdeal.Cut.rdot22 h4 h5 -- main_v306

end Cert.Sim

end
-- ==== Proof.Chain.lean ====
/- The walk through the two programs' segments from the launch to the return: each boundary's relation from the one
   before it, by the step of the segment between them. -/
import proofs.«114227_j13357348290767_1_alg».proof.Proof.FrameKernelIdeal
import proofs.«114227_j13357348290767_1_alg».proof.Proof.RunRef
import proofs.«114227_j13357348290767_1_alg».proof.Proof.Host0
import proofs.«114227_j13357348290767_1_alg».proof.Proof.Host1
import proofs.«114227_j13357348290767_1_alg».proof.Proof.Host2
import proofs.«114227_j13357348290767_1_alg».proof.Proof.Host3
import proofs.«114227_j13357348290767_1_alg».proof.Proof.Host4
import proofs.«114227_j13357348290767_1_alg».proof.Proof.Host5
import proofs.«114227_j13357348290767_1_alg».proof.Proof.Host6
import proofs.«114227_j13357348290767_1_alg».proof.Proof.Host7
import proofs.«114227_j13357348290767_1_alg».proof.Proof.Host8
import proofs.«114227_j13357348290767_1_alg».proof.Proof.Host9
import proofs.«114227_j13357348290767_1_alg».proof.Proof.Host10
import proofs.«114227_j13357348290767_1_alg».proof.Proof.Host11
import proofs.«114227_j13357348290767_1_alg».proof.Proof.Host12
import proofs.«114227_j13357348290767_1_alg».proof.Proof.Host13
import proofs.«114227_j13357348290767_1_alg».proof.Proof.Host14
import proofs.«114227_j13357348290767_1_alg».proof.Proof.Host15
import proofs.«114227_j13357348290767_1_alg».proof.Proof.Host16
import proofs.«114227_j13357348290767_1_alg».proof.Proof.Host17
import proofs.«114227_j13357348290767_1_alg».proof.Proof.Host18
import proofs.«114227_j13357348290767_1_alg».proof.Proof.Host19
import proofs.«114227_j13357348290767_1_alg».proof.Proof.Host20
import proofs.«114227_j13357348290767_1_alg».proof.Proof.Host21
import proofs.«114227_j13357348290767_1_alg».proof.Proof.Host22
import proofs.«114227_j13357348290767_1_alg».proof.Proof.Host23
import proofs.«114227_j13357348290767_1_alg».proof.Proof.RegStep0
import proofs.«114227_j13357348290767_1_alg».proof.Proof.RegStep1
import proofs.«114227_j13357348290767_1_alg».proof.Proof.RegStep2
import proofs.«114227_j13357348290767_1_alg».proof.Proof.RegStep3
import proofs.«114227_j13357348290767_1_alg».proof.Proof.RegStep4
import proofs.«114227_j13357348290767_1_alg».proof.Proof.RegStep5
import proofs.«114227_j13357348290767_1_alg».proof.Proof.RegStep6
import proofs.«114227_j13357348290767_1_alg».proof.Proof.RegStep7
import proofs.«114227_j13357348290767_1_alg».proof.Proof.RegStep8
import proofs.«114227_j13357348290767_1_alg».proof.Proof.RegStep9
import proofs.«114227_j13357348290767_1_alg».proof.Proof.RegStep10
import proofs.«114227_j13357348290767_1_alg».proof.Proof.RegStep11
import proofs.«114227_j13357348290767_1_alg».proof.Proof.RegStep12
import proofs.«114227_j13357348290767_1_alg».proof.Proof.RegStep13
import proofs.«114227_j13357348290767_1_alg».proof.Proof.RegStep14
import proofs.«114227_j13357348290767_1_alg».proof.Proof.RegStep15
import proofs.«114227_j13357348290767_1_alg».proof.Proof.RegStep16
import proofs.«114227_j13357348290767_1_alg».proof.Proof.RegStep17
import proofs.«114227_j13357348290767_1_alg».proof.Proof.RegStep18
import proofs.«114227_j13357348290767_1_alg».proof.Proof.RegStep19
import proofs.«114227_j13357348290767_1_alg».proof.Proof.RegStep20
import proofs.«114227_j13357348290767_1_alg».proof.Proof.RegStep21
import proofs.«114227_j13357348290767_1_alg».proof.Proof.RegStep22

set_option maxRecDepth 16384

noncomputable section

namespace Cert.Sim

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! The right program's buffers after each piece of its operation list. -/

abbrev RA0 : Valuation Cert.ReferenceIdeal.τ Cert.ReferenceIdeal.sig (Elt Ideal) := StableHlo.after (Cert.ReferenceIdeal.Cut.rops0 (F := Ideal)) (StableHlo.launchContents m' c)
abbrev RB0 : Valuation Cert.ReferenceIdeal.τ Cert.ReferenceIdeal.sig (Elt Ideal) := StableHlo.after [Cert.ReferenceIdeal.Cut.rdot0 (F := Ideal)] (RA0 m' c)
abbrev RA1 : Valuation Cert.ReferenceIdeal.τ Cert.ReferenceIdeal.sig (Elt Ideal) := StableHlo.after (Cert.ReferenceIdeal.Cut.rops1 (F := Ideal)) (RB0 m' c)
abbrev RB1 : Valuation Cert.ReferenceIdeal.τ Cert.ReferenceIdeal.sig (Elt Ideal) := StableHlo.after [Cert.ReferenceIdeal.Cut.rdot1 (F := Ideal)] (RA1 m' c)
abbrev RA2 : Valuation Cert.ReferenceIdeal.τ Cert.ReferenceIdeal.sig (Elt Ideal) := StableHlo.after (Cert.ReferenceIdeal.Cut.rops2 (F := Ideal)) (RB1 m' c)
abbrev RB2 : Valuation Cert.ReferenceIdeal.τ Cert.ReferenceIdeal.sig (Elt Ideal) := StableHlo.after [Cert.ReferenceIdeal.Cut.rdot2 (F := Ideal)] (RA2 m' c)
abbrev RA3 : Valuation Cert.ReferenceIdeal.τ Cert.ReferenceIdeal.sig (Elt Ideal) := StableHlo.after (Cert.ReferenceIdeal.Cut.rops3 (F := Ideal)) (RB2 m' c)
abbrev RB3 : Valuation Cert.ReferenceIdeal.τ Cert.ReferenceIdeal.sig (Elt Ideal) := StableHlo.after [Cert.ReferenceIdeal.Cut.rdot3 (F := Ideal)] (RA3 m' c)
abbrev RA4 : Valuation Cert.ReferenceIdeal.τ Cert.ReferenceIdeal.sig (Elt Ideal) := StableHlo.after (Cert.ReferenceIdeal.Cut.rops4 (F := Ideal)) (RB3 m' c)
abbrev RB4 : Valuation Cert.ReferenceIdeal.τ Cert.ReferenceIdeal.sig (Elt Ideal) := StableHlo.after [Cert.ReferenceIdeal.Cut.rdot4 (F := Ideal)] (RA4 m' c)
abbrev RA5 : Valuation Cert.ReferenceIdeal.τ Cert.ReferenceIdeal.sig (Elt Ideal) := StableHlo.after (Cert.ReferenceIdeal.Cut.rops5 (F := Ideal)) (RB4 m' c)
abbrev RB5 : Valuation Cert.ReferenceIdeal.τ Cert.ReferenceIdeal.sig (Elt Ideal) := StableHlo.after [Cert.ReferenceIdeal.Cut.rdot5 (F := Ideal)] (RA5 m' c)
abbrev RA6 : Valuation Cert.ReferenceIdeal.τ Cert.ReferenceIdeal.sig (Elt Ideal) := StableHlo.after (Cert.ReferenceIdeal.Cut.rops6 (F := Ideal)) (RB5 m' c)
abbrev RB6 : Valuation Cert.ReferenceIdeal.τ Cert.ReferenceIdeal.sig (Elt Ideal) := StableHlo.after [Cert.ReferenceIdeal.Cut.rdot6 (F := Ideal)] (RA6 m' c)
abbrev RA7 : Valuation Cert.ReferenceIdeal.τ Cert.ReferenceIdeal.sig (Elt Ideal) := StableHlo.after (Cert.ReferenceIdeal.Cut.rops7 (F := Ideal)) (RB6 m' c)
abbrev RB7 : Valuation Cert.ReferenceIdeal.τ Cert.ReferenceIdeal.sig (Elt Ideal) := StableHlo.after [Cert.ReferenceIdeal.Cut.rdot7 (F := Ideal)] (RA7 m' c)
abbrev RA8 : Valuation Cert.ReferenceIdeal.τ Cert.ReferenceIdeal.sig (Elt Ideal) := StableHlo.after (Cert.ReferenceIdeal.Cut.rops8 (F := Ideal)) (RB7 m' c)
abbrev RB8 : Valuation Cert.ReferenceIdeal.τ Cert.ReferenceIdeal.sig (Elt Ideal) := StableHlo.after [Cert.ReferenceIdeal.Cut.rdot8 (F := Ideal)] (RA8 m' c)
abbrev RA9 : Valuation Cert.ReferenceIdeal.τ Cert.ReferenceIdeal.sig (Elt Ideal) := StableHlo.after (Cert.ReferenceIdeal.Cut.rops9 (F := Ideal)) (RB8 m' c)
abbrev RB9 : Valuation Cert.ReferenceIdeal.τ Cert.ReferenceIdeal.sig (Elt Ideal) := StableHlo.after [Cert.ReferenceIdeal.Cut.rdot9 (F := Ideal)] (RA9 m' c)
abbrev RA10 : Valuation Cert.ReferenceIdeal.τ Cert.ReferenceIdeal.sig (Elt Ideal) := StableHlo.after (Cert.ReferenceIdeal.Cut.rops10 (F := Ideal)) (RB9 m' c)
abbrev RB10 : Valuation Cert.ReferenceIdeal.τ Cert.ReferenceIdeal.sig (Elt Ideal) := StableHlo.after [Cert.ReferenceIdeal.Cut.rdot10 (F := Ideal)] (RA10 m' c)
abbrev RA11 : Valuation Cert.ReferenceIdeal.τ Cert.ReferenceIdeal.sig (Elt Ideal) := StableHlo.after (Cert.ReferenceIdeal.Cut.rops11 (F := Ideal)) (RB10 m' c)
abbrev RB11 : Valuation Cert.ReferenceIdeal.τ Cert.ReferenceIdeal.sig (Elt Ideal) := StableHlo.after [Cert.ReferenceIdeal.Cut.rdot11 (F := Ideal)] (RA11 m' c)
abbrev RA12 : Valuation Cert.ReferenceIdeal.τ Cert.ReferenceIdeal.sig (Elt Ideal) := StableHlo.after (Cert.ReferenceIdeal.Cut.rops12 (F := Ideal)) (RB11 m' c)
abbrev RB12 : Valuation Cert.ReferenceIdeal.τ Cert.ReferenceIdeal.sig (Elt Ideal) := StableHlo.after [Cert.ReferenceIdeal.Cut.rdot12 (F := Ideal)] (RA12 m' c)
abbrev RA13 : Valuation Cert.ReferenceIdeal.τ Cert.ReferenceIdeal.sig (Elt Ideal) := StableHlo.after (Cert.ReferenceIdeal.Cut.rops13 (F := Ideal)) (RB12 m' c)
abbrev RB13 : Valuation Cert.ReferenceIdeal.τ Cert.ReferenceIdeal.sig (Elt Ideal) := StableHlo.after [Cert.ReferenceIdeal.Cut.rdot13 (F := Ideal)] (RA13 m' c)
abbrev RA14 : Valuation Cert.ReferenceIdeal.τ Cert.ReferenceIdeal.sig (Elt Ideal) := StableHlo.after (Cert.ReferenceIdeal.Cut.rops14 (F := Ideal)) (RB13 m' c)
abbrev RB14 : Valuation Cert.ReferenceIdeal.τ Cert.ReferenceIdeal.sig (Elt Ideal) := StableHlo.after [Cert.ReferenceIdeal.Cut.rdot14 (F := Ideal)] (RA14 m' c)
abbrev RA15 : Valuation Cert.ReferenceIdeal.τ Cert.ReferenceIdeal.sig (Elt Ideal) := StableHlo.after (Cert.ReferenceIdeal.Cut.rops15 (F := Ideal)) (RB14 m' c)
abbrev RB15 : Valuation Cert.ReferenceIdeal.τ Cert.ReferenceIdeal.sig (Elt Ideal) := StableHlo.after [Cert.ReferenceIdeal.Cut.rdot15 (F := Ideal)] (RA15 m' c)
abbrev RA16 : Valuation Cert.ReferenceIdeal.τ Cert.ReferenceIdeal.sig (Elt Ideal) := StableHlo.after (Cert.ReferenceIdeal.Cut.rops16 (F := Ideal)) (RB15 m' c)
abbrev RB16 : Valuation Cert.ReferenceIdeal.τ Cert.ReferenceIdeal.sig (Elt Ideal) := StableHlo.after [Cert.ReferenceIdeal.Cut.rdot16 (F := Ideal)] (RA16 m' c)
abbrev RA17 : Valuation Cert.ReferenceIdeal.τ Cert.ReferenceIdeal.sig (Elt Ideal) := StableHlo.after (Cert.ReferenceIdeal.Cut.rops17 (F := Ideal)) (RB16 m' c)
abbrev RB17 : Valuation Cert.ReferenceIdeal.τ Cert.ReferenceIdeal.sig (Elt Ideal) := StableHlo.after [Cert.ReferenceIdeal.Cut.rdot17 (F := Ideal)] (RA17 m' c)
abbrev RA18 : Valuation Cert.ReferenceIdeal.τ Cert.ReferenceIdeal.sig (Elt Ideal) := StableHlo.after (Cert.ReferenceIdeal.Cut.rops18 (F := Ideal)) (RB17 m' c)
abbrev RB18 : Valuation Cert.ReferenceIdeal.τ Cert.ReferenceIdeal.sig (Elt Ideal) := StableHlo.after [Cert.ReferenceIdeal.Cut.rdot18 (F := Ideal)] (RA18 m' c)
abbrev RA19 : Valuation Cert.ReferenceIdeal.τ Cert.ReferenceIdeal.sig (Elt Ideal) := StableHlo.after (Cert.ReferenceIdeal.Cut.rops19 (F := Ideal)) (RB18 m' c)
abbrev RB19 : Valuation Cert.ReferenceIdeal.τ Cert.ReferenceIdeal.sig (Elt Ideal) := StableHlo.after [Cert.ReferenceIdeal.Cut.rdot19 (F := Ideal)] (RA19 m' c)
abbrev RA20 : Valuation Cert.ReferenceIdeal.τ Cert.ReferenceIdeal.sig (Elt Ideal) := StableHlo.after (Cert.ReferenceIdeal.Cut.rops20 (F := Ideal)) (RB19 m' c)
abbrev RB20 : Valuation Cert.ReferenceIdeal.τ Cert.ReferenceIdeal.sig (Elt Ideal) := StableHlo.after [Cert.ReferenceIdeal.Cut.rdot20 (F := Ideal)] (RA20 m' c)
abbrev RA21 : Valuation Cert.ReferenceIdeal.τ Cert.ReferenceIdeal.sig (Elt Ideal) := StableHlo.after (Cert.ReferenceIdeal.Cut.rops21 (F := Ideal)) (RB20 m' c)
abbrev RB21 : Valuation Cert.ReferenceIdeal.τ Cert.ReferenceIdeal.sig (Elt Ideal) := StableHlo.after [Cert.ReferenceIdeal.Cut.rdot21 (F := Ideal)] (RA21 m' c)
abbrev RA22 : Valuation Cert.ReferenceIdeal.τ Cert.ReferenceIdeal.sig (Elt Ideal) := StableHlo.after (Cert.ReferenceIdeal.Cut.rops22 (F := Ideal)) (RB21 m' c)
abbrev RB22 : Valuation Cert.ReferenceIdeal.τ Cert.ReferenceIdeal.sig (Elt Ideal) := StableHlo.after [Cert.ReferenceIdeal.Cut.rdot22 (F := Ideal)] (RA22 m' c)
abbrev RA23 : Valuation Cert.ReferenceIdeal.τ Cert.ReferenceIdeal.sig (Elt Ideal) := StableHlo.after (Cert.ReferenceIdeal.Cut.rops23 (F := Ideal)) (RB22 m' c)

/-- The fold of the whole operation list is the fold stretch by stretch and contraction by contraction. -/
theorem fold_eq : StableHlo.after (Cert.ReferenceIdeal.RunP.ops (F := Ideal)) (StableHlo.launchContents m' c) = RA23 m' c := by
  rw [Cert.ReferenceIdeal.RunP.ops_cut]
  simp only [Cert.ReferenceIdeal.Cut.opsA, Cert.ReferenceIdeal.Cut.rops6_split, Cert.ReferenceIdeal.Cut.rops7_split, Cert.ReferenceIdeal.Cut.rops10_split, Cert.ReferenceIdeal.Cut.rops13_split, Cert.ReferenceIdeal.Cut.rops22_split, StableHlo.after_append, RA0, RA1, RA2, RA3, RA4, RA5, RA6, RA7, RA8, RA9, RA10, RA11, RA12, RA13, RA14, RA15, RA16, RA17, RA18, RA19, RA20, RA21, RA22, RA23, RB0, RB1, RB2, RB3, RB4, RB5, RB6, RB7, RB8, RB9, RB10, RB11, RB12, RB13, RB14, RB15, RB16, RB17, RB18, RB19, RB20, RB21, RB22]

/-- From the launch, where the two programs' arguments agree, to the return. -/
theorem walk (h : Inv_start (Cert.KernelIdeal.Gen.W0 m ρ c) (StableHlo.launchContents m' c)) : Inv_fin (Cert.KernelIdeal.Gen.W53 m ρ c) (RA23 m' c) := by
  have a0 : Inv_in0 (Cert.KernelIdeal.Gen.W1 m ρ c) (RA0 m' c) := host_0 _ _ h
  have b0 : Inv_out0 (Cert.KernelIdeal.Gen.W2 m ρ c) (RB0 m' c) := reg_0 (fun c => Cert.KernelIdeal.Gen.W1 m ρ c) c _ a0
  have a1 : Inv_in1 (Cert.KernelIdeal.Gen.W3 m ρ c) (RA1 m' c) := host_1 _ _ b0
  have b1 : Inv_out1 (Cert.KernelIdeal.Gen.W4 m ρ c) (RB1 m' c) := reg_1 (fun c => Cert.KernelIdeal.Gen.W3 m ρ c) c _ a1
  have a2 : Inv_in2 (Cert.KernelIdeal.Gen.W5 m ρ c) (RA2 m' c) := host_2 _ _ b1
  have b2 : Inv_out2 (Cert.KernelIdeal.Gen.W6 m ρ c) (RB2 m' c) := reg_2 (fun c => Cert.KernelIdeal.Gen.W5 m ρ c) c _ a2
  have a3 : Inv_in3 (Cert.KernelIdeal.Gen.W7 m ρ c) (RA3 m' c) := host_3 _ _ b2
  have b3 : Inv_out3 (Cert.KernelIdeal.Gen.W8 m ρ c) (RB3 m' c) := reg_3 (fun c => Cert.KernelIdeal.Gen.W7 m ρ c) c _ a3
  have a4 : Inv_in4 (Cert.KernelIdeal.Gen.W9 m ρ c) (RA4 m' c) := host_4 _ _ b3
  have b4 : Inv_out4 (Cert.KernelIdeal.Gen.W10 m ρ c) (RB4 m' c) := reg_4 (fun c => Cert.KernelIdeal.Gen.W9 m ρ c) c _ a4
  have a5 : Inv_in5 (Cert.KernelIdeal.Gen.W11 m ρ c) (RA5 m' c) := host_5 _ _ b4
  have b5 : Inv_out5 (Cert.KernelIdeal.Gen.W12 m ρ c) (RB5 m' c) := reg_5 (fun c => Cert.KernelIdeal.Gen.W11 m ρ c) c _ a5
  have a6 : Inv_in6 (Cert.KernelIdeal.Gen.W17 m ρ c) (RA6 m' c) := host_6 _ _ b5
  have b6 : Inv_out6 (Cert.KernelIdeal.Gen.W18 m ρ c) (RB6 m' c) := reg_6 (fun c => Cert.KernelIdeal.Gen.W17 m ρ c) c _ a6
  have a7 : Inv_in7 (Cert.KernelIdeal.Gen.W21 m ρ c) (RA7 m' c) := host_7 _ _ b6
  have b7 : Inv_out7 (Cert.KernelIdeal.Gen.W22 m ρ c) (RB7 m' c) := reg_7 (fun c => Cert.KernelIdeal.Gen.W21 m ρ c) c _ a7
  have a8 : Inv_in8 (Cert.KernelIdeal.Gen.W23 m ρ c) (RA8 m' c) := host_8 _ _ b7
  have b8 : Inv_out8 (Cert.KernelIdeal.Gen.W24 m ρ c) (RB8 m' c) := reg_8 (fun c => Cert.KernelIdeal.Gen.W23 m ρ c) c _ a8
  have a9 : Inv_in9 (Cert.KernelIdeal.Gen.W25 m ρ c) (RA9 m' c) := host_9 _ _ b8
  have b9 : Inv_out9 (Cert.KernelIdeal.Gen.W26 m ρ c) (RB9 m' c) := reg_9 (fun c => Cert.KernelIdeal.Gen.W25 m ρ c) c _ a9
  have a10 : Inv_in10 (Cert.KernelIdeal.Gen.W27 m ρ c) (RA10 m' c) := host_10 _ _ b9
  have b10 : Inv_out10 (Cert.KernelIdeal.Gen.W28 m ρ c) (RB10 m' c) := reg_10 (fun c => Cert.KernelIdeal.Gen.W27 m ρ c) c _ a10
  have a11 : Inv_in11 (Cert.KernelIdeal.Gen.W29 m ρ c) (RA11 m' c) := host_11 _ _ b10
  have b11 : Inv_out11 (Cert.KernelIdeal.Gen.W30 m ρ c) (RB11 m' c) := reg_11 (fun c => Cert.KernelIdeal.Gen.W29 m ρ c) c _ a11
  have a12 : Inv_in12 (Cert.KernelIdeal.Gen.W31 m ρ c) (RA12 m' c) := host_12 _ _ b11
  have b12 : Inv_out12 (Cert.KernelIdeal.Gen.W32 m ρ c) (RB12 m' c) := reg_12 (fun c => Cert.KernelIdeal.Gen.W31 m ρ c) c _ a12
  have a13 : Inv_in13 (Cert.KernelIdeal.Gen.W33 m ρ c) (RA13 m' c) := host_13 _ _ b12
  have b13 : Inv_out13 (Cert.KernelIdeal.Gen.W34 m ρ c) (RB13 m' c) := reg_13 (fun c => Cert.KernelIdeal.Gen.W33 m ρ c) c _ a13
  have a14 : Inv_in14 (Cert.KernelIdeal.Gen.W35 m ρ c) (RA14 m' c) := host_14 _ _ b13
  have b14 : Inv_out14 (Cert.KernelIdeal.Gen.W36 m ρ c) (RB14 m' c) := reg_14 (fun c => Cert.KernelIdeal.Gen.W35 m ρ c) c _ a14
  have a15 : Inv_in15 (Cert.KernelIdeal.Gen.W37 m ρ c) (RA15 m' c) := host_15 _ _ b14
  have b15 : Inv_out15 (Cert.KernelIdeal.Gen.W38 m ρ c) (RB15 m' c) := reg_15 (fun c => Cert.KernelIdeal.Gen.W37 m ρ c) c _ a15
  have a16 : Inv_in16 (Cert.KernelIdeal.Gen.W39 m ρ c) (RA16 m' c) := host_16 _ _ b15
  have b16 : Inv_out16 (Cert.KernelIdeal.Gen.W40 m ρ c) (RB16 m' c) := reg_16 (fun c => Cert.KernelIdeal.Gen.W39 m ρ c) c _ a16
  have a17 : Inv_in17 (Cert.KernelIdeal.Gen.W41 m ρ c) (RA17 m' c) := host_17 _ _ b16
  have b17 : Inv_out17 (Cert.KernelIdeal.Gen.W42 m ρ c) (RB17 m' c) := reg_17 (fun c => Cert.KernelIdeal.Gen.W41 m ρ c) c _ a17
  have a18 : Inv_in18 (Cert.KernelIdeal.Gen.W43 m ρ c) (RA18 m' c) := host_18 _ _ b17
  have b18 : Inv_out18 (Cert.KernelIdeal.Gen.W44 m ρ c) (RB18 m' c) := reg_18 (fun c => Cert.KernelIdeal.Gen.W43 m ρ c) c _ a18
  have a19 : Inv_in19 (Cert.KernelIdeal.Gen.W45 m ρ c) (RA19 m' c) := host_19 _ _ b18
  have b19 : Inv_out19 (Cert.KernelIdeal.Gen.W46 m ρ c) (RB19 m' c) := reg_19 (fun c => Cert.KernelIdeal.Gen.W45 m ρ c) c _ a19
  have a20 : Inv_in20 (Cert.KernelIdeal.Gen.W47 m ρ c) (RA20 m' c) := host_20 _ _ b19
  have b20 : Inv_out20 (Cert.KernelIdeal.Gen.W48 m ρ c) (RB20 m' c) := reg_20 (fun c => Cert.KernelIdeal.Gen.W47 m ρ c) c _ a20
  have a21 : Inv_in21 (Cert.KernelIdeal.Gen.W49 m ρ c) (RA21 m' c) := host_21 _ _ b20
  have b21 : Inv_out21 (Cert.KernelIdeal.Gen.W50 m ρ c) (RB21 m' c) := reg_21 (fun c => Cert.KernelIdeal.Gen.W49 m ρ c) c _ a21
  have a22 : Inv_in22 (Cert.KernelIdeal.Gen.W51 m ρ c) (RA22 m' c) := host_22 _ _ b21
  have b22 : Inv_out22 (Cert.KernelIdeal.Gen.W52 m ρ c) (RB22 m' c) := reg_22 (fun c => Cert.KernelIdeal.Gen.W51 m ρ c) c _ a22
  exact host_23 _ _ b22

end Cert.Sim

end
-- ==== Proof.lean ====
/-
  The certificate of `Cert.Claim`. The kernel program is 23 regions, each a matrix product whose left operand is taken
  400 rows at a time, among stretches of host operations; the reference is the same host operations with a contraction
  where the kernel has a region. On the extended reals a block of rows times the whole right operand is those rows of
  the whole product, and a finite sum may be taken in any order, so each region writes what the reference's contraction
  writes; the host operations between them are the same on both sides, applied to buffers the two programs agree on.
  The frames of the two kernel programs are the generated ones; the reference's run is the library's run of a
  straight-line host program over its operation list.
-/
import proofs.«114227_j13357348290767_1_alg».proof.Defs
import proofs.«114227_j13357348290767_1_alg».proof.Proof.Gen.Kernel
import proofs.«114227_j13357348290767_1_alg».proof.Proof.Gen.KernelIdeal
import proofs.«114227_j13357348290767_1_alg».proof.Proof.Gen.ReferenceIdeal
import proofs.«114227_j13357348290767_1_alg».proof.Proof.Gen.Pre_finite_inputs
import proofs.«114227_j13357348290767_1_alg».proof.Proof.FrameKernel
import proofs.«114227_j13357348290767_1_alg».proof.Proof.FrameKernelIdeal
import proofs.«114227_j13357348290767_1_alg».proof.Proof.KRun
import proofs.«114227_j13357348290767_1_alg».proof.Proof.RunRef
import proofs.«114227_j13357348290767_1_alg».proof.Proof.RefArgs
import proofs.«114227_j13357348290767_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Args.keep_main_arg0 m c),
     (h c Cert.ReferenceIdeal.main_arg1).trans (Cert.ReferenceIdeal.Args.keep_main_arg1 m c),
     (h c Cert.ReferenceIdeal.main_arg2).trans (Cert.ReferenceIdeal.Args.keep_main_arg2 m c),
     (h c Cert.ReferenceIdeal.main_arg3).trans (Cert.ReferenceIdeal.Args.keep_main_arg3 m c),
     (h c Cert.ReferenceIdeal.main_arg4).trans (Cert.ReferenceIdeal.Args.keep_main_arg4 m c),
     (h c Cert.ReferenceIdeal.main_arg5).trans (Cert.ReferenceIdeal.Args.keep_main_arg5 m c),
     (h c Cert.ReferenceIdeal.main_arg6).trans (Cert.ReferenceIdeal.Args.keep_main_arg6 m c),
     (h c Cert.ReferenceIdeal.main_arg7).trans (Cert.ReferenceIdeal.Args.keep_main_arg7 m c),
     (h c Cert.ReferenceIdeal.main_arg8).trans (Cert.ReferenceIdeal.Args.keep_main_arg8 m c),
     (h c Cert.ReferenceIdeal.main_arg9).trans (Cert.ReferenceIdeal.Args.keep_main_arg9 m c),
     (h c Cert.ReferenceIdeal.main_arg10).trans (Cert.ReferenceIdeal.Args.keep_main_arg10 m c),
     (h c Cert.ReferenceIdeal.main_arg11).trans (Cert.ReferenceIdeal.Args.keep_main_arg11 m c),
     (h c Cert.ReferenceIdeal.main_arg12).trans (Cert.ReferenceIdeal.Args.keep_main_arg12 m c),
     (h c Cert.ReferenceIdeal.main_arg13).trans (Cert.ReferenceIdeal.Args.keep_main_arg13 m c),
     (h c Cert.ReferenceIdeal.main_arg14).trans (Cert.ReferenceIdeal.Args.keep_main_arg14 m c),
     (h c Cert.ReferenceIdeal.main_arg15).trans (Cert.ReferenceIdeal.Args.keep_main_arg15 m c),
     (h c Cert.ReferenceIdeal.main_arg16).trans (Cert.ReferenceIdeal.Args.keep_main_arg16 m c),
     (h c Cert.ReferenceIdeal.main_arg17).trans (Cert.ReferenceIdeal.Args.keep_main_arg17 m c),
     (h c Cert.ReferenceIdeal.main_arg18).trans (Cert.ReferenceIdeal.Args.keep_main_arg18 m c),
     (h c Cert.ReferenceIdeal.main_arg19).trans (Cert.ReferenceIdeal.Args.keep_main_arg19 m c),
     (h c Cert.ReferenceIdeal.main_arg20).trans (Cert.ReferenceIdeal.Args.keep_main_arg20 m c),
     (h c Cert.ReferenceIdeal.main_arg21).trans (Cert.ReferenceIdeal.Args.keep_main_arg21 m c),
     (h c Cert.ReferenceIdeal.main_arg22).trans (Cert.ReferenceIdeal.Args.keep_main_arg22 m c),
     (h c Cert.ReferenceIdeal.main_arg23).trans (Cert.ReferenceIdeal.Args.keep_main_arg23 m c),
     (h c Cert.ReferenceIdeal.main_arg24).trans (Cert.ReferenceIdeal.Args.keep_main_arg24 m c)⟩)
    (Cert.ReferenceIdeal.RunP.run_fold (F := Ideal) m ρ)

/-- Where the two programs' memories agree on the arguments, the walk starts. -/
theorem start_of_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.Sim.Inv_start (Cert.KernelIdeal.Gen.W0 m ρ c) (StableHlo.launchContents m' c) := by
  obtain ⟨g0, g1, g2, g3, g4, g5, g6, g7, g8, g9, g10, g11, g12, g13, g14, g15, g16, g17, g18, g19, g20, g21, g22, g23, g24⟩ := h
  exact ⟨g0.symm, g1.symm, g2.symm, g3.symm, g4.symm, g5.symm, g6.symm, g7.symm, g8.symm, g9.symm, g10.symm, g11.symm, g12.symm, g13.symm, g14.symm, g15.symm, g16.symm, g17.symm, g18.symm, g19.symm, g20.symm, g21.symm, g22.symm, g23.symm, g24.symm⟩

/-- Both idealized programs end with the same four results. -/
theorem algebraic : Cert.algebraic_KernelIdeal_ReferenceIdeal := by
  intro m ρ m' ρ' _ hagree
  refine ⟨fun c => Cert.KernelIdeal.Gen.W53 m ρ c (Proc.devRef .tc Cert.KernelIdeal.main_v295), fun c => Cert.KernelIdeal.Gen.W53 m ρ c (Proc.devRef .tc Cert.KernelIdeal.main_v309),
    fun c => Cert.KernelIdeal.Gen.W53 m ρ c (Proc.devRef .tc Cert.KernelIdeal.main_v13), fun c => Cert.KernelIdeal.Gen.W53 m ρ c (Proc.devRef .tc Cert.KernelIdeal.main_v79),
    Cert.KernelIdeal.KRun.run_all m ρ, ?_⟩
  refine (θ_run Cert.ReferenceIdeal.defs _ _).mono (fun r h c => ?_) (Cert.ReferenceIdeal.RunP.run_fold (F := Ideal) m' ρ')
  obtain ⟨f13, f79, f295, f309⟩ := Cert.Sim.walk m ρ m' c (start_of_agree m ρ m' c (hagree c))
  have hf := Cert.Sim.fold_eq m' c
  exact ⟨(h c Cert.ReferenceIdeal.main_v295).trans ((congrFun hf _).trans f295.symm),
    (h c Cert.ReferenceIdeal.main_v309).trans ((congrFun hf _).trans f309.symm),
    (h c Cert.ReferenceIdeal.main_v13).trans ((congrFun hf _).trans f13.symm),
    (h c Cert.ReferenceIdeal.main_v79).trans ((congrFun hf _).trans f79.symm),
    (h c Cert.ReferenceIdeal.main_arg0).trans (Cert.ReferenceIdeal.Args.keep_main_arg0 m' c),
    (h c Cert.ReferenceIdeal.main_arg1).trans (Cert.ReferenceIdeal.Args.keep_main_arg1 m' c),
    (h c Cert.ReferenceIdeal.main_arg2).trans (Cert.ReferenceIdeal.Args.keep_main_arg2 m' c),
    (h c Cert.ReferenceIdeal.main_arg3).trans (Cert.ReferenceIdeal.Args.keep_main_arg3 m' c),
    (h c Cert.ReferenceIdeal.main_arg4).trans (Cert.ReferenceIdeal.Args.keep_main_arg4 m' c),
    (h c Cert.ReferenceIdeal.main_arg5).trans (Cert.ReferenceIdeal.Args.keep_main_arg5 m' c),
    (h c Cert.ReferenceIdeal.main_arg6).trans (Cert.ReferenceIdeal.Args.keep_main_arg6 m' c),
    (h c Cert.ReferenceIdeal.main_arg7).trans (Cert.ReferenceIdeal.Args.keep_main_arg7 m' c),
    (h c Cert.ReferenceIdeal.main_arg8).trans (Cert.ReferenceIdeal.Args.keep_main_arg8 m' c),
    (h c Cert.ReferenceIdeal.main_arg9).trans (Cert.ReferenceIdeal.Args.keep_main_arg9 m' c),
    (h c Cert.ReferenceIdeal.main_arg10).trans (Cert.ReferenceIdeal.Args.keep_main_arg10 m' c),
    (h c Cert.ReferenceIdeal.main_arg11).trans (Cert.ReferenceIdeal.Args.keep_main_arg11 m' c),
    (h c Cert.ReferenceIdeal.main_arg12).trans (Cert.ReferenceIdeal.Args.keep_main_arg12 m' c),
    (h c Cert.ReferenceIdeal.main_arg13).trans (Cert.ReferenceIdeal.Args.keep_main_arg13 m' c),
    (h c Cert.ReferenceIdeal.main_arg14).trans (Cert.ReferenceIdeal.Args.keep_main_arg14 m' c),
    (h c Cert.ReferenceIdeal.main_arg15).trans (Cert.ReferenceIdeal.Args.keep_main_arg15 m' c),
    (h c Cert.ReferenceIdeal.main_arg16).trans (Cert.ReferenceIdeal.Args.keep_main_arg16 m' c),
    (h c Cert.ReferenceIdeal.main_arg17).trans (Cert.ReferenceIdeal.Args.keep_main_arg17 m' c),
    (h c Cert.ReferenceIdeal.main_arg18).trans (Cert.ReferenceIdeal.Args.keep_main_arg18 m' c),
    (h c Cert.ReferenceIdeal.main_arg19).trans (Cert.ReferenceIdeal.Args.keep_main_arg19 m' c),
    (h c Cert.ReferenceIdeal.main_arg20).trans (Cert.ReferenceIdeal.Args.keep_main_arg20 m' c),
    (h c Cert.ReferenceIdeal.main_arg21).trans (Cert.ReferenceIdeal.Args.keep_main_arg21 m' c),
    (h c Cert.ReferenceIdeal.main_arg22).trans (Cert.ReferenceIdeal.Args.keep_main_arg22 m' c),
    (h c Cert.ReferenceIdeal.main_arg23).trans (Cert.ReferenceIdeal.Args.keep_main_arg23 m' c),
    (h c Cert.ReferenceIdeal.main_arg24).trans (Cert.ReferenceIdeal.Args.keep_main_arg24 m' c)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
